-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x163842x64 : Shape := ⟨3, ![2, 163842, 64]⟩
abbrev S1146894 : Shape := ⟨1, ![1146894]⟩
abbrev S64x448 : Shape := ⟨2, ![64, 448]⟩
abbrev S64 : Shape := ⟨1, ![64]⟩
abbrev S_ : Shape := ⟨0, ![]⟩

class Facts : Prop where
  bcast_S_S2x163842x64 : S_.BroadcastsInDim S2x163842x64 (![] : Fin 0 → Fin S2x163842x64.rank)
  reducesTo_S2x163842x64_S_d0_1_2 : S2x163842x64.ReducesTo [0, 1, 2] S_
  h_S_ : 0 < S_.numel
  bcast_S_S64x448 : S_.BroadcastsInDim S64x448 (![] : Fin 0 → Fin S64x448.rank)
  reducesTo_S64x448_S_d0_1 : S64x448.ReducesTo [0, 1] S_
  bcast_S_S64 : S_.BroadcastsInDim S64 (![] : Fin 0 → Fin S64.rank)
  reducesTo_S64_S_d0 : S64.ReducesTo [0] S_
  bcast_S_S1146894 : S_.BroadcastsInDim S1146894 (![] : Fin 0 → Fin S1146894.rank)
  reducesTo_S1146894_S_d0 : S1146894.ReducesTo [0] S_

variable [Facts]

def fn_part1 {F : FTy → Type} [FloatOps F] (main_arg1 : IVec S1146894 32) (main_v13 : IVec S_ 1) (main_v15 : IVec S1146894 1) (main_c_5 : IVec S_ 32) : IVec S_ 1 :=
  let main_v16 : IVec S1146894 32 := broadcastInDim S1146894 ![] bcast_S_S1146894 main_c_5
  let main_v17 : IVec S1146894 1 := cmpi .slt main_arg1 main_v16
  let main_v18 : IVec S1146894 1 := andi main_v15 main_v17
  let main_c_6 : IVec S_ 1 := constantI S_ 1 1#1
  let main_v19 : IVec S_ 1 := (fun x v => Host.reduce IntOp.andi x v reducesTo_S1146894_S_d0 h_S_) main_v18 main_c_6
  let main_v20 : IVec S_ 1 := andi main_v13 main_v19
  main_v20

def fn {F : FTy → Type} [FloatOps F] (main_arg0 : FVec F S2x163842x64 .f32) (main_arg1 : IVec S1146894 32) (main_arg2 : FVec F S64x448 .f32) (main_arg3 : FVec F S64 .f32) : IVec S_ 1 :=
  let main_v0 : FVec F S2x163842x64 .f32 := Host.absf main_arg0
  let main_cst : FVec F S_ .f32 := constant S_ .f32 0x7F800000#32
  let main_v1 : FVec F S2x163842x64 .f32 := broadcastInDim S2x163842x64 ![] bcast_S_S2x163842x64 main_cst
  let main_v2 : IVec S2x163842x64 1 := cmpf .olt main_v0 main_v1
  let main_c : IVec S_ 1 := constantI S_ 1 1#1
  let main_v3 : IVec S_ 1 := (fun x v => Host.reduce IntOp.andi x v reducesTo_S2x163842x64_S_d0_1_2 h_S_) main_v2 main_c
  let main_v4 : FVec F S64x448 .f32 := Host.absf main_arg2
  let main_cst_0 : FVec F S_ .f32 := constant S_ .f32 0x7F800000#32
  let main_v5 : FVec F S64x448 .f32 := broadcastInDim S64x448 ![] bcast_S_S64x448 main_cst_0
  let main_v6 : IVec S64x448 1 := cmpf .olt main_v4 main_v5
  let main_c_1 : IVec S_ 1 := constantI S_ 1 1#1
  let main_v7 : IVec S_ 1 := (fun x v => Host.reduce IntOp.andi x v reducesTo_S64x448_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_c_4 : IVec S_ 32 := constantI S_ 32 0#32
  let main_v14 : IVec S1146894 32 := broadcastInDim S1146894 ![] bcast_S_S1146894 main_c_4
  let main_v15 : IVec S1146894 1 := cmpi .sge main_arg1 main_v14
  let main_c_5 : IVec S_ 32 := constantI S_ 32 163842#32
  fn_part1 (F := F) main_arg1 main_v13 main_v15 main_c_5
-- ==== Kernel.lean ====
abbrev S2x163842x64 : Shape := ⟨3, ![2, 163842, 64]⟩
abbrev S1146894 : Shape := ⟨1, ![1146894]⟩
abbrev S64x448 : Shape := ⟨2, ![64, 448]⟩
abbrev S64 : Shape := ⟨1, ![64]⟩
abbrev S163842x7 : Shape := ⟨2, ![163842, 7]⟩
abbrev S7x163842 : Shape := ⟨2, ![7, 163842]⟩
abbrev S_ : Shape := ⟨0, ![]⟩
abbrev S7x164864 : Shape := ⟨2, ![7, 164864]⟩
abbrev S2x163842x128 : Shape := ⟨3, ![2, 163842, 128]⟩
abbrev S448x64 : Shape := ⟨2, ![448, 64]⟩
abbrev S7x64x64 : Shape := ⟨3, ![7, 64, 64]⟩
abbrev S7x128x64 : Shape := ⟨3, ![7, 128, 64]⟩
abbrev S896x64 : Shape := ⟨2, ![896, 64]⟩
abbrev S2x164864x64 : Shape := ⟨3, ![2, 164864, 64]⟩
abbrev S7x1024 : Shape := ⟨2, ![7, 1024]⟩
abbrev S1x1024x64 : Shape := ⟨3, ![1, 1024, 64]⟩
abbrev S7x1024x128 : Shape := ⟨3, ![7, 1024, 128]⟩
abbrev S1x1 : Shape := ⟨2, ![1, 1]⟩
abbrev S1x1024x128 : Shape := ⟨3, ![1, 1024, 128]⟩
abbrev S1024x128 : Shape := ⟨2, ![1024, 128]⟩
abbrev S1x128 : Shape := ⟨2, ![1, 128]⟩
abbrev S128 : Shape := ⟨1, ![128]⟩
abbrev S1x163842x128 : Shape := ⟨3, ![1, 163842, 128]⟩
abbrev S163842x128 : Shape := ⟨2, ![163842, 128]⟩
abbrev S1024x64 : Shape := ⟨2, ![1024, 64]⟩
abbrev S128x64 : Shape := ⟨2, ![128, 64]⟩
abbrev S1x64 : Shape := ⟨2, ![1, 64]⟩

abbrev nBuf : Space → Nat
  | .hbm => 21
  | .vmem => 5
  | .smem => 2
  | _ => 0

abbrev bufTy : (tb : Table) → Fin (tcTables nBuf tb) → BufTy
  | .hbm, ⟨0, _⟩ => ⟨S2x163842x64, .f32⟩
  | .hbm, ⟨1, _⟩ => ⟨S1146894, .i32⟩
  | .hbm, ⟨2, _⟩ => ⟨S64x448, .f32⟩
  | .hbm, ⟨3, _⟩ => ⟨S64, .f32⟩
  | .hbm, ⟨4, _⟩ => ⟨S163842x7, .i32⟩
  | .hbm, ⟨5, _⟩ => ⟨S7x163842, .i32⟩
  | .hbm, ⟨6, _⟩ => ⟨S_, .i32⟩
  | .hbm, ⟨7, _⟩ => ⟨S_, .i32⟩
  | .hbm, ⟨8, _⟩ => ⟨S7x164864, .i32⟩
  | .hbm, ⟨9, _⟩ => ⟨S_, .i32⟩
  | .hbm, ⟨10, _⟩ => ⟨S_, .f32⟩
  | .hbm, ⟨11, _⟩ => ⟨S2x163842x128, .f32⟩
  | .hbm, ⟨12, _⟩ => ⟨S448x64, .f32⟩
  | .hbm, ⟨13, _⟩ => ⟨S7x64x64, .f32⟩
  | .hbm, ⟨14, _⟩ => ⟨S_, .i32⟩
  | .hbm, ⟨15, _⟩ => ⟨S_, .f32⟩
  | .hbm, ⟨16, _⟩ => ⟨S7x128x64, .f32⟩
  | .hbm, ⟨17, _⟩ => ⟨S896x64, .f32⟩
  | .hbm, ⟨18, _⟩ => ⟨S896x64, .bf16⟩
  | .hbm, ⟨19, _⟩ => ⟨S2x164864x64, .f32⟩
  | .hbm, ⟨20, _⟩ => ⟨S2x163842x64, .f32⟩
  | .local _ .vmem, ⟨0, _⟩ => ⟨S896x64, .bf16⟩
  | .local _ .vmem, ⟨1, _⟩ => ⟨S64, .f32⟩
  | .local _ .vmem, ⟨2, _⟩ => ⟨S1x1024x64, .f32⟩
  | .local _ .vmem, ⟨3, _⟩ => ⟨S1x1024x64, .f32⟩
  | .local _ .vmem, ⟨4, _⟩ => ⟨S7x1024x128, .f32⟩
  | .local _ .smem, ⟨0, _⟩ => ⟨S7x1024, .i32⟩
  | .local _ .smem, ⟨1, _⟩ => ⟨S7x1024, .i32⟩
  | _, _ => ⟨S2x163842x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_scratch0 : Ref sig .tc := ⟨.vmem, 4, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 161], ![false, false]⟩

@[reducible] def k0_t1_loop : Scf.Loop 32 :=
  let c0_i32_0 : BitVec 32 := 0#32
  let c64_i32 : BitVec 32 := 64#32
  let v0 : BitVec 32 := Scalar.addi c0_i32_0 c64_i32
  let c1_i32 : BitVec 32 := 1#32
  ⟨c0_i32_0, v0, c1_i32⟩
def k0_off1 (k0_t1 : Fin k0_t1_loop.trips) (c0_i32_54 : BitVec 32) : Fin 2 → Nat :=
  let c0_55 : Index := 0#32
  let c0_i32_0 : BitVec 32 := 0#32
  let c1_i32 : BitVec 32 := 1#32
  let arg9 : BitVec 32 := Scf.iv c0_i32_0 c1_i32 k0_t1
  let c16_i32 : BitVec 32 := 16#32
  let v59 : BitVec 32 := Scalar.muli arg9 c16_i32
  let v60 : BitVec 32 := Scalar.addi v59 c0_i32_54
  let v61 : Index := Scalar.indexCast v60
  ![0, v61.toNat]
def k0_off2 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32 : BitVec 32 := 16#32
  let v59 : BitVec 32 := Scalar.muli arg9 c16_i32
  let c0_i32_77 : BitVec 32 := 0#32
  let v108 : BitVec 32 := Scalar.addi v59 c0_i32_77
  let c0_i32_80 : BitVec 32 := 0#32
  ![v108.toNat, 0]
def k0_off3 (i : grid0.Coords) : Fin 3 → Nat :=
  let arg0 : BitVec 32 := BitVec.ofNat 32 (i 0).val
  let c0_i32_81 : BitVec 32 := 0#32
  let c0_i32_82 : BitVec 32 := 0#32
  ![arg0.toNat, 0, 0]
def k0_off4 (v62 : BitVec 32) : Fin 2 → Nat :=
  let c0_i32_83 : BitVec 32 := 0#32
  ![v62.toNat, 0]

def k0_off5 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32 : BitVec 32 := 16#32
  let v59 : BitVec 32 := Scalar.muli arg9 c16_i32
  let c1_i32_84 : BitVec 32 := 1#32
  let v117 : BitVec 32 := Scalar.addi v59 c1_i32_84
  let c0_i32_87 : BitVec 32 := 0#32
  ![v117.toNat, 0]
def k0_off6 (i : grid0.Coords) : Fin 3 → Nat :=
  let arg0 : BitVec 32 := BitVec.ofNat 32 (i 0).val
  let c0_i32_88 : BitVec 32 := 0#32
  let c0_i32_89 : BitVec 32 := 0#32
  ![arg0.toNat, 0, 0]
def k0_off7 (v65 : BitVec 32) : Fin 2 → Nat :=
  let c0_i32_90 : BitVec 32 := 0#32
  ![v65.toNat, 0]

def k0_off8 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32 : BitVec 32 := 16#32
  let v59 : BitVec 32 := Scalar.muli arg9 c16_i32
  let c2_i32_91 : BitVec 32 := 2#32
  let v126 : BitVec 32 := Scalar.addi v59 c2_i32_91
  let c0_i32_94 : BitVec 32 := 0#32
  ![v126.toNat, 0]
def k0_off9 (i : grid0.Coords) : Fin 3 → Nat :=
  let arg0 : BitVec 32 := BitVec.ofNat 32 (i 0).val
  let c0_i32_95 : BitVec 32 := 0#32
  let c0_i32_96 : BitVec 32 := 0#32
  ![arg0.toNat, 0, 0]
def k0_off10 (v68 : BitVec 32) : Fin 2 → Nat :=
  let c0_i32_97 : BitVec 32 := 0#32
  ![v68.toNat, 0]

def k0_off11 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32 : BitVec 32 := 16#32
  let v59 : BitVec 32 := Scalar.muli arg9 c16_i32
  let c3_i32_98 : BitVec 32 := 3#32
  let v135 : BitVec 32 := Scalar.addi v59 c3_i32_98
  let c0_i32_101 : BitVec 32 := 0#32
  ![v135.toNat, 0]
def k0_off12 (i : grid0.Coords) : Fin 3 → Nat :=
  let arg0 : BitVec 32 := BitVec.ofNat 32 (i 0).val
  let c0_i32_102 : BitVec 32 := 0#32
  let c0_i32_103 : BitVec 32 := 0#32
  ![arg0.toNat, 0, 0]
def k0_off13 (v71 : BitVec 32) : Fin 2 → Nat :=
  let c0_i32_104 : BitVec 32 := 0#32
  ![v71.toNat, 0]

def k0_off14 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32 : BitVec 32 := 16#32
  let v59 : BitVec 32 := Scalar.muli arg9 c16_i32
  let c4_i32_105 : BitVec 32 := 4#32
  let v144 : BitVec 32 := Scalar.addi v59 c4_i32_105
  let c0_i32_108 : BitVec 32 := 0#32
  ![v144.toNat, 0]
def k0_off15 (i : grid0.Coords) : Fin 3 → Nat :=
  let arg0 : BitVec 32 := BitVec.ofNat 32 (i 0).val
  let c0_i32_109 : BitVec 32 := 0#32
  let c0_i32_110 : BitVec 32 := 0#32
  ![arg0.toNat, 0, 0]
def k0_off16 (v74 : BitVec 32) : Fin 2 → Nat :=
  let c0_i32_111 : BitVec 32 := 0#32
  ![v74.toNat, 0]

def k0_off17 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32 : BitVec 32 := 16#32
  let v59 : BitVec 32 := Scalar.muli arg9 c16_i32
  let c5_i32_112 : BitVec 32 := 5#32
  let v153 : BitVec 32 := Scalar.addi v59 c5_i32_112
  let c0_i32_115 : BitVec 32 := 0#32
  ![v153.toNat, 0]
def k0_off18 (i : grid0.Coords) : Fin 3 → Nat :=
  let arg0 : BitVec 32 := BitVec.ofNat 32 (i 0).val
  let c0_i32_116 : BitVec 32 := 0#32
  let c0_i32_117 : BitVec 32 := 0#32
  ![arg0.toNat, 0, 0]
def k0_off19 (v77 : BitVec 32) : Fin 2 → Nat :=
  let c0_i32_118 : BitVec 32 := 0#32
  ![v77.toNat, 0]

def k0_off20 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32 : BitVec 32 := 16#32
  let v59 : BitVec 32 := Scalar.muli arg9 c16_i32
  let c6_i32_119 : BitVec 32 := 6#32
  let v162 : BitVec 32 := Scalar.addi v59 c6_i32_119
  let c0_i32_122 : BitVec 32 := 0#32
  ![v162.toNat, 0]
def k0_off21 (i : grid0.Coords) : Fin 3 → Nat :=
  let arg0 : BitVec 32 := BitVec.ofNat 32 (i 0).val
  let c0_i32_123 : BitVec 32 := 0#32
  let c0_i32_124 : BitVec 32 := 0#32
  ![arg0.toNat, 0, 0]
def k0_off22 (v80 : BitVec 32) : Fin 2 → Nat :=
  let c0_i32_125 : BitVec 32 := 0#32
  ![v80.toNat, 0]

def k0_off23 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32 : BitVec 32 := 16#32
  let v59 : BitVec 32 := Scalar.muli arg9 c16_i32
  let c7_i32_126 : BitVec 32 := 7#32
  let v171 : BitVec 32 := Scalar.addi v59 c7_i32_126
  let c0_i32_129 : BitVec 32 := 0#32
  ![v171.toNat, 0]
def k0_off24 (i : grid0.Coords) : Fin 3 → Nat :=
  let arg0 : BitVec 32 := BitVec.ofNat 32 (i 0).val
  let c0_i32_130 : BitVec 32 := 0#32
  let c0_i32_131 : BitVec 32 := 0#32
  ![arg0.toNat, 0, 0]
def k0_off25 (v83 : BitVec 32) : Fin 2 → Nat :=
  let c0_i32_132 : BitVec 32 := 0#32
  ![v83.toNat, 0]

def k0_off26 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32 : BitVec 32 := 16#32
  let v59 : BitVec 32 := Scalar.muli arg9 c16_i32
  let c8_i32_133 : BitVec 32 := 8#32
  let v180 : BitVec 32 := Scalar.addi v59 c8_i32_133
  let c0_i32_136 : BitVec 32 := 0#32
  ![v180.toNat, 0]
def k0_off27 (i : grid0.Coords) : Fin 3 → Nat :=
  let arg0 : BitVec 32 := BitVec.ofNat 32 (i 0).val
  let c0_i32_137 : BitVec 32 := 0#32
  let c0_i32_138 : BitVec 32 := 0#32
  ![arg0.toNat, 0, 0]
def k0_off28 (v86 : BitVec 32) : Fin 2 → Nat :=
  let c0_i32_139 : BitVec 32 := 0#32
  ![v86.toNat, 0]

def k0_off29 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32 : BitVec 32 := 16#32
  let v59 : BitVec 32 := Scalar.muli arg9 c16_i32
  let c9_i32_140 : BitVec 32 := 9#32
  let v189 : BitVec 32 := Scalar.addi v59 c9_i32_140
  let c0_i32_143 : BitVec 32 := 0#32
  ![v189.toNat, 0]
def k0_off30 (i : grid0.Coords) : Fin 3 → Nat :=
  let arg0 : BitVec 32 := BitVec.ofNat 32 (i 0).val
  let c0_i32_144 : BitVec 32 := 0#32
  let c0_i32_145 : BitVec 32 := 0#32
  ![arg0.toNat, 0, 0]
def k0_off31 (v89 : BitVec 32) : Fin 2 → Nat :=
  let c0_i32_146 : BitVec 32 := 0#32
  ![v89.toNat, 0]

def k0_off32 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32 : BitVec 32 := 16#32
  let v59 : BitVec 32 := Scalar.muli arg9 c16_i32
  let c10_i32_147 : BitVec 32 := 10#32
  let v198 : BitVec 32 := Scalar.addi v59 c10_i32_147
  let c0_i32_150 : BitVec 32 := 0#32
  ![v198.toNat, 0]
def k0_off33 (i : grid0.Coords) : Fin 3 → Nat :=
  let arg0 : BitVec 32 := BitVec.ofNat 32 (i 0).val
  let c0_i32_151 : BitVec 32 := 0#32
  let c0_i32_152 : BitVec 32 := 0#32
  ![arg0.toNat, 0, 0]
def k0_off34 (v92 : BitVec 32) : Fin 2 → Nat :=
  let c0_i32_153 : BitVec 32 := 0#32
  ![v92.toNat, 0]

def k0_off35 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32 : BitVec 32 := 16#32
  let v59 : BitVec 32 := Scalar.muli arg9 c16_i32
  let c11_i32_154 : BitVec 32 := 11#32
  let v207 : BitVec 32 := Scalar.addi v59 c11_i32_154
  let c0_i32_157 : BitVec 32 := 0#32
  ![v207.toNat, 0]
def k0_off36 (i : grid0.Coords) : Fin 3 → Nat :=
  let arg0 : BitVec 32 := BitVec.ofNat 32 (i 0).val
  let c0_i32_158 : BitVec 32 := 0#32
  let c0_i32_159 : BitVec 32 := 0#32
  ![arg0.toNat, 0, 0]
def k0_off37 (v95 : BitVec 32) : Fin 2 → Nat :=
  let c0_i32_160 : BitVec 32 := 0#32
  ![v95.toNat, 0]

def k0_off38 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32 : BitVec 32 := 16#32
  let v59 : BitVec 32 := Scalar.muli arg9 c16_i32
  let c12_i32_161 : BitVec 32 := 12#32
  let v216 : BitVec 32 := Scalar.addi v59 c12_i32_161
  let c0_i32_164 : BitVec 32 := 0#32
  ![v216.toNat, 0]
def k0_off39 (i : grid0.Coords) : Fin 3 → Nat :=
  let arg0 : BitVec 32 := BitVec.ofNat 32 (i 0).val
  let c0_i32_165 : BitVec 32 := 0#32
  let c0_i32_166 : BitVec 32 := 0#32
  ![arg0.toNat, 0, 0]
def k0_off40 (v98 : BitVec 32) : Fin 2 → Nat :=
  let c0_i32_167 : BitVec 32 := 0#32
  ![v98.toNat, 0]

def k0_off41 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32 : BitVec 32 := 16#32
  let v59 : BitVec 32 := Scalar.muli arg9 c16_i32
  let c13_i32_168 : BitVec 32 := 13#32
  let v225 : BitVec 32 := Scalar.addi v59 c13_i32_168
  let c0_i32_171 : BitVec 32 := 0#32
  ![v225.toNat, 0]
def k0_off42 (i : grid0.Coords) : Fin 3 → Nat :=
  let arg0 : BitVec 32 := BitVec.ofNat 32 (i 0).val
  let c0_i32_172 : BitVec 32 := 0#32
  let c0_i32_173 : BitVec 32 := 0#32
  ![arg0.toNat, 0, 0]
def k0_off43 (v101 : BitVec 32) : Fin 2 → Nat :=
  let c0_i32_174 : BitVec 32 := 0#32
  ![v101.toNat, 0]

def k0_off44 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32 : BitVec 32 := 16#32
  let v59 : BitVec 32 := Scalar.muli arg9 c16_i32
  let c14_i32_175 : BitVec 32 := 14#32
  let v234 : BitVec 32 := Scalar.addi v59 c14_i32_175
  let c0_i32_178 : BitVec 32 := 0#32
  ![v234.toNat, 0]
def k0_off45 (i : grid0.Coords) : Fin 3 → Nat :=
  let arg0 : BitVec 32 := BitVec.ofNat 32 (i 0).val
  let c0_i32_179 : BitVec 32 := 0#32
  let c0_i32_180 : BitVec 32 := 0#32
  ![arg0.toNat, 0, 0]
def k0_off46 (v104 : BitVec 32) : Fin 2 → Nat :=
  let c0_i32_181 : BitVec 32 := 0#32
  ![v104.toNat, 0]

def k0_off47 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c16_i32 : BitVec 32 := 16#32
  let v59 : BitVec 32 := Scalar.muli arg9 c16_i32
  let c15_i32_182 : BitVec 32 := 15#32
  let v243 : BitVec 32 := Scalar.addi v59 c15_i32_182
  let c0_i32_185 : BitVec 32 := 0#32
  ![v243.toNat, 0]
def k0_off48 (i : grid0.Coords) : Fin 3 → Nat :=
  let arg0 : BitVec 32 := BitVec.ofNat 32 (i 0).val
  let c0_i32_186 : BitVec 32 := 0#32
  let c0_i32_187 : BitVec 32 := 0#32
  ![arg0.toNat, 0, 0]
def k0_off49 (v107 : BitVec 32) : Fin 2 → Nat :=
  let c0_i32_188 : BitVec 32 := 0#32
  ![v107.toNat, 0]

def k0_chk16 (v107 : BitVec 32) : Prop :=
  (∀ a, (k0_off49 v107) a + S1x128.size a ≤ S163842x128.size a)
instance k0_chk16.dec : ∀ (v107 : BitVec 32), Decidable (k0_chk16 v107) := fun v107 => decidable_of_iff' _ (Iff.of_eq (k0_chk16.eq_1 v107))
theorem k0_off49_inb : ∀ (v107 : BitVec 32) (k0_hw16 : k0_chk16 v107), ∀ a, (k0_off49 v107) a + S1x128.size a ≤ S163842x128.size a := fun v107 k0_hw16 => k0_hw16

def k0_off50 (k0_t1 : Fin k0_t1_loop.trips) (c0_i32_189 : BitVec 32) : Fin 2 → Nat :=
  let c0_i32_0 : BitVec 32 := 0#32
  let c1_i32 : BitVec 32 := 1#32
  let arg9 : BitVec 32 := Scf.iv c0_i32_0 c1_i32 k0_t1
  let c16_i32 : BitVec 32 := 16#32
  let v59 : BitVec 32 := Scalar.muli arg9 c16_i32
  let v252 : BitVec 32 := Scalar.addi v59 c0_i32_189
  let c0_i32_192 : BitVec 32 := 0#32
  ![v252.toNat, 0]
def k0_off51 (i : grid0.Coords) : Fin 3 → Nat :=
  let arg0 : BitVec 32 := BitVec.ofNat 32 (i 0).val
  let c0_i32_193 : BitVec 32 := 0#32
  let c0_i32_194 : BitVec 32 := 0#32
  ![arg0.toNat, 0, 0]
def k0_off52 (v62 : BitVec 32) : Fin 2 → Nat :=
  let c0_i32_195 : BitVec 32 := 0#32
  ![v62.toNat, 0]

def k0_chk1 (v62 : BitVec 32) : Prop :=
  (∀ a, (k0_off4 v62) a + S1x128.size a ≤ S163842x128.size a) ∧
  (∀ a, (k0_off52 v62) a + S1x128.size a ≤ S163842x128.size a)
instance k0_chk1.dec : ∀ (v62 : BitVec 32), Decidable (k0_chk1 v62) := fun v62 => decidable_of_iff' _ (Iff.of_eq (k0_chk1.eq_1 v62))
theorem k0_off4_inb : ∀ (v62 : BitVec 32) (k0_hw1 : k0_chk1 v62), ∀ a, (k0_off4 v62) a + S1x128.size a ≤ S163842x128.size a := fun v62 k0_hw1 => k0_hw1.1
theorem k0_off52_inb : ∀ (v62 : BitVec 32) (k0_hw1 : k0_chk1 v62), ∀ a, (k0_off52 v62) a + S1x128.size a ≤ S163842x128.size a := fun v62 k0_hw1 => k0_hw1.2

def k0_off53 (v65 : BitVec 32) : Fin 2 → Nat :=
  let c0_i32_202 : BitVec 32 := 0#32
  ![v65.toNat, 0]

def k0_chk2 (v65 : BitVec 32) : Prop :=
  (∀ a, (k0_off7 v65) a + S1x128.size a ≤ S163842x128.size a) ∧
  (∀ a, (k0_off53 v65) a + S1x128.size a ≤ S163842x128.size a)
instance k0_chk2.dec : ∀ (v65 : BitVec 32), Decidable (k0_chk2 v65) := fun v65 => decidable_of_iff' _ (Iff.of_eq (k0_chk2.eq_1 v65))
theorem k0_off7_inb : ∀ (v65 : BitVec 32) (k0_hw2 : k0_chk2 v65), ∀ a, (k0_off7 v65) a + S1x128.size a ≤ S163842x128.size a := fun v65 k0_hw2 => k0_hw2.1
theorem k0_off53_inb : ∀ (v65 : BitVec 32) (k0_hw2 : k0_chk2 v65), ∀ a, (k0_off53 v65) a + S1x128.size a ≤ S163842x128.size a := fun v65 k0_hw2 => k0_hw2.2

def k0_off54 (v68 : BitVec 32) : Fin 2 → Nat :=
  let c0_i32_209 : BitVec 32 := 0#32
  ![v68.toNat, 0]

def k0_chk3 (v68 : BitVec 32) : Prop :=
  (∀ a, (k0_off10 v68) a + S1x128.size a ≤ S163842x128.size a) ∧
  (∀ a, (k0_off54 v68) a + S1x128.size a ≤ S163842x128.size a)
instance k0_chk3.dec : ∀ (v68 : BitVec 32), Decidable (k0_chk3 v68) := fun v68 => decidable_of_iff' _ (Iff.of_eq (k0_chk3.eq_1 v68))
theorem k0_off10_inb : ∀ (v68 : BitVec 32) (k0_hw3 : k0_chk3 v68), ∀ a, (k0_off10 v68) a + S1x128.size a ≤ S163842x128.size a := fun v68 k0_hw3 => k0_hw3.1
theorem k0_off54_inb : ∀ (v68 : BitVec 32) (k0_hw3 : k0_chk3 v68), ∀ a, (k0_off54 v68) a + S1x128.size a ≤ S163842x128.size a := fun v68 k0_hw3 => k0_hw3.2

def k0_off55 (v71 : BitVec 32) : Fin 2 → Nat :=
  let c0_i32_216 : BitVec 32 := 0#32
  ![v71.toNat, 0]

def k0_chk4 (v71 : BitVec 32) : Prop :=
  (∀ a, (k0_off13 v71) a + S1x128.size a ≤ S163842x128.size a) ∧
  (∀ a, (k0_off55 v71) a + S1x128.size a ≤ S163842x128.size a)
instance k0_chk4.dec : ∀ (v71 : BitVec 32), Decidable (k0_chk4 v71) := fun v71 => decidable_of_iff' _ (Iff.of_eq (k0_chk4.eq_1 v71))
theorem k0_off13_inb : ∀ (v71 : BitVec 32) (k0_hw4 : k0_chk4 v71), ∀ a, (k0_off13 v71) a + S1x128.size a ≤ S163842x128.size a := fun v71 k0_hw4 => k0_hw4.1
theorem k0_off55_inb : ∀ (v71 : BitVec 32) (k0_hw4 : k0_chk4 v71), ∀ a, (k0_off55 v71) a + S1x128.size a ≤ S163842x128.size a := fun v71 k0_hw4 => k0_hw4.2

def k0_off56 (v74 : BitVec 32) : Fin 2 → Nat :=
  let c0_i32_223 : BitVec 32 := 0#32
  ![v74.toNat, 0]

def k0_chk5 (v74 : BitVec 32) : Prop :=
  (∀ a, (k0_off16 v74) a + S1x128.size a ≤ S163842x128.size a) ∧
  (∀ a, (k0_off56 v74) a + S1x128.size a ≤ S163842x128.size a)
instance k0_chk5.dec : ∀ (v74 : BitVec 32), Decidable (k0_chk5 v74) := fun v74 => decidable_of_iff' _ (Iff.of_eq (k0_chk5.eq_1 v74))
theorem k0_off16_inb : ∀ (v74 : BitVec 32) (k0_hw5 : k0_chk5 v74), ∀ a, (k0_off16 v74) a + S1x128.size a ≤ S163842x128.size a := fun v74 k0_hw5 => k0_hw5.1
theorem k0_off56_inb : ∀ (v74 : BitVec 32) (k0_hw5 : k0_chk5 v74), ∀ a, (k0_off56 v74) a + S1x128.size a ≤ S163842x128.size a := fun v74 k0_hw5 => k0_hw5.2

def k0_off57 (v77 : BitVec 32) : Fin 2 → Nat :=
  let c0_i32_230 : BitVec 32 := 0#32
  ![v77.toNat, 0]

def k0_chk6 (v77 : BitVec 32) : Prop :=
  (∀ a, (k0_off19 v77) a + S1x128.size a ≤ S163842x128.size a) ∧
  (∀ a, (k0_off57 v77) a + S1x128.size a ≤ S163842x128.size a)
instance k0_chk6.dec : ∀ (v77 : BitVec 32), Decidable (k0_chk6 v77) := fun v77 => decidable_of_iff' _ (Iff.of_eq (k0_chk6.eq_1 v77))
theorem k0_off19_inb : ∀ (v77 : BitVec 32) (k0_hw6 : k0_chk6 v77), ∀ a, (k0_off19 v77) a + S1x128.size a ≤ S163842x128.size a := fun v77 k0_hw6 => k0_hw6.1
theorem k0_off57_inb : ∀ (v77 : BitVec 32) (k0_hw6 : k0_chk6 v77), ∀ a, (k0_off57 v77) a + S1x128.size a ≤ S163842x128.size a := fun v77 k0_hw6 => k0_hw6.2

def k0_off58 (v80 : BitVec 32) : Fin 2 → Nat :=
  let c0_i32_237 : BitVec 32 := 0#32
  ![v80.toNat, 0]

def k0_chk7 (v80 : BitVec 32) : Prop :=
  (∀ a, (k0_off22 v80) a + S1x128.size a ≤ S163842x128.size a) ∧
  (∀ a, (k0_off58 v80) a + S1x128.size a ≤ S163842x128.size a)
instance k0_chk7.dec : ∀ (v80 : BitVec 32), Decidable (k0_chk7 v80) := fun v80 => decidable_of_iff' _ (Iff.of_eq (k0_chk7.eq_1 v80))
theorem k0_off22_inb : ∀ (v80 : BitVec 32) (k0_hw7 : k0_chk7 v80), ∀ a, (k0_off22 v80) a + S1x128.size a ≤ S163842x128.size a := fun v80 k0_hw7 => k0_hw7.1
theorem k0_off58_inb : ∀ (v80 : BitVec 32) (k0_hw7 : k0_chk7 v80), ∀ a, (k0_off58 v80) a + S1x128.size a ≤ S163842x128.size a := fun v80 k0_hw7 => k0_hw7.2

def k0_off59 (v83 : BitVec 32) : Fin 2 → Nat :=
  let c0_i32_244 : BitVec 32 := 0#32
  ![v83.toNat, 0]

def k0_chk8 (v83 : BitVec 32) : Prop :=
  (∀ a, (k0_off25 v83) a + S1x128.size a ≤ S163842x128.size a) ∧
  (∀ a, (k0_off59 v83) a + S1x128.size a ≤ S163842x128.size a)
instance k0_chk8.dec : ∀ (v83 : BitVec 32), Decidable (k0_chk8 v83) := fun v83 => decidable_of_iff' _ (Iff.of_eq (k0_chk8.eq_1 v83))
theorem k0_off25_inb : ∀ (v83 : BitVec 32) (k0_hw8 : k0_chk8 v83), ∀ a, (k0_off25 v83) a + S1x128.size a ≤ S163842x128.size a := fun v83 k0_hw8 => k0_hw8.1
theorem k0_off59_inb : ∀ (v83 : BitVec 32) (k0_hw8 : k0_chk8 v83), ∀ a, (k0_off59 v83) a + S1x128.size a ≤ S163842x128.size a := fun v83 k0_hw8 => k0_hw8.2

def k0_off60 (v86 : BitVec 32) : Fin 2 → Nat :=
  let c0_i32_251 : BitVec 32 := 0#32
  ![v86.toNat, 0]

def k0_chk9 (v86 : BitVec 32) : Prop :=
  (∀ a, (k0_off28 v86) a + S1x128.size a ≤ S163842x128.size a) ∧
  (∀ a, (k0_off60 v86) a + S1x128.size a ≤ S163842x128.size a)
instance k0_chk9.dec : ∀ (v86 : BitVec 32), Decidable (k0_chk9 v86) := fun v86 => decidable_of_iff' _ (Iff.of_eq (k0_chk9.eq_1 v86))
theorem k0_off28_inb : ∀ (v86 : BitVec 32) (k0_hw9 : k0_chk9 v86), ∀ a, (k0_off28 v86) a + S1x128.size a ≤ S163842x128.size a := fun v86 k0_hw9 => k0_hw9.1
theorem k0_off60_inb : ∀ (v86 : BitVec 32) (k0_hw9 : k0_chk9 v86), ∀ a, (k0_off60 v86) a + S1x128.size a ≤ S163842x128.size a := fun v86 k0_hw9 => k0_hw9.2

def k0_off61 (v89 : BitVec 32) : Fin 2 → Nat :=
  let c0_i32_258 : BitVec 32 := 0#32
  ![v89.toNat, 0]

def k0_chk10 (v89 : BitVec 32) : Prop :=
  (∀ a, (k0_off31 v89) a + S1x128.size a ≤ S163842x128.size a) ∧
  (∀ a, (k0_off61 v89) a + S1x128.size a ≤ S163842x128.size a)
instance k0_chk10.dec : ∀ (v89 : BitVec 32), Decidable (k0_chk10 v89) := fun v89 => decidable_of_iff' _ (Iff.of_eq (k0_chk10.eq_1 v89))
theorem k0_off31_inb : ∀ (v89 : BitVec 32) (k0_hw10 : k0_chk10 v89), ∀ a, (k0_off31 v89) a + S1x128.size a ≤ S163842x128.size a := fun v89 k0_hw10 => k0_hw10.1
theorem k0_off61_inb : ∀ (v89 : BitVec 32) (k0_hw10 : k0_chk10 v89), ∀ a, (k0_off61 v89) a + S1x128.size a ≤ S163842x128.size a := fun v89 k0_hw10 => k0_hw10.2

def k0_off62 (v92 : BitVec 32) : Fin 2 → Nat :=
  let c0_i32_265 : BitVec 32 := 0#32
  ![v92.toNat, 0]

def k0_chk11 (v92 : BitVec 32) : Prop :=
  (∀ a, (k0_off34 v92) a + S1x128.size a ≤ S163842x128.size a) ∧
  (∀ a, (k0_off62 v92) a + S1x128.size a ≤ S163842x128.size a)
instance k0_chk11.dec : ∀ (v92 : BitVec 32), Decidable (k0_chk11 v92) := fun v92 => decidable_of_iff' _ (Iff.of_eq (k0_chk11.eq_1 v92))
theorem k0_off34_inb : ∀ (v92 : BitVec 32) (k0_hw11 : k0_chk11 v92), ∀ a, (k0_off34 v92) a + S1x128.size a ≤ S163842x128.size a := fun v92 k0_hw11 => k0_hw11.1
theorem k0_off62_inb : ∀ (v92 : BitVec 32) (k0_hw11 : k0_chk11 v92), ∀ a, (k0_off62 v92) a + S1x128.size a ≤ S163842x128.size a := fun v92 k0_hw11 => k0_hw11.2

def k0_off63 (v95 : BitVec 32) : Fin 2 → Nat :=
  let c0_i32_272 : BitVec 32 := 0#32
  ![v95.toNat, 0]

def k0_chk12 (v95 : BitVec 32) : Prop :=
  (∀ a, (k0_off37 v95) a + S1x128.size a ≤ S163842x128.size a) ∧
  (∀ a, (k0_off63 v95) a + S1x128.size a ≤ S163842x128.size a)
instance k0_chk12.dec : ∀ (v95 : BitVec 32), Decidable (k0_chk12 v95) := fun v95 => decidable_of_iff' _ (Iff.of_eq (k0_chk12.eq_1 v95))
theorem k0_off37_inb : ∀ (v95 : BitVec 32) (k0_hw12 : k0_chk12 v95), ∀ a, (k0_off37 v95) a + S1x128.size a ≤ S163842x128.size a := fun v95 k0_hw12 => k0_hw12.1
theorem k0_off63_inb : ∀ (v95 : BitVec 32) (k0_hw12 : k0_chk12 v95), ∀ a, (k0_off63 v95) a + S1x128.size a ≤ S163842x128.size a := fun v95 k0_hw12 => k0_hw12.2

def k0_off64 (v98 : BitVec 32) : Fin 2 → Nat :=
  let c0_i32_279 : BitVec 32 := 0#32
  ![v98.toNat, 0]

def k0_chk13 (v98 : BitVec 32) : Prop :=
  (∀ a, (k0_off40 v98) a + S1x128.size a ≤ S163842x128.size a) ∧
  (∀ a, (k0_off64 v98) a + S1x128.size a ≤ S163842x128.size a)
instance k0_chk13.dec : ∀ (v98 : BitVec 32), Decidable (k0_chk13 v98) := fun v98 => decidable_of_iff' _ (Iff.of_eq (k0_chk13.eq_1 v98))
theorem k0_off40_inb : ∀ (v98 : BitVec 32) (k0_hw13 : k0_chk13 v98), ∀ a, (k0_off40 v98) a + S1x128.size a ≤ S163842x128.size a := fun v98 k0_hw13 => k0_hw13.1
theorem k0_off64_inb : ∀ (v98 : BitVec 32) (k0_hw13 : k0_chk13 v98), ∀ a, (k0_off64 v98) a + S1x128.size a ≤ S163842x128.size a := fun v98 k0_hw13 => k0_hw13.2

def k0_off65 (v101 : BitVec 32) : Fin 2 → Nat :=
  let c0_i32_286 : BitVec 32 := 0#32
  ![v101.toNat, 0]

def k0_chk14 (v101 : BitVec 32) : Prop :=
  (∀ a, (k0_off43 v101) a + S1x128.size a ≤ S163842x128.size a) ∧
  (∀ a, (k0_off65 v101) a + S1x128.size a ≤ S163842x128.size a)
instance k0_chk14.dec : ∀ (v101 : BitVec 32), Decidable (k0_chk14 v101) := fun v101 => decidable_of_iff' _ (Iff.of_eq (k0_chk14.eq_1 v101))
theorem k0_off43_inb : ∀ (v101 : BitVec 32) (k0_hw14 : k0_chk14 v101), ∀ a, (k0_off43 v101) a + S1x128.size a ≤ S163842x128.size a := fun v101 k0_hw14 => k0_hw14.1
theorem k0_off65_inb : ∀ (v101 : BitVec 32) (k0_hw14 : k0_chk14 v101), ∀ a, (k0_off65 v101) a + S1x128.size a ≤ S163842x128.size a := fun v101 k0_hw14 => k0_hw14.2

def k0_off66 (v104 : BitVec 32) : Fin 2 → Nat :=
  let c0_i32_293 : BitVec 32 := 0#32
  ![v104.toNat, 0]

def k0_chk15 (v104 : BitVec 32) : Prop :=
  (∀ a, (k0_off46 v104) a + S1x128.size a ≤ S163842x128.size a) ∧
  (∀ a, (k0_off66 v104) a + S1x128.size a ≤ S163842x128.size a)
instance k0_chk15.dec : ∀ (v104 : BitVec 32), Decidable (k0_chk15 v104) := fun v104 => decidable_of_iff' _ (Iff.of_eq (k0_chk15.eq_1 v104))
theorem k0_off46_inb : ∀ (v104 : BitVec 32) (k0_hw15 : k0_chk15 v104), ∀ a, (k0_off46 v104) a + S1x128.size a ≤ S163842x128.size a := fun v104 k0_hw15 => k0_hw15.1
theorem k0_off66_inb : ∀ (v104 : BitVec 32) (k0_hw15 : k0_chk15 v104), ∀ a, (k0_off66 v104) a + S1x128.size a ≤ S163842x128.size a := fun v104 k0_hw15 => k0_hw15.2

@[reducible] def k0_t2_loop : Scf.Loop 32 :=
  let c0_i32_3 : BitVec 32 := 0#32
  let c64_i32_4 : BitVec 32 := 64#32
  let v1 : BitVec 32 := Scalar.addi c0_i32_3 c64_i32_4
  let c1_i32_5 : BitVec 32 := 1#32
  ⟨c0_i32_3, v1, c1_i32_5⟩
def k0_off67 (k0_t2 : Fin k0_t2_loop.trips) (c0_i32_54 : BitVec 32) : Fin 2 → Nat :=
  let c1_55 : Index := 1#32
  let c0_i32_3 : BitVec 32 := 0#32
  let c1_i32_5 : BitVec 32 := 1#32
  let arg9 : BitVec 32 := Scf.iv c0_i32_3 c1_i32_5 k0_t2
  let c16_i32 : BitVec 32 := 16#32
  let v59 : BitVec 32 := Scalar.muli arg9 c16_i32
  let v60 : BitVec 32 := Scalar.addi v59 c0_i32_54
  let v61 : Index := Scalar.indexCast v60
  ![1, v61.toNat]
def k0_off68 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32 : BitVec 32 := 16#32
  let v59 : BitVec 32 := Scalar.muli arg9 c16_i32
  let c0_i32_77 : BitVec 32 := 0#32
  let v108 : BitVec 32 := Scalar.addi v59 c0_i32_77
  let c0_i32_80 : BitVec 32 := 0#32
  ![v108.toNat, 0]
def k0_off69 (i : grid0.Coords) : Fin 3 → Nat :=
  let arg0 : BitVec 32 := BitVec.ofNat 32 (i 0).val
  let c0_i32_81 : BitVec 32 := 0#32
  let c0_i32_82 : BitVec 32 := 0#32
  ![arg0.toNat, 0, 0]
def k0_off70 (v62 : BitVec 32) : Fin 2 → Nat :=
  let c0_i32_83 : BitVec 32 := 0#32
  ![v62.toNat, 0]

def k0_off71 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32 : BitVec 32 := 16#32
  let v59 : BitVec 32 := Scalar.muli arg9 c16_i32
  let c1_i32_84 : BitVec 32 := 1#32
  let v117 : BitVec 32 := Scalar.addi v59 c1_i32_84
  let c0_i32_87 : BitVec 32 := 0#32
  ![v117.toNat, 0]
def k0_off72 (i : grid0.Coords) : Fin 3 → Nat :=
  let arg0 : BitVec 32 := BitVec.ofNat 32 (i 0).val
  let c0_i32_88 : BitVec 32 := 0#32
  let c0_i32_89 : BitVec 32 := 0#32
  ![arg0.toNat, 0, 0]
def k0_off73 (v65 : BitVec 32) : Fin 2 → Nat :=
  let c0_i32_90 : BitVec 32 := 0#32
  ![v65.toNat, 0]

def k0_off74 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32 : BitVec 32 := 16#32
  let v59 : BitVec 32 := Scalar.muli arg9 c16_i32
  let c2_i32_91 : BitVec 32 := 2#32
  let v126 : BitVec 32 := Scalar.addi v59 c2_i32_91
  let c0_i32_94 : BitVec 32 := 0#32
  ![v126.toNat, 0]
def k0_off75 (i : grid0.Coords) : Fin 3 → Nat :=
  let arg0 : BitVec 32 := BitVec.ofNat 32 (i 0).val
  let c0_i32_95 : BitVec 32 := 0#32
  let c0_i32_96 : BitVec 32 := 0#32
  ![arg0.toNat, 0, 0]
def k0_off76 (v68 : BitVec 32) : Fin 2 → Nat :=
  let c0_i32_97 : BitVec 32 := 0#32
  ![v68.toNat, 0]

def k0_off77 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32 : BitVec 32 := 16#32
  let v59 : BitVec 32 := Scalar.muli arg9 c16_i32
  let c3_i32_98 : BitVec 32 := 3#32
  let v135 : BitVec 32 := Scalar.addi v59 c3_i32_98
  let c0_i32_101 : BitVec 32 := 0#32
  ![v135.toNat, 0]
def k0_off78 (i : grid0.Coords) : Fin 3 → Nat :=
  let arg0 : BitVec 32 := BitVec.ofNat 32 (i 0).val
  let c0_i32_102 : BitVec 32 := 0#32
  let c0_i32_103 : BitVec 32 := 0#32
  ![arg0.toNat, 0, 0]
def k0_off79 (v71 : BitVec 32) : Fin 2 → Nat :=
  let c0_i32_104 : BitVec 32 := 0#32
  ![v71.toNat, 0]

def k0_off80 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32 : BitVec 32 := 16#32
  let v59 : BitVec 32 := Scalar.muli arg9 c16_i32
  let c4_i32_105 : BitVec 32 := 4#32
  let v144 : BitVec 32 := Scalar.addi v59 c4_i32_105
  let c0_i32_108 : BitVec 32 := 0#32
  ![v144.toNat, 0]
def k0_off81 (i : grid0.Coords) : Fin 3 → Nat :=
  let arg0 : BitVec 32 := BitVec.ofNat 32 (i 0).val
  let c0_i32_109 : BitVec 32 := 0#32
  let c0_i32_110 : BitVec 32 := 0#32
  ![arg0.toNat, 0, 0]
def k0_off82 (v74 : BitVec 32) : Fin 2 → Nat :=
  let c0_i32_111 : BitVec 32 := 0#32
  ![v74.toNat, 0]

def k0_off83 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32 : BitVec 32 := 16#32
  let v59 : BitVec 32 := Scalar.muli arg9 c16_i32
  let c5_i32_112 : BitVec 32 := 5#32
  let v153 : BitVec 32 := Scalar.addi v59 c5_i32_112
  let c0_i32_115 : BitVec 32 := 0#32
  ![v153.toNat, 0]
def k0_off84 (i : grid0.Coords) : Fin 3 → Nat :=
  let arg0 : BitVec 32 := BitVec.ofNat 32 (i 0).val
  let c0_i32_116 : BitVec 32 := 0#32
  let c0_i32_117 : BitVec 32 := 0#32
  ![arg0.toNat, 0, 0]
def k0_off85 (v77 : BitVec 32) : Fin 2 → Nat :=
  let c0_i32_118 : BitVec 32 := 0#32
  ![v77.toNat, 0]

def k0_off86 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32 : BitVec 32 := 16#32
  let v59 : BitVec 32 := Scalar.muli arg9 c16_i32
  let c6_i32_119 : BitVec 32 := 6#32
  let v162 : BitVec 32 := Scalar.addi v59 c6_i32_119
  let c0_i32_122 : BitVec 32 := 0#32
  ![v162.toNat, 0]
def k0_off87 (i : grid0.Coords) : Fin 3 → Nat :=
  let arg0 : BitVec 32 := BitVec.ofNat 32 (i 0).val
  let c0_i32_123 : BitVec 32 := 0#32
  let c0_i32_124 : BitVec 32 := 0#32
  ![arg0.toNat, 0, 0]
def k0_off88 (v80 : BitVec 32) : Fin 2 → Nat :=
  let c0_i32_125 : BitVec 32 := 0#32
  ![v80.toNat, 0]

def k0_off89 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32 : BitVec 32 := 16#32
  let v59 : BitVec 32 := Scalar.muli arg9 c16_i32
  let c7_i32_126 : BitVec 32 := 7#32
  let v171 : BitVec 32 := Scalar.addi v59 c7_i32_126
  let c0_i32_129 : BitVec 32 := 0#32
  ![v171.toNat, 0]
def k0_off90 (i : grid0.Coords) : Fin 3 → Nat :=
  let arg0 : BitVec 32 := BitVec.ofNat 32 (i 0).val
  let c0_i32_130 : BitVec 32 := 0#32
  let c0_i32_131 : BitVec 32 := 0#32
  ![arg0.toNat, 0, 0]
def k0_off91 (v83 : BitVec 32) : Fin 2 → Nat :=
  let c0_i32_132 : BitVec 32 := 0#32
  ![v83.toNat, 0]

def k0_off92 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32 : BitVec 32 := 16#32
  let v59 : BitVec 32 := Scalar.muli arg9 c16_i32
  let c8_i32_133 : BitVec 32 := 8#32
  let v180 : BitVec 32 := Scalar.addi v59 c8_i32_133
  let c0_i32_136 : BitVec 32 := 0#32
  ![v180.toNat, 0]
def k0_off93 (i : grid0.Coords) : Fin 3 → Nat :=
  let arg0 : BitVec 32 := BitVec.ofNat 32 (i 0).val
  let c0_i32_137 : BitVec 32 := 0#32
  let c0_i32_138 : BitVec 32 := 0#32
  ![arg0.toNat, 0, 0]
def k0_off94 (v86 : BitVec 32) : Fin 2 → Nat :=
  let c0_i32_139 : BitVec 32 := 0#32
  ![v86.toNat, 0]

def k0_off95 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32 : BitVec 32 := 16#32
  let v59 : BitVec 32 := Scalar.muli arg9 c16_i32
  let c9_i32_140 : BitVec 32 := 9#32
  let v189 : BitVec 32 := Scalar.addi v59 c9_i32_140
  let c0_i32_143 : BitVec 32 := 0#32
  ![v189.toNat, 0]
def k0_off96 (i : grid0.Coords) : Fin 3 → Nat :=
  let arg0 : BitVec 32 := BitVec.ofNat 32 (i 0).val
  let c0_i32_144 : BitVec 32 := 0#32
  let c0_i32_145 : BitVec 32 := 0#32
  ![arg0.toNat, 0, 0]
def k0_off97 (v89 : BitVec 32) : Fin 2 → Nat :=
  let c0_i32_146 : BitVec 32 := 0#32
  ![v89.toNat, 0]

def k0_off98 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32 : BitVec 32 := 16#32
  let v59 : BitVec 32 := Scalar.muli arg9 c16_i32
  let c10_i32_147 : BitVec 32 := 10#32
  let v198 : BitVec 32 := Scalar.addi v59 c10_i32_147
  let c0_i32_150 : BitVec 32 := 0#32
  ![v198.toNat, 0]
def k0_off99 (i : grid0.Coords) : Fin 3 → Nat :=
  let arg0 : BitVec 32 := BitVec.ofNat 32 (i 0).val
  let c0_i32_151 : BitVec 32 := 0#32
  let c0_i32_152 : BitVec 32 := 0#32
  ![arg0.toNat, 0, 0]
def k0_off100 (v92 : BitVec 32) : Fin 2 → Nat :=
  let c0_i32_153 : BitVec 32 := 0#32
  ![v92.toNat, 0]

def k0_off101 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32 : BitVec 32 := 16#32
  let v59 : BitVec 32 := Scalar.muli arg9 c16_i32
  let c11_i32_154 : BitVec 32 := 11#32
  let v207 : BitVec 32 := Scalar.addi v59 c11_i32_154
  let c0_i32_157 : BitVec 32 := 0#32
  ![v207.toNat, 0]
def k0_off102 (i : grid0.Coords) : Fin 3 → Nat :=
  let arg0 : BitVec 32 := BitVec.ofNat 32 (i 0).val
  let c0_i32_158 : BitVec 32 := 0#32
  let c0_i32_159 : BitVec 32 := 0#32
  ![arg0.toNat, 0, 0]
def k0_off103 (v95 : BitVec 32) : Fin 2 → Nat :=
  let c0_i32_160 : BitVec 32 := 0#32
  ![v95.toNat, 0]

def k0_off104 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32 : BitVec 32 := 16#32
  let v59 : BitVec 32 := Scalar.muli arg9 c16_i32
  let c12_i32_161 : BitVec 32 := 12#32
  let v216 : BitVec 32 := Scalar.addi v59 c12_i32_161
  let c0_i32_164 : BitVec 32 := 0#32
  ![v216.toNat, 0]
def k0_off105 (i : grid0.Coords) : Fin 3 → Nat :=
  let arg0 : BitVec 32 := BitVec.ofNat 32 (i 0).val
  let c0_i32_165 : BitVec 32 := 0#32
  let c0_i32_166 : BitVec 32 := 0#32
  ![arg0.toNat, 0, 0]
def k0_off106 (v98 : BitVec 32) : Fin 2 → Nat :=
  let c0_i32_167 : BitVec 32 := 0#32
  ![v98.toNat, 0]

def k0_off107 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32 : BitVec 32 := 16#32
  let v59 : BitVec 32 := Scalar.muli arg9 c16_i32
  let c13_i32_168 : BitVec 32 := 13#32
  let v225 : BitVec 32 := Scalar.addi v59 c13_i32_168
  let c0_i32_171 : BitVec 32 := 0#32
  ![v225.toNat, 0]
def k0_off108 (i : grid0.Coords) : Fin 3 → Nat :=
  let arg0 : BitVec 32 := BitVec.ofNat 32 (i 0).val
  let c0_i32_172 : BitVec 32 := 0#32
  let c0_i32_173 : BitVec 32 := 0#32
  ![arg0.toNat, 0, 0]
def k0_off109 (v101 : BitVec 32) : Fin 2 → Nat :=
  let c0_i32_174 : BitVec 32 := 0#32
  ![v101.toNat, 0]

def k0_off110 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32 : BitVec 32 := 16#32
  let v59 : BitVec 32 := Scalar.muli arg9 c16_i32
  let c14_i32_175 : BitVec 32 := 14#32
  let v234 : BitVec 32 := Scalar.addi v59 c14_i32_175
  let c0_i32_178 : BitVec 32 := 0#32
  ![v234.toNat, 0]
def k0_off111 (i : grid0.Coords) : Fin 3 → Nat :=
  let arg0 : BitVec 32 := BitVec.ofNat 32 (i 0).val
  let c0_i32_179 : BitVec 32 := 0#32
  let c0_i32_180 : BitVec 32 := 0#32
  ![arg0.toNat, 0, 0]
def k0_off112 (v104 : BitVec 32) : Fin 2 → Nat :=
  let c0_i32_181 : BitVec 32 := 0#32
  ![v104.toNat, 0]

def k0_off113 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c16_i32 : BitVec 32 := 16#32
  let v59 : BitVec 32 := Scalar.muli arg9 c16_i32
  let c15_i32_182 : BitVec 32 := 15#32
  let v243 : BitVec 32 := Scalar.addi v59 c15_i32_182
  let c0_i32_185 : BitVec 32 := 0#32
  ![v243.toNat, 0]
def k0_off114 (i : grid0.Coords) : Fin 3 → Nat :=
  let arg0 : BitVec 32 := BitVec.ofNat 32 (i 0).val
  let c0_i32_186 : BitVec 32 := 0#32
  let c0_i32_187 : BitVec 32 := 0#32
  ![arg0.toNat, 0, 0]
def k0_off115 (v107 : BitVec 32) : Fin 2 → Nat :=
  let c0_i32_188 : BitVec 32 := 0#32
  ![v107.toNat, 0]

def k0_chk32 (v107 : BitVec 32) : Prop :=
  (∀ a, (k0_off115 v107) a + S1x128.size a ≤ S163842x128.size a)
instance k0_chk32.dec : ∀ (v107 : BitVec 32), Decidable (k0_chk32 v107) := fun v107 => decidable_of_iff' _ (Iff.of_eq (k0_chk32.eq_1 v107))
theorem k0_off115_inb : ∀ (v107 : BitVec 32) (k0_hw32 : k0_chk32 v107), ∀ a, (k0_off115 v107) a + S1x128.size a ≤ S163842x128.size a := fun v107 k0_hw32 => k0_hw32

def k0_off116 (k0_t2 : Fin k0_t2_loop.trips) (c0_i32_189 : BitVec 32) : Fin 2 → Nat :=
  let c0_i32_3 : BitVec 32 := 0#32
  let c1_i32_5 : BitVec 32 := 1#32
  let arg9 : BitVec 32 := Scf.iv c0_i32_3 c1_i32_5 k0_t2
  let c16_i32 : BitVec 32 := 16#32
  let v59 : BitVec 32 := Scalar.muli arg9 c16_i32
  let v252 : BitVec 32 := Scalar.addi v59 c0_i32_189
  let c0_i32_192 : BitVec 32 := 0#32
  ![v252.toNat, 0]
def k0_off117 (i : grid0.Coords) : Fin 3 → Nat :=
  let arg0 : BitVec 32 := BitVec.ofNat 32 (i 0).val
  let c0_i32_193 : BitVec 32 := 0#32
  let c0_i32_194 : BitVec 32 := 0#32
  ![arg0.toNat, 0, 0]
def k0_off118 (v62 : BitVec 32) : Fin 2 → Nat :=
  let c0_i32_195 : BitVec 32 := 0#32
  ![v62.toNat, 0]

def k0_chk17 (v62 : BitVec 32) : Prop :=
  (∀ a, (k0_off70 v62) a + S1x128.size a ≤ S163842x128.size a) ∧
  (∀ a, (k0_off118 v62) a + S1x128.size a ≤ S163842x128.size a)
instance k0_chk17.dec : ∀ (v62 : BitVec 32), Decidable (k0_chk17 v62) := fun v62 => decidable_of_iff' _ (Iff.of_eq (k0_chk17.eq_1 v62))
theorem k0_off70_inb : ∀ (v62 : BitVec 32) (k0_hw17 : k0_chk17 v62), ∀ a, (k0_off70 v62) a + S1x128.size a ≤ S163842x128.size a := fun v62 k0_hw17 => k0_hw17.1
theorem k0_off118_inb : ∀ (v62 : BitVec 32) (k0_hw17 : k0_chk17 v62), ∀ a, (k0_off118 v62) a + S1x128.size a ≤ S163842x128.size a := fun v62 k0_hw17 => k0_hw17.2

def k0_off119 (v65 : BitVec 32) : Fin 2 → Nat :=
  let c0_i32_202 : BitVec 32 := 0#32
  ![v65.toNat, 0]

def k0_chk18 (v65 : BitVec 32) : Prop :=
  (∀ a, (k0_off73 v65) a + S1x128.size a ≤ S163842x128.size a) ∧
  (∀ a, (k0_off119 v65) a + S1x128.size a ≤ S163842x128.size a)
instance k0_chk18.dec : ∀ (v65 : BitVec 32), Decidable (k0_chk18 v65) := fun v65 => decidable_of_iff' _ (Iff.of_eq (k0_chk18.eq_1 v65))
theorem k0_off73_inb : ∀ (v65 : BitVec 32) (k0_hw18 : k0_chk18 v65), ∀ a, (k0_off73 v65) a + S1x128.size a ≤ S163842x128.size a := fun v65 k0_hw18 => k0_hw18.1
theorem k0_off119_inb : ∀ (v65 : BitVec 32) (k0_hw18 : k0_chk18 v65), ∀ a, (k0_off119 v65) a + S1x128.size a ≤ S163842x128.size a := fun v65 k0_hw18 => k0_hw18.2

def k0_off120 (v68 : BitVec 32) : Fin 2 → Nat :=
  let c0_i32_209 : BitVec 32 := 0#32
  ![v68.toNat, 0]

def k0_chk19 (v68 : BitVec 32) : Prop :=
  (∀ a, (k0_off76 v68) a + S1x128.size a ≤ S163842x128.size a) ∧
  (∀ a, (k0_off120 v68) a + S1x128.size a ≤ S163842x128.size a)
instance k0_chk19.dec : ∀ (v68 : BitVec 32), Decidable (k0_chk19 v68) := fun v68 => decidable_of_iff' _ (Iff.of_eq (k0_chk19.eq_1 v68))
theorem k0_off76_inb : ∀ (v68 : BitVec 32) (k0_hw19 : k0_chk19 v68), ∀ a, (k0_off76 v68) a + S1x128.size a ≤ S163842x128.size a := fun v68 k0_hw19 => k0_hw19.1
theorem k0_off120_inb : ∀ (v68 : BitVec 32) (k0_hw19 : k0_chk19 v68), ∀ a, (k0_off120 v68) a + S1x128.size a ≤ S163842x128.size a := fun v68 k0_hw19 => k0_hw19.2

def k0_off121 (v71 : BitVec 32) : Fin 2 → Nat :=
  let c0_i32_216 : BitVec 32 := 0#32
  ![v71.toNat, 0]

def k0_chk20 (v71 : BitVec 32) : Prop :=
  (∀ a, (k0_off79 v71) a + S1x128.size a ≤ S163842x128.size a) ∧
  (∀ a, (k0_off121 v71) a + S1x128.size a ≤ S163842x128.size a)
instance k0_chk20.dec : ∀ (v71 : BitVec 32), Decidable (k0_chk20 v71) := fun v71 => decidable_of_iff' _ (Iff.of_eq (k0_chk20.eq_1 v71))
theorem k0_off79_inb : ∀ (v71 : BitVec 32) (k0_hw20 : k0_chk20 v71), ∀ a, (k0_off79 v71) a + S1x128.size a ≤ S163842x128.size a := fun v71 k0_hw20 => k0_hw20.1
theorem k0_off121_inb : ∀ (v71 : BitVec 32) (k0_hw20 : k0_chk20 v71), ∀ a, (k0_off121 v71) a + S1x128.size a ≤ S163842x128.size a := fun v71 k0_hw20 => k0_hw20.2

def k0_off122 (v74 : BitVec 32) : Fin 2 → Nat :=
  let c0_i32_223 : BitVec 32 := 0#32
  ![v74.toNat, 0]

def k0_chk21 (v74 : BitVec 32) : Prop :=
  (∀ a, (k0_off82 v74) a + S1x128.size a ≤ S163842x128.size a) ∧
  (∀ a, (k0_off122 v74) a + S1x128.size a ≤ S163842x128.size a)
instance k0_chk21.dec : ∀ (v74 : BitVec 32), Decidable (k0_chk21 v74) := fun v74 => decidable_of_iff' _ (Iff.of_eq (k0_chk21.eq_1 v74))
theorem k0_off82_inb : ∀ (v74 : BitVec 32) (k0_hw21 : k0_chk21 v74), ∀ a, (k0_off82 v74) a + S1x128.size a ≤ S163842x128.size a := fun v74 k0_hw21 => k0_hw21.1
theorem k0_off122_inb : ∀ (v74 : BitVec 32) (k0_hw21 : k0_chk21 v74), ∀ a, (k0_off122 v74) a + S1x128.size a ≤ S163842x128.size a := fun v74 k0_hw21 => k0_hw21.2

def k0_off123 (v77 : BitVec 32) : Fin 2 → Nat :=
  let c0_i32_230 : BitVec 32 := 0#32
  ![v77.toNat, 0]

def k0_chk22 (v77 : BitVec 32) : Prop :=
  (∀ a, (k0_off85 v77) a + S1x128.size a ≤ S163842x128.size a) ∧
  (∀ a, (k0_off123 v77) a + S1x128.size a ≤ S163842x128.size a)
instance k0_chk22.dec : ∀ (v77 : BitVec 32), Decidable (k0_chk22 v77) := fun v77 => decidable_of_iff' _ (Iff.of_eq (k0_chk22.eq_1 v77))
theorem k0_off85_inb : ∀ (v77 : BitVec 32) (k0_hw22 : k0_chk22 v77), ∀ a, (k0_off85 v77) a + S1x128.size a ≤ S163842x128.size a := fun v77 k0_hw22 => k0_hw22.1
theorem k0_off123_inb : ∀ (v77 : BitVec 32) (k0_hw22 : k0_chk22 v77), ∀ a, (k0_off123 v77) a + S1x128.size a ≤ S163842x128.size a := fun v77 k0_hw22 => k0_hw22.2

def k0_off124 (v80 : BitVec 32) : Fin 2 → Nat :=
  let c0_i32_237 : BitVec 32 := 0#32
  ![v80.toNat, 0]

def k0_chk23 (v80 : BitVec 32) : Prop :=
  (∀ a, (k0_off88 v80) a + S1x128.size a ≤ S163842x128.size a) ∧
  (∀ a, (k0_off124 v80) a + S1x128.size a ≤ S163842x128.size a)
instance k0_chk23.dec : ∀ (v80 : BitVec 32), Decidable (k0_chk23 v80) := fun v80 => decidable_of_iff' _ (Iff.of_eq (k0_chk23.eq_1 v80))
theorem k0_off88_inb : ∀ (v80 : BitVec 32) (k0_hw23 : k0_chk23 v80), ∀ a, (k0_off88 v80) a + S1x128.size a ≤ S163842x128.size a := fun v80 k0_hw23 => k0_hw23.1
theorem k0_off124_inb : ∀ (v80 : BitVec 32) (k0_hw23 : k0_chk23 v80), ∀ a, (k0_off124 v80) a + S1x128.size a ≤ S163842x128.size a := fun v80 k0_hw23 => k0_hw23.2

def k0_off125 (v83 : BitVec 32) : Fin 2 → Nat :=
  let c0_i32_244 : BitVec 32 := 0#32
  ![v83.toNat, 0]

def k0_chk24 (v83 : BitVec 32) : Prop :=
  (∀ a, (k0_off91 v83) a + S1x128.size a ≤ S163842x128.size a) ∧
  (∀ a, (k0_off125 v83) a + S1x128.size a ≤ S163842x128.size a)
instance k0_chk24.dec : ∀ (v83 : BitVec 32), Decidable (k0_chk24 v83) := fun v83 => decidable_of_iff' _ (Iff.of_eq (k0_chk24.eq_1 v83))
theorem k0_off91_inb : ∀ (v83 : BitVec 32) (k0_hw24 : k0_chk24 v83), ∀ a, (k0_off91 v83) a + S1x128.size a ≤ S163842x128.size a := fun v83 k0_hw24 => k0_hw24.1
theorem k0_off125_inb : ∀ (v83 : BitVec 32) (k0_hw24 : k0_chk24 v83), ∀ a, (k0_off125 v83) a + S1x128.size a ≤ S163842x128.size a := fun v83 k0_hw24 => k0_hw24.2

def k0_off126 (v86 : BitVec 32) : Fin 2 → Nat :=
  let c0_i32_251 : BitVec 32 := 0#32
  ![v86.toNat, 0]

def k0_chk25 (v86 : BitVec 32) : Prop :=
  (∀ a, (k0_off94 v86) a + S1x128.size a ≤ S163842x128.size a) ∧
  (∀ a, (k0_off126 v86) a + S1x128.size a ≤ S163842x128.size a)
instance k0_chk25.dec : ∀ (v86 : BitVec 32), Decidable (k0_chk25 v86) := fun v86 => decidable_of_iff' _ (Iff.of_eq (k0_chk25.eq_1 v86))
theorem k0_off94_inb : ∀ (v86 : BitVec 32) (k0_hw25 : k0_chk25 v86), ∀ a, (k0_off94 v86) a + S1x128.size a ≤ S163842x128.size a := fun v86 k0_hw25 => k0_hw25.1
theorem k0_off126_inb : ∀ (v86 : BitVec 32) (k0_hw25 : k0_chk25 v86), ∀ a, (k0_off126 v86) a + S1x128.size a ≤ S163842x128.size a := fun v86 k0_hw25 => k0_hw25.2

def k0_off127 (v89 : BitVec 32) : Fin 2 → Nat :=
  let c0_i32_258 : BitVec 32 := 0#32
  ![v89.toNat, 0]

def k0_chk26 (v89 : BitVec 32) : Prop :=
  (∀ a, (k0_off97 v89) a + S1x128.size a ≤ S163842x128.size a) ∧
  (∀ a, (k0_off127 v89) a + S1x128.size a ≤ S163842x128.size a)
instance k0_chk26.dec : ∀ (v89 : BitVec 32), Decidable (k0_chk26 v89) := fun v89 => decidable_of_iff' _ (Iff.of_eq (k0_chk26.eq_1 v89))
theorem k0_off97_inb : ∀ (v89 : BitVec 32) (k0_hw26 : k0_chk26 v89), ∀ a, (k0_off97 v89) a + S1x128.size a ≤ S163842x128.size a := fun v89 k0_hw26 => k0_hw26.1
theorem k0_off127_inb : ∀ (v89 : BitVec 32) (k0_hw26 : k0_chk26 v89), ∀ a, (k0_off127 v89) a + S1x128.size a ≤ S163842x128.size a := fun v89 k0_hw26 => k0_hw26.2

def k0_off128 (v92 : BitVec 32) : Fin 2 → Nat :=
  let c0_i32_265 : BitVec 32 := 0#32
  ![v92.toNat, 0]

def k0_chk27 (v92 : BitVec 32) : Prop :=
  (∀ a, (k0_off100 v92) a + S1x128.size a ≤ S163842x128.size a) ∧
  (∀ a, (k0_off128 v92) a + S1x128.size a ≤ S163842x128.size a)
instance k0_chk27.dec : ∀ (v92 : BitVec 32), Decidable (k0_chk27 v92) := fun v92 => decidable_of_iff' _ (Iff.of_eq (k0_chk27.eq_1 v92))
theorem k0_off100_inb : ∀ (v92 : BitVec 32) (k0_hw27 : k0_chk27 v92), ∀ a, (k0_off100 v92) a + S1x128.size a ≤ S163842x128.size a := fun v92 k0_hw27 => k0_hw27.1
theorem k0_off128_inb : ∀ (v92 : BitVec 32) (k0_hw27 : k0_chk27 v92), ∀ a, (k0_off128 v92) a + S1x128.size a ≤ S163842x128.size a := fun v92 k0_hw27 => k0_hw27.2

def k0_off129 (v95 : BitVec 32) : Fin 2 → Nat :=
  let c0_i32_272 : BitVec 32 := 0#32
  ![v95.toNat, 0]

def k0_chk28 (v95 : BitVec 32) : Prop :=
  (∀ a, (k0_off103 v95) a + S1x128.size a ≤ S163842x128.size a) ∧
  (∀ a, (k0_off129 v95) a + S1x128.size a ≤ S163842x128.size a)
instance k0_chk28.dec : ∀ (v95 : BitVec 32), Decidable (k0_chk28 v95) := fun v95 => decidable_of_iff' _ (Iff.of_eq (k0_chk28.eq_1 v95))
theorem k0_off103_inb : ∀ (v95 : BitVec 32) (k0_hw28 : k0_chk28 v95), ∀ a, (k0_off103 v95) a + S1x128.size a ≤ S163842x128.size a := fun v95 k0_hw28 => k0_hw28.1
theorem k0_off129_inb : ∀ (v95 : BitVec 32) (k0_hw28 : k0_chk28 v95), ∀ a, (k0_off129 v95) a + S1x128.size a ≤ S163842x128.size a := fun v95 k0_hw28 => k0_hw28.2

def k0_off130 (v98 : BitVec 32) : Fin 2 → Nat :=
  let c0_i32_279 : BitVec 32 := 0#32
  ![v98.toNat, 0]

def k0_chk29 (v98 : BitVec 32) : Prop :=
  (∀ a, (k0_off106 v98) a + S1x128.size a ≤ S163842x128.size a) ∧
  (∀ a, (k0_off130 v98) a + S1x128.size a ≤ S163842x128.size a)
instance k0_chk29.dec : ∀ (v98 : BitVec 32), Decidable (k0_chk29 v98) := fun v98 => decidable_of_iff' _ (Iff.of_eq (k0_chk29.eq_1 v98))
theorem k0_off106_inb : ∀ (v98 : BitVec 32) (k0_hw29 : k0_chk29 v98), ∀ a, (k0_off106 v98) a + S1x128.size a ≤ S163842x128.size a := fun v98 k0_hw29 => k0_hw29.1
theorem k0_off130_inb : ∀ (v98 : BitVec 32) (k0_hw29 : k0_chk29 v98), ∀ a, (k0_off130 v98) a + S1x128.size a ≤ S163842x128.size a := fun v98 k0_hw29 => k0_hw29.2

def k0_off131 (v101 : BitVec 32) : Fin 2 → Nat :=
  let c0_i32_286 : BitVec 32 := 0#32
  ![v101.toNat, 0]

def k0_chk30 (v101 : BitVec 32) : Prop :=
  (∀ a, (k0_off109 v101) a + S1x128.size a ≤ S163842x128.size a) ∧
  (∀ a, (k0_off131 v101) a + S1x128.size a ≤ S163842x128.size a)
instance k0_chk30.dec : ∀ (v101 : BitVec 32), Decidable (k0_chk30 v101) := fun v101 => decidable_of_iff' _ (Iff.of_eq (k0_chk30.eq_1 v101))
theorem k0_off109_inb : ∀ (v101 : BitVec 32) (k0_hw30 : k0_chk30 v101), ∀ a, (k0_off109 v101) a + S1x128.size a ≤ S163842x128.size a := fun v101 k0_hw30 => k0_hw30.1
theorem k0_off131_inb : ∀ (v101 : BitVec 32) (k0_hw30 : k0_chk30 v101), ∀ a, (k0_off131 v101) a + S1x128.size a ≤ S163842x128.size a := fun v101 k0_hw30 => k0_hw30.2

def k0_off132 (v104 : BitVec 32) : Fin 2 → Nat :=
  let c0_i32_293 : BitVec 32 := 0#32
  ![v104.toNat, 0]

def k0_chk31 (v104 : BitVec 32) : Prop :=
  (∀ a, (k0_off112 v104) a + S1x128.size a ≤ S163842x128.size a) ∧
  (∀ a, (k0_off132 v104) a + S1x128.size a ≤ S163842x128.size a)
instance k0_chk31.dec : ∀ (v104 : BitVec 32), Decidable (k0_chk31 v104) := fun v104 => decidable_of_iff' _ (Iff.of_eq (k0_chk31.eq_1 v104))
theorem k0_off112_inb : ∀ (v104 : BitVec 32) (k0_hw31 : k0_chk31 v104), ∀ a, (k0_off112 v104) a + S1x128.size a ≤ S163842x128.size a := fun v104 k0_hw31 => k0_hw31.1
theorem k0_off132_inb : ∀ (v104 : BitVec 32) (k0_hw31 : k0_chk31 v104), ∀ a, (k0_off132 v104) a + S1x128.size a ≤ S163842x128.size a := fun v104 k0_hw31 => k0_hw31.2

@[reducible] def k0_t3_loop : Scf.Loop 32 :=
  let c0_i32_7 : BitVec 32 := 0#32
  let c64_i32_8 : BitVec 32 := 64#32
  let v2 : BitVec 32 := Scalar.addi c0_i32_7 c64_i32_8
  let c1_i32_9 : BitVec 32 := 1#32
  ⟨c0_i32_7, v2, c1_i32_9⟩
def k0_off133 (k0_t3 : Fin k0_t3_loop.trips) (c0_i32_54 : BitVec 32) : Fin 2 → Nat :=
  let c2_55 : Index := 2#32
  let c0_i32_7 : BitVec 32 := 0#32
  let c1_i32_9 : BitVec 32 := 1#32
  let arg9 : BitVec 32 := Scf.iv c0_i32_7 c1_i32_9 k0_t3
  let c16_i32 : BitVec 32 := 16#32
  let v59 : BitVec 32 := Scalar.muli arg9 c16_i32
  let v60 : BitVec 32 := Scalar.addi v59 c0_i32_54
  let v61 : Index := Scalar.indexCast v60
  ![2, v61.toNat]
def k0_off134 (k0_t3 : Fin k0_t3_loop.trips) : Fin 2 → Nat :=
  let c0_i32_7 : BitVec 32 := 0#32
  let c1_i32_9 : BitVec 32 := 1#32
  let arg9 : BitVec 32 := Scf.iv c0_i32_7 c1_i32_9 k0_t3
  let c16_i32 : BitVec 32 := 16#32
  let v59 : BitVec 32 := Scalar.muli arg9 c16_i32
  let c0_i32_77 : BitVec 32 := 0#32
  let v108 : BitVec 32 := Scalar.addi v59 c0_i32_77
  let c0_i32_80 : BitVec 32 := 0#32
  ![v108.toNat, 0]
def k0_off135 (i : grid0.Coords) : Fin 3 → Nat :=
  let arg0 : BitVec 32 := BitVec.ofNat 32 (i 0).val
  let c0_i32_81 : BitVec 32 := 0#32
  let c0_i32_82 : BitVec 32 := 0#32
  ![arg0.toNat, 0, 0]
def k0_off136 (v62 : BitVec 32) : Fin 2 → Nat :=
  let c0_i32_83 : BitVec 32 := 0#32
  ![v62.toNat, 0]

def k0_off137 (k0_t3 : Fin k0_t3_loop.trips) : Fin 2 → Nat :=
  let c0_i32_7 : BitVec 32 := 0#32
  let c1_i32_9 : BitVec 32 := 1#32
  let arg9 : BitVec 32 := Scf.iv c0_i32_7 c1_i32_9 k0_t3
  let c16_i32 : BitVec 32 := 16#32
  let v59 : BitVec 32 := Scalar.muli arg9 c16_i32
  let c1_i32_84 : BitVec 32 := 1#32
  let v117 : BitVec 32 := Scalar.addi v59 c1_i32_84
  let c0_i32_87 : BitVec 32 := 0#32
  ![v117.toNat, 0]
def k0_off138 (i : grid0.Coords) : Fin 3 → Nat :=
  let arg0 : BitVec 32 := BitVec.ofNat 32 (i 0).val
  let c0_i32_88 : BitVec 32 := 0#32
  let c0_i32_89 : BitVec 32 := 0#32
  ![arg0.toNat, 0, 0]
def k0_off139 (v65 : BitVec 32) : Fin 2 → Nat :=
  let c0_i32_90 : BitVec 32 := 0#32
  ![v65.toNat, 0]

def k0_off140 (k0_t3 : Fin k0_t3_loop.trips) : Fin 2 → Nat :=
  let c0_i32_7 : BitVec 32 := 0#32
  let c1_i32_9 : BitVec 32 := 1#32
  let arg9 : BitVec 32 := Scf.iv c0_i32_7 c1_i32_9 k0_t3
  let c16_i32 : BitVec 32 := 16#32
  let v59 : BitVec 32 := Scalar.muli arg9 c16_i32
  let c2_i32_91 : BitVec 32 := 2#32
  let v126 : BitVec 32 := Scalar.addi v59 c2_i32_91
  let c0_i32_94 : BitVec 32 := 0#32
  ![v126.toNat, 0]
def k0_off141 (i : grid0.Coords) : Fin 3 → Nat :=
  let arg0 : BitVec 32 := BitVec.ofNat 32 (i 0).val
  let c0_i32_95 : BitVec 32 := 0#32
  let c0_i32_96 : BitVec 32 := 0#32
  ![arg0.toNat, 0, 0]
def k0_off142 (v68 : BitVec 32) : Fin 2 → Nat :=
  let c0_i32_97 : BitVec 32 := 0#32
  ![v68.toNat, 0]

def k0_off143 (k0_t3 : Fin k0_t3_loop.trips) : Fin 2 → Nat :=
  let c0_i32_7 : BitVec 32 := 0#32
  let c1_i32_9 : BitVec 32 := 1#32
  let arg9 : BitVec 32 := Scf.iv c0_i32_7 c1_i32_9 k0_t3
  let c16_i32 : BitVec 32 := 16#32
  let v59 : BitVec 32 := Scalar.muli arg9 c16_i32
  let c3_i32_98 : BitVec 32 := 3#32
  let v135 : BitVec 32 := Scalar.addi v59 c3_i32_98
  let c0_i32_101 : BitVec 32 := 0#32
  ![v135.toNat, 0]
def k0_off144 (i : grid0.Coords) : Fin 3 → Nat :=
  let arg0 : BitVec 32 := BitVec.ofNat 32 (i 0).val
  let c0_i32_102 : BitVec 32 := 0#32
  let c0_i32_103 : BitVec 32 := 0#32
  ![arg0.toNat, 0, 0]
def k0_off145 (v71 : BitVec 32) : Fin 2 → Nat :=
  let c0_i32_104 : BitVec 32 := 0#32
  ![v71.toNat, 0]

def k0_off146 (k0_t3 : Fin k0_t3_loop.trips) : Fin 2 → Nat :=
  let c0_i32_7 : BitVec 32 := 0#32
  let c1_i32_9 : BitVec 32 := 1#32
  let arg9 : BitVec 32 := Scf.iv c0_i32_7 c1_i32_9 k0_t3
  let c16_i32 : BitVec 32 := 16#32
  let v59 : BitVec 32 := Scalar.muli arg9 c16_i32
  let c4_i32_105 : BitVec 32 := 4#32
  let v144 : BitVec 32 := Scalar.addi v59 c4_i32_105
  let c0_i32_108 : BitVec 32 := 0#32
  ![v144.toNat, 0]
def k0_off147 (i : grid0.Coords) : Fin 3 → Nat :=
  let arg0 : BitVec 32 := BitVec.ofNat 32 (i 0).val
  let c0_i32_109 : BitVec 32 := 0#32
  let c0_i32_110 : BitVec 32 := 0#32
  ![arg0.toNat, 0, 0]
def k0_off148 (v74 : BitVec 32) : Fin 2 → Nat :=
  let c0_i32_111 : BitVec 32 := 0#32
  ![v74.toNat, 0]

def k0_off149 (k0_t3 : Fin k0_t3_loop.trips) : Fin 2 → Nat :=
  let c0_i32_7 : BitVec 32 := 0#32
  let c1_i32_9 : BitVec 32 := 1#32
  let arg9 : BitVec 32 := Scf.iv c0_i32_7 c1_i32_9 k0_t3
  let c16_i32 : BitVec 32 := 16#32
  let v59 : BitVec 32 := Scalar.muli arg9 c16_i32
  let c5_i32_112 : BitVec 32 := 5#32
  let v153 : BitVec 32 := Scalar.addi v59 c5_i32_112
  let c0_i32_115 : BitVec 32 := 0#32
  ![v153.toNat, 0]
def k0_off150 (i : grid0.Coords) : Fin 3 → Nat :=
  let arg0 : BitVec 32 := BitVec.ofNat 32 (i 0).val
  let c0_i32_116 : BitVec 32 := 0#32
  let c0_i32_117 : BitVec 32 := 0#32
  ![arg0.toNat, 0, 0]
def k0_off151 (v77 : BitVec 32) : Fin 2 → Nat :=
  let c0_i32_118 : BitVec 32 := 0#32
  ![v77.toNat, 0]

def k0_off152 (k0_t3 : Fin k0_t3_loop.trips) : Fin 2 → Nat :=
  let c0_i32_7 : BitVec 32 := 0#32
  let c1_i32_9 : BitVec 32 := 1#32
  let arg9 : BitVec 32 := Scf.iv c0_i32_7 c1_i32_9 k0_t3
  let c16_i32 : BitVec 32 := 16#32
  let v59 : BitVec 32 := Scalar.muli arg9 c16_i32
  let c6_i32_119 : BitVec 32 := 6#32
  let v162 : BitVec 32 := Scalar.addi v59 c6_i32_119
  let c0_i32_122 : BitVec 32 := 0#32
  ![v162.toNat, 0]
def k0_off153 (i : grid0.Coords) : Fin 3 → Nat :=
  let arg0 : BitVec 32 := BitVec.ofNat 32 (i 0).val
  let c0_i32_123 : BitVec 32 := 0#32
  let c0_i32_124 : BitVec 32 := 0#32
  ![arg0.toNat, 0, 0]
def k0_off154 (v80 : BitVec 32) : Fin 2 → Nat :=
  let c0_i32_125 : BitVec 32 := 0#32
  ![v80.toNat, 0]

def k0_off155 (k0_t3 : Fin k0_t3_loop.trips) : Fin 2 → Nat :=
  let c0_i32_7 : BitVec 32 := 0#32
  let c1_i32_9 : BitVec 32 := 1#32
  let arg9 : BitVec 32 := Scf.iv c0_i32_7 c1_i32_9 k0_t3
  let c16_i32 : BitVec 32 := 16#32
  let v59 : BitVec 32 := Scalar.muli arg9 c16_i32
  let c7_i32_126 : BitVec 32 := 7#32
  let v171 : BitVec 32 := Scalar.addi v59 c7_i32_126
  let c0_i32_129 : BitVec 32 := 0#32
  ![v171.toNat, 0]
def k0_off156 (i : grid0.Coords) : Fin 3 → Nat :=
  let arg0 : BitVec 32 := BitVec.ofNat 32 (i 0).val
  let c0_i32_130 : BitVec 32 := 0#32
  let c0_i32_131 : BitVec 32 := 0#32
  ![arg0.toNat, 0, 0]
def k0_off157 (v83 : BitVec 32) : Fin 2 → Nat :=
  let c0_i32_132 : BitVec 32 := 0#32
  ![v83.toNat, 0]

def k0_off158 (k0_t3 : Fin k0_t3_loop.trips) : Fin 2 → Nat :=
  let c0_i32_7 : BitVec 32 := 0#32
  let c1_i32_9 : BitVec 32 := 1#32
  let arg9 : BitVec 32 := Scf.iv c0_i32_7 c1_i32_9 k0_t3
  let c16_i32 : BitVec 32 := 16#32
  let v59 : BitVec 32 := Scalar.muli arg9 c16_i32
  let c8_i32_133 : BitVec 32 := 8#32
  let v180 : BitVec 32 := Scalar.addi v59 c8_i32_133
  let c0_i32_136 : BitVec 32 := 0#32
  ![v180.toNat, 0]
def k0_off159 (i : grid0.Coords) : Fin 3 → Nat :=
  let arg0 : BitVec 32 := BitVec.ofNat 32 (i 0).val
  let c0_i32_137 : BitVec 32 := 0#32
  let c0_i32_138 : BitVec 32 := 0#32
  ![arg0.toNat, 0, 0]
def k0_off160 (v86 : BitVec 32) : Fin 2 → Nat :=
  let c0_i32_139 : BitVec 32 := 0#32
  ![v86.toNat, 0]

def k0_off161 (k0_t3 : Fin k0_t3_loop.trips) : Fin 2 → Nat :=
  let c0_i32_7 : BitVec 32 := 0#32
  let c1_i32_9 : BitVec 32 := 1#32
  let arg9 : BitVec 32 := Scf.iv c0_i32_7 c1_i32_9 k0_t3
  let c16_i32 : BitVec 32 := 16#32
  let v59 : BitVec 32 := Scalar.muli arg9 c16_i32
  let c9_i32_140 : BitVec 32 := 9#32
  let v189 : BitVec 32 := Scalar.addi v59 c9_i32_140
  let c0_i32_143 : BitVec 32 := 0#32
  ![v189.toNat, 0]
def k0_off162 (i : grid0.Coords) : Fin 3 → Nat :=
  let arg0 : BitVec 32 := BitVec.ofNat 32 (i 0).val
  let c0_i32_144 : BitVec 32 := 0#32
  let c0_i32_145 : BitVec 32 := 0#32
  ![arg0.toNat, 0, 0]
def k0_off163 (v89 : BitVec 32) : Fin 2 → Nat :=
  let c0_i32_146 : BitVec 32 := 0#32
  ![v89.toNat, 0]

def k0_off164 (k0_t3 : Fin k0_t3_loop.trips) : Fin 2 → Nat :=
  let c0_i32_7 : BitVec 32 := 0#32
  let c1_i32_9 : BitVec 32 := 1#32
  let arg9 : BitVec 32 := Scf.iv c0_i32_7 c1_i32_9 k0_t3
  let c16_i32 : BitVec 32 := 16#32
  let v59 : BitVec 32 := Scalar.muli arg9 c16_i32
  let c10_i32_147 : BitVec 32 := 10#32
  let v198 : BitVec 32 := Scalar.addi v59 c10_i32_147
  let c0_i32_150 : BitVec 32 := 0#32
  ![v198.toNat, 0]
def k0_off165 (i : grid0.Coords) : Fin 3 → Nat :=
  let arg0 : BitVec 32 := BitVec.ofNat 32 (i 0).val
  let c0_i32_151 : BitVec 32 := 0#32
  let c0_i32_152 : BitVec 32 := 0#32
  ![arg0.toNat, 0, 0]
def k0_off166 (v92 : BitVec 32) : Fin 2 → Nat :=
  let c0_i32_153 : BitVec 32 := 0#32
  ![v92.toNat, 0]

def k0_off167 (k0_t3 : Fin k0_t3_loop.trips) : Fin 2 → Nat :=
  let c0_i32_7 : BitVec 32 := 0#32
  let c1_i32_9 : BitVec 32 := 1#32
  let arg9 : BitVec 32 := Scf.iv c0_i32_7 c1_i32_9 k0_t3
  let c16_i32 : BitVec 32 := 16#32
  let v59 : BitVec 32 := Scalar.muli arg9 c16_i32
  let c11_i32_154 : BitVec 32 := 11#32
  let v207 : BitVec 32 := Scalar.addi v59 c11_i32_154
  let c0_i32_157 : BitVec 32 := 0#32
  ![v207.toNat, 0]
def k0_off168 (i : grid0.Coords) : Fin 3 → Nat :=
  let arg0 : BitVec 32 := BitVec.ofNat 32 (i 0).val
  let c0_i32_158 : BitVec 32 := 0#32
  let c0_i32_159 : BitVec 32 := 0#32
  ![arg0.toNat, 0, 0]
def k0_off169 (v95 : BitVec 32) : Fin 2 → Nat :=
  let c0_i32_160 : BitVec 32 := 0#32
  ![v95.toNat, 0]

def k0_off170 (k0_t3 : Fin k0_t3_loop.trips) : Fin 2 → Nat :=
  let c0_i32_7 : BitVec 32 := 0#32
  let c1_i32_9 : BitVec 32 := 1#32
  let arg9 : BitVec 32 := Scf.iv c0_i32_7 c1_i32_9 k0_t3
  let c16_i32 : BitVec 32 := 16#32
  let v59 : BitVec 32 := Scalar.muli arg9 c16_i32
  let c12_i32_161 : BitVec 32 := 12#32
  let v216 : BitVec 32 := Scalar.addi v59 c12_i32_161
  let c0_i32_164 : BitVec 32 := 0#32
  ![v216.toNat, 0]
def k0_off171 (i : grid0.Coords) : Fin 3 → Nat :=
  let arg0 : BitVec 32 := BitVec.ofNat 32 (i 0).val
  let c0_i32_165 : BitVec 32 := 0#32
  let c0_i32_166 : BitVec 32 := 0#32
  ![arg0.toNat, 0, 0]
def k0_off172 (v98 : BitVec 32) : Fin 2 → Nat :=
  let c0_i32_167 : BitVec 32 := 0#32
  ![v98.toNat, 0]

def k0_off173 (k0_t3 : Fin k0_t3_loop.trips) : Fin 2 → Nat :=
  let c0_i32_7 : BitVec 32 := 0#32
  let c1_i32_9 : BitVec 32 := 1#32
  let arg9 : BitVec 32 := Scf.iv c0_i32_7 c1_i32_9 k0_t3
  let c16_i32 : BitVec 32 := 16#32
  let v59 : BitVec 32 := Scalar.muli arg9 c16_i32
  let c13_i32_168 : BitVec 32 := 13#32
  let v225 : BitVec 32 := Scalar.addi v59 c13_i32_168
  let c0_i32_171 : BitVec 32 := 0#32
  ![v225.toNat, 0]
def k0_off174 (i : grid0.Coords) : Fin 3 → Nat :=
  let arg0 : BitVec 32 := BitVec.ofNat 32 (i 0).val
  let c0_i32_172 : BitVec 32 := 0#32
  let c0_i32_173 : BitVec 32 := 0#32
  ![arg0.toNat, 0, 0]
def k0_off175 (v101 : BitVec 32) : Fin 2 → Nat :=
  let c0_i32_174 : BitVec 32 := 0#32
  ![v101.toNat, 0]

def k0_off176 (k0_t3 : Fin k0_t3_loop.trips) : Fin 2 → Nat :=
  let c0_i32_7 : BitVec 32 := 0#32
  let c1_i32_9 : BitVec 32 := 1#32
  let arg9 : BitVec 32 := Scf.iv c0_i32_7 c1_i32_9 k0_t3
  let c16_i32 : BitVec 32 := 16#32
  let v59 : BitVec 32 := Scalar.muli arg9 c16_i32
  let c14_i32_175 : BitVec 32 := 14#32
  let v234 : BitVec 32 := Scalar.addi v59 c14_i32_175
  let c0_i32_178 : BitVec 32 := 0#32
  ![v234.toNat, 0]
def k0_off177 (i : grid0.Coords) : Fin 3 → Nat :=
  let arg0 : BitVec 32 := BitVec.ofNat 32 (i 0).val
  let c0_i32_179 : BitVec 32 := 0#32
  let c0_i32_180 : BitVec 32 := 0#32
  ![arg0.toNat, 0, 0]
def k0_off178 (v104 : BitVec 32) : Fin 2 → Nat :=
  let c0_i32_181 : BitVec 32 := 0#32
  ![v104.toNat, 0]

def k0_off179 (k0_t3 : Fin k0_t3_loop.trips) : Fin 2 → Nat :=
  let c0_i32_7 : BitVec 32 := 0#32
  let c1_i32_9 : BitVec 32 := 1#32
  let arg9 : BitVec 32 := Scf.iv c0_i32_7 c1_i32_9 k0_t3
  let c16_i32 : BitVec 32 := 16#32
  let v59 : BitVec 32 := Scalar.muli arg9 c16_i32
  let c15_i32_182 : BitVec 32 := 15#32
  let v243 : BitVec 32 := Scalar.addi v59 c15_i32_182
  let c0_i32_185 : BitVec 32 := 0#32
  ![v243.toNat, 0]
def k0_off180 (i : grid0.Coords) : Fin 3 → Nat :=
  let arg0 : BitVec 32 := BitVec.ofNat 32 (i 0).val
  let c0_i32_186 : BitVec 32 := 0#32
  let c0_i32_187 : BitVec 32 := 0#32
  ![arg0.toNat, 0, 0]
def k0_off181 (v107 : BitVec 32) : Fin 2 → Nat :=
  let c0_i32_188 : BitVec 32 := 0#32
  ![v107.toNat, 0]

def k0_chk48 (v107 : BitVec 32) : Prop :=
  (∀ a, (k0_off181 v107) a + S1x128.size a ≤ S163842x128.size a)
instance k0_chk48.dec : ∀ (v107 : BitVec 32), Decidable (k0_chk48 v107) := fun v107 => decidable_of_iff' _ (Iff.of_eq (k0_chk48.eq_1 v107))
theorem k0_off181_inb : ∀ (v107 : BitVec 32) (k0_hw48 : k0_chk48 v107), ∀ a, (k0_off181 v107) a + S1x128.size a ≤ S163842x128.size a := fun v107 k0_hw48 => k0_hw48

def k0_off182 (k0_t3 : Fin k0_t3_loop.trips) (c0_i32_189 : BitVec 32) : Fin 2 → Nat :=
  let c0_i32_7 : BitVec 32 := 0#32
  let c1_i32_9 : BitVec 32 := 1#32
  let arg9 : BitVec 32 := Scf.iv c0_i32_7 c1_i32_9 k0_t3
  let c16_i32 : BitVec 32 := 16#32
  let v59 : BitVec 32 := Scalar.muli arg9 c16_i32
  let v252 : BitVec 32 := Scalar.addi v59 c0_i32_189
  let c0_i32_192 : BitVec 32 := 0#32
  ![v252.toNat, 0]
def k0_off183 (i : grid0.Coords) : Fin 3 → Nat :=
  let arg0 : BitVec 32 := BitVec.ofNat 32 (i 0).val
  let c0_i32_193 : BitVec 32 := 0#32
  let c0_i32_194 : BitVec 32 := 0#32
  ![arg0.toNat, 0, 0]
def k0_off184 (v62 : BitVec 32) : Fin 2 → Nat :=
  let c0_i32_195 : BitVec 32 := 0#32
  ![v62.toNat, 0]

def k0_chk33 (v62 : BitVec 32) : Prop :=
  (∀ a, (k0_off136 v62) a + S1x128.size a ≤ S163842x128.size a) ∧
  (∀ a, (k0_off184 v62) a + S1x128.size a ≤ S163842x128.size a)
instance k0_chk33.dec : ∀ (v62 : BitVec 32), Decidable (k0_chk33 v62) := fun v62 => decidable_of_iff' _ (Iff.of_eq (k0_chk33.eq_1 v62))
theorem k0_off136_inb : ∀ (v62 : BitVec 32) (k0_hw33 : k0_chk33 v62), ∀ a, (k0_off136 v62) a + S1x128.size a ≤ S163842x128.size a := fun v62 k0_hw33 => k0_hw33.1
theorem k0_off184_inb : ∀ (v62 : BitVec 32) (k0_hw33 : k0_chk33 v62), ∀ a, (k0_off184 v62) a + S1x128.size a ≤ S163842x128.size a := fun v62 k0_hw33 => k0_hw33.2

def k0_off185 (v65 : BitVec 32) : Fin 2 → Nat :=
  let c0_i32_202 : BitVec 32 := 0#32
  ![v65.toNat, 0]

def k0_chk34 (v65 : BitVec 32) : Prop :=
  (∀ a, (k0_off139 v65) a + S1x128.size a ≤ S163842x128.size a) ∧
  (∀ a, (k0_off185 v65) a + S1x128.size a ≤ S163842x128.size a)
instance k0_chk34.dec : ∀ (v65 : BitVec 32), Decidable (k0_chk34 v65) := fun v65 => decidable_of_iff' _ (Iff.of_eq (k0_chk34.eq_1 v65))
theorem k0_off139_inb : ∀ (v65 : BitVec 32) (k0_hw34 : k0_chk34 v65), ∀ a, (k0_off139 v65) a + S1x128.size a ≤ S163842x128.size a := fun v65 k0_hw34 => k0_hw34.1
theorem k0_off185_inb : ∀ (v65 : BitVec 32) (k0_hw34 : k0_chk34 v65), ∀ a, (k0_off185 v65) a + S1x128.size a ≤ S163842x128.size a := fun v65 k0_hw34 => k0_hw34.2

def k0_off186 (v68 : BitVec 32) : Fin 2 → Nat :=
  let c0_i32_209 : BitVec 32 := 0#32
  ![v68.toNat, 0]

def k0_chk35 (v68 : BitVec 32) : Prop :=
  (∀ a, (k0_off142 v68) a + S1x128.size a ≤ S163842x128.size a) ∧
  (∀ a, (k0_off186 v68) a + S1x128.size a ≤ S163842x128.size a)
instance k0_chk35.dec : ∀ (v68 : BitVec 32), Decidable (k0_chk35 v68) := fun v68 => decidable_of_iff' _ (Iff.of_eq (k0_chk35.eq_1 v68))
theorem k0_off142_inb : ∀ (v68 : BitVec 32) (k0_hw35 : k0_chk35 v68), ∀ a, (k0_off142 v68) a + S1x128.size a ≤ S163842x128.size a := fun v68 k0_hw35 => k0_hw35.1
theorem k0_off186_inb : ∀ (v68 : BitVec 32) (k0_hw35 : k0_chk35 v68), ∀ a, (k0_off186 v68) a + S1x128.size a ≤ S163842x128.size a := fun v68 k0_hw35 => k0_hw35.2

def k0_off187 (v71 : BitVec 32) : Fin 2 → Nat :=
  let c0_i32_216 : BitVec 32 := 0#32
  ![v71.toNat, 0]

def k0_chk36 (v71 : BitVec 32) : Prop :=
  (∀ a, (k0_off145 v71) a + S1x128.size a ≤ S163842x128.size a) ∧
  (∀ a, (k0_off187 v71) a + S1x128.size a ≤ S163842x128.size a)
instance k0_chk36.dec : ∀ (v71 : BitVec 32), Decidable (k0_chk36 v71) := fun v71 => decidable_of_iff' _ (Iff.of_eq (k0_chk36.eq_1 v71))
theorem k0_off145_inb : ∀ (v71 : BitVec 32) (k0_hw36 : k0_chk36 v71), ∀ a, (k0_off145 v71) a + S1x128.size a ≤ S163842x128.size a := fun v71 k0_hw36 => k0_hw36.1
theorem k0_off187_inb : ∀ (v71 : BitVec 32) (k0_hw36 : k0_chk36 v71), ∀ a, (k0_off187 v71) a + S1x128.size a ≤ S163842x128.size a := fun v71 k0_hw36 => k0_hw36.2

def k0_off188 (v74 : BitVec 32) : Fin 2 → Nat :=
  let c0_i32_223 : BitVec 32 := 0#32
  ![v74.toNat, 0]

def k0_chk37 (v74 : BitVec 32) : Prop :=
  (∀ a, (k0_off148 v74) a + S1x128.size a ≤ S163842x128.size a) ∧
  (∀ a, (k0_off188 v74) a + S1x128.size a ≤ S163842x128.size a)
instance k0_chk37.dec : ∀ (v74 : BitVec 32), Decidable (k0_chk37 v74) := fun v74 => decidable_of_iff' _ (Iff.of_eq (k0_chk37.eq_1 v74))
theorem k0_off148_inb : ∀ (v74 : BitVec 32) (k0_hw37 : k0_chk37 v74), ∀ a, (k0_off148 v74) a + S1x128.size a ≤ S163842x128.size a := fun v74 k0_hw37 => k0_hw37.1
theorem k0_off188_inb : ∀ (v74 : BitVec 32) (k0_hw37 : k0_chk37 v74), ∀ a, (k0_off188 v74) a + S1x128.size a ≤ S163842x128.size a := fun v74 k0_hw37 => k0_hw37.2

def k0_off189 (v77 : BitVec 32) : Fin 2 → Nat :=
  let c0_i32_230 : BitVec 32 := 0#32
  ![v77.toNat, 0]

def k0_chk38 (v77 : BitVec 32) : Prop :=
  (∀ a, (k0_off151 v77) a + S1x128.size a ≤ S163842x128.size a) ∧
  (∀ a, (k0_off189 v77) a + S1x128.size a ≤ S163842x128.size a)
instance k0_chk38.dec : ∀ (v77 : BitVec 32), Decidable (k0_chk38 v77) := fun v77 => decidable_of_iff' _ (Iff.of_eq (k0_chk38.eq_1 v77))
theorem k0_off151_inb : ∀ (v77 : BitVec 32) (k0_hw38 : k0_chk38 v77), ∀ a, (k0_off151 v77) a + S1x128.size a ≤ S163842x128.size a := fun v77 k0_hw38 => k0_hw38.1
theorem k0_off189_inb : ∀ (v77 : BitVec 32) (k0_hw38 : k0_chk38 v77), ∀ a, (k0_off189 v77) a + S1x128.size a ≤ S163842x128.size a := fun v77 k0_hw38 => k0_hw38.2

def k0_off190 (v80 : BitVec 32) : Fin 2 → Nat :=
  let c0_i32_237 : BitVec 32 := 0#32
  ![v80.toNat, 0]

def k0_chk39 (v80 : BitVec 32) : Prop :=
  (∀ a, (k0_off154 v80) a + S1x128.size a ≤ S163842x128.size a) ∧
  (∀ a, (k0_off190 v80) a + S1x128.size a ≤ S163842x128.size a)
instance k0_chk39.dec : ∀ (v80 : BitVec 32), Decidable (k0_chk39 v80) := fun v80 => decidable_of_iff' _ (Iff.of_eq (k0_chk39.eq_1 v80))
theorem k0_off154_inb : ∀ (v80 : BitVec 32) (k0_hw39 : k0_chk39 v80), ∀ a, (k0_off154 v80) a + S1x128.size a ≤ S163842x128.size a := fun v80 k0_hw39 => k0_hw39.1
theorem k0_off190_inb : ∀ (v80 : BitVec 32) (k0_hw39 : k0_chk39 v80), ∀ a, (k0_off190 v80) a + S1x128.size a ≤ S163842x128.size a := fun v80 k0_hw39 => k0_hw39.2

def k0_off191 (v83 : BitVec 32) : Fin 2 → Nat :=
  let c0_i32_244 : BitVec 32 := 0#32
  ![v83.toNat, 0]

def k0_chk40 (v83 : BitVec 32) : Prop :=
  (∀ a, (k0_off157 v83) a + S1x128.size a ≤ S163842x128.size a) ∧
  (∀ a, (k0_off191 v83) a + S1x128.size a ≤ S163842x128.size a)
instance k0_chk40.dec : ∀ (v83 : BitVec 32), Decidable (k0_chk40 v83) := fun v83 => decidable_of_iff' _ (Iff.of_eq (k0_chk40.eq_1 v83))
theorem k0_off157_inb : ∀ (v83 : BitVec 32) (k0_hw40 : k0_chk40 v83), ∀ a, (k0_off157 v83) a + S1x128.size a ≤ S163842x128.size a := fun v83 k0_hw40 => k0_hw40.1
theorem k0_off191_inb : ∀ (v83 : BitVec 32) (k0_hw40 : k0_chk40 v83), ∀ a, (k0_off191 v83) a + S1x128.size a ≤ S163842x128.size a := fun v83 k0_hw40 => k0_hw40.2

def k0_off192 (v86 : BitVec 32) : Fin 2 → Nat :=
  let c0_i32_251 : BitVec 32 := 0#32
  ![v86.toNat, 0]

def k0_chk41 (v86 : BitVec 32) : Prop :=
  (∀ a, (k0_off160 v86) a + S1x128.size a ≤ S163842x128.size a) ∧
  (∀ a, (k0_off192 v86) a + S1x128.size a ≤ S163842x128.size a)
instance k0_chk41.dec : ∀ (v86 : BitVec 32), Decidable (k0_chk41 v86) := fun v86 => decidable_of_iff' _ (Iff.of_eq (k0_chk41.eq_1 v86))
theorem k0_off160_inb : ∀ (v86 : BitVec 32) (k0_hw41 : k0_chk41 v86), ∀ a, (k0_off160 v86) a + S1x128.size a ≤ S163842x128.size a := fun v86 k0_hw41 => k0_hw41.1
theorem k0_off192_inb : ∀ (v86 : BitVec 32) (k0_hw41 : k0_chk41 v86), ∀ a, (k0_off192 v86) a + S1x128.size a ≤ S163842x128.size a := fun v86 k0_hw41 => k0_hw41.2

def k0_off193 (v89 : BitVec 32) : Fin 2 → Nat :=
  let c0_i32_258 : BitVec 32 := 0#32
  ![v89.toNat, 0]

def k0_chk42 (v89 : BitVec 32) : Prop :=
  (∀ a, (k0_off163 v89) a + S1x128.size a ≤ S163842x128.size a) ∧
  (∀ a, (k0_off193 v89) a + S1x128.size a ≤ S163842x128.size a)
instance k0_chk42.dec : ∀ (v89 : BitVec 32), Decidable (k0_chk42 v89) := fun v89 => decidable_of_iff' _ (Iff.of_eq (k0_chk42.eq_1 v89))
theorem k0_off163_inb : ∀ (v89 : BitVec 32) (k0_hw42 : k0_chk42 v89), ∀ a, (k0_off163 v89) a + S1x128.size a ≤ S163842x128.size a := fun v89 k0_hw42 => k0_hw42.1
theorem k0_off193_inb : ∀ (v89 : BitVec 32) (k0_hw42 : k0_chk42 v89), ∀ a, (k0_off193 v89) a + S1x128.size a ≤ S163842x128.size a := fun v89 k0_hw42 => k0_hw42.2

def k0_off194 (v92 : BitVec 32) : Fin 2 → Nat :=
  let c0_i32_265 : BitVec 32 := 0#32
  ![v92.toNat, 0]

def k0_chk43 (v92 : BitVec 32) : Prop :=
  (∀ a, (k0_off166 v92) a + S1x128.size a ≤ S163842x128.size a) ∧
  (∀ a, (k0_off194 v92) a + S1x128.size a ≤ S163842x128.size a)
instance k0_chk43.dec : ∀ (v92 : BitVec 32), Decidable (k0_chk43 v92) := fun v92 => decidable_of_iff' _ (Iff.of_eq (k0_chk43.eq_1 v92))
theorem k0_off166_inb : ∀ (v92 : BitVec 32) (k0_hw43 : k0_chk43 v92), ∀ a, (k0_off166 v92) a + S1x128.size a ≤ S163842x128.size a := fun v92 k0_hw43 => k0_hw43.1
theorem k0_off194_inb : ∀ (v92 : BitVec 32) (k0_hw43 : k0_chk43 v92), ∀ a, (k0_off194 v92) a + S1x128.size a ≤ S163842x128.size a := fun v92 k0_hw43 => k0_hw43.2

def k0_off195 (v95 : BitVec 32) : Fin 2 → Nat :=
  let c0_i32_272 : BitVec 32 := 0#32
  ![v95.toNat, 0]

def k0_chk44 (v95 : BitVec 32) : Prop :=
  (∀ a, (k0_off169 v95) a + S1x128.size a ≤ S163842x128.size a) ∧
  (∀ a, (k0_off195 v95) a + S1x128.size a ≤ S163842x128.size a)
instance k0_chk44.dec : ∀ (v95 : BitVec 32), Decidable (k0_chk44 v95) := fun v95 => decidable_of_iff' _ (Iff.of_eq (k0_chk44.eq_1 v95))
theorem k0_off169_inb : ∀ (v95 : BitVec 32) (k0_hw44 : k0_chk44 v95), ∀ a, (k0_off169 v95) a + S1x128.size a ≤ S163842x128.size a := fun v95 k0_hw44 => k0_hw44.1
theorem k0_off195_inb : ∀ (v95 : BitVec 32) (k0_hw44 : k0_chk44 v95), ∀ a, (k0_off195 v95) a + S1x128.size a ≤ S163842x128.size a := fun v95 k0_hw44 => k0_hw44.2

def k0_off196 (v98 : BitVec 32) : Fin 2 → Nat :=
  let c0_i32_279 : BitVec 32 := 0#32
  ![v98.toNat, 0]

def k0_chk45 (v98 : BitVec 32) : Prop :=
  (∀ a, (k0_off172 v98) a + S1x128.size a ≤ S163842x128.size a) ∧
  (∀ a, (k0_off196 v98) a + S1x128.size a ≤ S163842x128.size a)
instance k0_chk45.dec : ∀ (v98 : BitVec 32), Decidable (k0_chk45 v98) := fun v98 => decidable_of_iff' _ (Iff.of_eq (k0_chk45.eq_1 v98))
theorem k0_off172_inb : ∀ (v98 : BitVec 32) (k0_hw45 : k0_chk45 v98), ∀ a, (k0_off172 v98) a + S1x128.size a ≤ S163842x128.size a := fun v98 k0_hw45 => k0_hw45.1
theorem k0_off196_inb : ∀ (v98 : BitVec 32) (k0_hw45 : k0_chk45 v98), ∀ a, (k0_off196 v98) a + S1x128.size a ≤ S163842x128.size a := fun v98 k0_hw45 => k0_hw45.2

def k0_off197 (v101 : BitVec 32) : Fin 2 → Nat :=
  let c0_i32_286 : BitVec 32 := 0#32
  ![v101.toNat, 0]

def k0_chk46 (v101 : BitVec 32) : Prop :=
  (∀ a, (k0_off175 v101) a + S1x128.size a ≤ S163842x128.size a) ∧
  (∀ a, (k0_off197 v101) a + S1x128.size a ≤ S163842x128.size a)
instance k0_chk46.dec : ∀ (v101 : BitVec 32), Decidable (k0_chk46 v101) := fun v101 => decidable_of_iff' _ (Iff.of_eq (k0_chk46.eq_1 v101))
theorem k0_off175_inb : ∀ (v101 : BitVec 32) (k0_hw46 : k0_chk46 v101), ∀ a, (k0_off175 v101) a + S1x128.size a ≤ S163842x128.size a := fun v101 k0_hw46 => k0_hw46.1
theorem k0_off197_inb : ∀ (v101 : BitVec 32) (k0_hw46 : k0_chk46 v101), ∀ a, (k0_off197 v101) a + S1x128.size a ≤ S163842x128.size a := fun v101 k0_hw46 => k0_hw46.2

def k0_off198 (v104 : BitVec 32) : Fin 2 → Nat :=
  let c0_i32_293 : BitVec 32 := 0#32
  ![v104.toNat, 0]

def k0_chk47 (v104 : BitVec 32) : Prop :=
  (∀ a, (k0_off178 v104) a + S1x128.size a ≤ S163842x128.size a) ∧
  (∀ a, (k0_off198 v104) a + S1x128.size a ≤ S163842x128.size a)
instance k0_chk47.dec : ∀ (v104 : BitVec 32), Decidable (k0_chk47 v104) := fun v104 => decidable_of_iff' _ (Iff.of_eq (k0_chk47.eq_1 v104))
theorem k0_off178_inb : ∀ (v104 : BitVec 32) (k0_hw47 : k0_chk47 v104), ∀ a, (k0_off178 v104) a + S1x128.size a ≤ S163842x128.size a := fun v104 k0_hw47 => k0_hw47.1
theorem k0_off198_inb : ∀ (v104 : BitVec 32) (k0_hw47 : k0_chk47 v104), ∀ a, (k0_off198 v104) a + S1x128.size a ≤ S163842x128.size a := fun v104 k0_hw47 => k0_hw47.2

@[reducible] def k0_t4_loop : Scf.Loop 32 :=
  let c0_i32_11 : BitVec 32 := 0#32
  let c64_i32_12 : BitVec 32 := 64#32
  let v3 : BitVec 32 := Scalar.addi c0_i32_11 c64_i32_12
  let c1_i32_13 : BitVec 32 := 1#32
  ⟨c0_i32_11, v3, c1_i32_13⟩
def k0_off199 (k0_t4 : Fin k0_t4_loop.trips) (c0_i32_54 : BitVec 32) : Fin 2 → Nat :=
  let c3_55 : Index := 3#32
  let c0_i32_11 : BitVec 32 := 0#32
  let c1_i32_13 : BitVec 32 := 1#32
  let arg9 : BitVec 32 := Scf.iv c0_i32_11 c1_i32_13 k0_t4
  let c16_i32 : BitVec 32 := 16#32
  let v59 : BitVec 32 := Scalar.muli arg9 c16_i32
  let v60 : BitVec 32 := Scalar.addi v59 c0_i32_54
  let v61 : Index := Scalar.indexCast v60
  ![3, v61.toNat]
def k0_off200 (k0_t4 : Fin k0_t4_loop.trips) : Fin 2 → Nat :=
  let c0_i32_11 : BitVec 32 := 0#32
  let c1_i32_13 : BitVec 32 := 1#32
  let arg9 : BitVec 32 := Scf.iv c0_i32_11 c1_i32_13 k0_t4
  let c16_i32 : BitVec 32 := 16#32
  let v59 : BitVec 32 := Scalar.muli arg9 c16_i32
  let c0_i32_77 : BitVec 32 := 0#32
  let v108 : BitVec 32 := Scalar.addi v59 c0_i32_77
  let c0_i32_80 : BitVec 32 := 0#32
  ![v108.toNat, 0]
def k0_off201 (i : grid0.Coords) : Fin 3 → Nat :=
  let arg0 : BitVec 32 := BitVec.ofNat 32 (i 0).val
  let c0_i32_81 : BitVec 32 := 0#32
  let c0_i32_82 : BitVec 32 := 0#32
  ![arg0.toNat, 0, 0]
def k0_off202 (v62 : BitVec 32) : Fin 2 → Nat :=
  let c0_i32_83 : BitVec 32 := 0#32
  ![v62.toNat, 0]

def k0_off203 (k0_t4 : Fin k0_t4_loop.trips) : Fin 2 → Nat :=
  let c0_i32_11 : BitVec 32 := 0#32
  let c1_i32_13 : BitVec 32 := 1#32
  let arg9 : BitVec 32 := Scf.iv c0_i32_11 c1_i32_13 k0_t4
  let c16_i32 : BitVec 32 := 16#32
  let v59 : BitVec 32 := Scalar.muli arg9 c16_i32
  let c1_i32_84 : BitVec 32 := 1#32
  let v117 : BitVec 32 := Scalar.addi v59 c1_i32_84
  let c0_i32_87 : BitVec 32 := 0#32
  ![v117.toNat, 0]
def k0_off204 (i : grid0.Coords) : Fin 3 → Nat :=
  let arg0 : BitVec 32 := BitVec.ofNat 32 (i 0).val
  let c0_i32_88 : BitVec 32 := 0#32
  let c0_i32_89 : BitVec 32 := 0#32
  ![arg0.toNat, 0, 0]
def k0_off205 (v65 : BitVec 32) : Fin 2 → Nat :=
  let c0_i32_90 : BitVec 32 := 0#32
  ![v65.toNat, 0]

def k0_off206 (k0_t4 : Fin k0_t4_loop.trips) : Fin 2 → Nat :=
  let c0_i32_11 : BitVec 32 := 0#32
  let c1_i32_13 : BitVec 32 := 1#32
  let arg9 : BitVec 32 := Scf.iv c0_i32_11 c1_i32_13 k0_t4
  let c16_i32 : BitVec 32 := 16#32
  let v59 : BitVec 32 := Scalar.muli arg9 c16_i32
  let c2_i32_91 : BitVec 32 := 2#32
  let v126 : BitVec 32 := Scalar.addi v59 c2_i32_91
  let c0_i32_94 : BitVec 32 := 0#32
  ![v126.toNat, 0]
def k0_off207 (i : grid0.Coords) : Fin 3 → Nat :=
  let arg0 : BitVec 32 := BitVec.ofNat 32 (i 0).val
  let c0_i32_95 : BitVec 32 := 0#32
  let c0_i32_96 : BitVec 32 := 0#32
  ![arg0.toNat, 0, 0]
def k0_off208 (v68 : BitVec 32) : Fin 2 → Nat :=
  let c0_i32_97 : BitVec 32 := 0#32
  ![v68.toNat, 0]

def k0_off209 (k0_t4 : Fin k0_t4_loop.trips) : Fin 2 → Nat :=
  let c0_i32_11 : BitVec 32 := 0#32
  let c1_i32_13 : BitVec 32 := 1#32
  let arg9 : BitVec 32 := Scf.iv c0_i32_11 c1_i32_13 k0_t4
  let c16_i32 : BitVec 32 := 16#32
  let v59 : BitVec 32 := Scalar.muli arg9 c16_i32
  let c3_i32_98 : BitVec 32 := 3#32
  let v135 : BitVec 32 := Scalar.addi v59 c3_i32_98
  let c0_i32_101 : BitVec 32 := 0#32
  ![v135.toNat, 0]
def k0_off210 (i : grid0.Coords) : Fin 3 → Nat :=
  let arg0 : BitVec 32 := BitVec.ofNat 32 (i 0).val
  let c0_i32_102 : BitVec 32 := 0#32
  let c0_i32_103 : BitVec 32 := 0#32
  ![arg0.toNat, 0, 0]
def k0_off211 (v71 : BitVec 32) : Fin 2 → Nat :=
  let c0_i32_104 : BitVec 32 := 0#32
  ![v71.toNat, 0]

def k0_off212 (k0_t4 : Fin k0_t4_loop.trips) : Fin 2 → Nat :=
  let c0_i32_11 : BitVec 32 := 0#32
  let c1_i32_13 : BitVec 32 := 1#32
  let arg9 : BitVec 32 := Scf.iv c0_i32_11 c1_i32_13 k0_t4
  let c16_i32 : BitVec 32 := 16#32
  let v59 : BitVec 32 := Scalar.muli arg9 c16_i32
  let c4_i32_105 : BitVec 32 := 4#32
  let v144 : BitVec 32 := Scalar.addi v59 c4_i32_105
  let c0_i32_108 : BitVec 32 := 0#32
  ![v144.toNat, 0]
def k0_off213 (i : grid0.Coords) : Fin 3 → Nat :=
  let arg0 : BitVec 32 := BitVec.ofNat 32 (i 0).val
  let c0_i32_109 : BitVec 32 := 0#32
  let c0_i32_110 : BitVec 32 := 0#32
  ![arg0.toNat, 0, 0]
def k0_off214 (v74 : BitVec 32) : Fin 2 → Nat :=
  let c0_i32_111 : BitVec 32 := 0#32
  ![v74.toNat, 0]

def k0_off215 (k0_t4 : Fin k0_t4_loop.trips) : Fin 2 → Nat :=
  let c0_i32_11 : BitVec 32 := 0#32
  let c1_i32_13 : BitVec 32 := 1#32
  let arg9 : BitVec 32 := Scf.iv c0_i32_11 c1_i32_13 k0_t4
  let c16_i32 : BitVec 32 := 16#32
  let v59 : BitVec 32 := Scalar.muli arg9 c16_i32
  let c5_i32_112 : BitVec 32 := 5#32
  let v153 : BitVec 32 := Scalar.addi v59 c5_i32_112
  let c0_i32_115 : BitVec 32 := 0#32
  ![v153.toNat, 0]
def k0_off216 (i : grid0.Coords) : Fin 3 → Nat :=
  let arg0 : BitVec 32 := BitVec.ofNat 32 (i 0).val
  let c0_i32_116 : BitVec 32 := 0#32
  let c0_i32_117 : BitVec 32 := 0#32
  ![arg0.toNat, 0, 0]
def k0_off217 (v77 : BitVec 32) : Fin 2 → Nat :=
  let c0_i32_118 : BitVec 32 := 0#32
  ![v77.toNat, 0]

def k0_off218 (k0_t4 : Fin k0_t4_loop.trips) : Fin 2 → Nat :=
  let c0_i32_11 : BitVec 32 := 0#32
  let c1_i32_13 : BitVec 32 := 1#32
  let arg9 : BitVec 32 := Scf.iv c0_i32_11 c1_i32_13 k0_t4
  let c16_i32 : BitVec 32 := 16#32
  let v59 : BitVec 32 := Scalar.muli arg9 c16_i32
  let c6_i32_119 : BitVec 32 := 6#32
  let v162 : BitVec 32 := Scalar.addi v59 c6_i32_119
  let c0_i32_122 : BitVec 32 := 0#32
  ![v162.toNat, 0]
def k0_off219 (i : grid0.Coords) : Fin 3 → Nat :=
  let arg0 : BitVec 32 := BitVec.ofNat 32 (i 0).val
  let c0_i32_123 : BitVec 32 := 0#32
  let c0_i32_124 : BitVec 32 := 0#32
  ![arg0.toNat, 0, 0]
def k0_off220 (v80 : BitVec 32) : Fin 2 → Nat :=
  let c0_i32_125 : BitVec 32 := 0#32
  ![v80.toNat, 0]

def k0_off221 (k0_t4 : Fin k0_t4_loop.trips) : Fin 2 → Nat :=
  let c0_i32_11 : BitVec 32 := 0#32
  let c1_i32_13 : BitVec 32 := 1#32
  let arg9 : BitVec 32 := Scf.iv c0_i32_11 c1_i32_13 k0_t4
  let c16_i32 : BitVec 32 := 16#32
  let v59 : BitVec 32 := Scalar.muli arg9 c16_i32
  let c7_i32_126 : BitVec 32 := 7#32
  let v171 : BitVec 32 := Scalar.addi v59 c7_i32_126
  let c0_i32_129 : BitVec 32 := 0#32
  ![v171.toNat, 0]
def k0_off222 (i : grid0.Coords) : Fin 3 → Nat :=
  let arg0 : BitVec 32 := BitVec.ofNat 32 (i 0).val
  let c0_i32_130 : BitVec 32 := 0#32
  let c0_i32_131 : BitVec 32 := 0#32
  ![arg0.toNat, 0, 0]
def k0_off223 (v83 : BitVec 32) : Fin 2 → Nat :=
  let c0_i32_132 : BitVec 32 := 0#32
  ![v83.toNat, 0]

def k0_off224 (k0_t4 : Fin k0_t4_loop.trips) : Fin 2 → Nat :=
  let c0_i32_11 : BitVec 32 := 0#32
  let c1_i32_13 : BitVec 32 := 1#32
  let arg9 : BitVec 32 := Scf.iv c0_i32_11 c1_i32_13 k0_t4
  let c16_i32 : BitVec 32 := 16#32
  let v59 : BitVec 32 := Scalar.muli arg9 c16_i32
  let c8_i32_133 : BitVec 32 := 8#32
  let v180 : BitVec 32 := Scalar.addi v59 c8_i32_133
  let c0_i32_136 : BitVec 32 := 0#32
  ![v180.toNat, 0]
def k0_off225 (i : grid0.Coords) : Fin 3 → Nat :=
  let arg0 : BitVec 32 := BitVec.ofNat 32 (i 0).val
  let c0_i32_137 : BitVec 32 := 0#32
  let c0_i32_138 : BitVec 32 := 0#32
  ![arg0.toNat, 0, 0]
def k0_off226 (v86 : BitVec 32) : Fin 2 → Nat :=
  let c0_i32_139 : BitVec 32 := 0#32
  ![v86.toNat, 0]

def k0_off227 (k0_t4 : Fin k0_t4_loop.trips) : Fin 2 → Nat :=
  let c0_i32_11 : BitVec 32 := 0#32
  let c1_i32_13 : BitVec 32 := 1#32
  let arg9 : BitVec 32 := Scf.iv c0_i32_11 c1_i32_13 k0_t4
  let c16_i32 : BitVec 32 := 16#32
  let v59 : BitVec 32 := Scalar.muli arg9 c16_i32
  let c9_i32_140 : BitVec 32 := 9#32
  let v189 : BitVec 32 := Scalar.addi v59 c9_i32_140
  let c0_i32_143 : BitVec 32 := 0#32
  ![v189.toNat, 0]
def k0_off228 (i : grid0.Coords) : Fin 3 → Nat :=
  let arg0 : BitVec 32 := BitVec.ofNat 32 (i 0).val
  let c0_i32_144 : BitVec 32 := 0#32
  let c0_i32_145 : BitVec 32 := 0#32
  ![arg0.toNat, 0, 0]
def k0_off229 (v89 : BitVec 32) : Fin 2 → Nat :=
  let c0_i32_146 : BitVec 32 := 0#32
  ![v89.toNat, 0]

def k0_off230 (k0_t4 : Fin k0_t4_loop.trips) : Fin 2 → Nat :=
  let c0_i32_11 : BitVec 32 := 0#32
  let c1_i32_13 : BitVec 32 := 1#32
  let arg9 : BitVec 32 := Scf.iv c0_i32_11 c1_i32_13 k0_t4
  let c16_i32 : BitVec 32 := 16#32
  let v59 : BitVec 32 := Scalar.muli arg9 c16_i32
  let c10_i32_147 : BitVec 32 := 10#32
  let v198 : BitVec 32 := Scalar.addi v59 c10_i32_147
  let c0_i32_150 : BitVec 32 := 0#32
  ![v198.toNat, 0]
def k0_off231 (i : grid0.Coords) : Fin 3 → Nat :=
  let arg0 : BitVec 32 := BitVec.ofNat 32 (i 0).val
  let c0_i32_151 : BitVec 32 := 0#32
  let c0_i32_152 : BitVec 32 := 0#32
  ![arg0.toNat, 0, 0]
def k0_off232 (v92 : BitVec 32) : Fin 2 → Nat :=
  let c0_i32_153 : BitVec 32 := 0#32
  ![v92.toNat, 0]

def k0_off233 (k0_t4 : Fin k0_t4_loop.trips) : Fin 2 → Nat :=
  let c0_i32_11 : BitVec 32 := 0#32
  let c1_i32_13 : BitVec 32 := 1#32
  let arg9 : BitVec 32 := Scf.iv c0_i32_11 c1_i32_13 k0_t4
  let c16_i32 : BitVec 32 := 16#32
  let v59 : BitVec 32 := Scalar.muli arg9 c16_i32
  let c11_i32_154 : BitVec 32 := 11#32
  let v207 : BitVec 32 := Scalar.addi v59 c11_i32_154
  let c0_i32_157 : BitVec 32 := 0#32
  ![v207.toNat, 0]
def k0_off234 (i : grid0.Coords) : Fin 3 → Nat :=
  let arg0 : BitVec 32 := BitVec.ofNat 32 (i 0).val
  let c0_i32_158 : BitVec 32 := 0#32
  let c0_i32_159 : BitVec 32 := 0#32
  ![arg0.toNat, 0, 0]
def k0_off235 (v95 : BitVec 32) : Fin 2 → Nat :=
  let c0_i32_160 : BitVec 32 := 0#32
  ![v95.toNat, 0]

def k0_off236 (k0_t4 : Fin k0_t4_loop.trips) : Fin 2 → Nat :=
  let c0_i32_11 : BitVec 32 := 0#32
  let c1_i32_13 : BitVec 32 := 1#32
  let arg9 : BitVec 32 := Scf.iv c0_i32_11 c1_i32_13 k0_t4
  let c16_i32 : BitVec 32 := 16#32
  let v59 : BitVec 32 := Scalar.muli arg9 c16_i32
  let c12_i32_161 : BitVec 32 := 12#32
  let v216 : BitVec 32 := Scalar.addi v59 c12_i32_161
  let c0_i32_164 : BitVec 32 := 0#32
  ![v216.toNat, 0]
def k0_off237 (i : grid0.Coords) : Fin 3 → Nat :=
  let arg0 : BitVec 32 := BitVec.ofNat 32 (i 0).val
  let c0_i32_165 : BitVec 32 := 0#32
  let c0_i32_166 : BitVec 32 := 0#32
  ![arg0.toNat, 0, 0]
def k0_off238 (v98 : BitVec 32) : Fin 2 → Nat :=
  let c0_i32_167 : BitVec 32 := 0#32
  ![v98.toNat, 0]

def k0_off239 (k0_t4 : Fin k0_t4_loop.trips) : Fin 2 → Nat :=
  let c0_i32_11 : BitVec 32 := 0#32
  let c1_i32_13 : BitVec 32 := 1#32
  let arg9 : BitVec 32 := Scf.iv c0_i32_11 c1_i32_13 k0_t4
  let c16_i32 : BitVec 32 := 16#32
  let v59 : BitVec 32 := Scalar.muli arg9 c16_i32
  let c13_i32_168 : BitVec 32 := 13#32
  let v225 : BitVec 32 := Scalar.addi v59 c13_i32_168
  let c0_i32_171 : BitVec 32 := 0#32
  ![v225.toNat, 0]
def k0_off240 (i : grid0.Coords) : Fin 3 → Nat :=
  let arg0 : BitVec 32 := BitVec.ofNat 32 (i 0).val
  let c0_i32_172 : BitVec 32 := 0#32
  let c0_i32_173 : BitVec 32 := 0#32
  ![arg0.toNat, 0, 0]
def k0_off241 (v101 : BitVec 32) : Fin 2 → Nat :=
  let c0_i32_174 : BitVec 32 := 0#32
  ![v101.toNat, 0]

def k0_off242 (k0_t4 : Fin k0_t4_loop.trips) : Fin 2 → Nat :=
  let c0_i32_11 : BitVec 32 := 0#32
  let c1_i32_13 : BitVec 32 := 1#32
  let arg9 : BitVec 32 := Scf.iv c0_i32_11 c1_i32_13 k0_t4
  let c16_i32 : BitVec 32 := 16#32
  let v59 : BitVec 32 := Scalar.muli arg9 c16_i32
  let c14_i32_175 : BitVec 32 := 14#32
  let v234 : BitVec 32 := Scalar.addi v59 c14_i32_175
  let c0_i32_178 : BitVec 32 := 0#32
  ![v234.toNat, 0]
def k0_off243 (i : grid0.Coords) : Fin 3 → Nat :=
  let arg0 : BitVec 32 := BitVec.ofNat 32 (i 0).val
  let c0_i32_179 : BitVec 32 := 0#32
  let c0_i32_180 : BitVec 32 := 0#32
  ![arg0.toNat, 0, 0]
def k0_off244 (v104 : BitVec 32) : Fin 2 → Nat :=
  let c0_i32_181 : BitVec 32 := 0#32
  ![v104.toNat, 0]

def k0_off245 (k0_t4 : Fin k0_t4_loop.trips) : Fin 2 → Nat :=
  let c0_i32_11 : BitVec 32 := 0#32
  let c1_i32_13 : BitVec 32 := 1#32
  let arg9 : BitVec 32 := Scf.iv c0_i32_11 c1_i32_13 k0_t4
  let c16_i32 : BitVec 32 := 16#32
  let v59 : BitVec 32 := Scalar.muli arg9 c16_i32
  let c15_i32_182 : BitVec 32 := 15#32
  let v243 : BitVec 32 := Scalar.addi v59 c15_i32_182
  let c0_i32_185 : BitVec 32 := 0#32
  ![v243.toNat, 0]
def k0_off246 (i : grid0.Coords) : Fin 3 → Nat :=
  let arg0 : BitVec 32 := BitVec.ofNat 32 (i 0).val
  let c0_i32_186 : BitVec 32 := 0#32
  let c0_i32_187 : BitVec 32 := 0#32
  ![arg0.toNat, 0, 0]
def k0_off247 (v107 : BitVec 32) : Fin 2 → Nat :=
  let c0_i32_188 : BitVec 32 := 0#32
  ![v107.toNat, 0]

def k0_chk64 (v107 : BitVec 32) : Prop :=
  (∀ a, (k0_off247 v107) a + S1x128.size a ≤ S163842x128.size a)
instance k0_chk64.dec : ∀ (v107 : BitVec 32), Decidable (k0_chk64 v107) := fun v107 => decidable_of_iff' _ (Iff.of_eq (k0_chk64.eq_1 v107))
theorem k0_off247_inb : ∀ (v107 : BitVec 32) (k0_hw64 : k0_chk64 v107), ∀ a, (k0_off247 v107) a + S1x128.size a ≤ S163842x128.size a := fun v107 k0_hw64 => k0_hw64

def k0_off248 (k0_t4 : Fin k0_t4_loop.trips) (c0_i32_189 : BitVec 32) : Fin 2 → Nat :=
  let c0_i32_11 : BitVec 32 := 0#32
  let c1_i32_13 : BitVec 32 := 1#32
  let arg9 : BitVec 32 := Scf.iv c0_i32_11 c1_i32_13 k0_t4
  let c16_i32 : BitVec 32 := 16#32
  let v59 : BitVec 32 := Scalar.muli arg9 c16_i32
  let v252 : BitVec 32 := Scalar.addi v59 c0_i32_189
  let c0_i32_192 : BitVec 32 := 0#32
  ![v252.toNat, 0]
def k0_off249 (i : grid0.Coords) : Fin 3 → Nat :=
  let arg0 : BitVec 32 := BitVec.ofNat 32 (i 0).val
  let c0_i32_193 : BitVec 32 := 0#32
  let c0_i32_194 : BitVec 32 := 0#32
  ![arg0.toNat, 0, 0]
def k0_off250 (v62 : BitVec 32) : Fin 2 → Nat :=
  let c0_i32_195 : BitVec 32 := 0#32
  ![v62.toNat, 0]

def k0_chk49 (v62 : BitVec 32) : Prop :=
  (∀ a, (k0_off202 v62) a + S1x128.size a ≤ S163842x128.size a) ∧
  (∀ a, (k0_off250 v62) a + S1x128.size a ≤ S163842x128.size a)
instance k0_chk49.dec : ∀ (v62 : BitVec 32), Decidable (k0_chk49 v62) := fun v62 => decidable_of_iff' _ (Iff.of_eq (k0_chk49.eq_1 v62))
theorem k0_off202_inb : ∀ (v62 : BitVec 32) (k0_hw49 : k0_chk49 v62), ∀ a, (k0_off202 v62) a + S1x128.size a ≤ S163842x128.size a := fun v62 k0_hw49 => k0_hw49.1
theorem k0_off250_inb : ∀ (v62 : BitVec 32) (k0_hw49 : k0_chk49 v62), ∀ a, (k0_off250 v62) a + S1x128.size a ≤ S163842x128.size a := fun v62 k0_hw49 => k0_hw49.2

def k0_off251 (v65 : BitVec 32) : Fin 2 → Nat :=
  let c0_i32_202 : BitVec 32 := 0#32
  ![v65.toNat, 0]

def k0_chk50 (v65 : BitVec 32) : Prop :=
  (∀ a, (k0_off205 v65) a + S1x128.size a ≤ S163842x128.size a) ∧
  (∀ a, (k0_off251 v65) a + S1x128.size a ≤ S163842x128.size a)
instance k0_chk50.dec : ∀ (v65 : BitVec 32), Decidable (k0_chk50 v65) := fun v65 => decidable_of_iff' _ (Iff.of_eq (k0_chk50.eq_1 v65))
theorem k0_off205_inb : ∀ (v65 : BitVec 32) (k0_hw50 : k0_chk50 v65), ∀ a, (k0_off205 v65) a + S1x128.size a ≤ S163842x128.size a := fun v65 k0_hw50 => k0_hw50.1
theorem k0_off251_inb : ∀ (v65 : BitVec 32) (k0_hw50 : k0_chk50 v65), ∀ a, (k0_off251 v65) a + S1x128.size a ≤ S163842x128.size a := fun v65 k0_hw50 => k0_hw50.2

def k0_off252 (v68 : BitVec 32) : Fin 2 → Nat :=
  let c0_i32_209 : BitVec 32 := 0#32
  ![v68.toNat, 0]

def k0_chk51 (v68 : BitVec 32) : Prop :=
  (∀ a, (k0_off208 v68) a + S1x128.size a ≤ S163842x128.size a) ∧
  (∀ a, (k0_off252 v68) a + S1x128.size a ≤ S163842x128.size a)
instance k0_chk51.dec : ∀ (v68 : BitVec 32), Decidable (k0_chk51 v68) := fun v68 => decidable_of_iff' _ (Iff.of_eq (k0_chk51.eq_1 v68))
theorem k0_off208_inb : ∀ (v68 : BitVec 32) (k0_hw51 : k0_chk51 v68), ∀ a, (k0_off208 v68) a + S1x128.size a ≤ S163842x128.size a := fun v68 k0_hw51 => k0_hw51.1
theorem k0_off252_inb : ∀ (v68 : BitVec 32) (k0_hw51 : k0_chk51 v68), ∀ a, (k0_off252 v68) a + S1x128.size a ≤ S163842x128.size a := fun v68 k0_hw51 => k0_hw51.2

def k0_off253 (v71 : BitVec 32) : Fin 2 → Nat :=
  let c0_i32_216 : BitVec 32 := 0#32
  ![v71.toNat, 0]

def k0_chk52 (v71 : BitVec 32) : Prop :=
  (∀ a, (k0_off211 v71) a + S1x128.size a ≤ S163842x128.size a) ∧
  (∀ a, (k0_off253 v71) a + S1x128.size a ≤ S163842x128.size a)
instance k0_chk52.dec : ∀ (v71 : BitVec 32), Decidable (k0_chk52 v71) := fun v71 => decidable_of_iff' _ (Iff.of_eq (k0_chk52.eq_1 v71))
theorem k0_off211_inb : ∀ (v71 : BitVec 32) (k0_hw52 : k0_chk52 v71), ∀ a, (k0_off211 v71) a + S1x128.size a ≤ S163842x128.size a := fun v71 k0_hw52 => k0_hw52.1
theorem k0_off253_inb : ∀ (v71 : BitVec 32) (k0_hw52 : k0_chk52 v71), ∀ a, (k0_off253 v71) a + S1x128.size a ≤ S163842x128.size a := fun v71 k0_hw52 => k0_hw52.2

def k0_off254 (v74 : BitVec 32) : Fin 2 → Nat :=
  let c0_i32_223 : BitVec 32 := 0#32
  ![v74.toNat, 0]

def k0_chk53 (v74 : BitVec 32) : Prop :=
  (∀ a, (k0_off214 v74) a + S1x128.size a ≤ S163842x128.size a) ∧
  (∀ a, (k0_off254 v74) a + S1x128.size a ≤ S163842x128.size a)
instance k0_chk53.dec : ∀ (v74 : BitVec 32), Decidable (k0_chk53 v74) := fun v74 => decidable_of_iff' _ (Iff.of_eq (k0_chk53.eq_1 v74))
theorem k0_off214_inb : ∀ (v74 : BitVec 32) (k0_hw53 : k0_chk53 v74), ∀ a, (k0_off214 v74) a + S1x128.size a ≤ S163842x128.size a := fun v74 k0_hw53 => k0_hw53.1
theorem k0_off254_inb : ∀ (v74 : BitVec 32) (k0_hw53 : k0_chk53 v74), ∀ a, (k0_off254 v74) a + S1x128.size a ≤ S163842x128.size a := fun v74 k0_hw53 => k0_hw53.2

def k0_off255 (v77 : BitVec 32) : Fin 2 → Nat :=
  let c0_i32_230 : BitVec 32 := 0#32
  ![v77.toNat, 0]

def k0_chk54 (v77 : BitVec 32) : Prop :=
  (∀ a, (k0_off217 v77) a + S1x128.size a ≤ S163842x128.size a) ∧
  (∀ a, (k0_off255 v77) a + S1x128.size a ≤ S163842x128.size a)
instance k0_chk54.dec : ∀ (v77 : BitVec 32), Decidable (k0_chk54 v77) := fun v77 => decidable_of_iff' _ (Iff.of_eq (k0_chk54.eq_1 v77))
theorem k0_off217_inb : ∀ (v77 : BitVec 32) (k0_hw54 : k0_chk54 v77), ∀ a, (k0_off217 v77) a + S1x128.size a ≤ S163842x128.size a := fun v77 k0_hw54 => k0_hw54.1
theorem k0_off255_inb : ∀ (v77 : BitVec 32) (k0_hw54 : k0_chk54 v77), ∀ a, (k0_off255 v77) a + S1x128.size a ≤ S163842x128.size a := fun v77 k0_hw54 => k0_hw54.2

def k0_off256 (v80 : BitVec 32) : Fin 2 → Nat :=
  let c0_i32_237 : BitVec 32 := 0#32
  ![v80.toNat, 0]

def k0_chk55 (v80 : BitVec 32) : Prop :=
  (∀ a, (k0_off220 v80) a + S1x128.size a ≤ S163842x128.size a) ∧
  (∀ a, (k0_off256 v80) a + S1x128.size a ≤ S163842x128.size a)
instance k0_chk55.dec : ∀ (v80 : BitVec 32), Decidable (k0_chk55 v80) := fun v80 => decidable_of_iff' _ (Iff.of_eq (k0_chk55.eq_1 v80))
theorem k0_off220_inb : ∀ (v80 : BitVec 32) (k0_hw55 : k0_chk55 v80), ∀ a, (k0_off220 v80) a + S1x128.size a ≤ S163842x128.size a := fun v80 k0_hw55 => k0_hw55.1
theorem k0_off256_inb : ∀ (v80 : BitVec 32) (k0_hw55 : k0_chk55 v80), ∀ a, (k0_off256 v80) a + S1x128.size a ≤ S163842x128.size a := fun v80 k0_hw55 => k0_hw55.2

def k0_off257 (v83 : BitVec 32) : Fin 2 → Nat :=
  let c0_i32_244 : BitVec 32 := 0#32
  ![v83.toNat, 0]

def k0_chk56 (v83 : BitVec 32) : Prop :=
  (∀ a, (k0_off223 v83) a + S1x128.size a ≤ S163842x128.size a) ∧
  (∀ a, (k0_off257 v83) a + S1x128.size a ≤ S163842x128.size a)
instance k0_chk56.dec : ∀ (v83 : BitVec 32), Decidable (k0_chk56 v83) := fun v83 => decidable_of_iff' _ (Iff.of_eq (k0_chk56.eq_1 v83))
theorem k0_off223_inb : ∀ (v83 : BitVec 32) (k0_hw56 : k0_chk56 v83), ∀ a, (k0_off223 v83) a + S1x128.size a ≤ S163842x128.size a := fun v83 k0_hw56 => k0_hw56.1
theorem k0_off257_inb : ∀ (v83 : BitVec 32) (k0_hw56 : k0_chk56 v83), ∀ a, (k0_off257 v83) a + S1x128.size a ≤ S163842x128.size a := fun v83 k0_hw56 => k0_hw56.2

def k0_off258 (v86 : BitVec 32) : Fin 2 → Nat :=
  let c0_i32_251 : BitVec 32 := 0#32
  ![v86.toNat, 0]

def k0_chk57 (v86 : BitVec 32) : Prop :=
  (∀ a, (k0_off226 v86) a + S1x128.size a ≤ S163842x128.size a) ∧
  (∀ a, (k0_off258 v86) a + S1x128.size a ≤ S163842x128.size a)
instance k0_chk57.dec : ∀ (v86 : BitVec 32), Decidable (k0_chk57 v86) := fun v86 => decidable_of_iff' _ (Iff.of_eq (k0_chk57.eq_1 v86))
theorem k0_off226_inb : ∀ (v86 : BitVec 32) (k0_hw57 : k0_chk57 v86), ∀ a, (k0_off226 v86) a + S1x128.size a ≤ S163842x128.size a := fun v86 k0_hw57 => k0_hw57.1
theorem k0_off258_inb : ∀ (v86 : BitVec 32) (k0_hw57 : k0_chk57 v86), ∀ a, (k0_off258 v86) a + S1x128.size a ≤ S163842x128.size a := fun v86 k0_hw57 => k0_hw57.2

def k0_off259 (v89 : BitVec 32) : Fin 2 → Nat :=
  let c0_i32_258 : BitVec 32 := 0#32
  ![v89.toNat, 0]

def k0_chk58 (v89 : BitVec 32) : Prop :=
  (∀ a, (k0_off229 v89) a + S1x128.size a ≤ S163842x128.size a) ∧
  (∀ a, (k0_off259 v89) a + S1x128.size a ≤ S163842x128.size a)
instance k0_chk58.dec : ∀ (v89 : BitVec 32), Decidable (k0_chk58 v89) := fun v89 => decidable_of_iff' _ (Iff.of_eq (k0_chk58.eq_1 v89))
theorem k0_off229_inb : ∀ (v89 : BitVec 32) (k0_hw58 : k0_chk58 v89), ∀ a, (k0_off229 v89) a + S1x128.size a ≤ S163842x128.size a := fun v89 k0_hw58 => k0_hw58.1
theorem k0_off259_inb : ∀ (v89 : BitVec 32) (k0_hw58 : k0_chk58 v89), ∀ a, (k0_off259 v89) a + S1x128.size a ≤ S163842x128.size a := fun v89 k0_hw58 => k0_hw58.2

def k0_off260 (v92 : BitVec 32) : Fin 2 → Nat :=
  let c0_i32_265 : BitVec 32 := 0#32
  ![v92.toNat, 0]

def k0_chk59 (v92 : BitVec 32) : Prop :=
  (∀ a, (k0_off232 v92) a + S1x128.size a ≤ S163842x128.size a) ∧
  (∀ a, (k0_off260 v92) a + S1x128.size a ≤ S163842x128.size a)
instance k0_chk59.dec : ∀ (v92 : BitVec 32), Decidable (k0_chk59 v92) := fun v92 => decidable_of_iff' _ (Iff.of_eq (k0_chk59.eq_1 v92))
theorem k0_off232_inb : ∀ (v92 : BitVec 32) (k0_hw59 : k0_chk59 v92), ∀ a, (k0_off232 v92) a + S1x128.size a ≤ S163842x128.size a := fun v92 k0_hw59 => k0_hw59.1
theorem k0_off260_inb : ∀ (v92 : BitVec 32) (k0_hw59 : k0_chk59 v92), ∀ a, (k0_off260 v92) a + S1x128.size a ≤ S163842x128.size a := fun v92 k0_hw59 => k0_hw59.2

def k0_off261 (v95 : BitVec 32) : Fin 2 → Nat :=
  let c0_i32_272 : BitVec 32 := 0#32
  ![v95.toNat, 0]

def k0_chk60 (v95 : BitVec 32) : Prop :=
  (∀ a, (k0_off235 v95) a + S1x128.size a ≤ S163842x128.size a) ∧
  (∀ a, (k0_off261 v95) a + S1x128.size a ≤ S163842x128.size a)
instance k0_chk60.dec : ∀ (v95 : BitVec 32), Decidable (k0_chk60 v95) := fun v95 => decidable_of_iff' _ (Iff.of_eq (k0_chk60.eq_1 v95))
theorem k0_off235_inb : ∀ (v95 : BitVec 32) (k0_hw60 : k0_chk60 v95), ∀ a, (k0_off235 v95) a + S1x128.size a ≤ S163842x128.size a := fun v95 k0_hw60 => k0_hw60.1
theorem k0_off261_inb : ∀ (v95 : BitVec 32) (k0_hw60 : k0_chk60 v95), ∀ a, (k0_off261 v95) a + S1x128.size a ≤ S163842x128.size a := fun v95 k0_hw60 => k0_hw60.2

def k0_off262 (v98 : BitVec 32) : Fin 2 → Nat :=
  let c0_i32_279 : BitVec 32 := 0#32
  ![v98.toNat, 0]

def k0_chk61 (v98 : BitVec 32) : Prop :=
  (∀ a, (k0_off238 v98) a + S1x128.size a ≤ S163842x128.size a) ∧
  (∀ a, (k0_off262 v98) a + S1x128.size a ≤ S163842x128.size a)
instance k0_chk61.dec : ∀ (v98 : BitVec 32), Decidable (k0_chk61 v98) := fun v98 => decidable_of_iff' _ (Iff.of_eq (k0_chk61.eq_1 v98))
theorem k0_off238_inb : ∀ (v98 : BitVec 32) (k0_hw61 : k0_chk61 v98), ∀ a, (k0_off238 v98) a + S1x128.size a ≤ S163842x128.size a := fun v98 k0_hw61 => k0_hw61.1
theorem k0_off262_inb : ∀ (v98 : BitVec 32) (k0_hw61 : k0_chk61 v98), ∀ a, (k0_off262 v98) a + S1x128.size a ≤ S163842x128.size a := fun v98 k0_hw61 => k0_hw61.2

def k0_off263 (v101 : BitVec 32) : Fin 2 → Nat :=
  let c0_i32_286 : BitVec 32 := 0#32
  ![v101.toNat, 0]

def k0_chk62 (v101 : BitVec 32) : Prop :=
  (∀ a, (k0_off241 v101) a + S1x128.size a ≤ S163842x128.size a) ∧
  (∀ a, (k0_off263 v101) a + S1x128.size a ≤ S163842x128.size a)
instance k0_chk62.dec : ∀ (v101 : BitVec 32), Decidable (k0_chk62 v101) := fun v101 => decidable_of_iff' _ (Iff.of_eq (k0_chk62.eq_1 v101))
theorem k0_off241_inb : ∀ (v101 : BitVec 32) (k0_hw62 : k0_chk62 v101), ∀ a, (k0_off241 v101) a + S1x128.size a ≤ S163842x128.size a := fun v101 k0_hw62 => k0_hw62.1
theorem k0_off263_inb : ∀ (v101 : BitVec 32) (k0_hw62 : k0_chk62 v101), ∀ a, (k0_off263 v101) a + S1x128.size a ≤ S163842x128.size a := fun v101 k0_hw62 => k0_hw62.2

def k0_off264 (v104 : BitVec 32) : Fin 2 → Nat :=
  let c0_i32_293 : BitVec 32 := 0#32
  ![v104.toNat, 0]

def k0_chk63 (v104 : BitVec 32) : Prop :=
  (∀ a, (k0_off244 v104) a + S1x128.size a ≤ S163842x128.size a) ∧
  (∀ a, (k0_off264 v104) a + S1x128.size a ≤ S163842x128.size a)
instance k0_chk63.dec : ∀ (v104 : BitVec 32), Decidable (k0_chk63 v104) := fun v104 => decidable_of_iff' _ (Iff.of_eq (k0_chk63.eq_1 v104))
theorem k0_off244_inb : ∀ (v104 : BitVec 32) (k0_hw63 : k0_chk63 v104), ∀ a, (k0_off244 v104) a + S1x128.size a ≤ S163842x128.size a := fun v104 k0_hw63 => k0_hw63.1
theorem k0_off264_inb : ∀ (v104 : BitVec 32) (k0_hw63 : k0_chk63 v104), ∀ a, (k0_off264 v104) a + S1x128.size a ≤ S163842x128.size a := fun v104 k0_hw63 => k0_hw63.2

@[reducible] def k0_t5_loop : Scf.Loop 32 :=
  let c0_i32_15 : BitVec 32 := 0#32
  let c64_i32_16 : BitVec 32 := 64#32
  let v4 : BitVec 32 := Scalar.addi c0_i32_15 c64_i32_16
  let c1_i32_17 : BitVec 32 := 1#32
  ⟨c0_i32_15, v4, c1_i32_17⟩
def k0_off265 (k0_t5 : Fin k0_t5_loop.trips) (c0_i32_54 : BitVec 32) : Fin 2 → Nat :=
  let c4_55 : Index := 4#32
  let c0_i32_15 : BitVec 32 := 0#32
  let c1_i32_17 : BitVec 32 := 1#32
  let arg9 : BitVec 32 := Scf.iv c0_i32_15 c1_i32_17 k0_t5
  let c16_i32 : BitVec 32 := 16#32
  let v59 : BitVec 32 := Scalar.muli arg9 c16_i32
  let v60 : BitVec 32 := Scalar.addi v59 c0_i32_54
  let v61 : Index := Scalar.indexCast v60
  ![4, v61.toNat]
def k0_off266 (k0_t5 : Fin k0_t5_loop.trips) : Fin 2 → Nat :=
  let c0_i32_15 : BitVec 32 := 0#32
  let c1_i32_17 : BitVec 32 := 1#32
  let arg9 : BitVec 32 := Scf.iv c0_i32_15 c1_i32_17 k0_t5
  let c16_i32 : BitVec 32 := 16#32
  let v59 : BitVec 32 := Scalar.muli arg9 c16_i32
  let c0_i32_77 : BitVec 32 := 0#32
  let v108 : BitVec 32 := Scalar.addi v59 c0_i32_77
  let c0_i32_80 : BitVec 32 := 0#32
  ![v108.toNat, 0]
def k0_off267 (i : grid0.Coords) : Fin 3 → Nat :=
  let arg0 : BitVec 32 := BitVec.ofNat 32 (i 0).val
  let c0_i32_81 : BitVec 32 := 0#32
  let c0_i32_82 : BitVec 32 := 0#32
  ![arg0.toNat, 0, 0]
def k0_off268 (v62 : BitVec 32) : Fin 2 → Nat :=
  let c0_i32_83 : BitVec 32 := 0#32
  ![v62.toNat, 0]

def k0_off269 (k0_t5 : Fin k0_t5_loop.trips) : Fin 2 → Nat :=
  let c0_i32_15 : BitVec 32 := 0#32
  let c1_i32_17 : BitVec 32 := 1#32
  let arg9 : BitVec 32 := Scf.iv c0_i32_15 c1_i32_17 k0_t5
  let c16_i32 : BitVec 32 := 16#32
  let v59 : BitVec 32 := Scalar.muli arg9 c16_i32
  let c1_i32_84 : BitVec 32 := 1#32
  let v117 : BitVec 32 := Scalar.addi v59 c1_i32_84
  let c0_i32_87 : BitVec 32 := 0#32
  ![v117.toNat, 0]
def k0_off270 (i : grid0.Coords) : Fin 3 → Nat :=
  let arg0 : BitVec 32 := BitVec.ofNat 32 (i 0).val
  let c0_i32_88 : BitVec 32 := 0#32
  let c0_i32_89 : BitVec 32 := 0#32
  ![arg0.toNat, 0, 0]
def k0_off271 (v65 : BitVec 32) : Fin 2 → Nat :=
  let c0_i32_90 : BitVec 32 := 0#32
  ![v65.toNat, 0]

def k0_off272 (k0_t5 : Fin k0_t5_loop.trips) : Fin 2 → Nat :=
  let c0_i32_15 : BitVec 32 := 0#32
  let c1_i32_17 : BitVec 32 := 1#32
  let arg9 : BitVec 32 := Scf.iv c0_i32_15 c1_i32_17 k0_t5
  let c16_i32 : BitVec 32 := 16#32
  let v59 : BitVec 32 := Scalar.muli arg9 c16_i32
  let c2_i32_91 : BitVec 32 := 2#32
  let v126 : BitVec 32 := Scalar.addi v59 c2_i32_91
  let c0_i32_94 : BitVec 32 := 0#32
  ![v126.toNat, 0]
def k0_off273 (i : grid0.Coords) : Fin 3 → Nat :=
  let arg0 : BitVec 32 := BitVec.ofNat 32 (i 0).val
  let c0_i32_95 : BitVec 32 := 0#32
  let c0_i32_96 : BitVec 32 := 0#32
  ![arg0.toNat, 0, 0]
def k0_off274 (v68 : BitVec 32) : Fin 2 → Nat :=
  let c0_i32_97 : BitVec 32 := 0#32
  ![v68.toNat, 0]

def k0_off275 (k0_t5 : Fin k0_t5_loop.trips) : Fin 2 → Nat :=
  let c0_i32_15 : BitVec 32 := 0#32
  let c1_i32_17 : BitVec 32 := 1#32
  let arg9 : BitVec 32 := Scf.iv c0_i32_15 c1_i32_17 k0_t5
  let c16_i32 : BitVec 32 := 16#32
  let v59 : BitVec 32 := Scalar.muli arg9 c16_i32
  let c3_i32_98 : BitVec 32 := 3#32
  let v135 : BitVec 32 := Scalar.addi v59 c3_i32_98
  let c0_i32_101 : BitVec 32 := 0#32
  ![v135.toNat, 0]
def k0_off276 (i : grid0.Coords) : Fin 3 → Nat :=
  let arg0 : BitVec 32 := BitVec.ofNat 32 (i 0).val
  let c0_i32_102 : BitVec 32 := 0#32
  let c0_i32_103 : BitVec 32 := 0#32
  ![arg0.toNat, 0, 0]
def k0_off277 (v71 : BitVec 32) : Fin 2 → Nat :=
  let c0_i32_104 : BitVec 32 := 0#32
  ![v71.toNat, 0]

def k0_off278 (k0_t5 : Fin k0_t5_loop.trips) : Fin 2 → Nat :=
  let c0_i32_15 : BitVec 32 := 0#32
  let c1_i32_17 : BitVec 32 := 1#32
  let arg9 : BitVec 32 := Scf.iv c0_i32_15 c1_i32_17 k0_t5
  let c16_i32 : BitVec 32 := 16#32
  let v59 : BitVec 32 := Scalar.muli arg9 c16_i32
  let c4_i32_105 : BitVec 32 := 4#32
  let v144 : BitVec 32 := Scalar.addi v59 c4_i32_105
  let c0_i32_108 : BitVec 32 := 0#32
  ![v144.toNat, 0]
def k0_off279 (i : grid0.Coords) : Fin 3 → Nat :=
  let arg0 : BitVec 32 := BitVec.ofNat 32 (i 0).val
  let c0_i32_109 : BitVec 32 := 0#32
  let c0_i32_110 : BitVec 32 := 0#32
  ![arg0.toNat, 0, 0]
def k0_off280 (v74 : BitVec 32) : Fin 2 → Nat :=
  let c0_i32_111 : BitVec 32 := 0#32
  ![v74.toNat, 0]

def k0_off281 (k0_t5 : Fin k0_t5_loop.trips) : Fin 2 → Nat :=
  let c0_i32_15 : BitVec 32 := 0#32
  let c1_i32_17 : BitVec 32 := 1#32
  let arg9 : BitVec 32 := Scf.iv c0_i32_15 c1_i32_17 k0_t5
  let c16_i32 : BitVec 32 := 16#32
  let v59 : BitVec 32 := Scalar.muli arg9 c16_i32
  let c5_i32_112 : BitVec 32 := 5#32
  let v153 : BitVec 32 := Scalar.addi v59 c5_i32_112
  let c0_i32_115 : BitVec 32 := 0#32
  ![v153.toNat, 0]
def k0_off282 (i : grid0.Coords) : Fin 3 → Nat :=
  let arg0 : BitVec 32 := BitVec.ofNat 32 (i 0).val
  let c0_i32_116 : BitVec 32 := 0#32
  let c0_i32_117 : BitVec 32 := 0#32
  ![arg0.toNat, 0, 0]
def k0_off283 (v77 : BitVec 32) : Fin 2 → Nat :=
  let c0_i32_118 : BitVec 32 := 0#32
  ![v77.toNat, 0]

def k0_off284 (k0_t5 : Fin k0_t5_loop.trips) : Fin 2 → Nat :=
  let c0_i32_15 : BitVec 32 := 0#32
  let c1_i32_17 : BitVec 32 := 1#32
  let arg9 : BitVec 32 := Scf.iv c0_i32_15 c1_i32_17 k0_t5
  let c16_i32 : BitVec 32 := 16#32
  let v59 : BitVec 32 := Scalar.muli arg9 c16_i32
  let c6_i32_119 : BitVec 32 := 6#32
  let v162 : BitVec 32 := Scalar.addi v59 c6_i32_119
  let c0_i32_122 : BitVec 32 := 0#32
  ![v162.toNat, 0]
def k0_off285 (i : grid0.Coords) : Fin 3 → Nat :=
  let arg0 : BitVec 32 := BitVec.ofNat 32 (i 0).val
  let c0_i32_123 : BitVec 32 := 0#32
  let c0_i32_124 : BitVec 32 := 0#32
  ![arg0.toNat, 0, 0]
def k0_off286 (v80 : BitVec 32) : Fin 2 → Nat :=
  let c0_i32_125 : BitVec 32 := 0#32
  ![v80.toNat, 0]

def k0_off287 (k0_t5 : Fin k0_t5_loop.trips) : Fin 2 → Nat :=
  let c0_i32_15 : BitVec 32 := 0#32
  let c1_i32_17 : BitVec 32 := 1#32
  let arg9 : BitVec 32 := Scf.iv c0_i32_15 c1_i32_17 k0_t5
  let c16_i32 : BitVec 32 := 16#32
  let v59 : BitVec 32 := Scalar.muli arg9 c16_i32
  let c7_i32_126 : BitVec 32 := 7#32
  let v171 : BitVec 32 := Scalar.addi v59 c7_i32_126
  let c0_i32_129 : BitVec 32 := 0#32
  ![v171.toNat, 0]
def k0_off288 (i : grid0.Coords) : Fin 3 → Nat :=
  let arg0 : BitVec 32 := BitVec.ofNat 32 (i 0).val
  let c0_i32_130 : BitVec 32 := 0#32
  let c0_i32_131 : BitVec 32 := 0#32
  ![arg0.toNat, 0, 0]
def k0_off289 (v83 : BitVec 32) : Fin 2 → Nat :=
  let c0_i32_132 : BitVec 32 := 0#32
  ![v83.toNat, 0]

def k0_off290 (k0_t5 : Fin k0_t5_loop.trips) : Fin 2 → Nat :=
  let c0_i32_15 : BitVec 32 := 0#32
  let c1_i32_17 : BitVec 32 := 1#32
  let arg9 : BitVec 32 := Scf.iv c0_i32_15 c1_i32_17 k0_t5
  let c16_i32 : BitVec 32 := 16#32
  let v59 : BitVec 32 := Scalar.muli arg9 c16_i32
  let c8_i32_133 : BitVec 32 := 8#32
  let v180 : BitVec 32 := Scalar.addi v59 c8_i32_133
  let c0_i32_136 : BitVec 32 := 0#32
  ![v180.toNat, 0]
def k0_off291 (i : grid0.Coords) : Fin 3 → Nat :=
  let arg0 : BitVec 32 := BitVec.ofNat 32 (i 0).val
  let c0_i32_137 : BitVec 32 := 0#32
  let c0_i32_138 : BitVec 32 := 0#32
  ![arg0.toNat, 0, 0]
def k0_off292 (v86 : BitVec 32) : Fin 2 → Nat :=
  let c0_i32_139 : BitVec 32 := 0#32
  ![v86.toNat, 0]

def k0_off293 (k0_t5 : Fin k0_t5_loop.trips) : Fin 2 → Nat :=
  let c0_i32_15 : BitVec 32 := 0#32
  let c1_i32_17 : BitVec 32 := 1#32
  let arg9 : BitVec 32 := Scf.iv c0_i32_15 c1_i32_17 k0_t5
  let c16_i32 : BitVec 32 := 16#32
  let v59 : BitVec 32 := Scalar.muli arg9 c16_i32
  let c9_i32_140 : BitVec 32 := 9#32
  let v189 : BitVec 32 := Scalar.addi v59 c9_i32_140
  let c0_i32_143 : BitVec 32 := 0#32
  ![v189.toNat, 0]
def k0_off294 (i : grid0.Coords) : Fin 3 → Nat :=
  let arg0 : BitVec 32 := BitVec.ofNat 32 (i 0).val
  let c0_i32_144 : BitVec 32 := 0#32
  let c0_i32_145 : BitVec 32 := 0#32
  ![arg0.toNat, 0, 0]
def k0_off295 (v89 : BitVec 32) : Fin 2 → Nat :=
  let c0_i32_146 : BitVec 32 := 0#32
  ![v89.toNat, 0]

def k0_off296 (k0_t5 : Fin k0_t5_loop.trips) : Fin 2 → Nat :=
  let c0_i32_15 : BitVec 32 := 0#32
  let c1_i32_17 : BitVec 32 := 1#32
  let arg9 : BitVec 32 := Scf.iv c0_i32_15 c1_i32_17 k0_t5
  let c16_i32 : BitVec 32 := 16#32
  let v59 : BitVec 32 := Scalar.muli arg9 c16_i32
  let c10_i32_147 : BitVec 32 := 10#32
  let v198 : BitVec 32 := Scalar.addi v59 c10_i32_147
  let c0_i32_150 : BitVec 32 := 0#32
  ![v198.toNat, 0]
def k0_off297 (i : grid0.Coords) : Fin 3 → Nat :=
  let arg0 : BitVec 32 := BitVec.ofNat 32 (i 0).val
  let c0_i32_151 : BitVec 32 := 0#32
  let c0_i32_152 : BitVec 32 := 0#32
  ![arg0.toNat, 0, 0]
def k0_off298 (v92 : BitVec 32) : Fin 2 → Nat :=
  let c0_i32_153 : BitVec 32 := 0#32
  ![v92.toNat, 0]

def k0_off299 (k0_t5 : Fin k0_t5_loop.trips) : Fin 2 → Nat :=
  let c0_i32_15 : BitVec 32 := 0#32
  let c1_i32_17 : BitVec 32 := 1#32
  let arg9 : BitVec 32 := Scf.iv c0_i32_15 c1_i32_17 k0_t5
  let c16_i32 : BitVec 32 := 16#32
  let v59 : BitVec 32 := Scalar.muli arg9 c16_i32
  let c11_i32_154 : BitVec 32 := 11#32
  let v207 : BitVec 32 := Scalar.addi v59 c11_i32_154
  let c0_i32_157 : BitVec 32 := 0#32
  ![v207.toNat, 0]
def k0_off300 (i : grid0.Coords) : Fin 3 → Nat :=
  let arg0 : BitVec 32 := BitVec.ofNat 32 (i 0).val
  let c0_i32_158 : BitVec 32 := 0#32
  let c0_i32_159 : BitVec 32 := 0#32
  ![arg0.toNat, 0, 0]
def k0_off301 (v95 : BitVec 32) : Fin 2 → Nat :=
  let c0_i32_160 : BitVec 32 := 0#32
  ![v95.toNat, 0]

def k0_off302 (k0_t5 : Fin k0_t5_loop.trips) : Fin 2 → Nat :=
  let c0_i32_15 : BitVec 32 := 0#32
  let c1_i32_17 : BitVec 32 := 1#32
  let arg9 : BitVec 32 := Scf.iv c0_i32_15 c1_i32_17 k0_t5
  let c16_i32 : BitVec 32 := 16#32
  let v59 : BitVec 32 := Scalar.muli arg9 c16_i32
  let c12_i32_161 : BitVec 32 := 12#32
  let v216 : BitVec 32 := Scalar.addi v59 c12_i32_161
  let c0_i32_164 : BitVec 32 := 0#32
  ![v216.toNat, 0]
def k0_off303 (i : grid0.Coords) : Fin 3 → Nat :=
  let arg0 : BitVec 32 := BitVec.ofNat 32 (i 0).val
  let c0_i32_165 : BitVec 32 := 0#32
  let c0_i32_166 : BitVec 32 := 0#32
  ![arg0.toNat, 0, 0]
def k0_off304 (v98 : BitVec 32) : Fin 2 → Nat :=
  let c0_i32_167 : BitVec 32 := 0#32
  ![v98.toNat, 0]

def k0_off305 (k0_t5 : Fin k0_t5_loop.trips) : Fin 2 → Nat :=
  let c0_i32_15 : BitVec 32 := 0#32
  let c1_i32_17 : BitVec 32 := 1#32
  let arg9 : BitVec 32 := Scf.iv c0_i32_15 c1_i32_17 k0_t5
  let c16_i32 : BitVec 32 := 16#32
  let v59 : BitVec 32 := Scalar.muli arg9 c16_i32
  let c13_i32_168 : BitVec 32 := 13#32
  let v225 : BitVec 32 := Scalar.addi v59 c13_i32_168
  let c0_i32_171 : BitVec 32 := 0#32
  ![v225.toNat, 0]
def k0_off306 (i : grid0.Coords) : Fin 3 → Nat :=
  let arg0 : BitVec 32 := BitVec.ofNat 32 (i 0).val
  let c0_i32_172 : BitVec 32 := 0#32
  let c0_i32_173 : BitVec 32 := 0#32
  ![arg0.toNat, 0, 0]
def k0_off307 (v101 : BitVec 32) : Fin 2 → Nat :=
  let c0_i32_174 : BitVec 32 := 0#32
  ![v101.toNat, 0]

def k0_off308 (k0_t5 : Fin k0_t5_loop.trips) : Fin 2 → Nat :=
  let c0_i32_15 : BitVec 32 := 0#32
  let c1_i32_17 : BitVec 32 := 1#32
  let arg9 : BitVec 32 := Scf.iv c0_i32_15 c1_i32_17 k0_t5
  let c16_i32 : BitVec 32 := 16#32
  let v59 : BitVec 32 := Scalar.muli arg9 c16_i32
  let c14_i32_175 : BitVec 32 := 14#32
  let v234 : BitVec 32 := Scalar.addi v59 c14_i32_175
  let c0_i32_178 : BitVec 32 := 0#32
  ![v234.toNat, 0]
def k0_off309 (i : grid0.Coords) : Fin 3 → Nat :=
  let arg0 : BitVec 32 := BitVec.ofNat 32 (i 0).val
  let c0_i32_179 : BitVec 32 := 0#32
  let c0_i32_180 : BitVec 32 := 0#32
  ![arg0.toNat, 0, 0]
def k0_off310 (v104 : BitVec 32) : Fin 2 → Nat :=
  let c0_i32_181 : BitVec 32 := 0#32
  ![v104.toNat, 0]

def k0_off311 (k0_t5 : Fin k0_t5_loop.trips) : Fin 2 → Nat :=
  let c0_i32_15 : BitVec 32 := 0#32
  let c1_i32_17 : BitVec 32 := 1#32
  let arg9 : BitVec 32 := Scf.iv c0_i32_15 c1_i32_17 k0_t5
  let c16_i32 : BitVec 32 := 16#32
  let v59 : BitVec 32 := Scalar.muli arg9 c16_i32
  let c15_i32_182 : BitVec 32 := 15#32
  let v243 : BitVec 32 := Scalar.addi v59 c15_i32_182
  let c0_i32_185 : BitVec 32 := 0#32
  ![v243.toNat, 0]
def k0_off312 (i : grid0.Coords) : Fin 3 → Nat :=
  let arg0 : BitVec 32 := BitVec.ofNat 32 (i 0).val
  let c0_i32_186 : BitVec 32 := 0#32
  let c0_i32_187 : BitVec 32 := 0#32
  ![arg0.toNat, 0, 0]
def k0_off313 (v107 : BitVec 32) : Fin 2 → Nat :=
  let c0_i32_188 : BitVec 32 := 0#32
  ![v107.toNat, 0]

def k0_chk80 (v107 : BitVec 32) : Prop :=
  (∀ a, (k0_off313 v107) a + S1x128.size a ≤ S163842x128.size a)
instance k0_chk80.dec : ∀ (v107 : BitVec 32), Decidable (k0_chk80 v107) := fun v107 => decidable_of_iff' _ (Iff.of_eq (k0_chk80.eq_1 v107))
theorem k0_off313_inb : ∀ (v107 : BitVec 32) (k0_hw80 : k0_chk80 v107), ∀ a, (k0_off313 v107) a + S1x128.size a ≤ S163842x128.size a := fun v107 k0_hw80 => k0_hw80

def k0_off314 (k0_t5 : Fin k0_t5_loop.trips) (c0_i32_189 : BitVec 32) : Fin 2 → Nat :=
  let c0_i32_15 : BitVec 32 := 0#32
  let c1_i32_17 : BitVec 32 := 1#32
  let arg9 : BitVec 32 := Scf.iv c0_i32_15 c1_i32_17 k0_t5
  let c16_i32 : BitVec 32 := 16#32
  let v59 : BitVec 32 := Scalar.muli arg9 c16_i32
  let v252 : BitVec 32 := Scalar.addi v59 c0_i32_189
  let c0_i32_192 : BitVec 32 := 0#32
  ![v252.toNat, 0]
def k0_off315 (i : grid0.Coords) : Fin 3 → Nat :=
  let arg0 : BitVec 32 := BitVec.ofNat 32 (i 0).val
  let c0_i32_193 : BitVec 32 := 0#32
  let c0_i32_194 : BitVec 32 := 0#32
  ![arg0.toNat, 0, 0]
def k0_off316 (v62 : BitVec 32) : Fin 2 → Nat :=
  let c0_i32_195 : BitVec 32 := 0#32
  ![v62.toNat, 0]

def k0_chk65 (v62 : BitVec 32) : Prop :=
  (∀ a, (k0_off268 v62) a + S1x128.size a ≤ S163842x128.size a) ∧
  (∀ a, (k0_off316 v62) a + S1x128.size a ≤ S163842x128.size a)
instance k0_chk65.dec : ∀ (v62 : BitVec 32), Decidable (k0_chk65 v62) := fun v62 => decidable_of_iff' _ (Iff.of_eq (k0_chk65.eq_1 v62))
theorem k0_off268_inb : ∀ (v62 : BitVec 32) (k0_hw65 : k0_chk65 v62), ∀ a, (k0_off268 v62) a + S1x128.size a ≤ S163842x128.size a := fun v62 k0_hw65 => k0_hw65.1
theorem k0_off316_inb : ∀ (v62 : BitVec 32) (k0_hw65 : k0_chk65 v62), ∀ a, (k0_off316 v62) a + S1x128.size a ≤ S163842x128.size a := fun v62 k0_hw65 => k0_hw65.2

def k0_off317 (v65 : BitVec 32) : Fin 2 → Nat :=
  let c0_i32_202 : BitVec 32 := 0#32
  ![v65.toNat, 0]

def k0_chk66 (v65 : BitVec 32) : Prop :=
  (∀ a, (k0_off271 v65) a + S1x128.size a ≤ S163842x128.size a) ∧
  (∀ a, (k0_off317 v65) a + S1x128.size a ≤ S163842x128.size a)
instance k0_chk66.dec : ∀ (v65 : BitVec 32), Decidable (k0_chk66 v65) := fun v65 => decidable_of_iff' _ (Iff.of_eq (k0_chk66.eq_1 v65))
theorem k0_off271_inb : ∀ (v65 : BitVec 32) (k0_hw66 : k0_chk66 v65), ∀ a, (k0_off271 v65) a + S1x128.size a ≤ S163842x128.size a := fun v65 k0_hw66 => k0_hw66.1
theorem k0_off317_inb : ∀ (v65 : BitVec 32) (k0_hw66 : k0_chk66 v65), ∀ a, (k0_off317 v65) a + S1x128.size a ≤ S163842x128.size a := fun v65 k0_hw66 => k0_hw66.2

def k0_off318 (v68 : BitVec 32) : Fin 2 → Nat :=
  let c0_i32_209 : BitVec 32 := 0#32
  ![v68.toNat, 0]

def k0_chk67 (v68 : BitVec 32) : Prop :=
  (∀ a, (k0_off274 v68) a + S1x128.size a ≤ S163842x128.size a) ∧
  (∀ a, (k0_off318 v68) a + S1x128.size a ≤ S163842x128.size a)
instance k0_chk67.dec : ∀ (v68 : BitVec 32), Decidable (k0_chk67 v68) := fun v68 => decidable_of_iff' _ (Iff.of_eq (k0_chk67.eq_1 v68))
theorem k0_off274_inb : ∀ (v68 : BitVec 32) (k0_hw67 : k0_chk67 v68), ∀ a, (k0_off274 v68) a + S1x128.size a ≤ S163842x128.size a := fun v68 k0_hw67 => k0_hw67.1
theorem k0_off318_inb : ∀ (v68 : BitVec 32) (k0_hw67 : k0_chk67 v68), ∀ a, (k0_off318 v68) a + S1x128.size a ≤ S163842x128.size a := fun v68 k0_hw67 => k0_hw67.2

def k0_off319 (v71 : BitVec 32) : Fin 2 → Nat :=
  let c0_i32_216 : BitVec 32 := 0#32
  ![v71.toNat, 0]

def k0_chk68 (v71 : BitVec 32) : Prop :=
  (∀ a, (k0_off277 v71) a + S1x128.size a ≤ S163842x128.size a) ∧
  (∀ a, (k0_off319 v71) a + S1x128.size a ≤ S163842x128.size a)
instance k0_chk68.dec : ∀ (v71 : BitVec 32), Decidable (k0_chk68 v71) := fun v71 => decidable_of_iff' _ (Iff.of_eq (k0_chk68.eq_1 v71))
theorem k0_off277_inb : ∀ (v71 : BitVec 32) (k0_hw68 : k0_chk68 v71), ∀ a, (k0_off277 v71) a + S1x128.size a ≤ S163842x128.size a := fun v71 k0_hw68 => k0_hw68.1
theorem k0_off319_inb : ∀ (v71 : BitVec 32) (k0_hw68 : k0_chk68 v71), ∀ a, (k0_off319 v71) a + S1x128.size a ≤ S163842x128.size a := fun v71 k0_hw68 => k0_hw68.2

def k0_off320 (v74 : BitVec 32) : Fin 2 → Nat :=
  let c0_i32_223 : BitVec 32 := 0#32
  ![v74.toNat, 0]

def k0_chk69 (v74 : BitVec 32) : Prop :=
  (∀ a, (k0_off280 v74) a + S1x128.size a ≤ S163842x128.size a) ∧
  (∀ a, (k0_off320 v74) a + S1x128.size a ≤ S163842x128.size a)
instance k0_chk69.dec : ∀ (v74 : BitVec 32), Decidable (k0_chk69 v74) := fun v74 => decidable_of_iff' _ (Iff.of_eq (k0_chk69.eq_1 v74))
theorem k0_off280_inb : ∀ (v74 : BitVec 32) (k0_hw69 : k0_chk69 v74), ∀ a, (k0_off280 v74) a + S1x128.size a ≤ S163842x128.size a := fun v74 k0_hw69 => k0_hw69.1
theorem k0_off320_inb : ∀ (v74 : BitVec 32) (k0_hw69 : k0_chk69 v74), ∀ a, (k0_off320 v74) a + S1x128.size a ≤ S163842x128.size a := fun v74 k0_hw69 => k0_hw69.2

def k0_off321 (v77 : BitVec 32) : Fin 2 → Nat :=
  let c0_i32_230 : BitVec 32 := 0#32
  ![v77.toNat, 0]

def k0_chk70 (v77 : BitVec 32) : Prop :=
  (∀ a, (k0_off283 v77) a + S1x128.size a ≤ S163842x128.size a) ∧
  (∀ a, (k0_off321 v77) a + S1x128.size a ≤ S163842x128.size a)
instance k0_chk70.dec : ∀ (v77 : BitVec 32), Decidable (k0_chk70 v77) := fun v77 => decidable_of_iff' _ (Iff.of_eq (k0_chk70.eq_1 v77))
theorem k0_off283_inb : ∀ (v77 : BitVec 32) (k0_hw70 : k0_chk70 v77), ∀ a, (k0_off283 v77) a + S1x128.size a ≤ S163842x128.size a := fun v77 k0_hw70 => k0_hw70.1
theorem k0_off321_inb : ∀ (v77 : BitVec 32) (k0_hw70 : k0_chk70 v77), ∀ a, (k0_off321 v77) a + S1x128.size a ≤ S163842x128.size a := fun v77 k0_hw70 => k0_hw70.2

def k0_off322 (v80 : BitVec 32) : Fin 2 → Nat :=
  let c0_i32_237 : BitVec 32 := 0#32
  ![v80.toNat, 0]

def k0_chk71 (v80 : BitVec 32) : Prop :=
  (∀ a, (k0_off286 v80) a + S1x128.size a ≤ S163842x128.size a) ∧
  (∀ a, (k0_off322 v80) a + S1x128.size a ≤ S163842x128.size a)
instance k0_chk71.dec : ∀ (v80 : BitVec 32), Decidable (k0_chk71 v80) := fun v80 => decidable_of_iff' _ (Iff.of_eq (k0_chk71.eq_1 v80))
theorem k0_off286_inb : ∀ (v80 : BitVec 32) (k0_hw71 : k0_chk71 v80), ∀ a, (k0_off286 v80) a + S1x128.size a ≤ S163842x128.size a := fun v80 k0_hw71 => k0_hw71.1
theorem k0_off322_inb : ∀ (v80 : BitVec 32) (k0_hw71 : k0_chk71 v80), ∀ a, (k0_off322 v80) a + S1x128.size a ≤ S163842x128.size a := fun v80 k0_hw71 => k0_hw71.2

def k0_off323 (v83 : BitVec 32) : Fin 2 → Nat :=
  let c0_i32_244 : BitVec 32 := 0#32
  ![v83.toNat, 0]

def k0_chk72 (v83 : BitVec 32) : Prop :=
  (∀ a, (k0_off289 v83) a + S1x128.size a ≤ S163842x128.size a) ∧
  (∀ a, (k0_off323 v83) a + S1x128.size a ≤ S163842x128.size a)
instance k0_chk72.dec : ∀ (v83 : BitVec 32), Decidable (k0_chk72 v83) := fun v83 => decidable_of_iff' _ (Iff.of_eq (k0_chk72.eq_1 v83))
theorem k0_off289_inb : ∀ (v83 : BitVec 32) (k0_hw72 : k0_chk72 v83), ∀ a, (k0_off289 v83) a + S1x128.size a ≤ S163842x128.size a := fun v83 k0_hw72 => k0_hw72.1
theorem k0_off323_inb : ∀ (v83 : BitVec 32) (k0_hw72 : k0_chk72 v83), ∀ a, (k0_off323 v83) a + S1x128.size a ≤ S163842x128.size a := fun v83 k0_hw72 => k0_hw72.2

def k0_off324 (v86 : BitVec 32) : Fin 2 → Nat :=
  let c0_i32_251 : BitVec 32 := 0#32
  ![v86.toNat, 0]

def k0_chk73 (v86 : BitVec 32) : Prop :=
  (∀ a, (k0_off292 v86) a + S1x128.size a ≤ S163842x128.size a) ∧
  (∀ a, (k0_off324 v86) a + S1x128.size a ≤ S163842x128.size a)
instance k0_chk73.dec : ∀ (v86 : BitVec 32), Decidable (k0_chk73 v86) := fun v86 => decidable_of_iff' _ (Iff.of_eq (k0_chk73.eq_1 v86))
theorem k0_off292_inb : ∀ (v86 : BitVec 32) (k0_hw73 : k0_chk73 v86), ∀ a, (k0_off292 v86) a + S1x128.size a ≤ S163842x128.size a := fun v86 k0_hw73 => k0_hw73.1
theorem k0_off324_inb : ∀ (v86 : BitVec 32) (k0_hw73 : k0_chk73 v86), ∀ a, (k0_off324 v86) a + S1x128.size a ≤ S163842x128.size a := fun v86 k0_hw73 => k0_hw73.2

def k0_off325 (v89 : BitVec 32) : Fin 2 → Nat :=
  let c0_i32_258 : BitVec 32 := 0#32
  ![v89.toNat, 0]

def k0_chk74 (v89 : BitVec 32) : Prop :=
  (∀ a, (k0_off295 v89) a + S1x128.size a ≤ S163842x128.size a) ∧
  (∀ a, (k0_off325 v89) a + S1x128.size a ≤ S163842x128.size a)
instance k0_chk74.dec : ∀ (v89 : BitVec 32), Decidable (k0_chk74 v89) := fun v89 => decidable_of_iff' _ (Iff.of_eq (k0_chk74.eq_1 v89))
theorem k0_off295_inb : ∀ (v89 : BitVec 32) (k0_hw74 : k0_chk74 v89), ∀ a, (k0_off295 v89) a + S1x128.size a ≤ S163842x128.size a := fun v89 k0_hw74 => k0_hw74.1
theorem k0_off325_inb : ∀ (v89 : BitVec 32) (k0_hw74 : k0_chk74 v89), ∀ a, (k0_off325 v89) a + S1x128.size a ≤ S163842x128.size a := fun v89 k0_hw74 => k0_hw74.2

def k0_off326 (v92 : BitVec 32) : Fin 2 → Nat :=
  let c0_i32_265 : BitVec 32 := 0#32
  ![v92.toNat, 0]

def k0_chk75 (v92 : BitVec 32) : Prop :=
  (∀ a, (k0_off298 v92) a + S1x128.size a ≤ S163842x128.size a) ∧
  (∀ a, (k0_off326 v92) a + S1x128.size a ≤ S163842x128.size a)
instance k0_chk75.dec : ∀ (v92 : BitVec 32), Decidable (k0_chk75 v92) := fun v92 => decidable_of_iff' _ (Iff.of_eq (k0_chk75.eq_1 v92))
theorem k0_off298_inb : ∀ (v92 : BitVec 32) (k0_hw75 : k0_chk75 v92), ∀ a, (k0_off298 v92) a + S1x128.size a ≤ S163842x128.size a := fun v92 k0_hw75 => k0_hw75.1
theorem k0_off326_inb : ∀ (v92 : BitVec 32) (k0_hw75 : k0_chk75 v92), ∀ a, (k0_off326 v92) a + S1x128.size a ≤ S163842x128.size a := fun v92 k0_hw75 => k0_hw75.2

def k0_off327 (v95 : BitVec 32) : Fin 2 → Nat :=
  let c0_i32_272 : BitVec 32 := 0#32
  ![v95.toNat, 0]

def k0_chk76 (v95 : BitVec 32) : Prop :=
  (∀ a, (k0_off301 v95) a + S1x128.size a ≤ S163842x128.size a) ∧
  (∀ a, (k0_off327 v95) a + S1x128.size a ≤ S163842x128.size a)
instance k0_chk76.dec : ∀ (v95 : BitVec 32), Decidable (k0_chk76 v95) := fun v95 => decidable_of_iff' _ (Iff.of_eq (k0_chk76.eq_1 v95))
theorem k0_off301_inb : ∀ (v95 : BitVec 32) (k0_hw76 : k0_chk76 v95), ∀ a, (k0_off301 v95) a + S1x128.size a ≤ S163842x128.size a := fun v95 k0_hw76 => k0_hw76.1
theorem k0_off327_inb : ∀ (v95 : BitVec 32) (k0_hw76 : k0_chk76 v95), ∀ a, (k0_off327 v95) a + S1x128.size a ≤ S163842x128.size a := fun v95 k0_hw76 => k0_hw76.2

def k0_off328 (v98 : BitVec 32) : Fin 2 → Nat :=
  let c0_i32_279 : BitVec 32 := 0#32
  ![v98.toNat, 0]

def k0_chk77 (v98 : BitVec 32) : Prop :=
  (∀ a, (k0_off304 v98) a + S1x128.size a ≤ S163842x128.size a) ∧
  (∀ a, (k0_off328 v98) a + S1x128.size a ≤ S163842x128.size a)
instance k0_chk77.dec : ∀ (v98 : BitVec 32), Decidable (k0_chk77 v98) := fun v98 => decidable_of_iff' _ (Iff.of_eq (k0_chk77.eq_1 v98))
theorem k0_off304_inb : ∀ (v98 : BitVec 32) (k0_hw77 : k0_chk77 v98), ∀ a, (k0_off304 v98) a + S1x128.size a ≤ S163842x128.size a := fun v98 k0_hw77 => k0_hw77.1
theorem k0_off328_inb : ∀ (v98 : BitVec 32) (k0_hw77 : k0_chk77 v98), ∀ a, (k0_off328 v98) a + S1x128.size a ≤ S163842x128.size a := fun v98 k0_hw77 => k0_hw77.2

def k0_off329 (v101 : BitVec 32) : Fin 2 → Nat :=
  let c0_i32_286 : BitVec 32 := 0#32
  ![v101.toNat, 0]

def k0_chk78 (v101 : BitVec 32) : Prop :=
  (∀ a, (k0_off307 v101) a + S1x128.size a ≤ S163842x128.size a) ∧
  (∀ a, (k0_off329 v101) a + S1x128.size a ≤ S163842x128.size a)
instance k0_chk78.dec : ∀ (v101 : BitVec 32), Decidable (k0_chk78 v101) := fun v101 => decidable_of_iff' _ (Iff.of_eq (k0_chk78.eq_1 v101))
theorem k0_off307_inb : ∀ (v101 : BitVec 32) (k0_hw78 : k0_chk78 v101), ∀ a, (k0_off307 v101) a + S1x128.size a ≤ S163842x128.size a := fun v101 k0_hw78 => k0_hw78.1
theorem k0_off329_inb : ∀ (v101 : BitVec 32) (k0_hw78 : k0_chk78 v101), ∀ a, (k0_off329 v101) a + S1x128.size a ≤ S163842x128.size a := fun v101 k0_hw78 => k0_hw78.2

def k0_off330 (v104 : BitVec 32) : Fin 2 → Nat :=
  let c0_i32_293 : BitVec 32 := 0#32
  ![v104.toNat, 0]

def k0_chk79 (v104 : BitVec 32) : Prop :=
  (∀ a, (k0_off310 v104) a + S1x128.size a ≤ S163842x128.size a) ∧
  (∀ a, (k0_off330 v104) a + S1x128.size a ≤ S163842x128.size a)
instance k0_chk79.dec : ∀ (v104 : BitVec 32), Decidable (k0_chk79 v104) := fun v104 => decidable_of_iff' _ (Iff.of_eq (k0_chk79.eq_1 v104))
theorem k0_off310_inb : ∀ (v104 : BitVec 32) (k0_hw79 : k0_chk79 v104), ∀ a, (k0_off310 v104) a + S1x128.size a ≤ S163842x128.size a := fun v104 k0_hw79 => k0_hw79.1
theorem k0_off330_inb : ∀ (v104 : BitVec 32) (k0_hw79 : k0_chk79 v104), ∀ a, (k0_off330 v104) a + S1x128.size a ≤ S163842x128.size a := fun v104 k0_hw79 => k0_hw79.2

@[reducible] def k0_t6_loop : Scf.Loop 32 :=
  let c0_i32_19 : BitVec 32 := 0#32
  let c64_i32_20 : BitVec 32 := 64#32
  let v5 : BitVec 32 := Scalar.addi c0_i32_19 c64_i32_20
  let c1_i32_21 : BitVec 32 := 1#32
  ⟨c0_i32_19, v5, c1_i32_21⟩
def k0_off331 (k0_t6 : Fin k0_t6_loop.trips) (c0_i32_54 : BitVec 32) : Fin 2 → Nat :=
  let c5_55 : Index := 5#32
  let c0_i32_19 : BitVec 32 := 0#32
  let c1_i32_21 : BitVec 32 := 1#32
  let arg9 : BitVec 32 := Scf.iv c0_i32_19 c1_i32_21 k0_t6
  let c16_i32 : BitVec 32 := 16#32
  let v59 : BitVec 32 := Scalar.muli arg9 c16_i32
  let v60 : BitVec 32 := Scalar.addi v59 c0_i32_54
  let v61 : Index := Scalar.indexCast v60
  ![5, v61.toNat]
def k0_off332 (k0_t6 : Fin k0_t6_loop.trips) : Fin 2 → Nat :=
  let c0_i32_19 : BitVec 32 := 0#32
  let c1_i32_21 : BitVec 32 := 1#32
  let arg9 : BitVec 32 := Scf.iv c0_i32_19 c1_i32_21 k0_t6
  let c16_i32 : BitVec 32 := 16#32
  let v59 : BitVec 32 := Scalar.muli arg9 c16_i32
  let c0_i32_77 : BitVec 32 := 0#32
  let v108 : BitVec 32 := Scalar.addi v59 c0_i32_77
  let c0_i32_80 : BitVec 32 := 0#32
  ![v108.toNat, 0]
def k0_off333 (i : grid0.Coords) : Fin 3 → Nat :=
  let arg0 : BitVec 32 := BitVec.ofNat 32 (i 0).val
  let c0_i32_81 : BitVec 32 := 0#32
  let c0_i32_82 : BitVec 32 := 0#32
  ![arg0.toNat, 0, 0]
def k0_off334 (v62 : BitVec 32) : Fin 2 → Nat :=
  let c0_i32_83 : BitVec 32 := 0#32
  ![v62.toNat, 0]

def k0_off335 (k0_t6 : Fin k0_t6_loop.trips) : Fin 2 → Nat :=
  let c0_i32_19 : BitVec 32 := 0#32
  let c1_i32_21 : BitVec 32 := 1#32
  let arg9 : BitVec 32 := Scf.iv c0_i32_19 c1_i32_21 k0_t6
  let c16_i32 : BitVec 32 := 16#32
  let v59 : BitVec 32 := Scalar.muli arg9 c16_i32
  let c1_i32_84 : BitVec 32 := 1#32
  let v117 : BitVec 32 := Scalar.addi v59 c1_i32_84
  let c0_i32_87 : BitVec 32 := 0#32
  ![v117.toNat, 0]
def k0_off336 (i : grid0.Coords) : Fin 3 → Nat :=
  let arg0 : BitVec 32 := BitVec.ofNat 32 (i 0).val
  let c0_i32_88 : BitVec 32 := 0#32
  let c0_i32_89 : BitVec 32 := 0#32
  ![arg0.toNat, 0, 0]
def k0_off337 (v65 : BitVec 32) : Fin 2 → Nat :=
  let c0_i32_90 : BitVec 32 := 0#32
  ![v65.toNat, 0]

def k0_off338 (k0_t6 : Fin k0_t6_loop.trips) : Fin 2 → Nat :=
  let c0_i32_19 : BitVec 32 := 0#32
  let c1_i32_21 : BitVec 32 := 1#32
  let arg9 : BitVec 32 := Scf.iv c0_i32_19 c1_i32_21 k0_t6
  let c16_i32 : BitVec 32 := 16#32
  let v59 : BitVec 32 := Scalar.muli arg9 c16_i32
  let c2_i32_91 : BitVec 32 := 2#32
  let v126 : BitVec 32 := Scalar.addi v59 c2_i32_91
  let c0_i32_94 : BitVec 32 := 0#32
  ![v126.toNat, 0]
def k0_off339 (i : grid0.Coords) : Fin 3 → Nat :=
  let arg0 : BitVec 32 := BitVec.ofNat 32 (i 0).val
  let c0_i32_95 : BitVec 32 := 0#32
  let c0_i32_96 : BitVec 32 := 0#32
  ![arg0.toNat, 0, 0]
def k0_off340 (v68 : BitVec 32) : Fin 2 → Nat :=
  let c0_i32_97 : BitVec 32 := 0#32
  ![v68.toNat, 0]

def k0_off341 (k0_t6 : Fin k0_t6_loop.trips) : Fin 2 → Nat :=
  let c0_i32_19 : BitVec 32 := 0#32
  let c1_i32_21 : BitVec 32 := 1#32
  let arg9 : BitVec 32 := Scf.iv c0_i32_19 c1_i32_21 k0_t6
  let c16_i32 : BitVec 32 := 16#32
  let v59 : BitVec 32 := Scalar.muli arg9 c16_i32
  let c3_i32_98 : BitVec 32 := 3#32
  let v135 : BitVec 32 := Scalar.addi v59 c3_i32_98
  let c0_i32_101 : BitVec 32 := 0#32
  ![v135.toNat, 0]
def k0_off342 (i : grid0.Coords) : Fin 3 → Nat :=
  let arg0 : BitVec 32 := BitVec.ofNat 32 (i 0).val
  let c0_i32_102 : BitVec 32 := 0#32
  let c0_i32_103 : BitVec 32 := 0#32
  ![arg0.toNat, 0, 0]
def k0_off343 (v71 : BitVec 32) : Fin 2 → Nat :=
  let c0_i32_104 : BitVec 32 := 0#32
  ![v71.toNat, 0]

def k0_off344 (k0_t6 : Fin k0_t6_loop.trips) : Fin 2 → Nat :=
  let c0_i32_19 : BitVec 32 := 0#32
  let c1_i32_21 : BitVec 32 := 1#32
  let arg9 : BitVec 32 := Scf.iv c0_i32_19 c1_i32_21 k0_t6
  let c16_i32 : BitVec 32 := 16#32
  let v59 : BitVec 32 := Scalar.muli arg9 c16_i32
  let c4_i32_105 : BitVec 32 := 4#32
  let v144 : BitVec 32 := Scalar.addi v59 c4_i32_105
  let c0_i32_108 : BitVec 32 := 0#32
  ![v144.toNat, 0]
def k0_off345 (i : grid0.Coords) : Fin 3 → Nat :=
  let arg0 : BitVec 32 := BitVec.ofNat 32 (i 0).val
  let c0_i32_109 : BitVec 32 := 0#32
  let c0_i32_110 : BitVec 32 := 0#32
  ![arg0.toNat, 0, 0]
def k0_off346 (v74 : BitVec 32) : Fin 2 → Nat :=
  let c0_i32_111 : BitVec 32 := 0#32
  ![v74.toNat, 0]

def k0_off347 (k0_t6 : Fin k0_t6_loop.trips) : Fin 2 → Nat :=
  let c0_i32_19 : BitVec 32 := 0#32
  let c1_i32_21 : BitVec 32 := 1#32
  let arg9 : BitVec 32 := Scf.iv c0_i32_19 c1_i32_21 k0_t6
  let c16_i32 : BitVec 32 := 16#32
  let v59 : BitVec 32 := Scalar.muli arg9 c16_i32
  let c5_i32_112 : BitVec 32 := 5#32
  let v153 : BitVec 32 := Scalar.addi v59 c5_i32_112
  let c0_i32_115 : BitVec 32 := 0#32
  ![v153.toNat, 0]
def k0_off348 (i : grid0.Coords) : Fin 3 → Nat :=
  let arg0 : BitVec 32 := BitVec.ofNat 32 (i 0).val
  let c0_i32_116 : BitVec 32 := 0#32
  let c0_i32_117 : BitVec 32 := 0#32
  ![arg0.toNat, 0, 0]
def k0_off349 (v77 : BitVec 32) : Fin 2 → Nat :=
  let c0_i32_118 : BitVec 32 := 0#32
  ![v77.toNat, 0]

def k0_off350 (k0_t6 : Fin k0_t6_loop.trips) : Fin 2 → Nat :=
  let c0_i32_19 : BitVec 32 := 0#32
  let c1_i32_21 : BitVec 32 := 1#32
  let arg9 : BitVec 32 := Scf.iv c0_i32_19 c1_i32_21 k0_t6
  let c16_i32 : BitVec 32 := 16#32
  let v59 : BitVec 32 := Scalar.muli arg9 c16_i32
  let c6_i32_119 : BitVec 32 := 6#32
  let v162 : BitVec 32 := Scalar.addi v59 c6_i32_119
  let c0_i32_122 : BitVec 32 := 0#32
  ![v162.toNat, 0]
def k0_off351 (i : grid0.Coords) : Fin 3 → Nat :=
  let arg0 : BitVec 32 := BitVec.ofNat 32 (i 0).val
  let c0_i32_123 : BitVec 32 := 0#32
  let c0_i32_124 : BitVec 32 := 0#32
  ![arg0.toNat, 0, 0]
def k0_off352 (v80 : BitVec 32) : Fin 2 → Nat :=
  let c0_i32_125 : BitVec 32 := 0#32
  ![v80.toNat, 0]

def k0_off353 (k0_t6 : Fin k0_t6_loop.trips) : Fin 2 → Nat :=
  let c0_i32_19 : BitVec 32 := 0#32
  let c1_i32_21 : BitVec 32 := 1#32
  let arg9 : BitVec 32 := Scf.iv c0_i32_19 c1_i32_21 k0_t6
  let c16_i32 : BitVec 32 := 16#32
  let v59 : BitVec 32 := Scalar.muli arg9 c16_i32
  let c7_i32_126 : BitVec 32 := 7#32
  let v171 : BitVec 32 := Scalar.addi v59 c7_i32_126
  let c0_i32_129 : BitVec 32 := 0#32
  ![v171.toNat, 0]
def k0_off354 (i : grid0.Coords) : Fin 3 → Nat :=
  let arg0 : BitVec 32 := BitVec.ofNat 32 (i 0).val
  let c0_i32_130 : BitVec 32 := 0#32
  let c0_i32_131 : BitVec 32 := 0#32
  ![arg0.toNat, 0, 0]
def k0_off355 (v83 : BitVec 32) : Fin 2 → Nat :=
  let c0_i32_132 : BitVec 32 := 0#32
  ![v83.toNat, 0]

def k0_off356 (k0_t6 : Fin k0_t6_loop.trips) : Fin 2 → Nat :=
  let c0_i32_19 : BitVec 32 := 0#32
  let c1_i32_21 : BitVec 32 := 1#32
  let arg9 : BitVec 32 := Scf.iv c0_i32_19 c1_i32_21 k0_t6
  let c16_i32 : BitVec 32 := 16#32
  let v59 : BitVec 32 := Scalar.muli arg9 c16_i32
  let c8_i32_133 : BitVec 32 := 8#32
  let v180 : BitVec 32 := Scalar.addi v59 c8_i32_133
  let c0_i32_136 : BitVec 32 := 0#32
  ![v180.toNat, 0]
def k0_off357 (i : grid0.Coords) : Fin 3 → Nat :=
  let arg0 : BitVec 32 := BitVec.ofNat 32 (i 0).val
  let c0_i32_137 : BitVec 32 := 0#32
  let c0_i32_138 : BitVec 32 := 0#32
  ![arg0.toNat, 0, 0]
def k0_off358 (v86 : BitVec 32) : Fin 2 → Nat :=
  let c0_i32_139 : BitVec 32 := 0#32
  ![v86.toNat, 0]

def k0_off359 (k0_t6 : Fin k0_t6_loop.trips) : Fin 2 → Nat :=
  let c0_i32_19 : BitVec 32 := 0#32
  let c1_i32_21 : BitVec 32 := 1#32
  let arg9 : BitVec 32 := Scf.iv c0_i32_19 c1_i32_21 k0_t6
  let c16_i32 : BitVec 32 := 16#32
  let v59 : BitVec 32 := Scalar.muli arg9 c16_i32
  let c9_i32_140 : BitVec 32 := 9#32
  let v189 : BitVec 32 := Scalar.addi v59 c9_i32_140
  let c0_i32_143 : BitVec 32 := 0#32
  ![v189.toNat, 0]
def k0_off360 (i : grid0.Coords) : Fin 3 → Nat :=
  let arg0 : BitVec 32 := BitVec.ofNat 32 (i 0).val
  let c0_i32_144 : BitVec 32 := 0#32
  let c0_i32_145 : BitVec 32 := 0#32
  ![arg0.toNat, 0, 0]
def k0_off361 (v89 : BitVec 32) : Fin 2 → Nat :=
  let c0_i32_146 : BitVec 32 := 0#32
  ![v89.toNat, 0]

def k0_off362 (k0_t6 : Fin k0_t6_loop.trips) : Fin 2 → Nat :=
  let c0_i32_19 : BitVec 32 := 0#32
  let c1_i32_21 : BitVec 32 := 1#32
  let arg9 : BitVec 32 := Scf.iv c0_i32_19 c1_i32_21 k0_t6
  let c16_i32 : BitVec 32 := 16#32
  let v59 : BitVec 32 := Scalar.muli arg9 c16_i32
  let c10_i32_147 : BitVec 32 := 10#32
  let v198 : BitVec 32 := Scalar.addi v59 c10_i32_147
  let c0_i32_150 : BitVec 32 := 0#32
  ![v198.toNat, 0]
def k0_off363 (i : grid0.Coords) : Fin 3 → Nat :=
  let arg0 : BitVec 32 := BitVec.ofNat 32 (i 0).val
  let c0_i32_151 : BitVec 32 := 0#32
  let c0_i32_152 : BitVec 32 := 0#32
  ![arg0.toNat, 0, 0]
def k0_off364 (v92 : BitVec 32) : Fin 2 → Nat :=
  let c0_i32_153 : BitVec 32 := 0#32
  ![v92.toNat, 0]

def k0_off365 (k0_t6 : Fin k0_t6_loop.trips) : Fin 2 → Nat :=
  let c0_i32_19 : BitVec 32 := 0#32
  let c1_i32_21 : BitVec 32 := 1#32
  let arg9 : BitVec 32 := Scf.iv c0_i32_19 c1_i32_21 k0_t6
  let c16_i32 : BitVec 32 := 16#32
  let v59 : BitVec 32 := Scalar.muli arg9 c16_i32
  let c11_i32_154 : BitVec 32 := 11#32
  let v207 : BitVec 32 := Scalar.addi v59 c11_i32_154
  let c0_i32_157 : BitVec 32 := 0#32
  ![v207.toNat, 0]
def k0_off366 (i : grid0.Coords) : Fin 3 → Nat :=
  let arg0 : BitVec 32 := BitVec.ofNat 32 (i 0).val
  let c0_i32_158 : BitVec 32 := 0#32
  let c0_i32_159 : BitVec 32 := 0#32
  ![arg0.toNat, 0, 0]
def k0_off367 (v95 : BitVec 32) : Fin 2 → Nat :=
  let c0_i32_160 : BitVec 32 := 0#32
  ![v95.toNat, 0]

def k0_off368 (k0_t6 : Fin k0_t6_loop.trips) : Fin 2 → Nat :=
  let c0_i32_19 : BitVec 32 := 0#32
  let c1_i32_21 : BitVec 32 := 1#32
  let arg9 : BitVec 32 := Scf.iv c0_i32_19 c1_i32_21 k0_t6
  let c16_i32 : BitVec 32 := 16#32
  let v59 : BitVec 32 := Scalar.muli arg9 c16_i32
  let c12_i32_161 : BitVec 32 := 12#32
  let v216 : BitVec 32 := Scalar.addi v59 c12_i32_161
  let c0_i32_164 : BitVec 32 := 0#32
  ![v216.toNat, 0]
def k0_off369 (i : grid0.Coords) : Fin 3 → Nat :=
  let arg0 : BitVec 32 := BitVec.ofNat 32 (i 0).val
  let c0_i32_165 : BitVec 32 := 0#32
  let c0_i32_166 : BitVec 32 := 0#32
  ![arg0.toNat, 0, 0]
def k0_off370 (v98 : BitVec 32) : Fin 2 → Nat :=
  let c0_i32_167 : BitVec 32 := 0#32
  ![v98.toNat, 0]

def k0_off371 (k0_t6 : Fin k0_t6_loop.trips) : Fin 2 → Nat :=
  let c0_i32_19 : BitVec 32 := 0#32
  let c1_i32_21 : BitVec 32 := 1#32
  let arg9 : BitVec 32 := Scf.iv c0_i32_19 c1_i32_21 k0_t6
  let c16_i32 : BitVec 32 := 16#32
  let v59 : BitVec 32 := Scalar.muli arg9 c16_i32
  let c13_i32_168 : BitVec 32 := 13#32
  let v225 : BitVec 32 := Scalar.addi v59 c13_i32_168
  let c0_i32_171 : BitVec 32 := 0#32
  ![v225.toNat, 0]
def k0_off372 (i : grid0.Coords) : Fin 3 → Nat :=
  let arg0 : BitVec 32 := BitVec.ofNat 32 (i 0).val
  let c0_i32_172 : BitVec 32 := 0#32
  let c0_i32_173 : BitVec 32 := 0#32
  ![arg0.toNat, 0, 0]
def k0_off373 (v101 : BitVec 32) : Fin 2 → Nat :=
  let c0_i32_174 : BitVec 32 := 0#32
  ![v101.toNat, 0]

def k0_off374 (k0_t6 : Fin k0_t6_loop.trips) : Fin 2 → Nat :=
  let c0_i32_19 : BitVec 32 := 0#32
  let c1_i32_21 : BitVec 32 := 1#32
  let arg9 : BitVec 32 := Scf.iv c0_i32_19 c1_i32_21 k0_t6
  let c16_i32 : BitVec 32 := 16#32
  let v59 : BitVec 32 := Scalar.muli arg9 c16_i32
  let c14_i32_175 : BitVec 32 := 14#32
  let v234 : BitVec 32 := Scalar.addi v59 c14_i32_175
  let c0_i32_178 : BitVec 32 := 0#32
  ![v234.toNat, 0]
def k0_off375 (i : grid0.Coords) : Fin 3 → Nat :=
  let arg0 : BitVec 32 := BitVec.ofNat 32 (i 0).val
  let c0_i32_179 : BitVec 32 := 0#32
  let c0_i32_180 : BitVec 32 := 0#32
  ![arg0.toNat, 0, 0]
def k0_off376 (v104 : BitVec 32) : Fin 2 → Nat :=
  let c0_i32_181 : BitVec 32 := 0#32
  ![v104.toNat, 0]

def k0_off377 (k0_t6 : Fin k0_t6_loop.trips) : Fin 2 → Nat :=
  let c0_i32_19 : BitVec 32 := 0#32
  let c1_i32_21 : BitVec 32 := 1#32
  let arg9 : BitVec 32 := Scf.iv c0_i32_19 c1_i32_21 k0_t6
  let c16_i32 : BitVec 32 := 16#32
  let v59 : BitVec 32 := Scalar.muli arg9 c16_i32
  let c15_i32_182 : BitVec 32 := 15#32
  let v243 : BitVec 32 := Scalar.addi v59 c15_i32_182
  let c0_i32_185 : BitVec 32 := 0#32
  ![v243.toNat, 0]
def k0_off378 (i : grid0.Coords) : Fin 3 → Nat :=
  let arg0 : BitVec 32 := BitVec.ofNat 32 (i 0).val
  let c0_i32_186 : BitVec 32 := 0#32
  let c0_i32_187 : BitVec 32 := 0#32
  ![arg0.toNat, 0, 0]
def k0_off379 (v107 : BitVec 32) : Fin 2 → Nat :=
  let c0_i32_188 : BitVec 32 := 0#32
  ![v107.toNat, 0]

def k0_chk96 (v107 : BitVec 32) : Prop :=
  (∀ a, (k0_off379 v107) a + S1x128.size a ≤ S163842x128.size a)
instance k0_chk96.dec : ∀ (v107 : BitVec 32), Decidable (k0_chk96 v107) := fun v107 => decidable_of_iff' _ (Iff.of_eq (k0_chk96.eq_1 v107))
theorem k0_off379_inb : ∀ (v107 : BitVec 32) (k0_hw96 : k0_chk96 v107), ∀ a, (k0_off379 v107) a + S1x128.size a ≤ S163842x128.size a := fun v107 k0_hw96 => k0_hw96

def k0_off380 (k0_t6 : Fin k0_t6_loop.trips) (c0_i32_189 : BitVec 32) : Fin 2 → Nat :=
  let c0_i32_19 : BitVec 32 := 0#32
  let c1_i32_21 : BitVec 32 := 1#32
  let arg9 : BitVec 32 := Scf.iv c0_i32_19 c1_i32_21 k0_t6
  let c16_i32 : BitVec 32 := 16#32
  let v59 : BitVec 32 := Scalar.muli arg9 c16_i32
  let v252 : BitVec 32 := Scalar.addi v59 c0_i32_189
  let c0_i32_192 : BitVec 32 := 0#32
  ![v252.toNat, 0]
def k0_off381 (i : grid0.Coords) : Fin 3 → Nat :=
  let arg0 : BitVec 32 := BitVec.ofNat 32 (i 0).val
  let c0_i32_193 : BitVec 32 := 0#32
  let c0_i32_194 : BitVec 32 := 0#32
  ![arg0.toNat, 0, 0]
def k0_off382 (v62 : BitVec 32) : Fin 2 → Nat :=
  let c0_i32_195 : BitVec 32 := 0#32
  ![v62.toNat, 0]

def k0_chk81 (v62 : BitVec 32) : Prop :=
  (∀ a, (k0_off334 v62) a + S1x128.size a ≤ S163842x128.size a) ∧
  (∀ a, (k0_off382 v62) a + S1x128.size a ≤ S163842x128.size a)
instance k0_chk81.dec : ∀ (v62 : BitVec 32), Decidable (k0_chk81 v62) := fun v62 => decidable_of_iff' _ (Iff.of_eq (k0_chk81.eq_1 v62))
theorem k0_off334_inb : ∀ (v62 : BitVec 32) (k0_hw81 : k0_chk81 v62), ∀ a, (k0_off334 v62) a + S1x128.size a ≤ S163842x128.size a := fun v62 k0_hw81 => k0_hw81.1
theorem k0_off382_inb : ∀ (v62 : BitVec 32) (k0_hw81 : k0_chk81 v62), ∀ a, (k0_off382 v62) a + S1x128.size a ≤ S163842x128.size a := fun v62 k0_hw81 => k0_hw81.2

def k0_off383 (v65 : BitVec 32) : Fin 2 → Nat :=
  let c0_i32_202 : BitVec 32 := 0#32
  ![v65.toNat, 0]

def k0_chk82 (v65 : BitVec 32) : Prop :=
  (∀ a, (k0_off337 v65) a + S1x128.size a ≤ S163842x128.size a) ∧
  (∀ a, (k0_off383 v65) a + S1x128.size a ≤ S163842x128.size a)
instance k0_chk82.dec : ∀ (v65 : BitVec 32), Decidable (k0_chk82 v65) := fun v65 => decidable_of_iff' _ (Iff.of_eq (k0_chk82.eq_1 v65))
theorem k0_off337_inb : ∀ (v65 : BitVec 32) (k0_hw82 : k0_chk82 v65), ∀ a, (k0_off337 v65) a + S1x128.size a ≤ S163842x128.size a := fun v65 k0_hw82 => k0_hw82.1
theorem k0_off383_inb : ∀ (v65 : BitVec 32) (k0_hw82 : k0_chk82 v65), ∀ a, (k0_off383 v65) a + S1x128.size a ≤ S163842x128.size a := fun v65 k0_hw82 => k0_hw82.2

def k0_off384 (v68 : BitVec 32) : Fin 2 → Nat :=
  let c0_i32_209 : BitVec 32 := 0#32
  ![v68.toNat, 0]

def k0_chk83 (v68 : BitVec 32) : Prop :=
  (∀ a, (k0_off340 v68) a + S1x128.size a ≤ S163842x128.size a) ∧
  (∀ a, (k0_off384 v68) a + S1x128.size a ≤ S163842x128.size a)
instance k0_chk83.dec : ∀ (v68 : BitVec 32), Decidable (k0_chk83 v68) := fun v68 => decidable_of_iff' _ (Iff.of_eq (k0_chk83.eq_1 v68))
theorem k0_off340_inb : ∀ (v68 : BitVec 32) (k0_hw83 : k0_chk83 v68), ∀ a, (k0_off340 v68) a + S1x128.size a ≤ S163842x128.size a := fun v68 k0_hw83 => k0_hw83.1
theorem k0_off384_inb : ∀ (v68 : BitVec 32) (k0_hw83 : k0_chk83 v68), ∀ a, (k0_off384 v68) a + S1x128.size a ≤ S163842x128.size a := fun v68 k0_hw83 => k0_hw83.2

def k0_off385 (v71 : BitVec 32) : Fin 2 → Nat :=
  let c0_i32_216 : BitVec 32 := 0#32
  ![v71.toNat, 0]

def k0_chk84 (v71 : BitVec 32) : Prop :=
  (∀ a, (k0_off343 v71) a + S1x128.size a ≤ S163842x128.size a) ∧
  (∀ a, (k0_off385 v71) a + S1x128.size a ≤ S163842x128.size a)
instance k0_chk84.dec : ∀ (v71 : BitVec 32), Decidable (k0_chk84 v71) := fun v71 => decidable_of_iff' _ (Iff.of_eq (k0_chk84.eq_1 v71))
theorem k0_off343_inb : ∀ (v71 : BitVec 32) (k0_hw84 : k0_chk84 v71), ∀ a, (k0_off343 v71) a + S1x128.size a ≤ S163842x128.size a := fun v71 k0_hw84 => k0_hw84.1
theorem k0_off385_inb : ∀ (v71 : BitVec 32) (k0_hw84 : k0_chk84 v71), ∀ a, (k0_off385 v71) a + S1x128.size a ≤ S163842x128.size a := fun v71 k0_hw84 => k0_hw84.2

def k0_off386 (v74 : BitVec 32) : Fin 2 → Nat :=
  let c0_i32_223 : BitVec 32 := 0#32
  ![v74.toNat, 0]

def k0_chk85 (v74 : BitVec 32) : Prop :=
  (∀ a, (k0_off346 v74) a + S1x128.size a ≤ S163842x128.size a) ∧
  (∀ a, (k0_off386 v74) a + S1x128.size a ≤ S163842x128.size a)
instance k0_chk85.dec : ∀ (v74 : BitVec 32), Decidable (k0_chk85 v74) := fun v74 => decidable_of_iff' _ (Iff.of_eq (k0_chk85.eq_1 v74))
theorem k0_off346_inb : ∀ (v74 : BitVec 32) (k0_hw85 : k0_chk85 v74), ∀ a, (k0_off346 v74) a + S1x128.size a ≤ S163842x128.size a := fun v74 k0_hw85 => k0_hw85.1
theorem k0_off386_inb : ∀ (v74 : BitVec 32) (k0_hw85 : k0_chk85 v74), ∀ a, (k0_off386 v74) a + S1x128.size a ≤ S163842x128.size a := fun v74 k0_hw85 => k0_hw85.2

def k0_off387 (v77 : BitVec 32) : Fin 2 → Nat :=
  let c0_i32_230 : BitVec 32 := 0#32
  ![v77.toNat, 0]

def k0_chk86 (v77 : BitVec 32) : Prop :=
  (∀ a, (k0_off349 v77) a + S1x128.size a ≤ S163842x128.size a) ∧
  (∀ a, (k0_off387 v77) a + S1x128.size a ≤ S163842x128.size a)
instance k0_chk86.dec : ∀ (v77 : BitVec 32), Decidable (k0_chk86 v77) := fun v77 => decidable_of_iff' _ (Iff.of_eq (k0_chk86.eq_1 v77))
theorem k0_off349_inb : ∀ (v77 : BitVec 32) (k0_hw86 : k0_chk86 v77), ∀ a, (k0_off349 v77) a + S1x128.size a ≤ S163842x128.size a := fun v77 k0_hw86 => k0_hw86.1
theorem k0_off387_inb : ∀ (v77 : BitVec 32) (k0_hw86 : k0_chk86 v77), ∀ a, (k0_off387 v77) a + S1x128.size a ≤ S163842x128.size a := fun v77 k0_hw86 => k0_hw86.2

def k0_off388 (v80 : BitVec 32) : Fin 2 → Nat :=
  let c0_i32_237 : BitVec 32 := 0#32
  ![v80.toNat, 0]

def k0_chk87 (v80 : BitVec 32) : Prop :=
  (∀ a, (k0_off352 v80) a + S1x128.size a ≤ S163842x128.size a) ∧
  (∀ a, (k0_off388 v80) a + S1x128.size a ≤ S163842x128.size a)
instance k0_chk87.dec : ∀ (v80 : BitVec 32), Decidable (k0_chk87 v80) := fun v80 => decidable_of_iff' _ (Iff.of_eq (k0_chk87.eq_1 v80))
theorem k0_off352_inb : ∀ (v80 : BitVec 32) (k0_hw87 : k0_chk87 v80), ∀ a, (k0_off352 v80) a + S1x128.size a ≤ S163842x128.size a := fun v80 k0_hw87 => k0_hw87.1
theorem k0_off388_inb : ∀ (v80 : BitVec 32) (k0_hw87 : k0_chk87 v80), ∀ a, (k0_off388 v80) a + S1x128.size a ≤ S163842x128.size a := fun v80 k0_hw87 => k0_hw87.2

def k0_off389 (v83 : BitVec 32) : Fin 2 → Nat :=
  let c0_i32_244 : BitVec 32 := 0#32
  ![v83.toNat, 0]

def k0_chk88 (v83 : BitVec 32) : Prop :=
  (∀ a, (k0_off355 v83) a + S1x128.size a ≤ S163842x128.size a) ∧
  (∀ a, (k0_off389 v83) a + S1x128.size a ≤ S163842x128.size a)
instance k0_chk88.dec : ∀ (v83 : BitVec 32), Decidable (k0_chk88 v83) := fun v83 => decidable_of_iff' _ (Iff.of_eq (k0_chk88.eq_1 v83))
theorem k0_off355_inb : ∀ (v83 : BitVec 32) (k0_hw88 : k0_chk88 v83), ∀ a, (k0_off355 v83) a + S1x128.size a ≤ S163842x128.size a := fun v83 k0_hw88 => k0_hw88.1
theorem k0_off389_inb : ∀ (v83 : BitVec 32) (k0_hw88 : k0_chk88 v83), ∀ a, (k0_off389 v83) a + S1x128.size a ≤ S163842x128.size a := fun v83 k0_hw88 => k0_hw88.2

def k0_off390 (v86 : BitVec 32) : Fin 2 → Nat :=
  let c0_i32_251 : BitVec 32 := 0#32
  ![v86.toNat, 0]

def k0_chk89 (v86 : BitVec 32) : Prop :=
  (∀ a, (k0_off358 v86) a + S1x128.size a ≤ S163842x128.size a) ∧
  (∀ a, (k0_off390 v86) a + S1x128.size a ≤ S163842x128.size a)
instance k0_chk89.dec : ∀ (v86 : BitVec 32), Decidable (k0_chk89 v86) := fun v86 => decidable_of_iff' _ (Iff.of_eq (k0_chk89.eq_1 v86))
theorem k0_off358_inb : ∀ (v86 : BitVec 32) (k0_hw89 : k0_chk89 v86), ∀ a, (k0_off358 v86) a + S1x128.size a ≤ S163842x128.size a := fun v86 k0_hw89 => k0_hw89.1
theorem k0_off390_inb : ∀ (v86 : BitVec 32) (k0_hw89 : k0_chk89 v86), ∀ a, (k0_off390 v86) a + S1x128.size a ≤ S163842x128.size a := fun v86 k0_hw89 => k0_hw89.2

def k0_off391 (v89 : BitVec 32) : Fin 2 → Nat :=
  let c0_i32_258 : BitVec 32 := 0#32
  ![v89.toNat, 0]

def k0_chk90 (v89 : BitVec 32) : Prop :=
  (∀ a, (k0_off361 v89) a + S1x128.size a ≤ S163842x128.size a) ∧
  (∀ a, (k0_off391 v89) a + S1x128.size a ≤ S163842x128.size a)
instance k0_chk90.dec : ∀ (v89 : BitVec 32), Decidable (k0_chk90 v89) := fun v89 => decidable_of_iff' _ (Iff.of_eq (k0_chk90.eq_1 v89))
theorem k0_off361_inb : ∀ (v89 : BitVec 32) (k0_hw90 : k0_chk90 v89), ∀ a, (k0_off361 v89) a + S1x128.size a ≤ S163842x128.size a := fun v89 k0_hw90 => k0_hw90.1
theorem k0_off391_inb : ∀ (v89 : BitVec 32) (k0_hw90 : k0_chk90 v89), ∀ a, (k0_off391 v89) a + S1x128.size a ≤ S163842x128.size a := fun v89 k0_hw90 => k0_hw90.2

def k0_off392 (v92 : BitVec 32) : Fin 2 → Nat :=
  let c0_i32_265 : BitVec 32 := 0#32
  ![v92.toNat, 0]

def k0_chk91 (v92 : BitVec 32) : Prop :=
  (∀ a, (k0_off364 v92) a + S1x128.size a ≤ S163842x128.size a) ∧
  (∀ a, (k0_off392 v92) a + S1x128.size a ≤ S163842x128.size a)
instance k0_chk91.dec : ∀ (v92 : BitVec 32), Decidable (k0_chk91 v92) := fun v92 => decidable_of_iff' _ (Iff.of_eq (k0_chk91.eq_1 v92))
theorem k0_off364_inb : ∀ (v92 : BitVec 32) (k0_hw91 : k0_chk91 v92), ∀ a, (k0_off364 v92) a + S1x128.size a ≤ S163842x128.size a := fun v92 k0_hw91 => k0_hw91.1
theorem k0_off392_inb : ∀ (v92 : BitVec 32) (k0_hw91 : k0_chk91 v92), ∀ a, (k0_off392 v92) a + S1x128.size a ≤ S163842x128.size a := fun v92 k0_hw91 => k0_hw91.2

def k0_off393 (v95 : BitVec 32) : Fin 2 → Nat :=
  let c0_i32_272 : BitVec 32 := 0#32
  ![v95.toNat, 0]

def k0_chk92 (v95 : BitVec 32) : Prop :=
  (∀ a, (k0_off367 v95) a + S1x128.size a ≤ S163842x128.size a) ∧
  (∀ a, (k0_off393 v95) a + S1x128.size a ≤ S163842x128.size a)
instance k0_chk92.dec : ∀ (v95 : BitVec 32), Decidable (k0_chk92 v95) := fun v95 => decidable_of_iff' _ (Iff.of_eq (k0_chk92.eq_1 v95))
theorem k0_off367_inb : ∀ (v95 : BitVec 32) (k0_hw92 : k0_chk92 v95), ∀ a, (k0_off367 v95) a + S1x128.size a ≤ S163842x128.size a := fun v95 k0_hw92 => k0_hw92.1
theorem k0_off393_inb : ∀ (v95 : BitVec 32) (k0_hw92 : k0_chk92 v95), ∀ a, (k0_off393 v95) a + S1x128.size a ≤ S163842x128.size a := fun v95 k0_hw92 => k0_hw92.2

def k0_off394 (v98 : BitVec 32) : Fin 2 → Nat :=
  let c0_i32_279 : BitVec 32 := 0#32
  ![v98.toNat, 0]

def k0_chk93 (v98 : BitVec 32) : Prop :=
  (∀ a, (k0_off370 v98) a + S1x128.size a ≤ S163842x128.size a) ∧
  (∀ a, (k0_off394 v98) a + S1x128.size a ≤ S163842x128.size a)
instance k0_chk93.dec : ∀ (v98 : BitVec 32), Decidable (k0_chk93 v98) := fun v98 => decidable_of_iff' _ (Iff.of_eq (k0_chk93.eq_1 v98))
theorem k0_off370_inb : ∀ (v98 : BitVec 32) (k0_hw93 : k0_chk93 v98), ∀ a, (k0_off370 v98) a + S1x128.size a ≤ S163842x128.size a := fun v98 k0_hw93 => k0_hw93.1
theorem k0_off394_inb : ∀ (v98 : BitVec 32) (k0_hw93 : k0_chk93 v98), ∀ a, (k0_off394 v98) a + S1x128.size a ≤ S163842x128.size a := fun v98 k0_hw93 => k0_hw93.2

def k0_off395 (v101 : BitVec 32) : Fin 2 → Nat :=
  let c0_i32_286 : BitVec 32 := 0#32
  ![v101.toNat, 0]

def k0_chk94 (v101 : BitVec 32) : Prop :=
  (∀ a, (k0_off373 v101) a + S1x128.size a ≤ S163842x128.size a) ∧
  (∀ a, (k0_off395 v101) a + S1x128.size a ≤ S163842x128.size a)
instance k0_chk94.dec : ∀ (v101 : BitVec 32), Decidable (k0_chk94 v101) := fun v101 => decidable_of_iff' _ (Iff.of_eq (k0_chk94.eq_1 v101))
theorem k0_off373_inb : ∀ (v101 : BitVec 32) (k0_hw94 : k0_chk94 v101), ∀ a, (k0_off373 v101) a + S1x128.size a ≤ S163842x128.size a := fun v101 k0_hw94 => k0_hw94.1
theorem k0_off395_inb : ∀ (v101 : BitVec 32) (k0_hw94 : k0_chk94 v101), ∀ a, (k0_off395 v101) a + S1x128.size a ≤ S163842x128.size a := fun v101 k0_hw94 => k0_hw94.2

def k0_off396 (v104 : BitVec 32) : Fin 2 → Nat :=
  let c0_i32_293 : BitVec 32 := 0#32
  ![v104.toNat, 0]

def k0_chk95 (v104 : BitVec 32) : Prop :=
  (∀ a, (k0_off376 v104) a + S1x128.size a ≤ S163842x128.size a) ∧
  (∀ a, (k0_off396 v104) a + S1x128.size a ≤ S163842x128.size a)
instance k0_chk95.dec : ∀ (v104 : BitVec 32), Decidable (k0_chk95 v104) := fun v104 => decidable_of_iff' _ (Iff.of_eq (k0_chk95.eq_1 v104))
theorem k0_off376_inb : ∀ (v104 : BitVec 32) (k0_hw95 : k0_chk95 v104), ∀ a, (k0_off376 v104) a + S1x128.size a ≤ S163842x128.size a := fun v104 k0_hw95 => k0_hw95.1
theorem k0_off396_inb : ∀ (v104 : BitVec 32) (k0_hw95 : k0_chk95 v104), ∀ a, (k0_off396 v104) a + S1x128.size a ≤ S163842x128.size a := fun v104 k0_hw95 => k0_hw95.2

@[reducible] def k0_t7_loop : Scf.Loop 32 :=
  let c0_i32_23 : BitVec 32 := 0#32
  let c64_i32_24 : BitVec 32 := 64#32
  let v6 : BitVec 32 := Scalar.addi c0_i32_23 c64_i32_24
  let c1_i32_25 : BitVec 32 := 1#32
  ⟨c0_i32_23, v6, c1_i32_25⟩
def k0_off397 (k0_t7 : Fin k0_t7_loop.trips) (c0_i32_54 : BitVec 32) : Fin 2 → Nat :=
  let c6_55 : Index := 6#32
  let c0_i32_23 : BitVec 32 := 0#32
  let c1_i32_25 : BitVec 32 := 1#32
  let arg9 : BitVec 32 := Scf.iv c0_i32_23 c1_i32_25 k0_t7
  let c16_i32 : BitVec 32 := 16#32
  let v59 : BitVec 32 := Scalar.muli arg9 c16_i32
  let v60 : BitVec 32 := Scalar.addi v59 c0_i32_54
  let v61 : Index := Scalar.indexCast v60
  ![6, v61.toNat]
def k0_off398 (k0_t7 : Fin k0_t7_loop.trips) : Fin 2 → Nat :=
  let c0_i32_23 : BitVec 32 := 0#32
  let c1_i32_25 : BitVec 32 := 1#32
  let arg9 : BitVec 32 := Scf.iv c0_i32_23 c1_i32_25 k0_t7
  let c16_i32 : BitVec 32 := 16#32
  let v59 : BitVec 32 := Scalar.muli arg9 c16_i32
  let c0_i32_77 : BitVec 32 := 0#32
  let v108 : BitVec 32 := Scalar.addi v59 c0_i32_77
  let c0_i32_80 : BitVec 32 := 0#32
  ![v108.toNat, 0]
def k0_off399 (i : grid0.Coords) : Fin 3 → Nat :=
  let arg0 : BitVec 32 := BitVec.ofNat 32 (i 0).val
  let c0_i32_81 : BitVec 32 := 0#32
  let c0_i32_82 : BitVec 32 := 0#32
  ![arg0.toNat, 0, 0]
def k0_off400 (v62 : BitVec 32) : Fin 2 → Nat :=
  let c0_i32_83 : BitVec 32 := 0#32
  ![v62.toNat, 0]

def k0_off401 (k0_t7 : Fin k0_t7_loop.trips) : Fin 2 → Nat :=
  let c0_i32_23 : BitVec 32 := 0#32
  let c1_i32_25 : BitVec 32 := 1#32
  let arg9 : BitVec 32 := Scf.iv c0_i32_23 c1_i32_25 k0_t7
  let c16_i32 : BitVec 32 := 16#32
  let v59 : BitVec 32 := Scalar.muli arg9 c16_i32
  let c1_i32_84 : BitVec 32 := 1#32
  let v117 : BitVec 32 := Scalar.addi v59 c1_i32_84
  let c0_i32_87 : BitVec 32 := 0#32
  ![v117.toNat, 0]
def k0_off402 (i : grid0.Coords) : Fin 3 → Nat :=
  let arg0 : BitVec 32 := BitVec.ofNat 32 (i 0).val
  let c0_i32_88 : BitVec 32 := 0#32
  let c0_i32_89 : BitVec 32 := 0#32
  ![arg0.toNat, 0, 0]
def k0_off403 (v65 : BitVec 32) : Fin 2 → Nat :=
  let c0_i32_90 : BitVec 32 := 0#32
  ![v65.toNat, 0]

def k0_off404 (k0_t7 : Fin k0_t7_loop.trips) : Fin 2 → Nat :=
  let c0_i32_23 : BitVec 32 := 0#32
  let c1_i32_25 : BitVec 32 := 1#32
  let arg9 : BitVec 32 := Scf.iv c0_i32_23 c1_i32_25 k0_t7
  let c16_i32 : BitVec 32 := 16#32
  let v59 : BitVec 32 := Scalar.muli arg9 c16_i32
  let c2_i32_91 : BitVec 32 := 2#32
  let v126 : BitVec 32 := Scalar.addi v59 c2_i32_91
  let c0_i32_94 : BitVec 32 := 0#32
  ![v126.toNat, 0]
def k0_off405 (i : grid0.Coords) : Fin 3 → Nat :=
  let arg0 : BitVec 32 := BitVec.ofNat 32 (i 0).val
  let c0_i32_95 : BitVec 32 := 0#32
  let c0_i32_96 : BitVec 32 := 0#32
  ![arg0.toNat, 0, 0]
def k0_off406 (v68 : BitVec 32) : Fin 2 → Nat :=
  let c0_i32_97 : BitVec 32 := 0#32
  ![v68.toNat, 0]

def k0_off407 (k0_t7 : Fin k0_t7_loop.trips) : Fin 2 → Nat :=
  let c0_i32_23 : BitVec 32 := 0#32
  let c1_i32_25 : BitVec 32 := 1#32
  let arg9 : BitVec 32 := Scf.iv c0_i32_23 c1_i32_25 k0_t7
  let c16_i32 : BitVec 32 := 16#32
  let v59 : BitVec 32 := Scalar.muli arg9 c16_i32
  let c3_i32_98 : BitVec 32 := 3#32
  let v135 : BitVec 32 := Scalar.addi v59 c3_i32_98
  let c0_i32_101 : BitVec 32 := 0#32
  ![v135.toNat, 0]
def k0_off408 (i : grid0.Coords) : Fin 3 → Nat :=
  let arg0 : BitVec 32 := BitVec.ofNat 32 (i 0).val
  let c0_i32_102 : BitVec 32 := 0#32
  let c0_i32_103 : BitVec 32 := 0#32
  ![arg0.toNat, 0, 0]
def k0_off409 (v71 : BitVec 32) : Fin 2 → Nat :=
  let c0_i32_104 : BitVec 32 := 0#32
  ![v71.toNat, 0]

def k0_off410 (k0_t7 : Fin k0_t7_loop.trips) : Fin 2 → Nat :=
  let c0_i32_23 : BitVec 32 := 0#32
  let c1_i32_25 : BitVec 32 := 1#32
  let arg9 : BitVec 32 := Scf.iv c0_i32_23 c1_i32_25 k0_t7
  let c16_i32 : BitVec 32 := 16#32
  let v59 : BitVec 32 := Scalar.muli arg9 c16_i32
  let c4_i32_105 : BitVec 32 := 4#32
  let v144 : BitVec 32 := Scalar.addi v59 c4_i32_105
  let c0_i32_108 : BitVec 32 := 0#32
  ![v144.toNat, 0]
def k0_off411 (i : grid0.Coords) : Fin 3 → Nat :=
  let arg0 : BitVec 32 := BitVec.ofNat 32 (i 0).val
  let c0_i32_109 : BitVec 32 := 0#32
  let c0_i32_110 : BitVec 32 := 0#32
  ![arg0.toNat, 0, 0]
def k0_off412 (v74 : BitVec 32) : Fin 2 → Nat :=
  let c0_i32_111 : BitVec 32 := 0#32
  ![v74.toNat, 0]

def k0_off413 (k0_t7 : Fin k0_t7_loop.trips) : Fin 2 → Nat :=
  let c0_i32_23 : BitVec 32 := 0#32
  let c1_i32_25 : BitVec 32 := 1#32
  let arg9 : BitVec 32 := Scf.iv c0_i32_23 c1_i32_25 k0_t7
  let c16_i32 : BitVec 32 := 16#32
  let v59 : BitVec 32 := Scalar.muli arg9 c16_i32
  let c5_i32_112 : BitVec 32 := 5#32
  let v153 : BitVec 32 := Scalar.addi v59 c5_i32_112
  let c0_i32_115 : BitVec 32 := 0#32
  ![v153.toNat, 0]
def k0_off414 (i : grid0.Coords) : Fin 3 → Nat :=
  let arg0 : BitVec 32 := BitVec.ofNat 32 (i 0).val
  let c0_i32_116 : BitVec 32 := 0#32
  let c0_i32_117 : BitVec 32 := 0#32
  ![arg0.toNat, 0, 0]
def k0_off415 (v77 : BitVec 32) : Fin 2 → Nat :=
  let c0_i32_118 : BitVec 32 := 0#32
  ![v77.toNat, 0]

def k0_off416 (k0_t7 : Fin k0_t7_loop.trips) : Fin 2 → Nat :=
  let c0_i32_23 : BitVec 32 := 0#32
  let c1_i32_25 : BitVec 32 := 1#32
  let arg9 : BitVec 32 := Scf.iv c0_i32_23 c1_i32_25 k0_t7
  let c16_i32 : BitVec 32 := 16#32
  let v59 : BitVec 32 := Scalar.muli arg9 c16_i32
  let c6_i32_119 : BitVec 32 := 6#32
  let v162 : BitVec 32 := Scalar.addi v59 c6_i32_119
  let c0_i32_122 : BitVec 32 := 0#32
  ![v162.toNat, 0]
def k0_off417 (i : grid0.Coords) : Fin 3 → Nat :=
  let arg0 : BitVec 32 := BitVec.ofNat 32 (i 0).val
  let c0_i32_123 : BitVec 32 := 0#32
  let c0_i32_124 : BitVec 32 := 0#32
  ![arg0.toNat, 0, 0]
def k0_off418 (v80 : BitVec 32) : Fin 2 → Nat :=
  let c0_i32_125 : BitVec 32 := 0#32
  ![v80.toNat, 0]

def k0_off419 (k0_t7 : Fin k0_t7_loop.trips) : Fin 2 → Nat :=
  let c0_i32_23 : BitVec 32 := 0#32
  let c1_i32_25 : BitVec 32 := 1#32
  let arg9 : BitVec 32 := Scf.iv c0_i32_23 c1_i32_25 k0_t7
  let c16_i32 : BitVec 32 := 16#32
  let v59 : BitVec 32 := Scalar.muli arg9 c16_i32
  let c7_i32_126 : BitVec 32 := 7#32
  let v171 : BitVec 32 := Scalar.addi v59 c7_i32_126
  let c0_i32_129 : BitVec 32 := 0#32
  ![v171.toNat, 0]
def k0_off420 (i : grid0.Coords) : Fin 3 → Nat :=
  let arg0 : BitVec 32 := BitVec.ofNat 32 (i 0).val
  let c0_i32_130 : BitVec 32 := 0#32
  let c0_i32_131 : BitVec 32 := 0#32
  ![arg0.toNat, 0, 0]
def k0_off421 (v83 : BitVec 32) : Fin 2 → Nat :=
  let c0_i32_132 : BitVec 32 := 0#32
  ![v83.toNat, 0]

def k0_off422 (k0_t7 : Fin k0_t7_loop.trips) : Fin 2 → Nat :=
  let c0_i32_23 : BitVec 32 := 0#32
  let c1_i32_25 : BitVec 32 := 1#32
  let arg9 : BitVec 32 := Scf.iv c0_i32_23 c1_i32_25 k0_t7
  let c16_i32 : BitVec 32 := 16#32
  let v59 : BitVec 32 := Scalar.muli arg9 c16_i32
  let c8_i32_133 : BitVec 32 := 8#32
  let v180 : BitVec 32 := Scalar.addi v59 c8_i32_133
  let c0_i32_136 : BitVec 32 := 0#32
  ![v180.toNat, 0]
def k0_off423 (i : grid0.Coords) : Fin 3 → Nat :=
  let arg0 : BitVec 32 := BitVec.ofNat 32 (i 0).val
  let c0_i32_137 : BitVec 32 := 0#32
  let c0_i32_138 : BitVec 32 := 0#32
  ![arg0.toNat, 0, 0]
def k0_off424 (v86 : BitVec 32) : Fin 2 → Nat :=
  let c0_i32_139 : BitVec 32 := 0#32
  ![v86.toNat, 0]

def k0_off425 (k0_t7 : Fin k0_t7_loop.trips) : Fin 2 → Nat :=
  let c0_i32_23 : BitVec 32 := 0#32
  let c1_i32_25 : BitVec 32 := 1#32
  let arg9 : BitVec 32 := Scf.iv c0_i32_23 c1_i32_25 k0_t7
  let c16_i32 : BitVec 32 := 16#32
  let v59 : BitVec 32 := Scalar.muli arg9 c16_i32
  let c9_i32_140 : BitVec 32 := 9#32
  let v189 : BitVec 32 := Scalar.addi v59 c9_i32_140
  let c0_i32_143 : BitVec 32 := 0#32
  ![v189.toNat, 0]
def k0_off426 (i : grid0.Coords) : Fin 3 → Nat :=
  let arg0 : BitVec 32 := BitVec.ofNat 32 (i 0).val
  let c0_i32_144 : BitVec 32 := 0#32
  let c0_i32_145 : BitVec 32 := 0#32
  ![arg0.toNat, 0, 0]
def k0_off427 (v89 : BitVec 32) : Fin 2 → Nat :=
  let c0_i32_146 : BitVec 32 := 0#32
  ![v89.toNat, 0]

def k0_off428 (k0_t7 : Fin k0_t7_loop.trips) : Fin 2 → Nat :=
  let c0_i32_23 : BitVec 32 := 0#32
  let c1_i32_25 : BitVec 32 := 1#32
  let arg9 : BitVec 32 := Scf.iv c0_i32_23 c1_i32_25 k0_t7
  let c16_i32 : BitVec 32 := 16#32
  let v59 : BitVec 32 := Scalar.muli arg9 c16_i32
  let c10_i32_147 : BitVec 32 := 10#32
  let v198 : BitVec 32 := Scalar.addi v59 c10_i32_147
  let c0_i32_150 : BitVec 32 := 0#32
  ![v198.toNat, 0]
def k0_off429 (i : grid0.Coords) : Fin 3 → Nat :=
  let arg0 : BitVec 32 := BitVec.ofNat 32 (i 0).val
  let c0_i32_151 : BitVec 32 := 0#32
  let c0_i32_152 : BitVec 32 := 0#32
  ![arg0.toNat, 0, 0]
def k0_off430 (v92 : BitVec 32) : Fin 2 → Nat :=
  let c0_i32_153 : BitVec 32 := 0#32
  ![v92.toNat, 0]

def k0_off431 (k0_t7 : Fin k0_t7_loop.trips) : Fin 2 → Nat :=
  let c0_i32_23 : BitVec 32 := 0#32
  let c1_i32_25 : BitVec 32 := 1#32
  let arg9 : BitVec 32 := Scf.iv c0_i32_23 c1_i32_25 k0_t7
  let c16_i32 : BitVec 32 := 16#32
  let v59 : BitVec 32 := Scalar.muli arg9 c16_i32
  let c11_i32_154 : BitVec 32 := 11#32
  let v207 : BitVec 32 := Scalar.addi v59 c11_i32_154
  let c0_i32_157 : BitVec 32 := 0#32
  ![v207.toNat, 0]
def k0_off432 (i : grid0.Coords) : Fin 3 → Nat :=
  let arg0 : BitVec 32 := BitVec.ofNat 32 (i 0).val
  let c0_i32_158 : BitVec 32 := 0#32
  let c0_i32_159 : BitVec 32 := 0#32
  ![arg0.toNat, 0, 0]
def k0_off433 (v95 : BitVec 32) : Fin 2 → Nat :=
  let c0_i32_160 : BitVec 32 := 0#32
  ![v95.toNat, 0]

def k0_off434 (k0_t7 : Fin k0_t7_loop.trips) : Fin 2 → Nat :=
  let c0_i32_23 : BitVec 32 := 0#32
  let c1_i32_25 : BitVec 32 := 1#32
  let arg9 : BitVec 32 := Scf.iv c0_i32_23 c1_i32_25 k0_t7
  let c16_i32 : BitVec 32 := 16#32
  let v59 : BitVec 32 := Scalar.muli arg9 c16_i32
  let c12_i32_161 : BitVec 32 := 12#32
  let v216 : BitVec 32 := Scalar.addi v59 c12_i32_161
  let c0_i32_164 : BitVec 32 := 0#32
  ![v216.toNat, 0]
def k0_off435 (i : grid0.Coords) : Fin 3 → Nat :=
  let arg0 : BitVec 32 := BitVec.ofNat 32 (i 0).val
  let c0_i32_165 : BitVec 32 := 0#32
  let c0_i32_166 : BitVec 32 := 0#32
  ![arg0.toNat, 0, 0]
def k0_off436 (v98 : BitVec 32) : Fin 2 → Nat :=
  let c0_i32_167 : BitVec 32 := 0#32
  ![v98.toNat, 0]

def k0_off437 (k0_t7 : Fin k0_t7_loop.trips) : Fin 2 → Nat :=
  let c0_i32_23 : BitVec 32 := 0#32
  let c1_i32_25 : BitVec 32 := 1#32
  let arg9 : BitVec 32 := Scf.iv c0_i32_23 c1_i32_25 k0_t7
  let c16_i32 : BitVec 32 := 16#32
  let v59 : BitVec 32 := Scalar.muli arg9 c16_i32
  let c13_i32_168 : BitVec 32 := 13#32
  let v225 : BitVec 32 := Scalar.addi v59 c13_i32_168
  let c0_i32_171 : BitVec 32 := 0#32
  ![v225.toNat, 0]
def k0_off438 (i : grid0.Coords) : Fin 3 → Nat :=
  let arg0 : BitVec 32 := BitVec.ofNat 32 (i 0).val
  let c0_i32_172 : BitVec 32 := 0#32
  let c0_i32_173 : BitVec 32 := 0#32
  ![arg0.toNat, 0, 0]
def k0_off439 (v101 : BitVec 32) : Fin 2 → Nat :=
  let c0_i32_174 : BitVec 32 := 0#32
  ![v101.toNat, 0]

def k0_off440 (k0_t7 : Fin k0_t7_loop.trips) : Fin 2 → Nat :=
  let c0_i32_23 : BitVec 32 := 0#32
  let c1_i32_25 : BitVec 32 := 1#32
  let arg9 : BitVec 32 := Scf.iv c0_i32_23 c1_i32_25 k0_t7
  let c16_i32 : BitVec 32 := 16#32
  let v59 : BitVec 32 := Scalar.muli arg9 c16_i32
  let c14_i32_175 : BitVec 32 := 14#32
  let v234 : BitVec 32 := Scalar.addi v59 c14_i32_175
  let c0_i32_178 : BitVec 32 := 0#32
  ![v234.toNat, 0]
def k0_off441 (i : grid0.Coords) : Fin 3 → Nat :=
  let arg0 : BitVec 32 := BitVec.ofNat 32 (i 0).val
  let c0_i32_179 : BitVec 32 := 0#32
  let c0_i32_180 : BitVec 32 := 0#32
  ![arg0.toNat, 0, 0]
def k0_off442 (v104 : BitVec 32) : Fin 2 → Nat :=
  let c0_i32_181 : BitVec 32 := 0#32
  ![v104.toNat, 0]

def k0_off443 (k0_t7 : Fin k0_t7_loop.trips) : Fin 2 → Nat :=
  let c0_i32_23 : BitVec 32 := 0#32
  let c1_i32_25 : BitVec 32 := 1#32
  let arg9 : BitVec 32 := Scf.iv c0_i32_23 c1_i32_25 k0_t7
  let c16_i32 : BitVec 32 := 16#32
  let v59 : BitVec 32 := Scalar.muli arg9 c16_i32
  let c15_i32_182 : BitVec 32 := 15#32
  let v243 : BitVec 32 := Scalar.addi v59 c15_i32_182
  let c0_i32_185 : BitVec 32 := 0#32
  ![v243.toNat, 0]
def k0_off444 (i : grid0.Coords) : Fin 3 → Nat :=
  let arg0 : BitVec 32 := BitVec.ofNat 32 (i 0).val
  let c0_i32_186 : BitVec 32 := 0#32
  let c0_i32_187 : BitVec 32 := 0#32
  ![arg0.toNat, 0, 0]
def k0_off445 (v107 : BitVec 32) : Fin 2 → Nat :=
  let c0_i32_188 : BitVec 32 := 0#32
  ![v107.toNat, 0]

def k0_chk112 (v107 : BitVec 32) : Prop :=
  (∀ a, (k0_off445 v107) a + S1x128.size a ≤ S163842x128.size a)
instance k0_chk112.dec : ∀ (v107 : BitVec 32), Decidable (k0_chk112 v107) := fun v107 => decidable_of_iff' _ (Iff.of_eq (k0_chk112.eq_1 v107))
theorem k0_off445_inb : ∀ (v107 : BitVec 32) (k0_hw112 : k0_chk112 v107), ∀ a, (k0_off445 v107) a + S1x128.size a ≤ S163842x128.size a := fun v107 k0_hw112 => k0_hw112

def k0_off446 (k0_t7 : Fin k0_t7_loop.trips) (c0_i32_189 : BitVec 32) : Fin 2 → Nat :=
  let c0_i32_23 : BitVec 32 := 0#32
  let c1_i32_25 : BitVec 32 := 1#32
  let arg9 : BitVec 32 := Scf.iv c0_i32_23 c1_i32_25 k0_t7
  let c16_i32 : BitVec 32 := 16#32
  let v59 : BitVec 32 := Scalar.muli arg9 c16_i32
  let v252 : BitVec 32 := Scalar.addi v59 c0_i32_189
  let c0_i32_192 : BitVec 32 := 0#32
  ![v252.toNat, 0]
def k0_off447 (i : grid0.Coords) : Fin 3 → Nat :=
  let arg0 : BitVec 32 := BitVec.ofNat 32 (i 0).val
  let c0_i32_193 : BitVec 32 := 0#32
  let c0_i32_194 : BitVec 32 := 0#32
  ![arg0.toNat, 0, 0]
def k0_off448 (v62 : BitVec 32) : Fin 2 → Nat :=
  let c0_i32_195 : BitVec 32 := 0#32
  ![v62.toNat, 0]

def k0_chk97 (v62 : BitVec 32) : Prop :=
  (∀ a, (k0_off400 v62) a + S1x128.size a ≤ S163842x128.size a) ∧
  (∀ a, (k0_off448 v62) a + S1x128.size a ≤ S163842x128.size a)
instance k0_chk97.dec : ∀ (v62 : BitVec 32), Decidable (k0_chk97 v62) := fun v62 => decidable_of_iff' _ (Iff.of_eq (k0_chk97.eq_1 v62))
theorem k0_off400_inb : ∀ (v62 : BitVec 32) (k0_hw97 : k0_chk97 v62), ∀ a, (k0_off400 v62) a + S1x128.size a ≤ S163842x128.size a := fun v62 k0_hw97 => k0_hw97.1
theorem k0_off448_inb : ∀ (v62 : BitVec 32) (k0_hw97 : k0_chk97 v62), ∀ a, (k0_off448 v62) a + S1x128.size a ≤ S163842x128.size a := fun v62 k0_hw97 => k0_hw97.2

def k0_off449 (v65 : BitVec 32) : Fin 2 → Nat :=
  let c0_i32_202 : BitVec 32 := 0#32
  ![v65.toNat, 0]

def k0_chk98 (v65 : BitVec 32) : Prop :=
  (∀ a, (k0_off403 v65) a + S1x128.size a ≤ S163842x128.size a) ∧
  (∀ a, (k0_off449 v65) a + S1x128.size a ≤ S163842x128.size a)
instance k0_chk98.dec : ∀ (v65 : BitVec 32), Decidable (k0_chk98 v65) := fun v65 => decidable_of_iff' _ (Iff.of_eq (k0_chk98.eq_1 v65))
theorem k0_off403_inb : ∀ (v65 : BitVec 32) (k0_hw98 : k0_chk98 v65), ∀ a, (k0_off403 v65) a + S1x128.size a ≤ S163842x128.size a := fun v65 k0_hw98 => k0_hw98.1
theorem k0_off449_inb : ∀ (v65 : BitVec 32) (k0_hw98 : k0_chk98 v65), ∀ a, (k0_off449 v65) a + S1x128.size a ≤ S163842x128.size a := fun v65 k0_hw98 => k0_hw98.2

def k0_off450 (v68 : BitVec 32) : Fin 2 → Nat :=
  let c0_i32_209 : BitVec 32 := 0#32
  ![v68.toNat, 0]

def k0_chk99 (v68 : BitVec 32) : Prop :=
  (∀ a, (k0_off406 v68) a + S1x128.size a ≤ S163842x128.size a) ∧
  (∀ a, (k0_off450 v68) a + S1x128.size a ≤ S163842x128.size a)
instance k0_chk99.dec : ∀ (v68 : BitVec 32), Decidable (k0_chk99 v68) := fun v68 => decidable_of_iff' _ (Iff.of_eq (k0_chk99.eq_1 v68))
theorem k0_off406_inb : ∀ (v68 : BitVec 32) (k0_hw99 : k0_chk99 v68), ∀ a, (k0_off406 v68) a + S1x128.size a ≤ S163842x128.size a := fun v68 k0_hw99 => k0_hw99.1
theorem k0_off450_inb : ∀ (v68 : BitVec 32) (k0_hw99 : k0_chk99 v68), ∀ a, (k0_off450 v68) a + S1x128.size a ≤ S163842x128.size a := fun v68 k0_hw99 => k0_hw99.2

def k0_off451 (v71 : BitVec 32) : Fin 2 → Nat :=
  let c0_i32_216 : BitVec 32 := 0#32
  ![v71.toNat, 0]

def k0_chk100 (v71 : BitVec 32) : Prop :=
  (∀ a, (k0_off409 v71) a + S1x128.size a ≤ S163842x128.size a) ∧
  (∀ a, (k0_off451 v71) a + S1x128.size a ≤ S163842x128.size a)
instance k0_chk100.dec : ∀ (v71 : BitVec 32), Decidable (k0_chk100 v71) := fun v71 => decidable_of_iff' _ (Iff.of_eq (k0_chk100.eq_1 v71))
theorem k0_off409_inb : ∀ (v71 : BitVec 32) (k0_hw100 : k0_chk100 v71), ∀ a, (k0_off409 v71) a + S1x128.size a ≤ S163842x128.size a := fun v71 k0_hw100 => k0_hw100.1
theorem k0_off451_inb : ∀ (v71 : BitVec 32) (k0_hw100 : k0_chk100 v71), ∀ a, (k0_off451 v71) a + S1x128.size a ≤ S163842x128.size a := fun v71 k0_hw100 => k0_hw100.2

def k0_off452 (v74 : BitVec 32) : Fin 2 → Nat :=
  let c0_i32_223 : BitVec 32 := 0#32
  ![v74.toNat, 0]

def k0_chk101 (v74 : BitVec 32) : Prop :=
  (∀ a, (k0_off412 v74) a + S1x128.size a ≤ S163842x128.size a) ∧
  (∀ a, (k0_off452 v74) a + S1x128.size a ≤ S163842x128.size a)
instance k0_chk101.dec : ∀ (v74 : BitVec 32), Decidable (k0_chk101 v74) := fun v74 => decidable_of_iff' _ (Iff.of_eq (k0_chk101.eq_1 v74))
theorem k0_off412_inb : ∀ (v74 : BitVec 32) (k0_hw101 : k0_chk101 v74), ∀ a, (k0_off412 v74) a + S1x128.size a ≤ S163842x128.size a := fun v74 k0_hw101 => k0_hw101.1
theorem k0_off452_inb : ∀ (v74 : BitVec 32) (k0_hw101 : k0_chk101 v74), ∀ a, (k0_off452 v74) a + S1x128.size a ≤ S163842x128.size a := fun v74 k0_hw101 => k0_hw101.2

def k0_off453 (v77 : BitVec 32) : Fin 2 → Nat :=
  let c0_i32_230 : BitVec 32 := 0#32
  ![v77.toNat, 0]

def k0_chk102 (v77 : BitVec 32) : Prop :=
  (∀ a, (k0_off415 v77) a + S1x128.size a ≤ S163842x128.size a) ∧
  (∀ a, (k0_off453 v77) a + S1x128.size a ≤ S163842x128.size a)
instance k0_chk102.dec : ∀ (v77 : BitVec 32), Decidable (k0_chk102 v77) := fun v77 => decidable_of_iff' _ (Iff.of_eq (k0_chk102.eq_1 v77))
theorem k0_off415_inb : ∀ (v77 : BitVec 32) (k0_hw102 : k0_chk102 v77), ∀ a, (k0_off415 v77) a + S1x128.size a ≤ S163842x128.size a := fun v77 k0_hw102 => k0_hw102.1
theorem k0_off453_inb : ∀ (v77 : BitVec 32) (k0_hw102 : k0_chk102 v77), ∀ a, (k0_off453 v77) a + S1x128.size a ≤ S163842x128.size a := fun v77 k0_hw102 => k0_hw102.2

def k0_off454 (v80 : BitVec 32) : Fin 2 → Nat :=
  let c0_i32_237 : BitVec 32 := 0#32
  ![v80.toNat, 0]

def k0_chk103 (v80 : BitVec 32) : Prop :=
  (∀ a, (k0_off418 v80) a + S1x128.size a ≤ S163842x128.size a) ∧
  (∀ a, (k0_off454 v80) a + S1x128.size a ≤ S163842x128.size a)
instance k0_chk103.dec : ∀ (v80 : BitVec 32), Decidable (k0_chk103 v80) := fun v80 => decidable_of_iff' _ (Iff.of_eq (k0_chk103.eq_1 v80))
theorem k0_off418_inb : ∀ (v80 : BitVec 32) (k0_hw103 : k0_chk103 v80), ∀ a, (k0_off418 v80) a + S1x128.size a ≤ S163842x128.size a := fun v80 k0_hw103 => k0_hw103.1
theorem k0_off454_inb : ∀ (v80 : BitVec 32) (k0_hw103 : k0_chk103 v80), ∀ a, (k0_off454 v80) a + S1x128.size a ≤ S163842x128.size a := fun v80 k0_hw103 => k0_hw103.2

def k0_off455 (v83 : BitVec 32) : Fin 2 → Nat :=
  let c0_i32_244 : BitVec 32 := 0#32
  ![v83.toNat, 0]

def k0_chk104 (v83 : BitVec 32) : Prop :=
  (∀ a, (k0_off421 v83) a + S1x128.size a ≤ S163842x128.size a) ∧
  (∀ a, (k0_off455 v83) a + S1x128.size a ≤ S163842x128.size a)
instance k0_chk104.dec : ∀ (v83 : BitVec 32), Decidable (k0_chk104 v83) := fun v83 => decidable_of_iff' _ (Iff.of_eq (k0_chk104.eq_1 v83))
theorem k0_off421_inb : ∀ (v83 : BitVec 32) (k0_hw104 : k0_chk104 v83), ∀ a, (k0_off421 v83) a + S1x128.size a ≤ S163842x128.size a := fun v83 k0_hw104 => k0_hw104.1
theorem k0_off455_inb : ∀ (v83 : BitVec 32) (k0_hw104 : k0_chk104 v83), ∀ a, (k0_off455 v83) a + S1x128.size a ≤ S163842x128.size a := fun v83 k0_hw104 => k0_hw104.2

def k0_off456 (v86 : BitVec 32) : Fin 2 → Nat :=
  let c0_i32_251 : BitVec 32 := 0#32
  ![v86.toNat, 0]

def k0_chk105 (v86 : BitVec 32) : Prop :=
  (∀ a, (k0_off424 v86) a + S1x128.size a ≤ S163842x128.size a) ∧
  (∀ a, (k0_off456 v86) a + S1x128.size a ≤ S163842x128.size a)
instance k0_chk105.dec : ∀ (v86 : BitVec 32), Decidable (k0_chk105 v86) := fun v86 => decidable_of_iff' _ (Iff.of_eq (k0_chk105.eq_1 v86))
theorem k0_off424_inb : ∀ (v86 : BitVec 32) (k0_hw105 : k0_chk105 v86), ∀ a, (k0_off424 v86) a + S1x128.size a ≤ S163842x128.size a := fun v86 k0_hw105 => k0_hw105.1
theorem k0_off456_inb : ∀ (v86 : BitVec 32) (k0_hw105 : k0_chk105 v86), ∀ a, (k0_off456 v86) a + S1x128.size a ≤ S163842x128.size a := fun v86 k0_hw105 => k0_hw105.2

def k0_off457 (v89 : BitVec 32) : Fin 2 → Nat :=
  let c0_i32_258 : BitVec 32 := 0#32
  ![v89.toNat, 0]

def k0_chk106 (v89 : BitVec 32) : Prop :=
  (∀ a, (k0_off427 v89) a + S1x128.size a ≤ S163842x128.size a) ∧
  (∀ a, (k0_off457 v89) a + S1x128.size a ≤ S163842x128.size a)
instance k0_chk106.dec : ∀ (v89 : BitVec 32), Decidable (k0_chk106 v89) := fun v89 => decidable_of_iff' _ (Iff.of_eq (k0_chk106.eq_1 v89))
theorem k0_off427_inb : ∀ (v89 : BitVec 32) (k0_hw106 : k0_chk106 v89), ∀ a, (k0_off427 v89) a + S1x128.size a ≤ S163842x128.size a := fun v89 k0_hw106 => k0_hw106.1
theorem k0_off457_inb : ∀ (v89 : BitVec 32) (k0_hw106 : k0_chk106 v89), ∀ a, (k0_off457 v89) a + S1x128.size a ≤ S163842x128.size a := fun v89 k0_hw106 => k0_hw106.2

def k0_off458 (v92 : BitVec 32) : Fin 2 → Nat :=
  let c0_i32_265 : BitVec 32 := 0#32
  ![v92.toNat, 0]

def k0_chk107 (v92 : BitVec 32) : Prop :=
  (∀ a, (k0_off430 v92) a + S1x128.size a ≤ S163842x128.size a) ∧
  (∀ a, (k0_off458 v92) a + S1x128.size a ≤ S163842x128.size a)
instance k0_chk107.dec : ∀ (v92 : BitVec 32), Decidable (k0_chk107 v92) := fun v92 => decidable_of_iff' _ (Iff.of_eq (k0_chk107.eq_1 v92))
theorem k0_off430_inb : ∀ (v92 : BitVec 32) (k0_hw107 : k0_chk107 v92), ∀ a, (k0_off430 v92) a + S1x128.size a ≤ S163842x128.size a := fun v92 k0_hw107 => k0_hw107.1
theorem k0_off458_inb : ∀ (v92 : BitVec 32) (k0_hw107 : k0_chk107 v92), ∀ a, (k0_off458 v92) a + S1x128.size a ≤ S163842x128.size a := fun v92 k0_hw107 => k0_hw107.2

def k0_off459 (v95 : BitVec 32) : Fin 2 → Nat :=
  let c0_i32_272 : BitVec 32 := 0#32
  ![v95.toNat, 0]

def k0_chk108 (v95 : BitVec 32) : Prop :=
  (∀ a, (k0_off433 v95) a + S1x128.size a ≤ S163842x128.size a) ∧
  (∀ a, (k0_off459 v95) a + S1x128.size a ≤ S163842x128.size a)
instance k0_chk108.dec : ∀ (v95 : BitVec 32), Decidable (k0_chk108 v95) := fun v95 => decidable_of_iff' _ (Iff.of_eq (k0_chk108.eq_1 v95))
theorem k0_off433_inb : ∀ (v95 : BitVec 32) (k0_hw108 : k0_chk108 v95), ∀ a, (k0_off433 v95) a + S1x128.size a ≤ S163842x128.size a := fun v95 k0_hw108 => k0_hw108.1
theorem k0_off459_inb : ∀ (v95 : BitVec 32) (k0_hw108 : k0_chk108 v95), ∀ a, (k0_off459 v95) a + S1x128.size a ≤ S163842x128.size a := fun v95 k0_hw108 => k0_hw108.2

def k0_off460 (v98 : BitVec 32) : Fin 2 → Nat :=
  let c0_i32_279 : BitVec 32 := 0#32
  ![v98.toNat, 0]

def k0_chk109 (v98 : BitVec 32) : Prop :=
  (∀ a, (k0_off436 v98) a + S1x128.size a ≤ S163842x128.size a) ∧
  (∀ a, (k0_off460 v98) a + S1x128.size a ≤ S163842x128.size a)
instance k0_chk109.dec : ∀ (v98 : BitVec 32), Decidable (k0_chk109 v98) := fun v98 => decidable_of_iff' _ (Iff.of_eq (k0_chk109.eq_1 v98))
theorem k0_off436_inb : ∀ (v98 : BitVec 32) (k0_hw109 : k0_chk109 v98), ∀ a, (k0_off436 v98) a + S1x128.size a ≤ S163842x128.size a := fun v98 k0_hw109 => k0_hw109.1
theorem k0_off460_inb : ∀ (v98 : BitVec 32) (k0_hw109 : k0_chk109 v98), ∀ a, (k0_off460 v98) a + S1x128.size a ≤ S163842x128.size a := fun v98 k0_hw109 => k0_hw109.2

def k0_off461 (v101 : BitVec 32) : Fin 2 → Nat :=
  let c0_i32_286 : BitVec 32 := 0#32
  ![v101.toNat, 0]

def k0_chk110 (v101 : BitVec 32) : Prop :=
  (∀ a, (k0_off439 v101) a + S1x128.size a ≤ S163842x128.size a) ∧
  (∀ a, (k0_off461 v101) a + S1x128.size a ≤ S163842x128.size a)
instance k0_chk110.dec : ∀ (v101 : BitVec 32), Decidable (k0_chk110 v101) := fun v101 => decidable_of_iff' _ (Iff.of_eq (k0_chk110.eq_1 v101))
theorem k0_off439_inb : ∀ (v101 : BitVec 32) (k0_hw110 : k0_chk110 v101), ∀ a, (k0_off439 v101) a + S1x128.size a ≤ S163842x128.size a := fun v101 k0_hw110 => k0_hw110.1
theorem k0_off461_inb : ∀ (v101 : BitVec 32) (k0_hw110 : k0_chk110 v101), ∀ a, (k0_off461 v101) a + S1x128.size a ≤ S163842x128.size a := fun v101 k0_hw110 => k0_hw110.2

def k0_off462 (v104 : BitVec 32) : Fin 2 → Nat :=
  let c0_i32_293 : BitVec 32 := 0#32
  ![v104.toNat, 0]

def k0_chk111 (v104 : BitVec 32) : Prop :=
  (∀ a, (k0_off442 v104) a + S1x128.size a ≤ S163842x128.size a) ∧
  (∀ a, (k0_off462 v104) a + S1x128.size a ≤ S163842x128.size a)
instance k0_chk111.dec : ∀ (v104 : BitVec 32), Decidable (k0_chk111 v104) := fun v104 => decidable_of_iff' _ (Iff.of_eq (k0_chk111.eq_1 v104))
theorem k0_off442_inb : ∀ (v104 : BitVec 32) (k0_hw111 : k0_chk111 v104), ∀ a, (k0_off442 v104) a + S1x128.size a ≤ S163842x128.size a := fun v104 k0_hw111 => k0_hw111.1
theorem k0_off462_inb : ∀ (v104 : BitVec 32) (k0_hw111 : k0_chk111 v104), ∀ a, (k0_off462 v104) a + S1x128.size a ≤ S163842x128.size a := fun v104 k0_hw111 => k0_hw111.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .smem S7x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S896x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1146894_S163842x7 : S1146894.ShapeCasts S163842x7
  transposes_S163842x7_S7x163842_1_0 : S163842x7.Transposes [1, 0] S7x163842
  pads_S7x163842_S7x164864_000_010220 : S7x163842.Pads (![0, 0] : Fin 2 → Nat) ![0, 1022] ![0, 0] S7x164864
  h_S_ : 0 < S_.numel
  pads_S2x163842x64_S2x163842x128_000_000_0640 : S2x163842x64.Pads (![0, 0, 0] : Fin 3 → Nat) ![0, 0, 64] ![0, 0, 0] S2x163842x128
  transposes_S64x448_S448x64_1_0 : S64x448.Transposes [1, 0] S448x64
  shapeCasts_S448x64_S7x64x64 : S448x64.ShapeCasts S7x64x64
  pads_S7x64x64_S7x128x64_000_0640_000 : S7x64x64.Pads (![0, 0, 0] : Fin 3 → Nat) ![0, 64, 0] ![0, 0, 0] S7x128x64
  shapeCasts_S7x128x64_S896x64 : S7x128x64.ShapeCasts S896x64
  bitsLt_bf16_f32 : FTy.bits .bf16 < FTy.bits .f32
  numel1_S1x1 : S1x1.numel = 1
  inb_S7x1024x128_S1x1024x128_0_0_0 : ∀ a, (![0, 0, 0] : Fin 3 → Nat) a + S1x1024x128.size a ≤ S7x1024x128.size a
  squeezes_S1x1024x128_S1024x128 : S1x1024x128.Squeezes S1024x128
  squeezes_S1x128_S128 : S1x128.Squeezes S128
  squeezes_S1x163842x128_S163842x128 : S1x163842x128.Squeezes S163842x128
  inb_S7x1024x128_S1x1024x128_1_0_0 : ∀ a, (![1, 0, 0] : Fin 3 → Nat) a + S1x1024x128.size a ≤ S7x1024x128.size a
  inb_S7x1024x128_S1x1024x128_2_0_0 : ∀ a, (![2, 0, 0] : Fin 3 → Nat) a + S1x1024x128.size a ≤ S7x1024x128.size a
  inb_S7x1024x128_S1x1024x128_3_0_0 : ∀ a, (![3, 0, 0] : Fin 3 → Nat) a + S1x1024x128.size a ≤ S7x1024x128.size a
  inb_S7x1024x128_S1x1024x128_4_0_0 : ∀ a, (![4, 0, 0] : Fin 3 → Nat) a + S1x1024x128.size a ≤ S7x1024x128.size a
  inb_S7x1024x128_S1x1024x128_5_0_0 : ∀ a, (![5, 0, 0] : Fin 3 → Nat) a + S1x1024x128.size a ≤ S7x1024x128.size a
  inb_S7x1024x128_S1x1024x128_6_0_0 : ∀ a, (![6, 0, 0] : Fin 3 → Nat) a + S1x1024x128.size a ≤ S7x1024x128.size a
  inb_S896x64_S896x64_0_0 : ∀ a, (![0, 0] : Fin 2 → Nat) a + S896x64.size a ≤ S896x64.size a
  h_S896x64 : 0 < S896x64.numel
  shapeCasts_S896x64_S896x64 : S896x64.ShapeCasts S896x64
  h_S1x1024x128 : 0 < S1x1024x128.numel
  shapeCasts_S1x1024x128_S1024x128 : S1x1024x128.ShapeCasts S1024x128
  slices_S896x64_o0_0_S128x64 : S896x64.Slices ![0, 0] S128x64
  slices_S896x64_o128_0_S128x64 : S896x64.Slices ![128, 0] S128x64
  slices_S896x64_o256_0_S128x64 : S896x64.Slices ![256, 0] S128x64
  slices_S896x64_o384_0_S128x64 : S896x64.Slices ![384, 0] S128x64
  slices_S896x64_o512_0_S128x64 : S896x64.Slices ![512, 0] S128x64
  slices_S896x64_o640_0_S128x64 : S896x64.Slices ![640, 0] S128x64
  slices_S896x64_o768_0_S128x64 : S896x64.Slices ![768, 0] S128x64
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  slices_S2x164864x64_S2x163842x64_0_0_0 : S2x164864x64.Slices ![0, 0, 0] S2x163842x64
  dot_S1024x128_S128x64_S1024x64_1_0_0_1_n_n_wf : DotDims.WF S1024x128 S128x64 S1024x64 [1] [0] [0] [1] [] []
  hcc0_scratch1 : 6 + S_.numel ≤ 7
  hrank0 : 0 < grid0.rank
  k0_t1_ok : k0_t1_loop.OK
  k0_off1_inb : ∀ k0_t1 : Fin k0_t1_loop.trips, ∀ (r : Fin 16), ∀ a, (k0_off1 k0_t1 (BitVec.ofNat 32 r.val)) a + S1x1.size a ≤ S7x1024.size a
  k0_off2_inb : ∀ k0_t1 : Fin k0_t1_loop.trips, ∀ a, (k0_off2 k0_t1) a + S1x128.size a ≤ S1024x128.size a
  k0_off3_inb : ∀ i : grid0.Coords, ∀ a, (k0_off3 i) a + S1x163842x128.size a ≤ S2x163842x128.size a
  k0_off5_inb : ∀ k0_t1 : Fin k0_t1_loop.trips, ∀ a, (k0_off5 k0_t1) a + S1x128.size a ≤ S1024x128.size a
  k0_off6_inb : ∀ i : grid0.Coords, ∀ a, (k0_off6 i) a + S1x163842x128.size a ≤ S2x163842x128.size a
  k0_off8_inb : ∀ k0_t1 : Fin k0_t1_loop.trips, ∀ a, (k0_off8 k0_t1) a + S1x128.size a ≤ S1024x128.size a
  k0_off9_inb : ∀ i : grid0.Coords, ∀ a, (k0_off9 i) a + S1x163842x128.size a ≤ S2x163842x128.size a
  k0_off11_inb : ∀ k0_t1 : Fin k0_t1_loop.trips, ∀ a, (k0_off11 k0_t1) a + S1x128.size a ≤ S1024x128.size a
  k0_off12_inb : ∀ i : grid0.Coords, ∀ a, (k0_off12 i) a + S1x163842x128.size a ≤ S2x163842x128.size a
  k0_off14_inb : ∀ k0_t1 : Fin k0_t1_loop.trips, ∀ a, (k0_off14 k0_t1) a + S1x128.size a ≤ S1024x128.size a
  k0_off15_inb : ∀ i : grid0.Coords, ∀ a, (k0_off15 i) a + S1x163842x128.size a ≤ S2x163842x128.size a
  k0_off17_inb : ∀ k0_t1 : Fin k0_t1_loop.trips, ∀ a, (k0_off17 k0_t1) a + S1x128.size a ≤ S1024x128.size a
  k0_off18_inb : ∀ i : grid0.Coords, ∀ a, (k0_off18 i) a + S1x163842x128.size a ≤ S2x163842x128.size a
  k0_off20_inb : ∀ k0_t1 : Fin k0_t1_loop.trips, ∀ a, (k0_off20 k0_t1) a + S1x128.size a ≤ S1024x128.size a
  k0_off21_inb : ∀ i : grid0.Coords, ∀ a, (k0_off21 i) a + S1x163842x128.size a ≤ S2x163842x128.size a
  k0_off23_inb : ∀ k0_t1 : Fin k0_t1_loop.trips, ∀ a, (k0_off23 k0_t1) a + S1x128.size a ≤ S1024x128.size a
  k0_off24_inb : ∀ i : grid0.Coords, ∀ a, (k0_off24 i) a + S1x163842x128.size a ≤ S2x163842x128.size a
  k0_off26_inb : ∀ k0_t1 : Fin k0_t1_loop.trips, ∀ a, (k0_off26 k0_t1) a + S1x128.size a ≤ S1024x128.size a
  k0_off27_inb : ∀ i : grid0.Coords, ∀ a, (k0_off27 i) a + S1x163842x128.size a ≤ S2x163842x128.size a
  k0_off29_inb : ∀ k0_t1 : Fin k0_t1_loop.trips, ∀ a, (k0_off29 k0_t1) a + S1x128.size a ≤ S1024x128.size a
  k0_off30_inb : ∀ i : grid0.Coords, ∀ a, (k0_off30 i) a + S1x163842x128.size a ≤ S2x163842x128.size a
  k0_off32_inb : ∀ k0_t1 : Fin k0_t1_loop.trips, ∀ a, (k0_off32 k0_t1) a + S1x128.size a ≤ S1024x128.size a
  k0_off33_inb : ∀ i : grid0.Coords, ∀ a, (k0_off33 i) a + S1x163842x128.size a ≤ S2x163842x128.size a
  k0_off35_inb : ∀ k0_t1 : Fin k0_t1_loop.trips, ∀ a, (k0_off35 k0_t1) a + S1x128.size a ≤ S1024x128.size a
  k0_off36_inb : ∀ i : grid0.Coords, ∀ a, (k0_off36 i) a + S1x163842x128.size a ≤ S2x163842x128.size a
  k0_off38_inb : ∀ k0_t1 : Fin k0_t1_loop.trips, ∀ a, (k0_off38 k0_t1) a + S1x128.size a ≤ S1024x128.size a
  k0_off39_inb : ∀ i : grid0.Coords, ∀ a, (k0_off39 i) a + S1x163842x128.size a ≤ S2x163842x128.size a
  k0_off41_inb : ∀ k0_t1 : Fin k0_t1_loop.trips, ∀ a, (k0_off41 k0_t1) a + S1x128.size a ≤ S1024x128.size a
  k0_off42_inb : ∀ i : grid0.Coords, ∀ a, (k0_off42 i) a + S1x163842x128.size a ≤ S2x163842x128.size a
  k0_off44_inb : ∀ k0_t1 : Fin k0_t1_loop.trips, ∀ a, (k0_off44 k0_t1) a + S1x128.size a ≤ S1024x128.size a
  k0_off45_inb : ∀ i : grid0.Coords, ∀ a, (k0_off45 i) a + S1x163842x128.size a ≤ S2x163842x128.size a
  k0_off47_inb : ∀ k0_t1 : Fin k0_t1_loop.trips, ∀ a, (k0_off47 k0_t1) a + S1x128.size a ≤ S1024x128.size a
  k0_off48_inb : ∀ i : grid0.Coords, ∀ a, (k0_off48 i) a + S1x163842x128.size a ≤ S2x163842x128.size a
  k0_off50_inb : ∀ k0_t1 : Fin k0_t1_loop.trips, ∀ (r : Fin 16), ∀ a, (k0_off50 k0_t1 (BitVec.ofNat 32 r.val)) a + S1x128.size a ≤ S1024x128.size a
  k0_off51_inb : ∀ i : grid0.Coords, ∀ a, (k0_off51 i) a + S1x163842x128.size a ≤ S2x163842x128.size a
  k0_t2_ok : k0_t2_loop.OK
  k0_off67_inb : ∀ k0_t2 : Fin k0_t2_loop.trips, ∀ (r : Fin 16), ∀ a, (k0_off67 k0_t2 (BitVec.ofNat 32 r.val)) a + S1x1.size a ≤ S7x1024.size a
  k0_off68_inb : ∀ k0_t2 : Fin k0_t2_loop.trips, ∀ a, (k0_off68 k0_t2) a + S1x128.size a ≤ S1024x128.size a
  k0_off69_inb : ∀ i : grid0.Coords, ∀ a, (k0_off69 i) a + S1x163842x128.size a ≤ S2x163842x128.size a
  k0_off71_inb : ∀ k0_t2 : Fin k0_t2_loop.trips, ∀ a, (k0_off71 k0_t2) a + S1x128.size a ≤ S1024x128.size a
  k0_off72_inb : ∀ i : grid0.Coords, ∀ a, (k0_off72 i) a + S1x163842x128.size a ≤ S2x163842x128.size a
  k0_off74_inb : ∀ k0_t2 : Fin k0_t2_loop.trips, ∀ a, (k0_off74 k0_t2) a + S1x128.size a ≤ S1024x128.size a
  k0_off75_inb : ∀ i : grid0.Coords, ∀ a, (k0_off75 i) a + S1x163842x128.size a ≤ S2x163842x128.size a
  k0_off77_inb : ∀ k0_t2 : Fin k0_t2_loop.trips, ∀ a, (k0_off77 k0_t2) a + S1x128.size a ≤ S1024x128.size a
  k0_off78_inb : ∀ i : grid0.Coords, ∀ a, (k0_off78 i) a + S1x163842x128.size a ≤ S2x163842x128.size a
  k0_off80_inb : ∀ k0_t2 : Fin k0_t2_loop.trips, ∀ a, (k0_off80 k0_t2) a + S1x128.size a ≤ S1024x128.size a
  k0_off81_inb : ∀ i : grid0.Coords, ∀ a, (k0_off81 i) a + S1x163842x128.size a ≤ S2x163842x128.size a
  k0_off83_inb : ∀ k0_t2 : Fin k0_t2_loop.trips, ∀ a, (k0_off83 k0_t2) a + S1x128.size a ≤ S1024x128.size a
  k0_off84_inb : ∀ i : grid0.Coords, ∀ a, (k0_off84 i) a + S1x163842x128.size a ≤ S2x163842x128.size a
  k0_off86_inb : ∀ k0_t2 : Fin k0_t2_loop.trips, ∀ a, (k0_off86 k0_t2) a + S1x128.size a ≤ S1024x128.size a
  k0_off87_inb : ∀ i : grid0.Coords, ∀ a, (k0_off87 i) a + S1x163842x128.size a ≤ S2x163842x128.size a
  k0_off89_inb : ∀ k0_t2 : Fin k0_t2_loop.trips, ∀ a, (k0_off89 k0_t2) a + S1x128.size a ≤ S1024x128.size a
  k0_off90_inb : ∀ i : grid0.Coords, ∀ a, (k0_off90 i) a + S1x163842x128.size a ≤ S2x163842x128.size a
  k0_off92_inb : ∀ k0_t2 : Fin k0_t2_loop.trips, ∀ a, (k0_off92 k0_t2) a + S1x128.size a ≤ S1024x128.size a
  k0_off93_inb : ∀ i : grid0.Coords, ∀ a, (k0_off93 i) a + S1x163842x128.size a ≤ S2x163842x128.size a
  k0_off95_inb : ∀ k0_t2 : Fin k0_t2_loop.trips, ∀ a, (k0_off95 k0_t2) a + S1x128.size a ≤ S1024x128.size a
  k0_off96_inb : ∀ i : grid0.Coords, ∀ a, (k0_off96 i) a + S1x163842x128.size a ≤ S2x163842x128.size a
  k0_off98_inb : ∀ k0_t2 : Fin k0_t2_loop.trips, ∀ a, (k0_off98 k0_t2) a + S1x128.size a ≤ S1024x128.size a
  k0_off99_inb : ∀ i : grid0.Coords, ∀ a, (k0_off99 i) a + S1x163842x128.size a ≤ S2x163842x128.size a
  k0_off101_inb : ∀ k0_t2 : Fin k0_t2_loop.trips, ∀ a, (k0_off101 k0_t2) a + S1x128.size a ≤ S1024x128.size a
  k0_off102_inb : ∀ i : grid0.Coords, ∀ a, (k0_off102 i) a + S1x163842x128.size a ≤ S2x163842x128.size a
  k0_off104_inb : ∀ k0_t2 : Fin k0_t2_loop.trips, ∀ a, (k0_off104 k0_t2) a + S1x128.size a ≤ S1024x128.size a
  k0_off105_inb : ∀ i : grid0.Coords, ∀ a, (k0_off105 i) a + S1x163842x128.size a ≤ S2x163842x128.size a
  k0_off107_inb : ∀ k0_t2 : Fin k0_t2_loop.trips, ∀ a, (k0_off107 k0_t2) a + S1x128.size a ≤ S1024x128.size a
  k0_off108_inb : ∀ i : grid0.Coords, ∀ a, (k0_off108 i) a + S1x163842x128.size a ≤ S2x163842x128.size a
  k0_off110_inb : ∀ k0_t2 : Fin k0_t2_loop.trips, ∀ a, (k0_off110 k0_t2) a + S1x128.size a ≤ S1024x128.size a
  k0_off111_inb : ∀ i : grid0.Coords, ∀ a, (k0_off111 i) a + S1x163842x128.size a ≤ S2x163842x128.size a
  k0_off113_inb : ∀ k0_t2 : Fin k0_t2_loop.trips, ∀ a, (k0_off113 k0_t2) a + S1x128.size a ≤ S1024x128.size a
  k0_off114_inb : ∀ i : grid0.Coords, ∀ a, (k0_off114 i) a + S1x163842x128.size a ≤ S2x163842x128.size a
  k0_off116_inb : ∀ k0_t2 : Fin k0_t2_loop.trips, ∀ (r : Fin 16), ∀ a, (k0_off116 k0_t2 (BitVec.ofNat 32 r.val)) a + S1x128.size a ≤ S1024x128.size a
  k0_off117_inb : ∀ i : grid0.Coords, ∀ a, (k0_off117 i) a + S1x163842x128.size a ≤ S2x163842x128.size a
  k0_t3_ok : k0_t3_loop.OK
  k0_off133_inb : ∀ k0_t3 : Fin k0_t3_loop.trips, ∀ (r : Fin 16), ∀ a, (k0_off133 k0_t3 (BitVec.ofNat 32 r.val)) a + S1x1.size a ≤ S7x1024.size a
  k0_off134_inb : ∀ k0_t3 : Fin k0_t3_loop.trips, ∀ a, (k0_off134 k0_t3) a + S1x128.size a ≤ S1024x128.size a
  k0_off135_inb : ∀ i : grid0.Coords, ∀ a, (k0_off135 i) a + S1x163842x128.size a ≤ S2x163842x128.size a
  k0_off137_inb : ∀ k0_t3 : Fin k0_t3_loop.trips, ∀ a, (k0_off137 k0_t3) a + S1x128.size a ≤ S1024x128.size a
  k0_off138_inb : ∀ i : grid0.Coords, ∀ a, (k0_off138 i) a + S1x163842x128.size a ≤ S2x163842x128.size a
  k0_off140_inb : ∀ k0_t3 : Fin k0_t3_loop.trips, ∀ a, (k0_off140 k0_t3) a + S1x128.size a ≤ S1024x128.size a
  k0_off141_inb : ∀ i : grid0.Coords, ∀ a, (k0_off141 i) a + S1x163842x128.size a ≤ S2x163842x128.size a
  k0_off143_inb : ∀ k0_t3 : Fin k0_t3_loop.trips, ∀ a, (k0_off143 k0_t3) a + S1x128.size a ≤ S1024x128.size a
  k0_off144_inb : ∀ i : grid0.Coords, ∀ a, (k0_off144 i) a + S1x163842x128.size a ≤ S2x163842x128.size a
  k0_off146_inb : ∀ k0_t3 : Fin k0_t3_loop.trips, ∀ a, (k0_off146 k0_t3) a + S1x128.size a ≤ S1024x128.size a
  k0_off147_inb : ∀ i : grid0.Coords, ∀ a, (k0_off147 i) a + S1x163842x128.size a ≤ S2x163842x128.size a
  k0_off149_inb : ∀ k0_t3 : Fin k0_t3_loop.trips, ∀ a, (k0_off149 k0_t3) a + S1x128.size a ≤ S1024x128.size a
  k0_off150_inb : ∀ i : grid0.Coords, ∀ a, (k0_off150 i) a + S1x163842x128.size a ≤ S2x163842x128.size a
  k0_off152_inb : ∀ k0_t3 : Fin k0_t3_loop.trips, ∀ a, (k0_off152 k0_t3) a + S1x128.size a ≤ S1024x128.size a
  k0_off153_inb : ∀ i : grid0.Coords, ∀ a, (k0_off153 i) a + S1x163842x128.size a ≤ S2x163842x128.size a
  k0_off155_inb : ∀ k0_t3 : Fin k0_t3_loop.trips, ∀ a, (k0_off155 k0_t3) a + S1x128.size a ≤ S1024x128.size a
  k0_off156_inb : ∀ i : grid0.Coords, ∀ a, (k0_off156 i) a + S1x163842x128.size a ≤ S2x163842x128.size a
  k0_off158_inb : ∀ k0_t3 : Fin k0_t3_loop.trips, ∀ a, (k0_off158 k0_t3) a + S1x128.size a ≤ S1024x128.size a
  k0_off159_inb : ∀ i : grid0.Coords, ∀ a, (k0_off159 i) a + S1x163842x128.size a ≤ S2x163842x128.size a
  k0_off161_inb : ∀ k0_t3 : Fin k0_t3_loop.trips, ∀ a, (k0_off161 k0_t3) a + S1x128.size a ≤ S1024x128.size a
  k0_off162_inb : ∀ i : grid0.Coords, ∀ a, (k0_off162 i) a + S1x163842x128.size a ≤ S2x163842x128.size a
  k0_off164_inb : ∀ k0_t3 : Fin k0_t3_loop.trips, ∀ a, (k0_off164 k0_t3) a + S1x128.size a ≤ S1024x128.size a
  k0_off165_inb : ∀ i : grid0.Coords, ∀ a, (k0_off165 i) a + S1x163842x128.size a ≤ S2x163842x128.size a
  k0_off167_inb : ∀ k0_t3 : Fin k0_t3_loop.trips, ∀ a, (k0_off167 k0_t3) a + S1x128.size a ≤ S1024x128.size a
  k0_off168_inb : ∀ i : grid0.Coords, ∀ a, (k0_off168 i) a + S1x163842x128.size a ≤ S2x163842x128.size a
  k0_off170_inb : ∀ k0_t3 : Fin k0_t3_loop.trips, ∀ a, (k0_off170 k0_t3) a + S1x128.size a ≤ S1024x128.size a
  k0_off171_inb : ∀ i : grid0.Coords, ∀ a, (k0_off171 i) a + S1x163842x128.size a ≤ S2x163842x128.size a
  k0_off173_inb : ∀ k0_t3 : Fin k0_t3_loop.trips, ∀ a, (k0_off173 k0_t3) a + S1x128.size a ≤ S1024x128.size a
  k0_off174_inb : ∀ i : grid0.Coords, ∀ a, (k0_off174 i) a + S1x163842x128.size a ≤ S2x163842x128.size a
  k0_off176_inb : ∀ k0_t3 : Fin k0_t3_loop.trips, ∀ a, (k0_off176 k0_t3) a + S1x128.size a ≤ S1024x128.size a
  k0_off177_inb : ∀ i : grid0.Coords, ∀ a, (k0_off177 i) a + S1x163842x128.size a ≤ S2x163842x128.size a
  k0_off179_inb : ∀ k0_t3 : Fin k0_t3_loop.trips, ∀ a, (k0_off179 k0_t3) a + S1x128.size a ≤ S1024x128.size a
  k0_off180_inb : ∀ i : grid0.Coords, ∀ a, (k0_off180 i) a + S1x163842x128.size a ≤ S2x163842x128.size a
  k0_off182_inb : ∀ k0_t3 : Fin k0_t3_loop.trips, ∀ (r : Fin 16), ∀ a, (k0_off182 k0_t3 (BitVec.ofNat 32 r.val)) a + S1x128.size a ≤ S1024x128.size a
  k0_off183_inb : ∀ i : grid0.Coords, ∀ a, (k0_off183 i) a + S1x163842x128.size a ≤ S2x163842x128.size a
  k0_t4_ok : k0_t4_loop.OK
  k0_off199_inb : ∀ k0_t4 : Fin k0_t4_loop.trips, ∀ (r : Fin 16), ∀ a, (k0_off199 k0_t4 (BitVec.ofNat 32 r.val)) a + S1x1.size a ≤ S7x1024.size a
  k0_off200_inb : ∀ k0_t4 : Fin k0_t4_loop.trips, ∀ a, (k0_off200 k0_t4) a + S1x128.size a ≤ S1024x128.size a
  k0_off201_inb : ∀ i : grid0.Coords, ∀ a, (k0_off201 i) a + S1x163842x128.size a ≤ S2x163842x128.size a
  k0_off203_inb : ∀ k0_t4 : Fin k0_t4_loop.trips, ∀ a, (k0_off203 k0_t4) a + S1x128.size a ≤ S1024x128.size a
  k0_off204_inb : ∀ i : grid0.Coords, ∀ a, (k0_off204 i) a + S1x163842x128.size a ≤ S2x163842x128.size a
  k0_off206_inb : ∀ k0_t4 : Fin k0_t4_loop.trips, ∀ a, (k0_off206 k0_t4) a + S1x128.size a ≤ S1024x128.size a
  k0_off207_inb : ∀ i : grid0.Coords, ∀ a, (k0_off207 i) a + S1x163842x128.size a ≤ S2x163842x128.size a
  k0_off209_inb : ∀ k0_t4 : Fin k0_t4_loop.trips, ∀ a, (k0_off209 k0_t4) a + S1x128.size a ≤ S1024x128.size a
  k0_off210_inb : ∀ i : grid0.Coords, ∀ a, (k0_off210 i) a + S1x163842x128.size a ≤ S2x163842x128.size a
  k0_off212_inb : ∀ k0_t4 : Fin k0_t4_loop.trips, ∀ a, (k0_off212 k0_t4) a + S1x128.size a ≤ S1024x128.size a
  k0_off213_inb : ∀ i : grid0.Coords, ∀ a, (k0_off213 i) a + S1x163842x128.size a ≤ S2x163842x128.size a
  k0_off215_inb : ∀ k0_t4 : Fin k0_t4_loop.trips, ∀ a, (k0_off215 k0_t4) a + S1x128.size a ≤ S1024x128.size a
  k0_off216_inb : ∀ i : grid0.Coords, ∀ a, (k0_off216 i) a + S1x163842x128.size a ≤ S2x163842x128.size a
  k0_off218_inb : ∀ k0_t4 : Fin k0_t4_loop.trips, ∀ a, (k0_off218 k0_t4) a + S1x128.size a ≤ S1024x128.size a
  k0_off219_inb : ∀ i : grid0.Coords, ∀ a, (k0_off219 i) a + S1x163842x128.size a ≤ S2x163842x128.size a
  k0_off221_inb : ∀ k0_t4 : Fin k0_t4_loop.trips, ∀ a, (k0_off221 k0_t4) a + S1x128.size a ≤ S1024x128.size a
  k0_off222_inb : ∀ i : grid0.Coords, ∀ a, (k0_off222 i) a + S1x163842x128.size a ≤ S2x163842x128.size a
  k0_off224_inb : ∀ k0_t4 : Fin k0_t4_loop.trips, ∀ a, (k0_off224 k0_t4) a + S1x128.size a ≤ S1024x128.size a
  k0_off225_inb : ∀ i : grid0.Coords, ∀ a, (k0_off225 i) a + S1x163842x128.size a ≤ S2x163842x128.size a
  k0_off227_inb : ∀ k0_t4 : Fin k0_t4_loop.trips, ∀ a, (k0_off227 k0_t4) a + S1x128.size a ≤ S1024x128.size a
  k0_off228_inb : ∀ i : grid0.Coords, ∀ a, (k0_off228 i) a + S1x163842x128.size a ≤ S2x163842x128.size a
  k0_off230_inb : ∀ k0_t4 : Fin k0_t4_loop.trips, ∀ a, (k0_off230 k0_t4) a + S1x128.size a ≤ S1024x128.size a
  k0_off231_inb : ∀ i : grid0.Coords, ∀ a, (k0_off231 i) a + S1x163842x128.size a ≤ S2x163842x128.size a
  k0_off233_inb : ∀ k0_t4 : Fin k0_t4_loop.trips, ∀ a, (k0_off233 k0_t4) a + S1x128.size a ≤ S1024x128.size a
  k0_off234_inb : ∀ i : grid0.Coords, ∀ a, (k0_off234 i) a + S1x163842x128.size a ≤ S2x163842x128.size a
  k0_off236_inb : ∀ k0_t4 : Fin k0_t4_loop.trips, ∀ a, (k0_off236 k0_t4) a + S1x128.size a ≤ S1024x128.size a
  k0_off237_inb : ∀ i : grid0.Coords, ∀ a, (k0_off237 i) a + S1x163842x128.size a ≤ S2x163842x128.size a
  k0_off239_inb : ∀ k0_t4 : Fin k0_t4_loop.trips, ∀ a, (k0_off239 k0_t4) a + S1x128.size a ≤ S1024x128.size a
  k0_off240_inb : ∀ i : grid0.Coords, ∀ a, (k0_off240 i) a + S1x163842x128.size a ≤ S2x163842x128.size a
  k0_off242_inb : ∀ k0_t4 : Fin k0_t4_loop.trips, ∀ a, (k0_off242 k0_t4) a + S1x128.size a ≤ S1024x128.size a
  k0_off243_inb : ∀ i : grid0.Coords, ∀ a, (k0_off243 i) a + S1x163842x128.size a ≤ S2x163842x128.size a
  k0_off245_inb : ∀ k0_t4 : Fin k0_t4_loop.trips, ∀ a, (k0_off245 k0_t4) a + S1x128.size a ≤ S1024x128.size a
  k0_off246_inb : ∀ i : grid0.Coords, ∀ a, (k0_off246 i) a + S1x163842x128.size a ≤ S2x163842x128.size a
  k0_off248_inb : ∀ k0_t4 : Fin k0_t4_loop.trips, ∀ (r : Fin 16), ∀ a, (k0_off248 k0_t4 (BitVec.ofNat 32 r.val)) a + S1x128.size a ≤ S1024x128.size a
  k0_off249_inb : ∀ i : grid0.Coords, ∀ a, (k0_off249 i) a + S1x163842x128.size a ≤ S2x163842x128.size a
  k0_t5_ok : k0_t5_loop.OK
  k0_off265_inb : ∀ k0_t5 : Fin k0_t5_loop.trips, ∀ (r : Fin 16), ∀ a, (k0_off265 k0_t5 (BitVec.ofNat 32 r.val)) a + S1x1.size a ≤ S7x1024.size a
  k0_off266_inb : ∀ k0_t5 : Fin k0_t5_loop.trips, ∀ a, (k0_off266 k0_t5) a + S1x128.size a ≤ S1024x128.size a
  k0_off267_inb : ∀ i : grid0.Coords, ∀ a, (k0_off267 i) a + S1x163842x128.size a ≤ S2x163842x128.size a
  k0_off269_inb : ∀ k0_t5 : Fin k0_t5_loop.trips, ∀ a, (k0_off269 k0_t5) a + S1x128.size a ≤ S1024x128.size a
  k0_off270_inb : ∀ i : grid0.Coords, ∀ a, (k0_off270 i) a + S1x163842x128.size a ≤ S2x163842x128.size a
  k0_off272_inb : ∀ k0_t5 : Fin k0_t5_loop.trips, ∀ a, (k0_off272 k0_t5) a + S1x128.size a ≤ S1024x128.size a
  k0_off273_inb : ∀ i : grid0.Coords, ∀ a, (k0_off273 i) a + S1x163842x128.size a ≤ S2x163842x128.size a
  k0_off275_inb : ∀ k0_t5 : Fin k0_t5_loop.trips, ∀ a, (k0_off275 k0_t5) a + S1x128.size a ≤ S1024x128.size a
  k0_off276_inb : ∀ i : grid0.Coords, ∀ a, (k0_off276 i) a + S1x163842x128.size a ≤ S2x163842x128.size a
  k0_off278_inb : ∀ k0_t5 : Fin k0_t5_loop.trips, ∀ a, (k0_off278 k0_t5) a + S1x128.size a ≤ S1024x128.size a
  k0_off279_inb : ∀ i : grid0.Coords, ∀ a, (k0_off279 i) a + S1x163842x128.size a ≤ S2x163842x128.size a
  k0_off281_inb : ∀ k0_t5 : Fin k0_t5_loop.trips, ∀ a, (k0_off281 k0_t5) a + S1x128.size a ≤ S1024x128.size a
  k0_off282_inb : ∀ i : grid0.Coords, ∀ a, (k0_off282 i) a + S1x163842x128.size a ≤ S2x163842x128.size a
  k0_off284_inb : ∀ k0_t5 : Fin k0_t5_loop.trips, ∀ a, (k0_off284 k0_t5) a + S1x128.size a ≤ S1024x128.size a
  k0_off285_inb : ∀ i : grid0.Coords, ∀ a, (k0_off285 i) a + S1x163842x128.size a ≤ S2x163842x128.size a
  k0_off287_inb : ∀ k0_t5 : Fin k0_t5_loop.trips, ∀ a, (k0_off287 k0_t5) a + S1x128.size a ≤ S1024x128.size a
  k0_off288_inb : ∀ i : grid0.Coords, ∀ a, (k0_off288 i) a + S1x163842x128.size a ≤ S2x163842x128.size a
  k0_off290_inb : ∀ k0_t5 : Fin k0_t5_loop.trips, ∀ a, (k0_off290 k0_t5) a + S1x128.size a ≤ S1024x128.size a
  k0_off291_inb : ∀ i : grid0.Coords, ∀ a, (k0_off291 i) a + S1x163842x128.size a ≤ S2x163842x128.size a
  k0_off293_inb : ∀ k0_t5 : Fin k0_t5_loop.trips, ∀ a, (k0_off293 k0_t5) a + S1x128.size a ≤ S1024x128.size a
  k0_off294_inb : ∀ i : grid0.Coords, ∀ a, (k0_off294 i) a + S1x163842x128.size a ≤ S2x163842x128.size a
  k0_off296_inb : ∀ k0_t5 : Fin k0_t5_loop.trips, ∀ a, (k0_off296 k0_t5) a + S1x128.size a ≤ S1024x128.size a
  k0_off297_inb : ∀ i : grid0.Coords, ∀ a, (k0_off297 i) a + S1x163842x128.size a ≤ S2x163842x128.size a
  k0_off299_inb : ∀ k0_t5 : Fin k0_t5_loop.trips, ∀ a, (k0_off299 k0_t5) a + S1x128.size a ≤ S1024x128.size a
  k0_off300_inb : ∀ i : grid0.Coords, ∀ a, (k0_off300 i) a + S1x163842x128.size a ≤ S2x163842x128.size a
  k0_off302_inb : ∀ k0_t5 : Fin k0_t5_loop.trips, ∀ a, (k0_off302 k0_t5) a + S1x128.size a ≤ S1024x128.size a
  k0_off303_inb : ∀ i : grid0.Coords, ∀ a, (k0_off303 i) a + S1x163842x128.size a ≤ S2x163842x128.size a
  k0_off305_inb : ∀ k0_t5 : Fin k0_t5_loop.trips, ∀ a, (k0_off305 k0_t5) a + S1x128.size a ≤ S1024x128.size a
  k0_off306_inb : ∀ i : grid0.Coords, ∀ a, (k0_off306 i) a + S1x163842x128.size a ≤ S2x163842x128.size a
  k0_off308_inb : ∀ k0_t5 : Fin k0_t5_loop.trips, ∀ a, (k0_off308 k0_t5) a + S1x128.size a ≤ S1024x128.size a
  k0_off309_inb : ∀ i : grid0.Coords, ∀ a, (k0_off309 i) a + S1x163842x128.size a ≤ S2x163842x128.size a
  k0_off311_inb : ∀ k0_t5 : Fin k0_t5_loop.trips, ∀ a, (k0_off311 k0_t5) a + S1x128.size a ≤ S1024x128.size a
  k0_off312_inb : ∀ i : grid0.Coords, ∀ a, (k0_off312 i) a + S1x163842x128.size a ≤ S2x163842x128.size a
  k0_off314_inb : ∀ k0_t5 : Fin k0_t5_loop.trips, ∀ (r : Fin 16), ∀ a, (k0_off314 k0_t5 (BitVec.ofNat 32 r.val)) a + S1x128.size a ≤ S1024x128.size a
  k0_off315_inb : ∀ i : grid0.Coords, ∀ a, (k0_off315 i) a + S1x163842x128.size a ≤ S2x163842x128.size a
  k0_t6_ok : k0_t6_loop.OK
  k0_off331_inb : ∀ k0_t6 : Fin k0_t6_loop.trips, ∀ (r : Fin 16), ∀ a, (k0_off331 k0_t6 (BitVec.ofNat 32 r.val)) a + S1x1.size a ≤ S7x1024.size a
  k0_off332_inb : ∀ k0_t6 : Fin k0_t6_loop.trips, ∀ a, (k0_off332 k0_t6) a + S1x128.size a ≤ S1024x128.size a
  k0_off333_inb : ∀ i : grid0.Coords, ∀ a, (k0_off333 i) a + S1x163842x128.size a ≤ S2x163842x128.size a
  k0_off335_inb : ∀ k0_t6 : Fin k0_t6_loop.trips, ∀ a, (k0_off335 k0_t6) a + S1x128.size a ≤ S1024x128.size a
  k0_off336_inb : ∀ i : grid0.Coords, ∀ a, (k0_off336 i) a + S1x163842x128.size a ≤ S2x163842x128.size a
  k0_off338_inb : ∀ k0_t6 : Fin k0_t6_loop.trips, ∀ a, (k0_off338 k0_t6) a + S1x128.size a ≤ S1024x128.size a
  k0_off339_inb : ∀ i : grid0.Coords, ∀ a, (k0_off339 i) a + S1x163842x128.size a ≤ S2x163842x128.size a
  k0_off341_inb : ∀ k0_t6 : Fin k0_t6_loop.trips, ∀ a, (k0_off341 k0_t6) a + S1x128.size a ≤ S1024x128.size a
  k0_off342_inb : ∀ i : grid0.Coords, ∀ a, (k0_off342 i) a + S1x163842x128.size a ≤ S2x163842x128.size a
  k0_off344_inb : ∀ k0_t6 : Fin k0_t6_loop.trips, ∀ a, (k0_off344 k0_t6) a + S1x128.size a ≤ S1024x128.size a
  k0_off345_inb : ∀ i : grid0.Coords, ∀ a, (k0_off345 i) a + S1x163842x128.size a ≤ S2x163842x128.size a
  k0_off347_inb : ∀ k0_t6 : Fin k0_t6_loop.trips, ∀ a, (k0_off347 k0_t6) a + S1x128.size a ≤ S1024x128.size a
  k0_off348_inb : ∀ i : grid0.Coords, ∀ a, (k0_off348 i) a + S1x163842x128.size a ≤ S2x163842x128.size a
  k0_off350_inb : ∀ k0_t6 : Fin k0_t6_loop.trips, ∀ a, (k0_off350 k0_t6) a + S1x128.size a ≤ S1024x128.size a
  k0_off351_inb : ∀ i : grid0.Coords, ∀ a, (k0_off351 i) a + S1x163842x128.size a ≤ S2x163842x128.size a
  k0_off353_inb : ∀ k0_t6 : Fin k0_t6_loop.trips, ∀ a, (k0_off353 k0_t6) a + S1x128.size a ≤ S1024x128.size a
  k0_off354_inb : ∀ i : grid0.Coords, ∀ a, (k0_off354 i) a + S1x163842x128.size a ≤ S2x163842x128.size a
  k0_off356_inb : ∀ k0_t6 : Fin k0_t6_loop.trips, ∀ a, (k0_off356 k0_t6) a + S1x128.size a ≤ S1024x128.size a
  k0_off357_inb : ∀ i : grid0.Coords, ∀ a, (k0_off357 i) a + S1x163842x128.size a ≤ S2x163842x128.size a
  k0_off359_inb : ∀ k0_t6 : Fin k0_t6_loop.trips, ∀ a, (k0_off359 k0_t6) a + S1x128.size a ≤ S1024x128.size a
  k0_off360_inb : ∀ i : grid0.Coords, ∀ a, (k0_off360 i) a + S1x163842x128.size a ≤ S2x163842x128.size a
  k0_off362_inb : ∀ k0_t6 : Fin k0_t6_loop.trips, ∀ a, (k0_off362 k0_t6) a + S1x128.size a ≤ S1024x128.size a
  k0_off363_inb : ∀ i : grid0.Coords, ∀ a, (k0_off363 i) a + S1x163842x128.size a ≤ S2x163842x128.size a
  k0_off365_inb : ∀ k0_t6 : Fin k0_t6_loop.trips, ∀ a, (k0_off365 k0_t6) a + S1x128.size a ≤ S1024x128.size a
  k0_off366_inb : ∀ i : grid0.Coords, ∀ a, (k0_off366 i) a + S1x163842x128.size a ≤ S2x163842x128.size a
  k0_off368_inb : ∀ k0_t6 : Fin k0_t6_loop.trips, ∀ a, (k0_off368 k0_t6) a + S1x128.size a ≤ S1024x128.size a
  k0_off369_inb : ∀ i : grid0.Coords, ∀ a, (k0_off369 i) a + S1x163842x128.size a ≤ S2x163842x128.size a
  k0_off371_inb : ∀ k0_t6 : Fin k0_t6_loop.trips, ∀ a, (k0_off371 k0_t6) a + S1x128.size a ≤ S1024x128.size a
  k0_off372_inb : ∀ i : grid0.Coords, ∀ a, (k0_off372 i) a + S1x163842x128.size a ≤ S2x163842x128.size a
  k0_off374_inb : ∀ k0_t6 : Fin k0_t6_loop.trips, ∀ a, (k0_off374 k0_t6) a + S1x128.size a ≤ S1024x128.size a
  k0_off375_inb : ∀ i : grid0.Coords, ∀ a, (k0_off375 i) a + S1x163842x128.size a ≤ S2x163842x128.size a
  k0_off377_inb : ∀ k0_t6 : Fin k0_t6_loop.trips, ∀ a, (k0_off377 k0_t6) a + S1x128.size a ≤ S1024x128.size a
  k0_off378_inb : ∀ i : grid0.Coords, ∀ a, (k0_off378 i) a + S1x163842x128.size a ≤ S2x163842x128.size a
  k0_off380_inb : ∀ k0_t6 : Fin k0_t6_loop.trips, ∀ (r : Fin 16), ∀ a, (k0_off380 k0_t6 (BitVec.ofNat 32 r.val)) a + S1x128.size a ≤ S1024x128.size a
  k0_off381_inb : ∀ i : grid0.Coords, ∀ a, (k0_off381 i) a + S1x163842x128.size a ≤ S2x163842x128.size a
  k0_t7_ok : k0_t7_loop.OK
  k0_off397_inb : ∀ k0_t7 : Fin k0_t7_loop.trips, ∀ (r : Fin 16), ∀ a, (k0_off397 k0_t7 (BitVec.ofNat 32 r.val)) a + S1x1.size a ≤ S7x1024.size a
  k0_off398_inb : ∀ k0_t7 : Fin k0_t7_loop.trips, ∀ a, (k0_off398 k0_t7) a + S1x128.size a ≤ S1024x128.size a
  k0_off399_inb : ∀ i : grid0.Coords, ∀ a, (k0_off399 i) a + S1x163842x128.size a ≤ S2x163842x128.size a
  k0_off401_inb : ∀ k0_t7 : Fin k0_t7_loop.trips, ∀ a, (k0_off401 k0_t7) a + S1x128.size a ≤ S1024x128.size a
  k0_off402_inb : ∀ i : grid0.Coords, ∀ a, (k0_off402 i) a + S1x163842x128.size a ≤ S2x163842x128.size a
  k0_off404_inb : ∀ k0_t7 : Fin k0_t7_loop.trips, ∀ a, (k0_off404 k0_t7) a + S1x128.size a ≤ S1024x128.size a
  k0_off405_inb : ∀ i : grid0.Coords, ∀ a, (k0_off405 i) a + S1x163842x128.size a ≤ S2x163842x128.size a
  k0_off407_inb : ∀ k0_t7 : Fin k0_t7_loop.trips, ∀ a, (k0_off407 k0_t7) a + S1x128.size a ≤ S1024x128.size a
  k0_off408_inb : ∀ i : grid0.Coords, ∀ a, (k0_off408 i) a + S1x163842x128.size a ≤ S2x163842x128.size a
  k0_off410_inb : ∀ k0_t7 : Fin k0_t7_loop.trips, ∀ a, (k0_off410 k0_t7) a + S1x128.size a ≤ S1024x128.size a
  k0_off411_inb : ∀ i : grid0.Coords, ∀ a, (k0_off411 i) a + S1x163842x128.size a ≤ S2x163842x128.size a
  k0_off413_inb : ∀ k0_t7 : Fin k0_t7_loop.trips, ∀ a, (k0_off413 k0_t7) a + S1x128.size a ≤ S1024x128.size a
  k0_off414_inb : ∀ i : grid0.Coords, ∀ a, (k0_off414 i) a + S1x163842x128.size a ≤ S2x163842x128.size a
  k0_off416_inb : ∀ k0_t7 : Fin k0_t7_loop.trips, ∀ a, (k0_off416 k0_t7) a + S1x128.size a ≤ S1024x128.size a
  k0_off417_inb : ∀ i : grid0.Coords, ∀ a, (k0_off417 i) a + S1x163842x128.size a ≤ S2x163842x128.size a
  k0_off419_inb : ∀ k0_t7 : Fin k0_t7_loop.trips, ∀ a, (k0_off419 k0_t7) a + S1x128.size a ≤ S1024x128.size a
  k0_off420_inb : ∀ i : grid0.Coords, ∀ a, (k0_off420 i) a + S1x163842x128.size a ≤ S2x163842x128.size a
  k0_off422_inb : ∀ k0_t7 : Fin k0_t7_loop.trips, ∀ a, (k0_off422 k0_t7) a + S1x128.size a ≤ S1024x128.size a
  k0_off423_inb : ∀ i : grid0.Coords, ∀ a, (k0_off423 i) a + S1x163842x128.size a ≤ S2x163842x128.size a
  k0_off425_inb : ∀ k0_t7 : Fin k0_t7_loop.trips, ∀ a, (k0_off425 k0_t7) a + S1x128.size a ≤ S1024x128.size a
  k0_off426_inb : ∀ i : grid0.Coords, ∀ a, (k0_off426 i) a + S1x163842x128.size a ≤ S2x163842x128.size a
  k0_off428_inb : ∀ k0_t7 : Fin k0_t7_loop.trips, ∀ a, (k0_off428 k0_t7) a + S1x128.size a ≤ S1024x128.size a
  k0_off429_inb : ∀ i : grid0.Coords, ∀ a, (k0_off429 i) a + S1x163842x128.size a ≤ S2x163842x128.size a
  k0_off431_inb : ∀ k0_t7 : Fin k0_t7_loop.trips, ∀ a, (k0_off431 k0_t7) a + S1x128.size a ≤ S1024x128.size a
  k0_off432_inb : ∀ i : grid0.Coords, ∀ a, (k0_off432 i) a + S1x163842x128.size a ≤ S2x163842x128.size a
  k0_off434_inb : ∀ k0_t7 : Fin k0_t7_loop.trips, ∀ a, (k0_off434 k0_t7) a + S1x128.size a ≤ S1024x128.size a
  k0_off435_inb : ∀ i : grid0.Coords, ∀ a, (k0_off435 i) a + S1x163842x128.size a ≤ S2x163842x128.size a
  k0_off437_inb : ∀ k0_t7 : Fin k0_t7_loop.trips, ∀ a, (k0_off437 k0_t7) a + S1x128.size a ≤ S1024x128.size a
  k0_off438_inb : ∀ i : grid0.Coords, ∀ a, (k0_off438 i) a + S1x163842x128.size a ≤ S2x163842x128.size a
  k0_off440_inb : ∀ k0_t7 : Fin k0_t7_loop.trips, ∀ a, (k0_off440 k0_t7) a + S1x128.size a ≤ S1024x128.size a
  k0_off441_inb : ∀ i : grid0.Coords, ∀ a, (k0_off441 i) a + S1x163842x128.size a ≤ S2x163842x128.size a
  k0_off443_inb : ∀ k0_t7 : Fin k0_t7_loop.trips, ∀ a, (k0_off443 k0_t7) a + S1x128.size a ≤ S1024x128.size a
  k0_off444_inb : ∀ i : grid0.Coords, ∀ a, (k0_off444 i) a + S1x163842x128.size a ≤ S2x163842x128.size a
  k0_off446_inb : ∀ k0_t7 : Fin k0_t7_loop.trips, ∀ (r : Fin 16), ∀ a, (k0_off446 k0_t7 (BitVec.ofNat 32 r.val)) a + S1x128.size a ≤ S1024x128.size a
  k0_off447_inb : ∀ i : grid0.Coords, ∀ a, (k0_off447 i) a + S1x163842x128.size a ≤ S2x163842x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x1024.size a ≤ S7x164864.size a
  hwx0_0 : ∀ i : grid0.Coords, EltTy.bits .i32 = 32 ∨ (Rect.block (s := S7x164864) S7x1024.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S896x64.size a ≤ S896x64.size a
  hwx0_1 : ∀ i : grid0.Coords, EltTy.bits .bf16 = 32 ∨ (Rect.block (s := S896x64) S896x64.size (cc0_transform_2 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S64.size a ≤ S64.size a
  hwx0_2 : ∀ i : grid0.Coords, EltTy.bits .f32 = 32 ∨ (Rect.block (s := S64) S64.size (cc0_transform_3 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S1x1024x64.size a ≤ S2x164864x64.size a
  hwx0_3 : ∀ i : grid0.Coords, EltTy.bits .f32 = 32 ∨ (Rect.block (s := S2x164864x64) S1x1024x64.size (cc0_transform_4 i) (hinb0_3 i)).WholeWords (EltTy.packing .f32)

variable [Facts₀]

abbrev cc0_scratch1 : DmaSems sig S_ := SemArray.consecutive 6 S_ hcc0_scratch1
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

abbrev win0_0 : Pipeline.Window sig grid0 :=
  Pipeline.Window.ofSpec (Memref.whole main_v2) S7x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S896x64.size cc0_transform_2 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_3 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024x64.size cc0_transform_4 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x163842x64 : Shape := ⟨3, ![2, 163842, 64]⟩
abbrev S1146894 : Shape := ⟨1, ![1146894]⟩
abbrev S64x448 : Shape := ⟨2, ![64, 448]⟩
abbrev S64 : Shape := ⟨1, ![64]⟩
abbrev S_ : Shape := ⟨0, ![]⟩
abbrev S1146894x1 : Shape := ⟨2, ![1146894, 1]⟩
abbrev S2x1146894x64 : Shape := ⟨3, ![2, 1146894, 64]⟩
abbrev S2x163842x448 : Shape := ⟨3, ![2, 163842, 448]⟩
abbrev S1x1x64 : Shape := ⟨3, ![1, 1, 64]⟩

abbrev nBuf : Space → Nat
  | .hbm => 18
  | .vmem => 0
  | .smem => 0
  | _ => 0

abbrev bufTy : (tb : Table) → Fin (tcTables nBuf tb) → BufTy
  | .hbm, ⟨0, _⟩ => ⟨S2x163842x64, .f32⟩
  | .hbm, ⟨1, _⟩ => ⟨S1146894, .i32⟩
  | .hbm, ⟨2, _⟩ => ⟨S64x448, .f32⟩
  | .hbm, ⟨3, _⟩ => ⟨S64, .f32⟩
  | .hbm, ⟨4, _⟩ => ⟨S_, .i32⟩
  | .hbm, ⟨5, _⟩ => ⟨S1146894, .i32⟩
  | .hbm, ⟨6, _⟩ => ⟨S1146894, .i1⟩
  | .hbm, ⟨7, _⟩ => ⟨S_, .i32⟩
  | .hbm, ⟨8, _⟩ => ⟨S1146894, .i32⟩
  | .hbm, ⟨9, _⟩ => ⟨S1146894, .i32⟩
  | .hbm, ⟨10, _⟩ => ⟨S1146894, .i32⟩
  | .hbm, ⟨11, _⟩ => ⟨S1146894x1, .i32⟩
  | .hbm, ⟨12, _⟩ => ⟨S2x1146894x64, .f32⟩
  | .hbm, ⟨13, _⟩ => ⟨S2x163842x448, .f32⟩
  | .hbm, ⟨14, _⟩ => ⟨S2x163842x64, .f32⟩
  | .hbm, ⟨15, _⟩ => ⟨S1x1x64, .f32⟩
  | .hbm, ⟨16, _⟩ => ⟨S2x163842x64, .f32⟩
  | .hbm, ⟨17, _⟩ => ⟨S2x163842x64, .f32⟩
  | _, _ => ⟨S2x163842x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S1146894 : S_.BroadcastsInDim S1146894 (![] : Fin 0 → Fin S1146894.rank)
  bcast_S1146894_S1146894x1_0 : S1146894.BroadcastsInDim S1146894x1 (![0] : Fin 1 → Fin S1146894x1.rank)
  shapeCasts_S2x1146894x64_S2x163842x448 : S2x1146894x64.ShapeCasts S2x163842x448
  bcast_S64_S1x1x64_2 : S64.BroadcastsInDim S1x1x64 (![2] : Fin 1 → Fin S1x1x64.rank)
  bcast_S1x1x64_S2x163842x64_0_1_2 : S1x1x64.BroadcastsInDim S2x163842x64 (![0, 1, 2] : Fin 3 → Fin S2x163842x64.rank)
  gather_S2x163842x64_S1146894x1_S2x1146894x64_02_1_n_n_1_1_2164_wf : GatherDims.WF S2x163842x64 S1146894x1 S2x1146894x64 [0, 2] [1] [] [1] [] 1 ![2, 1, 64]
  dot_S2x163842x448_S64x448_S2x163842x64_2_1_01_0_n_n_wf : DotDims.WF S2x163842x448 S64x448 S2x163842x64 [2] [1] [0, 1] [0] [] []

variable [Facts₀]

def gather_S2x163842x64_S1146894x1_S2x1146894x64_02_1_n_n_1_1_2164 : GatherDims S2x163842x64 S1146894x1 S2x1146894x64 where
  offsetDims := [0, 2]
  collapsedSliceDims := [1]
  operandBatchingDims := []
  startIndicesBatchingDims := []
  startIndexMap := [1]
  indexVectorDim := 1
  sliceSizes := ![2, 1, 64]
  wf := gather_S2x163842x64_S1146894x1_S2x1146894x64_02_1_n_n_1_1_2164_wf
def dot_S2x163842x448_S64x448_S2x163842x64_2_1_01_0_n_n : DotDims S2x163842x448 S64x448 S2x163842x64 where
  lhsContracting := [2]
  rhsContracting := [1]
  lhsNonContracting := [0, 1]
  rhsNonContracting := [0]
  lhsBatch := []
  rhsBatch := []
  wf := dot_S2x163842x448_S64x448_S2x163842x64_2_1_01_0_n_n_wf

class Facts : Prop extends Facts₀ where

variable [Facts]
-- ==== Proof.Spec.lean ====
import Idealize.ShloMosaic.PureOps.Ideal
import Idealize.ShloMosaic.Lib.ValueIdx

/-!
The layer's result as one function of its four arguments, over the extended reals.

Vertex `v` of batch `bb` collects the feature rows of its seven ring neighbours — entries `7v .. 7v+6` of the
neighbour list — and output channel `o` is the inner product of those `7 × 64` numbers with row `o` of the weight
matrix (column `64k + c` for neighbour `k`, channel `c`), plus the bias:

  `out[bb, v, o] = (∑ k < 7, ∑ c < 64, x[bb, nbr(v, k), c] · W[o, 64k + c]) + b[o]`.

A neighbour entry is read as an unsigned word and clamped to the last vertex, so that the function is total;
on lists whose entries are vertex numbers the clamp does nothing.
-/

noncomputable section

namespace Cert.Spec

open Idealize.ShloMosaic Idealize.ShloMosaic.ValueIdx

abbrev SX : Shape := ⟨3, ![2, 163842, 64]⟩
abbrev SN : Shape := ⟨1, ![1146894]⟩
abbrev SW : Shape := ⟨2, ![64, 448]⟩
abbrev SB : Shape := ⟨1, ![64]⟩

/-- Position `7v + k` of the neighbour list. -/
abbrev nbrPos (v : Fin 163842) (k : Fin 7) : Fin 1146894 := ⟨7 * v.val + k.val, by omega⟩

/-- Column `64k + c` of the weight matrix. -/
abbrev wCol (k : Fin 7) (c : Fin 64) : Fin 448 := ⟨64 * k.val + c.val, by omega⟩

/-- The vertex that entry `7v + k` of the neighbour list names (clamped to the last vertex). -/
def nbr (n : IVec SN 32) (v : Fin 163842) (k : Fin 7) : Fin 163842 :=
  ⟨min (n (ix1 (nbrPos v k))).toNat 163841, by omega⟩

/-- The clamp does nothing on an entry that is a vertex number. -/
theorem nbr_val (n : IVec SN 32) (v : Fin 163842) (k : Fin 7) (h : (n (ix1 (nbrPos v k))).toNat < 163842) :
    (nbr n v k).val = (n (ix1 (nbrPos v k))).toNat := by
  unfold nbr; simp only; omega

/-- One output element: the inner product over neighbours and channels, plus the bias. -/
def out (x : FVec Ideal SX .f32) (n : IVec SN 32) (W : FVec Ideal SW .f32) (b : FVec Ideal SB .f32)
    (bb : Fin 2) (v : Fin 163842) (o : Fin 64) : EReal :=
  (∑ k : Fin 7, ∑ c : Fin 64, (x (ix3 bb (nbr n v k) c) : EReal) * (W (ix2 o (wCol k c)) : EReal)) + (b (ix1 o) : EReal)

/-- The whole result array. -/
def G (x : FVec Ideal SX .f32) (n : IVec SN 32) (W : FVec Ideal SW .f32) (b : FVec Ideal SB .f32) : FVec Ideal SX .f32 :=
  fun j => out x n W b (j 0) (j 1) (j 2)

theorem G_apply (x : FVec Ideal SX .f32) (n : IVec SN 32) (W : FVec Ideal SW .f32) (b : FVec Ideal SB .f32)
    (bb : Fin 2) (v : Fin 163842) (o : Fin 64) : G x n W b (ix3 bb v o) = out x n W b bb v o := rfl

end Cert.Spec

end
-- ==== Proof.SumLaws.lean ====
import Mathlib.Algebra.BigOperators.Fin
import Mathlib.Algebra.BigOperators.Group.Finset.Basic
import Mathlib.Algebra.BigOperators.Group.Finset.Sigma
import Mathlib.Logic.Equiv.Fin.Basic

/-!
Three regroupings of finite sums in a commutative additive monoid (the extended reals are one): a sum over 448
columns as seven blocks of 64; a sum over 128 lanes whose upper 64 terms vanish; and a left-nested chain of seven
additions onto zero as the sum of its seven terms.
-/

namespace Cert.SumLaws

variable {M : Type*} [AddCommMonoid M]

/-- 448 columns are seven blocks of 64: column `64k + c` is channel `c` of block `k`. -/
theorem sum_448 (f : Fin 448 → M) :
    ∑ kk : Fin 448, f kk = ∑ k : Fin 7, ∑ c : Fin 64, f ⟨64 * k.val + c.val, by omega⟩ := by
  -- Every column is hit exactly once by the pairing (block, channel) ↦ channel + 64 · block, so the sum over
  -- columns is the sum over pairs; a sum over pairs is the iterated sum.
  calc ∑ kk : Fin 448, f kk
      = ∑ p : Fin 7 × Fin 64, f (finProdFinEquiv (m := 7) (n := 64) p) :=
        (Fintype.sum_equiv (finProdFinEquiv (m := 7) (n := 64)) _ _ (fun _ => rfl)).symm
    _ = ∑ k : Fin 7, ∑ c : Fin 64, f ⟨64 * k.val + c.val, by omega⟩ := by
        rw [Fintype.sum_prod_type]
        refine Finset.sum_congr rfl fun k _ => Finset.sum_congr rfl fun c _ => ?_
        congr 1
        apply Fin.ext
        simp only [finProdFinEquiv_apply_val]
        omega

/-- A sum over 128 lanes whose lanes 64..127 are zero is the sum over the first 64. -/
theorem sum_128_pad (f : Fin 128 → M) (h : ∀ l : Fin 128, 64 ≤ l.val → f l = 0) :
    ∑ l : Fin 128, f l = ∑ c : Fin 64, f ⟨c.val, by omega⟩ := by
  -- Split the 128 lanes into the lower and the upper 64; every upper term is zero.
  calc ∑ l : Fin 128, f l
      = ∑ i : Fin 64, f (Fin.castAdd 64 i) + ∑ i : Fin 64, f (Fin.natAdd 64 i) :=
        Fin.sum_univ_add (a := 64) (b := 64) f
    _ = ∑ i : Fin 64, f (Fin.castAdd 64 i) + 0 := by
        congr 1
        exact Finset.sum_eq_zero fun i _ => h _ (by simp)
    _ = ∑ c : Fin 64, f ⟨c.val, by omega⟩ := by
        rw [add_zero]
        rfl

/-- Seven terms added one after the other onto zero are their sum. -/
theorem chain7 (D : Fin 7 → M) :
    ((((((0 + D 0) + D 1) + D 2) + D 3) + D 4) + D 5) + D 6 = ∑ k : Fin 7, D k := by
  rw [Fin.sum_univ_seven, zero_add]

end Cert.SumLaws
-- ==== Proof.RefValue.lean ====
import proofs.«425738_j65000035058096_2_alg».proof.Proof.Gen.ReferenceIdeal.Run
import proofs.«425738_j65000035058096_2_alg».proof.Proof.Gen.ReferenceIdeal.Read
import proofs.«425738_j65000035058096_2_alg».proof.Proof.Spec
import proofs.«425738_j65000035058096_2_alg».proof.Proof.SumLaws
import Idealize.ShloMosaic.Lib.ValueIdx
import Idealize.ShloMosaic.Lib.Pipeline.Value
import Idealize.ShloMosaic.PureOps.Ideal.Laws

/-!
The reference, operation by operation, is the specification: on a neighbour list of vertex numbers the negative-index
wrap is the identity and the gather's clamp does nothing, so gathered row `7v + k` is feature row `nbr(v, k)`; the
reshape lays the seven rows of a vertex side by side (column `64k + c`); the matrix product sums over the 448 columns,
regrouped as seven blocks of 64; the bias is added last.
-/

noncomputable section

namespace Cert.ReferenceIdeal.RefValue

open Cert.ReferenceIdeal Cert.ReferenceIdeal.Gen Idealize.ShloMosaic Idealize.ShloMosaic.ValueIdx

/-! ## Words that are vertex numbers -/

/-- A 32-bit word below 163842 has its top bit clear, so its signed reading is its unsigned one. -/
theorem toInt_of_small (w : BitVec 32) (h : w.toNat < 163842) : w.toInt = (w.toNat : Int) := by
  rw [BitVec.toInt_eq_toNat_cond]; rw [if_pos (by omega)]

/-- Such a word is not negative: the signed comparison with zero answers `0`. -/
theorem slt_zero_of_small (w : BitVec 32) (h : w.toNat < 163842) : IntOp.cmpi .slt w 0#32 = 0#1 := by
  have h1 : w.slt 0#32 = false := by
    rw [BitVec.slt_eq_decide, toInt_of_small w h]; simp
  unfold IntOp.cmpi
  simp only [h1]; rfl

/-- The negative-index wrap `select(n < 0, n + 163842, n)` returns `n` itself on a list of vertex numbers. -/
theorem wrap_id (x1 : (⟨S1146894, .i32⟩ : BufTy).Contents (Elt Ideal)) (hn : ∀ i : S1146894.Idx, (x1 i).toNat < 163842)
    (i : S1146894.Idx) : Read.val_main_v4 (F := Ideal) x1 i = x1 i := by
  rw [Read.val_main_v4_apply, Read.val_main_v1_apply, Read.val_main_v0_apply, Read.val_main_c_apply,
    slt_zero_of_small _ (hn i), select_zero]

/-! ## The gather at an index

With offset axes `[0, 2]`, the vertex axis collapsed and named by the start index map, and slices `[2, 1, 64]`, result
element `(b, n, c)` is the operand at `(b, s, c)`, where `s` is start index `n` read signed and clamped to
`[0, 163842 − 1]`: axes 0 and 2 carry the result's own coordinates (start `0`, offset the coordinate), axis 1 carries the
clamped start alone (collapsed: offset `0`). There are no batching axes. -/

/-- The gather's dimension numbers. -/
abbrev gd : GatherDims S2x163842x64 S1146894x1 S2x1146894x64 := gather_S2x163842x64_S1146894x1_S2x1146894x64_02_1_n_n_1_1_2164

/-- Result element `(b, n, c)` of the gather is the operand at `(b, clamp(idx[n, 0]), c)`. -/
theorem gather_apply {α : Type} (x : S2x163842x64.Idx → α) (idx : IVec S1146894x1 32) (b : Fin 2) (n : Fin 1146894) (c : Fin 64) :
    Host.gather gd x idx (ix3 b n c)
      = x (ix3 b ⟨min (idx (ix2 n (0 : Fin 1))).toInt.toNat 163841, by omega⟩ c) := by
  unfold Host.gather
  congr 1
  funext a
  refine Fin.ext ?_
  match a with
  | ⟨0, _⟩ =>
    -- axis 0: not in the start index map, not collapsed; the first offset axis of the result
    show gd.start (ix3 b n c) idx 0 + gd.batchCoord (ix3 b n c) 0 + gd.offCoord (ix3 b n c) 0 = b.val
    rw [GatherDims.batchCoord_eq_zero _ _ _ List.not_mem_nil]
    unfold GatherDims.start GatherDims.offCoord
    rw [dif_neg (show ¬(0 : Fin S2x163842x64.rank) ∈ gd.startIndexMap by decide),
      dif_pos (show (0 : Fin S2x163842x64.rank) ∈ gd.sKept by decide)]
    simp only [Nat.zero_add]
    rfl
  | ⟨1, _⟩ =>
    -- axis 1: the one axis the start index names, collapsed; the start index is read at `[n, 0]`
    show gd.start (ix3 b n c) idx 1 + gd.batchCoord (ix3 b n c) 1 + gd.offCoord (ix3 b n c) 1 = _
    rw [GatherDims.batchCoord_eq_zero _ _ _ List.not_mem_nil,
      GatherDims.offCoord_eq_zero _ _ _ (show ¬(1 : Fin S2x163842x64.rank) ∈ gd.sKept by decide)]
    unfold GatherDims.start
    rw [dif_pos (show (1 : Fin S2x163842x64.rank) ∈ gd.startIndexMap by decide)]
    have hsi : gd.siIdx (ix3 b n c) ⟨List.idxOf (1 : Fin S2x163842x64.rank) gd.startIndexMap,
        List.idxOf_lt_length_iff.2 (by decide)⟩ = ix2 n (0 : Fin 1) := by
      funext e; refine Fin.ext ?_
      match e with
      | ⟨0, _⟩ => rfl
      | ⟨1, _⟩ => rfl
    rw [hsi]
    rfl
  | ⟨2, _⟩ =>
    -- axis 2: not in the start index map, not collapsed; the second offset axis of the result
    show gd.start (ix3 b n c) idx 2 + gd.batchCoord (ix3 b n c) 2 + gd.offCoord (ix3 b n c) 2 = c.val
    rw [GatherDims.batchCoord_eq_zero _ _ _ List.not_mem_nil]
    unfold GatherDims.start GatherDims.offCoord
    rw [dif_neg (show ¬(2 : Fin S2x163842x64.rank) ∈ gd.startIndexMap by decide),
      dif_pos (show (2 : Fin S2x163842x64.rank) ∈ gd.sKept by decide)]
    simp only [Nat.zero_add]
    rfl

/-! ## The gathered rows -/

/-- The column of start indices `[N, 1]` at `[n, 0]` reads entry `n` of the list. -/
theorem idx5_at (n : Fin 1146894) : Read.idx_main_v5 (ix2 n (0 : Fin 1)) = ix1 n :=
  funext fun a => Fin.ext (by match a with | ⟨0, _⟩ => rfl)

/-- Start index `[n, 0]` is entry `n` of the neighbour list (the wrap having done nothing). -/
theorem v5_at (x1 : (⟨S1146894, .i32⟩ : BufTy).Contents (Elt Ideal)) (hn : ∀ i : S1146894.Idx, (x1 i).toNat < 163842)
    (n : Fin 1146894) : Read.val_main_v5 (F := Ideal) x1 (ix2 n (0 : Fin 1)) = x1 (ix1 n) := by
  rw [Read.val_main_v5_apply, wrap_id x1 hn, idx5_at]

/-- Gathered row `n` is the feature row of the vertex that entry `n` names: a vertex number is non-negative and at most
    163841, so the signed reading and the clamp leave it alone. -/
theorem v6_at (x0 : (⟨S2x163842x64, .f32⟩ : BufTy).Contents (Elt Ideal)) (x1 : (⟨S1146894, .i32⟩ : BufTy).Contents (Elt Ideal))
    (hn : ∀ i : S1146894.Idx, (x1 i).toNat < 163842) (b : Fin 2) (n : Fin 1146894) (c : Fin 64) :
    Read.val_main_v6 (F := Ideal) x0 x1 (ix3 b n c) = x0 (ix3 b ⟨(x1 (ix1 n)).toNat, hn (ix1 n)⟩ c) := by
  unfold Read.val_main_v6
  refine (gather_apply x0 (Read.val_main_v5 (F := Ideal) x1) b n c).trans ?_
  have e : min (Read.val_main_v5 (F := Ideal) x1 (ix2 n (0 : Fin 1))).toInt.toNat 163841 = (x1 (ix1 n)).toNat := by
    have h := hn (ix1 n)
    rw [v5_at x1 hn, toInt_of_small _ h, Int.toNat_natCast]
    omega
  refine congrArg x0 (funext fun a => Fin.ext ?_)
  match a with
  | ⟨0, _⟩ => rfl
  | ⟨1, _⟩ => exact e
  | ⟨2, _⟩ => rfl

/-! ## The reshape: seven gathered rows side by side -/

/-- Row-major positions: `(bb·163842 + v)·448 + (64k + c) = (bb·1146894 + (7v + k))·64 + c`, so column `64k + c` of vertex
    `v` is channel `c` of gathered row `7v + k`. -/
theorem idx7_at (bb : Fin 2) (v : Fin 163842) (k : Fin 7) (c : Fin 64) :
    Read.idx_main_v7 (ix3 bb v (Spec.wCol k c)) = ix3 bb (Spec.nbrPos v k) c := by
  funext a; refine Fin.ext ?_
  have hb := bb.isLt; have hv := v.isLt; have hk := k.isLt; have hc := c.isLt
  match a with
  | ⟨0, _⟩ => show ((bb.val * 163842 + v.val) * 448 + (64 * k.val + c.val)) / 73401216 = bb.val; omega
  | ⟨1, _⟩ => show ((bb.val * 163842 + v.val) * 448 + (64 * k.val + c.val)) / 64 % 1146894 = 7 * v.val + k.val; omega
  | ⟨2, _⟩ => show ((bb.val * 163842 + v.val) * 448 + (64 * k.val + c.val)) % 64 = c.val; omega

/-- Column `64k + c` of vertex `v` in the reshaped array is channel `c` of the feature row of neighbour `k` of `v`. -/
theorem v7_at (x0 : (⟨S2x163842x64, .f32⟩ : BufTy).Contents (Elt Ideal)) (x1 : (⟨S1146894, .i32⟩ : BufTy).Contents (Elt Ideal))
    (hn : ∀ i : S1146894.Idx, (x1 i).toNat < 163842) (bb : Fin 2) (v : Fin 163842) (k : Fin 7) (c : Fin 64) :
    Read.val_main_v7 (F := Ideal) x0 x1 (ix3 bb v (Spec.wCol k c)) = x0 (ix3 bb (Spec.nbr x1 v k) c) := by
  rw [Read.val_main_v7_apply, idx7_at, v6_at x0 x1 hn]
  refine congrArg x0 (funext fun a => Fin.ext ?_)
  match a with
  | ⟨0, _⟩ => rfl
  | ⟨1, _⟩ => exact (Spec.nbr_val x1 v k (hn _)).symm
  | ⟨2, _⟩ => rfl

/-! ## The matrix product and the bias -/

/-- The product's left operand at output `(bb, v, o)` and column `kk` is read at `(bb, v, kk)` … -/
theorem lidx8_at (bb : Fin 2) (v : Fin 163842) (o : Fin 64) (kk : Fin 448) :
    Read.lidx_main_v8 (ix3 bb v o) kk = ix3 bb v kk :=
  funext fun a => Fin.ext (by match a with | ⟨0, _⟩ => rfl | ⟨1, _⟩ => rfl | ⟨2, _⟩ => rfl)

/-- … and the weight matrix at `(o, kk)`. -/
theorem ridx8_at (bb : Fin 2) (v : Fin 163842) (o : Fin 64) (kk : Fin 448) :
    Read.ridx_main_v8 (ix3 bb v o) kk = ix2 o kk :=
  funext fun a => Fin.ext (by match a with | ⟨0, _⟩ => rfl | ⟨1, _⟩ => rfl)

/-- The product at `(bb, v, o)`: the sum over the 448 columns, regrouped as seven neighbours times 64 channels. -/
theorem v8_at (x0 : (⟨S2x163842x64, .f32⟩ : BufTy).Contents (Elt Ideal)) (x1 : (⟨S1146894, .i32⟩ : BufTy).Contents (Elt Ideal))
    (x2 : (⟨S64x448, .f32⟩ : BufTy).Contents (Elt Ideal))
    (hn : ∀ i : S1146894.Idx, (x1 i).toNat < 163842) (bb : Fin 2) (v : Fin 163842) (o : Fin 64) :
    Read.val_main_v8 (F := Ideal) x0 x1 x2 (ix3 bb v o)
      = ∑ k : Fin 7, ∑ c : Fin 64, (x0 (ix3 bb (Spec.nbr x1 v k) c) : EReal) * (x2 (ix2 o (Spec.wCol k c)) : EReal) := by
  rw [Read.val_main_v8_apply, Cert.SumLaws.sum_448]
  refine Finset.sum_congr rfl fun k _ => Finset.sum_congr rfl fun c _ => ?_
  show Read.val_main_v7 (F := Ideal) x0 x1 (Read.lidx_main_v8 (ix3 bb v o) (Spec.wCol k c))
      * x2 (Read.ridx_main_v8 (ix3 bb v o) (Spec.wCol k c)) = _
  rw [lidx8_at, ridx8_at, v7_at x0 x1 hn]

/-- The bias broadcast over batch and vertex reads `b[o]` at `(bb, v, o)`. -/
theorem bias_at (x3 : (⟨S64, .f32⟩ : BufTy).Contents (Elt Ideal)) (bb : Fin 2) (v : Fin 163842) (o : Fin 64) :
    Read.val_main_v10 (F := Ideal) x3 (ix3 bb v o) = x3 (ix1 o) := by
  rw [Read.val_main_v10_apply, Read.val_main_v9_apply]
  exact congrArg x3 (funext fun a => Fin.ext (by match a with | ⟨0, _⟩ => rfl))

/-- The reference's result term at the ideal instance is the specification, on a neighbour list of vertex numbers. -/
theorem ref_eq_G (x0 : (⟨S2x163842x64, .f32⟩ : BufTy).Contents (Elt Ideal)) (x1 : (⟨S1146894, .i32⟩ : BufTy).Contents (Elt Ideal))
    (x2 : (⟨S64x448, .f32⟩ : BufTy).Contents (Elt Ideal)) (x3 : (⟨S64, .f32⟩ : BufTy).Contents (Elt Ideal))
    (hn : ∀ i : S1146894.Idx, (x1 i).toNat < 163842) :
    Cert.ReferenceIdeal.Read.val_main_v11 (F := Ideal) x0 x1 x2 x3 = Cert.Spec.G x0 x1 x2 x3 := by
  funext i
  obtain ⟨bb, v, o, rfl⟩ : ∃ (bb : Fin 2) (v : Fin 163842) (o : Fin 64), i = ix3 bb v o := ⟨i 0, i 1, i 2, eq_ix3 i⟩
  rw [Spec.G_apply, Read.val_main_v11_apply, v8_at x0 x1 x2 hn, bias_at]
  rfl

end Cert.ReferenceIdeal.RefValue

end
-- ==== Proof.PreFacts.lean ====
import proofs.«425738_j65000035058096_2_alg».proof.Pre_finite_inputs
import Idealize.ShloMosaic.Lib.StableHlo.Predicate
import Idealize.ShloMosaic.Lib.ReduceAll
import Idealize.ShloMosaic.Lib.ValueIdx

/-!
What the precondition says of the neighbour list: every entry is a vertex number. The predicate is the conjunction
of three finiteness tests and of "all entries are ≥ 0 and < 163842 as signed words"; a signed word in that range is,
read unsigned, below 163842.

The predicate is a single bit. It is the `and` of the three finiteness bits with a fourth bit, and that fourth bit is
the `and`-fold, started at 1, of the per-entry bits (entry ≥ 0) ∧ (entry < 163842). A conjunction of bits is 1 only
when each is 1, and a fold by `and` from 1 ends at 1 only when every folded bit is 1; so every entry passes both signed
comparisons. Only the fourth bit is used: nothing here depends on the finiteness tests or on the float model.
-/

noncomputable section

namespace Cert.PreFacts

open Idealize.ShloMosaic Cert.Pre_finite_inputs

variable {F : FTy → Type} [FloatOps F] [Cert.Pre_finite_inputs.Facts]

/-- A 32-bit word w with 0 ≤ w and w < 163842 in the signed order has unsigned value below 163842: were its top bit
    set, its signed value would be its unsigned value minus 2³², which is negative, against 0 ≤ w; so the top bit is
    clear, the signed and unsigned values agree, and the upper bound carries over. -/
theorem toNat_lt_of_signed (w : BitVec 32) (h0 : IntOp.cmpi .sge w 0#32 = 1#1)
    (h1 : IntOp.cmpi .slt w 163842#32 = 1#1) : w.toNat < 163842 := by
  rw [IntOp.cmpi_sge] at h0
  rw [IntOp.cmpi_slt] at h1
  have e0 : (0#32 : BitVec 32).toInt = 0 := by decide
  have e1 : (163842#32 : BitVec 32).toInt = 163842 := by decide
  rw [e0] at h0; rw [e1] at h1
  have hlt := w.isLt
  rw [BitVec.toInt_eq_toNat_cond] at h0 h1
  split at h0 <;> omega

/-- Under the precondition every entry of the neighbour list, read as an unsigned word, is below 163842. -/
theorem nbr_lt (a0 : FVec F S2x163842x64 .f32) (a1 : IVec S1146894 32) (a2 : FVec F S64x448 .f32) (a3 : FVec F S64 .f32)
    (h : Cert.Pre_finite_inputs.fn (F := F) a0 a1 a2 a3 = fun _ => 1#1) :
    ∀ i : S1146894.Idx, (a1 i).toNat < 163842 := by
  intro i
  -- a rank-0 array has exactly one index
  haveI : Subsingleton S_.Idx := ⟨fun a b => funext fun d => d.elim0⟩
  -- the predicate's one bit is 1
  have e := congrFun h ValueIdx.ix0
  unfold Cert.Pre_finite_inputs.fn Cert.Pre_finite_inputs.fn_part1 at e
  dsimp only at e
  -- it is (finiteness bit) and (range bit); keep the range bit
  have e2 : IntOp.andi _ (Host.reduce IntOp.andi _ _ _ _ ValueIdx.ix0) = 1#1 := e
  -- the range bit is the and-fold over all entries: each entry's bit is 1
  have e3 := Host.reduce_andi_all _ _ _ _ _ (IntOp.andi_eq_one.1 e2).2 i
  -- entry i's bit is (entry ≥ 0) and (entry < 163842), each compared with a constant spread over the list
  have e4 : IntOp.andi (IntOp.cmpi .sge (a1 i) 0#32) (IntOp.cmpi .slt (a1 i) 163842#32) = 1#1 := e3
  obtain ⟨h0, h1⟩ := IntOp.andi_eq_one.1 e4
  exact toNat_lt_of_signed _ h0 h1

end Cert.PreFacts

end
-- ==== Proof.KI.Blocks.lean ====
import proofs.«425738_j65000035058096_2_alg».proof.Proof.Gen.KernelIdeal.Skeleton
import Idealize.ShloMosaic.Lib.ValueIdx

/-!
What one grid point computes, as a function of what it is handed: the [7, 1024] block of neighbour numbers of its 1024
vertices, the padded feature array, the weight block and the bias. Slab `s` holds, in row `r`, the 128 lanes of the
feature row that entry `(s, r)` of the block names, in batch `bi` (the entry read as an unsigned word and clamped to
the last vertex, so that the function is total); the stored block is the body's arithmetic on the seven slabs.
-/

noncomputable section

namespace Cert.KernelIdeal.Blocks

open Cert.KernelIdeal Cert.KernelIdeal.Gen
open Idealize.ShloMosaic Idealize.ShloMosaic.ValueIdx

variable {F : FTy → Type} [FloatOps F]

/-- The feature row that a neighbour word names (clamped to the last vertex). -/
def rowOf (w : BitVec 32) : Fin 163842 := ⟨min w.toNat 163841, by omega⟩

theorem rowOf_val (w : BitVec 32) (h : w.toNat < 163842) : (rowOf w).val = w.toNat := by
  unfold rowOf; simp only; omega

/-- Slab `s`: row `r` is feature row `idxb[s, r]` of batch `bi`, all 128 lanes. -/
def slab (idxb : Vec F S7x1024 .i32) (X3 : Vec F S2x163842x128 .f32) (bi : Fin 2) (s : Fin 7) : Vec F S1x1024x128 .f32 :=
  fun y => X3 (ix3 bi (rowOf (idxb (ix2 s (y 1)))) (y 2))

theorem slab_apply (idxb : Vec F S7x1024 .i32) (X3 : Vec F S2x163842x128 .f32) (bi : Fin 2) (s : Fin 7) (r : Fin 1024) (l : Fin 128) :
    slab idxb X3 bi s (ix3 (0 : Fin 1) r l) = X3 (ix3 bi (rowOf (idxb (ix2 s r))) l) := rfl

/-- The block the body stores: its arithmetic on the seven slabs, the weight block and the bias. -/
def outBlk (idxb : Vec F S7x1024 .i32) (X3 : Vec F S2x163842x128 .f32) (Wb : Vec F S896x64 .bf16) (bias : Vec F S64 .f32) (bi : Fin 2) :
    Vec F S1x1024x64 .f32 :=
  k0_pay1 (F := F) (k0_pay2 (F := F) Wb)
    (k0_pay4 (F := F) (k0_pay2 (F := F) Wb) (k0_pay3 (F := F)) (slab idxb X3 bi 0) (slab idxb X3 bi 1) (slab idxb X3 bi 2)
      (slab idxb X3 bi 3) (slab idxb X3 bi 4) (slab idxb X3 bi 5))
    (slab idxb X3 bi 6) bias

end Cert.KernelIdeal.Blocks

end
-- ==== Proof.KI.Trip1.lean ====
import proofs.«425738_j65000035058096_2_alg».proof.Proof.Gen.KernelIdeal.Loops
import Idealize.ShloMosaic.Lib.Batch
import Idealize.ShloMosaic.Lib.Tactic
import Idealize.ShloMosaic.Lib.Pipeline.Kit

/-!
One trip of gather loop 1 (scratch slab 0). A trip reads sixteen neighbour words off the block of neighbour numbers,
starts sixteen row copies out of the padded features into sixteen consecutive rows of the slab, all on the kernel's one
semaphore, and then waits sixteen times for one row's amount. No row is touched between the first wait and the last, and
after the sixteenth wait every copy has landed: the waits have consumed exactly what the sixteen copies credit. Two of
the sixteen words may name the same feature row, so the features are held as sixteen fractional shares, one lent to each
copy and all sixteen back whole after the last wait; the sixteen destination rows are distinct rows `16k .. 16k+15`. A
word is a vertex number (the hypothesis on every read of the block), which is what the copy's source row being inside
the feature array asks. What the trip leaves in the scratch is a function of what it found there.
-/

set_option maxRecDepth 16384
set_option maxHeartbeats 4000000

noncomputable section

namespace Cert.KernelIdeal.Trip1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄D" => MT nD τ sig Unit (Elt F) ℕ (UR sig nD τ × Counters) ℕ

/-- A word below 163842 names a row of the [163842, 128] feature slab of one batch. -/
theorem rowInb (v : BitVec 32) (h : v.toNat < 163842) :
    ∀ a, (![v.toNat, 0] : Fin 2 → ℕ) a + S1x128.size a ≤ S163842x128.size a := by
  intro a
  fin_cases a
  · show v.toNat + 1 ≤ 163842; omega
  · show 0 + 128 ≤ 128; omega

set_option sl_exec.stepHeartbeats 1000000 in
/-- ONE TRIP at a symbolic trip number: the transformer of the scratch contents is the run's own find. -/
@[irreducible] def trip [∀ e, Nonempty (Elt F e)] (𝒱 : Variants) (c : Dev nD) (bd : Option 𝒱.V) (i : grid0.Coords) (arg2 : Memref sig .tc .smem S7x1024 .i32) (harg2 : arg2.IsWhole) (arg3 : Memref sig .tc .hbm S2x163842x128 .f32) (harg3 : arg3.IsWhole) (arg4 : Memref sig .tc .vmem S896x64 .bf16) (harg4 : arg4.IsWhole) (arg5 : Memref sig .tc .vmem S64 .f32) (harg5 : arg5.IsWhole) (arg6 : Memref sig .tc .vmem S1x1024x64 .f32) (harg6 : arg6.IsWhole) (arg7 : Memref sig .tc .vmem S7x1024x128 .f32) (harg7 : arg7.IsWhole) (arg8 : DmaSems sig S_)
    (X2 : BufTy.Contents (Elt F) arg2.view.ty) (X3 : BufTy.Contents (Elt F) arg3.view.ty)
    (hX2 : ∀ (r : LoadRect S7x1024) (y : r.shape.Idx), (View.readAt (Elt F) arg2.view r X2 y).toNat < 163842)
    (q0 q1 q2 q3 q4 q5 q6 q7 q8 q9 q10 q11 q12 q13 q14 q15 : PosShare TreeShare)
    (_plan : Transfers.BatchOf (c : Thread nD τ) (SemLoc.dma (sig := sig) arg8.sem) 16 (windows := true))
    (k : Fin k0_t1_loop.trips) :
    { G : BufTy.Contents (Elt F) arg7.view.ty → BufTy.Contents (Elt F) arg7.view.ty //
      ∀ (f : BufTy.Contents (Elt F) arg7.view.ty) (W : Waits sig Unit),
        (iprop((arg2.view.loc (c : Thread nD τ) ↦[arg2.view.set]{fullShare} X2)
            ∗ (arg3.view.loc (c : Thread nD τ) ↦{q0} X3) ∗ (arg3.view.loc (c : Thread nD τ) ↦{q1} X3) ∗ (arg3.view.loc (c : Thread nD τ) ↦{q2} X3) ∗ (arg3.view.loc (c : Thread nD τ) ↦{q3} X3) ∗ (arg3.view.loc (c : Thread nD τ) ↦{q4} X3) ∗ (arg3.view.loc (c : Thread nD τ) ↦{q5} X3) ∗ (arg3.view.loc (c : Thread nD τ) ↦{q6} X3) ∗ (arg3.view.loc (c : Thread nD τ) ↦{q7} X3) ∗ (arg3.view.loc (c : Thread nD τ) ↦{q8} X3) ∗ (arg3.view.loc (c : Thread nD τ) ↦{q9} X3) ∗ (arg3.view.loc (c : Thread nD τ) ↦{q10} X3) ∗ (arg3.view.loc (c : Thread nD τ) ↦{q11} X3) ∗ (arg3.view.loc (c : Thread nD τ) ↦{q12} X3) ∗ (arg3.view.loc (c : Thread nD τ) ↦{q13} X3) ∗ (arg3.view.loc (c : Thread nD τ) ↦{q14} X3) ∗ (arg3.view.loc (c : Thread nD τ) ↦{q15} X3)
            ∗ (arg7.view.loc (c : Thread nD τ) ↦[arg7.view.set]{fullShare} f)
            ∗ semVal ((c : Thread nD τ), SemLoc.dma arg8.sem) 0 ∗ owes (c : Thread nD τ) 0 W) : sProp 𝕄D)
          ⊢ wp frame (wpE (defs₀ (F := F)) 𝒱 (c : Thread nD τ) bd) Set.univ (k0_t1_body (F := F) i arg2 harg2 arg3 harg3 arg4 harg4 arg5 harg5 arg6 harg6 arg7 harg7 arg8 k ())
              (fun _ => iprop((arg2.view.loc (c : Thread nD τ) ↦[arg2.view.set]{fullShare} X2)
                ∗ (arg3.view.loc (c : Thread nD τ) ↦{q0} X3) ∗ (arg3.view.loc (c : Thread nD τ) ↦{q1} X3) ∗ (arg3.view.loc (c : Thread nD τ) ↦{q2} X3) ∗ (arg3.view.loc (c : Thread nD τ) ↦{q3} X3) ∗ (arg3.view.loc (c : Thread nD τ) ↦{q4} X3) ∗ (arg3.view.loc (c : Thread nD τ) ↦{q5} X3) ∗ (arg3.view.loc (c : Thread nD τ) ↦{q6} X3) ∗ (arg3.view.loc (c : Thread nD τ) ↦{q7} X3) ∗ (arg3.view.loc (c : Thread nD τ) ↦{q8} X3) ∗ (arg3.view.loc (c : Thread nD τ) ↦{q9} X3) ∗ (arg3.view.loc (c : Thread nD τ) ↦{q10} X3) ∗ (arg3.view.loc (c : Thread nD τ) ↦{q11} X3) ∗ (arg3.view.loc (c : Thread nD τ) ↦{q12} X3) ∗ (arg3.view.loc (c : Thread nD τ) ↦{q13} X3) ∗ (arg3.view.loc (c : Thread nD τ) ↦{q14} X3) ∗ (arg3.view.loc (c : Thread nD τ) ↦{q15} X3)
                ∗ (arg7.view.loc (c : Thread nD τ) ↦[arg7.view.set]{fullShare} (G f))
                ∗ semVal ((c : Thread nD τ), SemLoc.dma arg8.sem) 0 ∗ (∃ W', owes (c : Thread nD τ) 0 W'))) } := by
  refine ⟨?_, fun f W => ?run⟩
  case run =>
    iintro ⟨H2, H3_0, H3_1, H3_2, H3_3, H3_4, H3_5, H3_6, H3_7, H3_8, H3_9, H3_10, H3_11, H3_12, H3_13, H3_14, H3_15, H7, HC, HO⟩
    unfold k0_t1_body
    sl_exec (disch := first | decide | sl_ident | exact ⟨rowInb _ (hX2 _ _), rowInb _ (hX2 _ _)⟩ | exact rowInb _ (hX2 _ _))
    sl_step
    isplitl [H2]; · iexact H2
    isplitl [H3_0]; · iexact H3_0
    isplitl [H3_1]; · iexact H3_1
    isplitl [H3_2]; · iexact H3_2
    isplitl [H3_3]; · iexact H3_3
    isplitl [H3_4]; · iexact H3_4
    isplitl [H3_5]; · iexact H3_5
    isplitl [H3_6]; · iexact H3_6
    isplitl [H3_7]; · iexact H3_7
    isplitl [H3_8]; · iexact H3_8
    isplitl [H3_9]; · iexact H3_9
    isplitl [H3_10]; · iexact H3_10
    isplitl [H3_11]; · iexact H3_11
    isplitl [H3_12]; · iexact H3_12
    isplitl [H3_13]; · iexact H3_13
    isplitl [H3_14]; · iexact H3_14
    isplitl [H3_15]; · iexact H3_15
    isplitl [H7]; · iexact H7
    isplitl [HC]; · iexact HC
    iexists _; iexact HO

end Cert.KernelIdeal.Trip1

end
-- ==== Proof.KI.Iter.lean ====
import proofs.«425738_j65000035058096_2_alg».proof.Proof.Gen.KernelIdeal.Loops
import proofs.«425738_j65000035058096_2_alg».proof.Proof.KI.Blocks
import proofs.«425738_j65000035058096_2_alg».proof.Proof.KI.Trip1
import proofs.«425738_j65000035058096_2_alg».proof.Proof.KI.Trip2
import proofs.«425738_j65000035058096_2_alg».proof.Proof.KI.Trip3
import proofs.«425738_j65000035058096_2_alg».proof.Proof.KI.Trip4
import proofs.«425738_j65000035058096_2_alg».proof.Proof.KI.Trip5
import proofs.«425738_j65000035058096_2_alg».proof.Proof.KI.Trip6
import proofs.«425738_j65000035058096_2_alg».proof.Proof.KI.Trip7
import Idealize.ShloMosaic.Lib.Batch
import Idealize.ShloMosaic.Lib.Tactic
import Idealize.ShloMosaic.Lib.Pipeline.Kit
import Idealize.ShloMosaic.Lib.Pipeline.Frame

/-!
The seven gather loops by their invariants. The padded features are held as sixteen fractional shares (the sixteen row
copies a trip has in flight together each borrow one); before trip `k` of a loop the scratch holds the `k`-fold iterate of
that loop's trip transformer on what the loop found; one trip keeps the invariant by the trip theorem at the iterate.
-/

set_option maxRecDepth 16384
set_option maxHeartbeats 4000000

noncomputable section

namespace Cert.KernelIdeal.Iter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The scratch slab buffer and the padded features, whole. -/
abbrev scM0 : Memref sig .tc .vmem S7x1024x128 .f32 := Memref.whole cc0_scratch0
abbrev hbM0 : Memref sig .tc .hbm S2x163842x128 .f32 := Memref.whole main_v3

/-- Every read of the block of neighbour numbers through its whole staging memref is one of the block's words. -/
theorem hX2 {arg2 : Memref sig .tc .smem S7x1024 .i32} (harg2 : arg2.IsWhole) (x0 : Vec F S7x1024 .i32)
    (hx0 : ∀ y, (x0 y).toNat < 163842) (r : LoadRect S7x1024) (y : r.shape.Idx) :
    (View.readAt (Elt F) arg2.view r (harg2.unread x0) y).toNat < 163842 := by
  rw [View.readAt_apply, Memref.IsWhole.read_unread]
  exact hx0 _

section Loops

variable [∀ e, Nonempty (Elt F e)] (c : Dev nD) (i : grid0.Coords)
  (arg2 : Memref sig .tc .smem S7x1024 .i32) (harg2 : arg2.IsWhole) (arg4 : Memref sig .tc .vmem S896x64 .bf16) (harg4 : arg4.IsWhole)
  (arg5 : Memref sig .tc .vmem S64 .f32) (harg5 : arg5.IsWhole) (arg6 : Memref sig .tc .vmem S1x1024x64 .f32) (harg6 : arg6.IsWhole)
  (x0 : Vec F S7x1024 .i32) (X3 : Buf (Elt F) (hbM0.view.loc (c : Thread nD τ))) (hx0 : ∀ y, (x0 y).toNat < 163842)

/-- What the sixteen row copies of a trip borrow: the padded features at sixteen fractional shares. -/
abbrev toks : sProp 𝕄 := iprop((hbM0.view.loc (c : Thread nD τ) ↦{(Transfers.shareTok fullShare 16 (0 : Fin 16))} X3) ∗ (hbM0.view.loc (c : Thread nD τ) ↦{(Transfers.shareTok fullShare 16 (1 : Fin 16))} X3) ∗ (hbM0.view.loc (c : Thread nD τ) ↦{(Transfers.shareTok fullShare 16 (2 : Fin 16))} X3) ∗ (hbM0.view.loc (c : Thread nD τ) ↦{(Transfers.shareTok fullShare 16 (3 : Fin 16))} X3) ∗ (hbM0.view.loc (c : Thread nD τ) ↦{(Transfers.shareTok fullShare 16 (4 : Fin 16))} X3) ∗ (hbM0.view.loc (c : Thread nD τ) ↦{(Transfers.shareTok fullShare 16 (5 : Fin 16))} X3) ∗ (hbM0.view.loc (c : Thread nD τ) ↦{(Transfers.shareTok fullShare 16 (6 : Fin 16))} X3) ∗ (hbM0.view.loc (c : Thread nD τ) ↦{(Transfers.shareTok fullShare 16 (7 : Fin 16))} X3) ∗ (hbM0.view.loc (c : Thread nD τ) ↦{(Transfers.shareTok fullShare 16 (8 : Fin 16))} X3) ∗ (hbM0.view.loc (c : Thread nD τ) ↦{(Transfers.shareTok fullShare 16 (9 : Fin 16))} X3) ∗ (hbM0.view.loc (c : Thread nD τ) ↦{(Transfers.shareTok fullShare 16 (10 : Fin 16))} X3) ∗ (hbM0.view.loc (c : Thread nD τ) ↦{(Transfers.shareTok fullShare 16 (11 : Fin 16))} X3) ∗ (hbM0.view.loc (c : Thread nD τ) ↦{(Transfers.shareTok fullShare 16 (12 : Fin 16))} X3) ∗ (hbM0.view.loc (c : Thread nD τ) ↦{(Transfers.shareTok fullShare 16 (13 : Fin 16))} X3) ∗ (hbM0.view.loc (c : Thread nD τ) ↦{(Transfers.shareTok fullShare 16 (14 : Fin 16))} X3) ∗ (hbM0.view.loc (c : Thread nD τ) ↦{(Transfers.shareTok fullShare 16 (15 : Fin 16))} X3))

/-- Trip `k` of gather loop 1 on the scratch contents `g` (past the last trip: nothing). -/
def step1 (k : ℕ) (g : BufTy.Contents (Elt F) scM0.view.ty) : BufTy.Contents (Elt F) scM0.view.ty :=
  if h : k < k0_t1_loop.trips then (Trip1.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial ⟨k, h⟩).1 g else g
/-- The scratch before trip `k` of gather loop 1, from what the loop found. -/
def iter1 (f : BufTy.Contents (Elt F) scM0.view.ty) : ℕ → BufTy.Contents (Elt F) scM0.view.ty
  | 0 => f
  | k + 1 => step1 c i arg2 harg2 arg4 harg4 arg5 harg5 arg6 harg6 x0 X3 hx0 k (iter1 f k)
theorem iter1_succ (f : BufTy.Contents (Elt F) scM0.view.ty) (k : Fin k0_t1_loop.trips) :
    iter1 c i arg2 harg2 arg4 harg4 arg5 harg5 arg6 harg6 x0 X3 hx0 f (k.val + 1)
      = (Trip1.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial k).1 (iter1 c i arg2 harg2 arg4 harg4 arg5 harg5 arg6 harg6 x0 X3 hx0 f k.val) := by
  rw [iter1.eq_2]; unfold step1; exact dif_pos k.isLt
/-- The invariant of gather loop 1. -/
abbrev inv1 (f : BufTy.Contents (Elt F) scM0.view.ty) (k : ℕ) (_ : Unit) : sProp 𝕄 :=
  iprop((arg2.view.loc (c : Thread nD τ) ↦[arg2.view.set]{fullShare} harg2.unread x0) ∗ (hbM0.view.loc (c : Thread nD τ) ↦{(Transfers.shareTok fullShare 16 (0 : Fin 16))} X3) ∗ (hbM0.view.loc (c : Thread nD τ) ↦{(Transfers.shareTok fullShare 16 (1 : Fin 16))} X3) ∗ (hbM0.view.loc (c : Thread nD τ) ↦{(Transfers.shareTok fullShare 16 (2 : Fin 16))} X3) ∗ (hbM0.view.loc (c : Thread nD τ) ↦{(Transfers.shareTok fullShare 16 (3 : Fin 16))} X3) ∗ (hbM0.view.loc (c : Thread nD τ) ↦{(Transfers.shareTok fullShare 16 (4 : Fin 16))} X3) ∗ (hbM0.view.loc (c : Thread nD τ) ↦{(Transfers.shareTok fullShare 16 (5 : Fin 16))} X3) ∗ (hbM0.view.loc (c : Thread nD τ) ↦{(Transfers.shareTok fullShare 16 (6 : Fin 16))} X3) ∗ (hbM0.view.loc (c : Thread nD τ) ↦{(Transfers.shareTok fullShare 16 (7 : Fin 16))} X3) ∗ (hbM0.view.loc (c : Thread nD τ) ↦{(Transfers.shareTok fullShare 16 (8 : Fin 16))} X3) ∗ (hbM0.view.loc (c : Thread nD τ) ↦{(Transfers.shareTok fullShare 16 (9 : Fin 16))} X3) ∗ (hbM0.view.loc (c : Thread nD τ) ↦{(Transfers.shareTok fullShare 16 (10 : Fin 16))} X3) ∗ (hbM0.view.loc (c : Thread nD τ) ↦{(Transfers.shareTok fullShare 16 (11 : Fin 16))} X3) ∗ (hbM0.view.loc (c : Thread nD τ) ↦{(Transfers.shareTok fullShare 16 (12 : Fin 16))} X3) ∗ (hbM0.view.loc (c : Thread nD τ) ↦{(Transfers.shareTok fullShare 16 (13 : Fin 16))} X3) ∗ (hbM0.view.loc (c : Thread nD τ) ↦{(Transfers.shareTok fullShare 16 (14 : Fin 16))} X3) ∗ (hbM0.view.loc (c : Thread nD τ) ↦{(Transfers.shareTok fullShare 16 (15 : Fin 16))} X3)
    ∗ (scM0.view.loc (c : Thread nD τ) ↦[scM0.view.set]{fullShare} (iter1 c i arg2 harg2 arg4 harg4 arg5 harg5 arg6 harg6 x0 X3 hx0 f k))
    ∗ semVal ((c : Thread nD τ), SemLoc.dma cc0_scratch1.sem) 0 ∗ (∃ W', owes (c : Thread nD τ) 0 W'))
/-- One trip of gather loop 1 keeps its invariant: the trip theorem at the iterate. -/
theorem region1 (f : BufTy.Contents (Elt F) scM0.view.ty) (k : Fin k0_t1_loop.trips) (acc : Unit) :
    inv1 c i arg2 harg2 arg4 harg4 arg5 harg5 arg6 harg6 x0 X3 hx0 f k.val acc
      ⊢ wp frame (wpE (defs₀ (F := F)) Variants.none (c : Thread nD τ) none) Set.univ
          (k0_t1_body (F := F) i arg2 harg2 hbM0 (Memref.isWhole_whole _) arg4 harg4 arg5 harg5 arg6 harg6 scM0 (Memref.isWhole_whole _) cc0_scratch1 k acc)
          (inv1 c i arg2 harg2 arg4 harg4 arg5 harg5 arg6 harg6 x0 X3 hx0 f (k.val + 1)) := by
  unfold inv1
  rw [iter1_succ]
  iintro ⟨H2, H3_0, H3_1, H3_2, H3_3, H3_4, H3_5, H3_6, H3_7, H3_8, H3_9, H3_10, H3_11, H3_12, H3_13, H3_14, H3_15, H7, HC, ⟨%W, HO⟩⟩
  iapply ((Trip1.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial k).2 _ W)
  isplitl [H2]; · iexact H2
  isplitl [H3_0]; · iexact H3_0
  isplitl [H3_1]; · iexact H3_1
  isplitl [H3_2]; · iexact H3_2
  isplitl [H3_3]; · iexact H3_3
  isplitl [H3_4]; · iexact H3_4
  isplitl [H3_5]; · iexact H3_5
  isplitl [H3_6]; · iexact H3_6
  isplitl [H3_7]; · iexact H3_7
  isplitl [H3_8]; · iexact H3_8
  isplitl [H3_9]; · iexact H3_9
  isplitl [H3_10]; · iexact H3_10
  isplitl [H3_11]; · iexact H3_11
  isplitl [H3_12]; · iexact H3_12
  isplitl [H3_13]; · iexact H3_13
  isplitl [H3_14]; · iexact H3_14
  isplitl [H3_15]; · iexact H3_15
  isplitl [H7]; · iexact H7
  isplitl [HC]; · iexact HC
  iexact HO

/-- Trip `k` of gather loop 2 on the scratch contents `g` (past the last trip: nothing). -/
def step2 (k : ℕ) (g : BufTy.Contents (Elt F) scM0.view.ty) : BufTy.Contents (Elt F) scM0.view.ty :=
  if h : k < k0_t2_loop.trips then (Trip2.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial ⟨k, h⟩).1 g else g
/-- The scratch before trip `k` of gather loop 2, from what the loop found. -/
def iter2 (f : BufTy.Contents (Elt F) scM0.view.ty) : ℕ → BufTy.Contents (Elt F) scM0.view.ty
  | 0 => f
  | k + 1 => step2 c i arg2 harg2 arg4 harg4 arg5 harg5 arg6 harg6 x0 X3 hx0 k (iter2 f k)
theorem iter2_succ (f : BufTy.Contents (Elt F) scM0.view.ty) (k : Fin k0_t2_loop.trips) :
    iter2 c i arg2 harg2 arg4 harg4 arg5 harg5 arg6 harg6 x0 X3 hx0 f (k.val + 1)
      = (Trip2.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial k).1 (iter2 c i arg2 harg2 arg4 harg4 arg5 harg5 arg6 harg6 x0 X3 hx0 f k.val) := by
  rw [iter2.eq_2]; unfold step2; exact dif_pos k.isLt
/-- The invariant of gather loop 2. -/
abbrev inv2 (f : BufTy.Contents (Elt F) scM0.view.ty) (k : ℕ) (_ : Unit) : sProp 𝕄 :=
  iprop((arg2.view.loc (c : Thread nD τ) ↦[arg2.view.set]{fullShare} harg2.unread x0) ∗ (hbM0.view.loc (c : Thread nD τ) ↦{(Transfers.shareTok fullShare 16 (0 : Fin 16))} X3) ∗ (hbM0.view.loc (c : Thread nD τ) ↦{(Transfers.shareTok fullShare 16 (1 : Fin 16))} X3) ∗ (hbM0.view.loc (c : Thread nD τ) ↦{(Transfers.shareTok fullShare 16 (2 : Fin 16))} X3) ∗ (hbM0.view.loc (c : Thread nD τ) ↦{(Transfers.shareTok fullShare 16 (3 : Fin 16))} X3) ∗ (hbM0.view.loc (c : Thread nD τ) ↦{(Transfers.shareTok fullShare 16 (4 : Fin 16))} X3) ∗ (hbM0.view.loc (c : Thread nD τ) ↦{(Transfers.shareTok fullShare 16 (5 : Fin 16))} X3) ∗ (hbM0.view.loc (c : Thread nD τ) ↦{(Transfers.shareTok fullShare 16 (6 : Fin 16))} X3) ∗ (hbM0.view.loc (c : Thread nD τ) ↦{(Transfers.shareTok fullShare 16 (7 : Fin 16))} X3) ∗ (hbM0.view.loc (c : Thread nD τ) ↦{(Transfers.shareTok fullShare 16 (8 : Fin 16))} X3) ∗ (hbM0.view.loc (c : Thread nD τ) ↦{(Transfers.shareTok fullShare 16 (9 : Fin 16))} X3) ∗ (hbM0.view.loc (c : Thread nD τ) ↦{(Transfers.shareTok fullShare 16 (10 : Fin 16))} X3) ∗ (hbM0.view.loc (c : Thread nD τ) ↦{(Transfers.shareTok fullShare 16 (11 : Fin 16))} X3) ∗ (hbM0.view.loc (c : Thread nD τ) ↦{(Transfers.shareTok fullShare 16 (12 : Fin 16))} X3) ∗ (hbM0.view.loc (c : Thread nD τ) ↦{(Transfers.shareTok fullShare 16 (13 : Fin 16))} X3) ∗ (hbM0.view.loc (c : Thread nD τ) ↦{(Transfers.shareTok fullShare 16 (14 : Fin 16))} X3) ∗ (hbM0.view.loc (c : Thread nD τ) ↦{(Transfers.shareTok fullShare 16 (15 : Fin 16))} X3)
    ∗ (scM0.view.loc (c : Thread nD τ) ↦[scM0.view.set]{fullShare} (iter2 c i arg2 harg2 arg4 harg4 arg5 harg5 arg6 harg6 x0 X3 hx0 f k))
    ∗ semVal ((c : Thread nD τ), SemLoc.dma cc0_scratch1.sem) 0 ∗ (∃ W', owes (c : Thread nD τ) 0 W'))
/-- One trip of gather loop 2 keeps its invariant: the trip theorem at the iterate. -/
theorem region2 (f : BufTy.Contents (Elt F) scM0.view.ty) (k : Fin k0_t2_loop.trips) (acc : Unit) :
    inv2 c i arg2 harg2 arg4 harg4 arg5 harg5 arg6 harg6 x0 X3 hx0 f k.val acc
      ⊢ wp frame (wpE (defs₀ (F := F)) Variants.none (c : Thread nD τ) none) Set.univ
          (k0_t2_body (F := F) i arg2 harg2 hbM0 (Memref.isWhole_whole _) arg4 harg4 arg5 harg5 arg6 harg6 scM0 (Memref.isWhole_whole _) cc0_scratch1 k acc)
          (inv2 c i arg2 harg2 arg4 harg4 arg5 harg5 arg6 harg6 x0 X3 hx0 f (k.val + 1)) := by
  unfold inv2
  rw [iter2_succ]
  iintro ⟨H2, H3_0, H3_1, H3_2, H3_3, H3_4, H3_5, H3_6, H3_7, H3_8, H3_9, H3_10, H3_11, H3_12, H3_13, H3_14, H3_15, H7, HC, ⟨%W, HO⟩⟩
  iapply ((Trip2.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial k).2 _ W)
  isplitl [H2]; · iexact H2
  isplitl [H3_0]; · iexact H3_0
  isplitl [H3_1]; · iexact H3_1
  isplitl [H3_2]; · iexact H3_2
  isplitl [H3_3]; · iexact H3_3
  isplitl [H3_4]; · iexact H3_4
  isplitl [H3_5]; · iexact H3_5
  isplitl [H3_6]; · iexact H3_6
  isplitl [H3_7]; · iexact H3_7
  isplitl [H3_8]; · iexact H3_8
  isplitl [H3_9]; · iexact H3_9
  isplitl [H3_10]; · iexact H3_10
  isplitl [H3_11]; · iexact H3_11
  isplitl [H3_12]; · iexact H3_12
  isplitl [H3_13]; · iexact H3_13
  isplitl [H3_14]; · iexact H3_14
  isplitl [H3_15]; · iexact H3_15
  isplitl [H7]; · iexact H7
  isplitl [HC]; · iexact HC
  iexact HO

/-- Trip `k` of gather loop 3 on the scratch contents `g` (past the last trip: nothing). -/
def step3 (k : ℕ) (g : BufTy.Contents (Elt F) scM0.view.ty) : BufTy.Contents (Elt F) scM0.view.ty :=
  if h : k < k0_t3_loop.trips then (Trip3.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial ⟨k, h⟩).1 g else g
/-- The scratch before trip `k` of gather loop 3, from what the loop found. -/
def iter3 (f : BufTy.Contents (Elt F) scM0.view.ty) : ℕ → BufTy.Contents (Elt F) scM0.view.ty
  | 0 => f
  | k + 1 => step3 c i arg2 harg2 arg4 harg4 arg5 harg5 arg6 harg6 x0 X3 hx0 k (iter3 f k)
theorem iter3_succ (f : BufTy.Contents (Elt F) scM0.view.ty) (k : Fin k0_t3_loop.trips) :
    iter3 c i arg2 harg2 arg4 harg4 arg5 harg5 arg6 harg6 x0 X3 hx0 f (k.val + 1)
      = (Trip3.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial k).1 (iter3 c i arg2 harg2 arg4 harg4 arg5 harg5 arg6 harg6 x0 X3 hx0 f k.val) := by
  rw [iter3.eq_2]; unfold step3; exact dif_pos k.isLt
/-- The invariant of gather loop 3. -/
abbrev inv3 (f : BufTy.Contents (Elt F) scM0.view.ty) (k : ℕ) (_ : Unit) : sProp 𝕄 :=
  iprop((arg2.view.loc (c : Thread nD τ) ↦[arg2.view.set]{fullShare} harg2.unread x0) ∗ (hbM0.view.loc (c : Thread nD τ) ↦{(Transfers.shareTok fullShare 16 (0 : Fin 16))} X3) ∗ (hbM0.view.loc (c : Thread nD τ) ↦{(Transfers.shareTok fullShare 16 (1 : Fin 16))} X3) ∗ (hbM0.view.loc (c : Thread nD τ) ↦{(Transfers.shareTok fullShare 16 (2 : Fin 16))} X3) ∗ (hbM0.view.loc (c : Thread nD τ) ↦{(Transfers.shareTok fullShare 16 (3 : Fin 16))} X3) ∗ (hbM0.view.loc (c : Thread nD τ) ↦{(Transfers.shareTok fullShare 16 (4 : Fin 16))} X3) ∗ (hbM0.view.loc (c : Thread nD τ) ↦{(Transfers.shareTok fullShare 16 (5 : Fin 16))} X3) ∗ (hbM0.view.loc (c : Thread nD τ) ↦{(Transfers.shareTok fullShare 16 (6 : Fin 16))} X3) ∗ (hbM0.view.loc (c : Thread nD τ) ↦{(Transfers.shareTok fullShare 16 (7 : Fin 16))} X3) ∗ (hbM0.view.loc (c : Thread nD τ) ↦{(Transfers.shareTok fullShare 16 (8 : Fin 16))} X3) ∗ (hbM0.view.loc (c : Thread nD τ) ↦{(Transfers.shareTok fullShare 16 (9 : Fin 16))} X3) ∗ (hbM0.view.loc (c : Thread nD τ) ↦{(Transfers.shareTok fullShare 16 (10 : Fin 16))} X3) ∗ (hbM0.view.loc (c : Thread nD τ) ↦{(Transfers.shareTok fullShare 16 (11 : Fin 16))} X3) ∗ (hbM0.view.loc (c : Thread nD τ) ↦{(Transfers.shareTok fullShare 16 (12 : Fin 16))} X3) ∗ (hbM0.view.loc (c : Thread nD τ) ↦{(Transfers.shareTok fullShare 16 (13 : Fin 16))} X3) ∗ (hbM0.view.loc (c : Thread nD τ) ↦{(Transfers.shareTok fullShare 16 (14 : Fin 16))} X3) ∗ (hbM0.view.loc (c : Thread nD τ) ↦{(Transfers.shareTok fullShare 16 (15 : Fin 16))} X3)
    ∗ (scM0.view.loc (c : Thread nD τ) ↦[scM0.view.set]{fullShare} (iter3 c i arg2 harg2 arg4 harg4 arg5 harg5 arg6 harg6 x0 X3 hx0 f k))
    ∗ semVal ((c : Thread nD τ), SemLoc.dma cc0_scratch1.sem) 0 ∗ (∃ W', owes (c : Thread nD τ) 0 W'))
/-- One trip of gather loop 3 keeps its invariant: the trip theorem at the iterate. -/
theorem region3 (f : BufTy.Contents (Elt F) scM0.view.ty) (k : Fin k0_t3_loop.trips) (acc : Unit) :
    inv3 c i arg2 harg2 arg4 harg4 arg5 harg5 arg6 harg6 x0 X3 hx0 f k.val acc
      ⊢ wp frame (wpE (defs₀ (F := F)) Variants.none (c : Thread nD τ) none) Set.univ
          (k0_t3_body (F := F) i arg2 harg2 hbM0 (Memref.isWhole_whole _) arg4 harg4 arg5 harg5 arg6 harg6 scM0 (Memref.isWhole_whole _) cc0_scratch1 k acc)
          (inv3 c i arg2 harg2 arg4 harg4 arg5 harg5 arg6 harg6 x0 X3 hx0 f (k.val + 1)) := by
  unfold inv3
  rw [iter3_succ]
  iintro ⟨H2, H3_0, H3_1, H3_2, H3_3, H3_4, H3_5, H3_6, H3_7, H3_8, H3_9, H3_10, H3_11, H3_12, H3_13, H3_14, H3_15, H7, HC, ⟨%W, HO⟩⟩
  iapply ((Trip3.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial k).2 _ W)
  isplitl [H2]; · iexact H2
  isplitl [H3_0]; · iexact H3_0
  isplitl [H3_1]; · iexact H3_1
  isplitl [H3_2]; · iexact H3_2
  isplitl [H3_3]; · iexact H3_3
  isplitl [H3_4]; · iexact H3_4
  isplitl [H3_5]; · iexact H3_5
  isplitl [H3_6]; · iexact H3_6
  isplitl [H3_7]; · iexact H3_7
  isplitl [H3_8]; · iexact H3_8
  isplitl [H3_9]; · iexact H3_9
  isplitl [H3_10]; · iexact H3_10
  isplitl [H3_11]; · iexact H3_11
  isplitl [H3_12]; · iexact H3_12
  isplitl [H3_13]; · iexact H3_13
  isplitl [H3_14]; · iexact H3_14
  isplitl [H3_15]; · iexact H3_15
  isplitl [H7]; · iexact H7
  isplitl [HC]; · iexact HC
  iexact HO

/-- Trip `k` of gather loop 4 on the scratch contents `g` (past the last trip: nothing). -/
def step4 (k : ℕ) (g : BufTy.Contents (Elt F) scM0.view.ty) : BufTy.Contents (Elt F) scM0.view.ty :=
  if h : k < k0_t4_loop.trips then (Trip4.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial ⟨k, h⟩).1 g else g
/-- The scratch before trip `k` of gather loop 4, from what the loop found. -/
def iter4 (f : BufTy.Contents (Elt F) scM0.view.ty) : ℕ → BufTy.Contents (Elt F) scM0.view.ty
  | 0 => f
  | k + 1 => step4 c i arg2 harg2 arg4 harg4 arg5 harg5 arg6 harg6 x0 X3 hx0 k (iter4 f k)
theorem iter4_succ (f : BufTy.Contents (Elt F) scM0.view.ty) (k : Fin k0_t4_loop.trips) :
    iter4 c i arg2 harg2 arg4 harg4 arg5 harg5 arg6 harg6 x0 X3 hx0 f (k.val + 1)
      = (Trip4.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial k).1 (iter4 c i arg2 harg2 arg4 harg4 arg5 harg5 arg6 harg6 x0 X3 hx0 f k.val) := by
  rw [iter4.eq_2]; unfold step4; exact dif_pos k.isLt
/-- The invariant of gather loop 4. -/
abbrev inv4 (f : BufTy.Contents (Elt F) scM0.view.ty) (k : ℕ) (_ : Unit) : sProp 𝕄 :=
  iprop((arg2.view.loc (c : Thread nD τ) ↦[arg2.view.set]{fullShare} harg2.unread x0) ∗ (hbM0.view.loc (c : Thread nD τ) ↦{(Transfers.shareTok fullShare 16 (0 : Fin 16))} X3) ∗ (hbM0.view.loc (c : Thread nD τ) ↦{(Transfers.shareTok fullShare 16 (1 : Fin 16))} X3) ∗ (hbM0.view.loc (c : Thread nD τ) ↦{(Transfers.shareTok fullShare 16 (2 : Fin 16))} X3) ∗ (hbM0.view.loc (c : Thread nD τ) ↦{(Transfers.shareTok fullShare 16 (3 : Fin 16))} X3) ∗ (hbM0.view.loc (c : Thread nD τ) ↦{(Transfers.shareTok fullShare 16 (4 : Fin 16))} X3) ∗ (hbM0.view.loc (c : Thread nD τ) ↦{(Transfers.shareTok fullShare 16 (5 : Fin 16))} X3) ∗ (hbM0.view.loc (c : Thread nD τ) ↦{(Transfers.shareTok fullShare 16 (6 : Fin 16))} X3) ∗ (hbM0.view.loc (c : Thread nD τ) ↦{(Transfers.shareTok fullShare 16 (7 : Fin 16))} X3) ∗ (hbM0.view.loc (c : Thread nD τ) ↦{(Transfers.shareTok fullShare 16 (8 : Fin 16))} X3) ∗ (hbM0.view.loc (c : Thread nD τ) ↦{(Transfers.shareTok fullShare 16 (9 : Fin 16))} X3) ∗ (hbM0.view.loc (c : Thread nD τ) ↦{(Transfers.shareTok fullShare 16 (10 : Fin 16))} X3) ∗ (hbM0.view.loc (c : Thread nD τ) ↦{(Transfers.shareTok fullShare 16 (11 : Fin 16))} X3) ∗ (hbM0.view.loc (c : Thread nD τ) ↦{(Transfers.shareTok fullShare 16 (12 : Fin 16))} X3) ∗ (hbM0.view.loc (c : Thread nD τ) ↦{(Transfers.shareTok fullShare 16 (13 : Fin 16))} X3) ∗ (hbM0.view.loc (c : Thread nD τ) ↦{(Transfers.shareTok fullShare 16 (14 : Fin 16))} X3) ∗ (hbM0.view.loc (c : Thread nD τ) ↦{(Transfers.shareTok fullShare 16 (15 : Fin 16))} X3)
    ∗ (scM0.view.loc (c : Thread nD τ) ↦[scM0.view.set]{fullShare} (iter4 c i arg2 harg2 arg4 harg4 arg5 harg5 arg6 harg6 x0 X3 hx0 f k))
    ∗ semVal ((c : Thread nD τ), SemLoc.dma cc0_scratch1.sem) 0 ∗ (∃ W', owes (c : Thread nD τ) 0 W'))
/-- One trip of gather loop 4 keeps its invariant: the trip theorem at the iterate. -/
theorem region4 (f : BufTy.Contents (Elt F) scM0.view.ty) (k : Fin k0_t4_loop.trips) (acc : Unit) :
    inv4 c i arg2 harg2 arg4 harg4 arg5 harg5 arg6 harg6 x0 X3 hx0 f k.val acc
      ⊢ wp frame (wpE (defs₀ (F := F)) Variants.none (c : Thread nD τ) none) Set.univ
          (k0_t4_body (F := F) i arg2 harg2 hbM0 (Memref.isWhole_whole _) arg4 harg4 arg5 harg5 arg6 harg6 scM0 (Memref.isWhole_whole _) cc0_scratch1 k acc)
          (inv4 c i arg2 harg2 arg4 harg4 arg5 harg5 arg6 harg6 x0 X3 hx0 f (k.val + 1)) := by
  unfold inv4
  rw [iter4_succ]
  iintro ⟨H2, H3_0, H3_1, H3_2, H3_3, H3_4, H3_5, H3_6, H3_7, H3_8, H3_9, H3_10, H3_11, H3_12, H3_13, H3_14, H3_15, H7, HC, ⟨%W, HO⟩⟩
  iapply ((Trip4.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial k).2 _ W)
  isplitl [H2]; · iexact H2
  isplitl [H3_0]; · iexact H3_0
  isplitl [H3_1]; · iexact H3_1
  isplitl [H3_2]; · iexact H3_2
  isplitl [H3_3]; · iexact H3_3
  isplitl [H3_4]; · iexact H3_4
  isplitl [H3_5]; · iexact H3_5
  isplitl [H3_6]; · iexact H3_6
  isplitl [H3_7]; · iexact H3_7
  isplitl [H3_8]; · iexact H3_8
  isplitl [H3_9]; · iexact H3_9
  isplitl [H3_10]; · iexact H3_10
  isplitl [H3_11]; · iexact H3_11
  isplitl [H3_12]; · iexact H3_12
  isplitl [H3_13]; · iexact H3_13
  isplitl [H3_14]; · iexact H3_14
  isplitl [H3_15]; · iexact H3_15
  isplitl [H7]; · iexact H7
  isplitl [HC]; · iexact HC
  iexact HO

/-- Trip `k` of gather loop 5 on the scratch contents `g` (past the last trip: nothing). -/
def step5 (k : ℕ) (g : BufTy.Contents (Elt F) scM0.view.ty) : BufTy.Contents (Elt F) scM0.view.ty :=
  if h : k < k0_t5_loop.trips then (Trip5.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial ⟨k, h⟩).1 g else g
/-- The scratch before trip `k` of gather loop 5, from what the loop found. -/
def iter5 (f : BufTy.Contents (Elt F) scM0.view.ty) : ℕ → BufTy.Contents (Elt F) scM0.view.ty
  | 0 => f
  | k + 1 => step5 c i arg2 harg2 arg4 harg4 arg5 harg5 arg6 harg6 x0 X3 hx0 k (iter5 f k)
theorem iter5_succ (f : BufTy.Contents (Elt F) scM0.view.ty) (k : Fin k0_t5_loop.trips) :
    iter5 c i arg2 harg2 arg4 harg4 arg5 harg5 arg6 harg6 x0 X3 hx0 f (k.val + 1)
      = (Trip5.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial k).1 (iter5 c i arg2 harg2 arg4 harg4 arg5 harg5 arg6 harg6 x0 X3 hx0 f k.val) := by
  rw [iter5.eq_2]; unfold step5; exact dif_pos k.isLt
/-- The invariant of gather loop 5. -/
abbrev inv5 (f : BufTy.Contents (Elt F) scM0.view.ty) (k : ℕ) (_ : Unit) : sProp 𝕄 :=
  iprop((arg2.view.loc (c : Thread nD τ) ↦[arg2.view.set]{fullShare} harg2.unread x0) ∗ (hbM0.view.loc (c : Thread nD τ) ↦{(Transfers.shareTok fullShare 16 (0 : Fin 16))} X3) ∗ (hbM0.view.loc (c : Thread nD τ) ↦{(Transfers.shareTok fullShare 16 (1 : Fin 16))} X3) ∗ (hbM0.view.loc (c : Thread nD τ) ↦{(Transfers.shareTok fullShare 16 (2 : Fin 16))} X3) ∗ (hbM0.view.loc (c : Thread nD τ) ↦{(Transfers.shareTok fullShare 16 (3 : Fin 16))} X3) ∗ (hbM0.view.loc (c : Thread nD τ) ↦{(Transfers.shareTok fullShare 16 (4 : Fin 16))} X3) ∗ (hbM0.view.loc (c : Thread nD τ) ↦{(Transfers.shareTok fullShare 16 (5 : Fin 16))} X3) ∗ (hbM0.view.loc (c : Thread nD τ) ↦{(Transfers.shareTok fullShare 16 (6 : Fin 16))} X3) ∗ (hbM0.view.loc (c : Thread nD τ) ↦{(Transfers.shareTok fullShare 16 (7 : Fin 16))} X3) ∗ (hbM0.view.loc (c : Thread nD τ) ↦{(Transfers.shareTok fullShare 16 (8 : Fin 16))} X3) ∗ (hbM0.view.loc (c : Thread nD τ) ↦{(Transfers.shareTok fullShare 16 (9 : Fin 16))} X3) ∗ (hbM0.view.loc (c : Thread nD τ) ↦{(Transfers.shareTok fullShare 16 (10 : Fin 16))} X3) ∗ (hbM0.view.loc (c : Thread nD τ) ↦{(Transfers.shareTok fullShare 16 (11 : Fin 16))} X3) ∗ (hbM0.view.loc (c : Thread nD τ) ↦{(Transfers.shareTok fullShare 16 (12 : Fin 16))} X3) ∗ (hbM0.view.loc (c : Thread nD τ) ↦{(Transfers.shareTok fullShare 16 (13 : Fin 16))} X3) ∗ (hbM0.view.loc (c : Thread nD τ) ↦{(Transfers.shareTok fullShare 16 (14 : Fin 16))} X3) ∗ (hbM0.view.loc (c : Thread nD τ) ↦{(Transfers.shareTok fullShare 16 (15 : Fin 16))} X3)
    ∗ (scM0.view.loc (c : Thread nD τ) ↦[scM0.view.set]{fullShare} (iter5 c i arg2 harg2 arg4 harg4 arg5 harg5 arg6 harg6 x0 X3 hx0 f k))
    ∗ semVal ((c : Thread nD τ), SemLoc.dma cc0_scratch1.sem) 0 ∗ (∃ W', owes (c : Thread nD τ) 0 W'))
/-- One trip of gather loop 5 keeps its invariant: the trip theorem at the iterate. -/
theorem region5 (f : BufTy.Contents (Elt F) scM0.view.ty) (k : Fin k0_t5_loop.trips) (acc : Unit) :
    inv5 c i arg2 harg2 arg4 harg4 arg5 harg5 arg6 harg6 x0 X3 hx0 f k.val acc
      ⊢ wp frame (wpE (defs₀ (F := F)) Variants.none (c : Thread nD τ) none) Set.univ
          (k0_t5_body (F := F) i arg2 harg2 hbM0 (Memref.isWhole_whole _) arg4 harg4 arg5 harg5 arg6 harg6 scM0 (Memref.isWhole_whole _) cc0_scratch1 k acc)
          (inv5 c i arg2 harg2 arg4 harg4 arg5 harg5 arg6 harg6 x0 X3 hx0 f (k.val + 1)) := by
  unfold inv5
  rw [iter5_succ]
  iintro ⟨H2, H3_0, H3_1, H3_2, H3_3, H3_4, H3_5, H3_6, H3_7, H3_8, H3_9, H3_10, H3_11, H3_12, H3_13, H3_14, H3_15, H7, HC, ⟨%W, HO⟩⟩
  iapply ((Trip5.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial k).2 _ W)
  isplitl [H2]; · iexact H2
  isplitl [H3_0]; · iexact H3_0
  isplitl [H3_1]; · iexact H3_1
  isplitl [H3_2]; · iexact H3_2
  isplitl [H3_3]; · iexact H3_3
  isplitl [H3_4]; · iexact H3_4
  isplitl [H3_5]; · iexact H3_5
  isplitl [H3_6]; · iexact H3_6
  isplitl [H3_7]; · iexact H3_7
  isplitl [H3_8]; · iexact H3_8
  isplitl [H3_9]; · iexact H3_9
  isplitl [H3_10]; · iexact H3_10
  isplitl [H3_11]; · iexact H3_11
  isplitl [H3_12]; · iexact H3_12
  isplitl [H3_13]; · iexact H3_13
  isplitl [H3_14]; · iexact H3_14
  isplitl [H3_15]; · iexact H3_15
  isplitl [H7]; · iexact H7
  isplitl [HC]; · iexact HC
  iexact HO

/-- Trip `k` of gather loop 6 on the scratch contents `g` (past the last trip: nothing). -/
def step6 (k : ℕ) (g : BufTy.Contents (Elt F) scM0.view.ty) : BufTy.Contents (Elt F) scM0.view.ty :=
  if h : k < k0_t6_loop.trips then (Trip6.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial ⟨k, h⟩).1 g else g
/-- The scratch before trip `k` of gather loop 6, from what the loop found. -/
def iter6 (f : BufTy.Contents (Elt F) scM0.view.ty) : ℕ → BufTy.Contents (Elt F) scM0.view.ty
  | 0 => f
  | k + 1 => step6 c i arg2 harg2 arg4 harg4 arg5 harg5 arg6 harg6 x0 X3 hx0 k (iter6 f k)
theorem iter6_succ (f : BufTy.Contents (Elt F) scM0.view.ty) (k : Fin k0_t6_loop.trips) :
    iter6 c i arg2 harg2 arg4 harg4 arg5 harg5 arg6 harg6 x0 X3 hx0 f (k.val + 1)
      = (Trip6.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial k).1 (iter6 c i arg2 harg2 arg4 harg4 arg5 harg5 arg6 harg6 x0 X3 hx0 f k.val) := by
  rw [iter6.eq_2]; unfold step6; exact dif_pos k.isLt
/-- The invariant of gather loop 6. -/
abbrev inv6 (f : BufTy.Contents (Elt F) scM0.view.ty) (k : ℕ) (_ : Unit) : sProp 𝕄 :=
  iprop((arg2.view.loc (c : Thread nD τ) ↦[arg2.view.set]{fullShare} harg2.unread x0) ∗ (hbM0.view.loc (c : Thread nD τ) ↦{(Transfers.shareTok fullShare 16 (0 : Fin 16))} X3) ∗ (hbM0.view.loc (c : Thread nD τ) ↦{(Transfers.shareTok fullShare 16 (1 : Fin 16))} X3) ∗ (hbM0.view.loc (c : Thread nD τ) ↦{(Transfers.shareTok fullShare 16 (2 : Fin 16))} X3) ∗ (hbM0.view.loc (c : Thread nD τ) ↦{(Transfers.shareTok fullShare 16 (3 : Fin 16))} X3) ∗ (hbM0.view.loc (c : Thread nD τ) ↦{(Transfers.shareTok fullShare 16 (4 : Fin 16))} X3) ∗ (hbM0.view.loc (c : Thread nD τ) ↦{(Transfers.shareTok fullShare 16 (5 : Fin 16))} X3) ∗ (hbM0.view.loc (c : Thread nD τ) ↦{(Transfers.shareTok fullShare 16 (6 : Fin 16))} X3) ∗ (hbM0.view.loc (c : Thread nD τ) ↦{(Transfers.shareTok fullShare 16 (7 : Fin 16))} X3) ∗ (hbM0.view.loc (c : Thread nD τ) ↦{(Transfers.shareTok fullShare 16 (8 : Fin 16))} X3) ∗ (hbM0.view.loc (c : Thread nD τ) ↦{(Transfers.shareTok fullShare 16 (9 : Fin 16))} X3) ∗ (hbM0.view.loc (c : Thread nD τ) ↦{(Transfers.shareTok fullShare 16 (10 : Fin 16))} X3) ∗ (hbM0.view.loc (c : Thread nD τ) ↦{(Transfers.shareTok fullShare 16 (11 : Fin 16))} X3) ∗ (hbM0.view.loc (c : Thread nD τ) ↦{(Transfers.shareTok fullShare 16 (12 : Fin 16))} X3) ∗ (hbM0.view.loc (c : Thread nD τ) ↦{(Transfers.shareTok fullShare 16 (13 : Fin 16))} X3) ∗ (hbM0.view.loc (c : Thread nD τ) ↦{(Transfers.shareTok fullShare 16 (14 : Fin 16))} X3) ∗ (hbM0.view.loc (c : Thread nD τ) ↦{(Transfers.shareTok fullShare 16 (15 : Fin 16))} X3)
    ∗ (scM0.view.loc (c : Thread nD τ) ↦[scM0.view.set]{fullShare} (iter6 c i arg2 harg2 arg4 harg4 arg5 harg5 arg6 harg6 x0 X3 hx0 f k))
    ∗ semVal ((c : Thread nD τ), SemLoc.dma cc0_scratch1.sem) 0 ∗ (∃ W', owes (c : Thread nD τ) 0 W'))
/-- One trip of gather loop 6 keeps its invariant: the trip theorem at the iterate. -/
theorem region6 (f : BufTy.Contents (Elt F) scM0.view.ty) (k : Fin k0_t6_loop.trips) (acc : Unit) :
    inv6 c i arg2 harg2 arg4 harg4 arg5 harg5 arg6 harg6 x0 X3 hx0 f k.val acc
      ⊢ wp frame (wpE (defs₀ (F := F)) Variants.none (c : Thread nD τ) none) Set.univ
          (k0_t6_body (F := F) i arg2 harg2 hbM0 (Memref.isWhole_whole _) arg4 harg4 arg5 harg5 arg6 harg6 scM0 (Memref.isWhole_whole _) cc0_scratch1 k acc)
          (inv6 c i arg2 harg2 arg4 harg4 arg5 harg5 arg6 harg6 x0 X3 hx0 f (k.val + 1)) := by
  unfold inv6
  rw [iter6_succ]
  iintro ⟨H2, H3_0, H3_1, H3_2, H3_3, H3_4, H3_5, H3_6, H3_7, H3_8, H3_9, H3_10, H3_11, H3_12, H3_13, H3_14, H3_15, H7, HC, ⟨%W, HO⟩⟩
  iapply ((Trip6.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial k).2 _ W)
  isplitl [H2]; · iexact H2
  isplitl [H3_0]; · iexact H3_0
  isplitl [H3_1]; · iexact H3_1
  isplitl [H3_2]; · iexact H3_2
  isplitl [H3_3]; · iexact H3_3
  isplitl [H3_4]; · iexact H3_4
  isplitl [H3_5]; · iexact H3_5
  isplitl [H3_6]; · iexact H3_6
  isplitl [H3_7]; · iexact H3_7
  isplitl [H3_8]; · iexact H3_8
  isplitl [H3_9]; · iexact H3_9
  isplitl [H3_10]; · iexact H3_10
  isplitl [H3_11]; · iexact H3_11
  isplitl [H3_12]; · iexact H3_12
  isplitl [H3_13]; · iexact H3_13
  isplitl [H3_14]; · iexact H3_14
  isplitl [H3_15]; · iexact H3_15
  isplitl [H7]; · iexact H7
  isplitl [HC]; · iexact HC
  iexact HO

/-- Trip `k` of gather loop 7 on the scratch contents `g` (past the last trip: nothing). -/
def step7 (k : ℕ) (g : BufTy.Contents (Elt F) scM0.view.ty) : BufTy.Contents (Elt F) scM0.view.ty :=
  if h : k < k0_t7_loop.trips then (Trip7.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial ⟨k, h⟩).1 g else g
/-- The scratch before trip `k` of gather loop 7, from what the loop found. -/
def iter7 (f : BufTy.Contents (Elt F) scM0.view.ty) : ℕ → BufTy.Contents (Elt F) scM0.view.ty
  | 0 => f
  | k + 1 => step7 c i arg2 harg2 arg4 harg4 arg5 harg5 arg6 harg6 x0 X3 hx0 k (iter7 f k)
theorem iter7_succ (f : BufTy.Contents (Elt F) scM0.view.ty) (k : Fin k0_t7_loop.trips) :
    iter7 c i arg2 harg2 arg4 harg4 arg5 harg5 arg6 harg6 x0 X3 hx0 f (k.val + 1)
      = (Trip7.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial k).1 (iter7 c i arg2 harg2 arg4 harg4 arg5 harg5 arg6 harg6 x0 X3 hx0 f k.val) := by
  rw [iter7.eq_2]; unfold step7; exact dif_pos k.isLt
/-- The invariant of gather loop 7. -/
abbrev inv7 (f : BufTy.Contents (Elt F) scM0.view.ty) (k : ℕ) (_ : Unit) : sProp 𝕄 :=
  iprop((arg2.view.loc (c : Thread nD τ) ↦[arg2.view.set]{fullShare} harg2.unread x0) ∗ (hbM0.view.loc (c : Thread nD τ) ↦{(Transfers.shareTok fullShare 16 (0 : Fin 16))} X3) ∗ (hbM0.view.loc (c : Thread nD τ) ↦{(Transfers.shareTok fullShare 16 (1 : Fin 16))} X3) ∗ (hbM0.view.loc (c : Thread nD τ) ↦{(Transfers.shareTok fullShare 16 (2 : Fin 16))} X3) ∗ (hbM0.view.loc (c : Thread nD τ) ↦{(Transfers.shareTok fullShare 16 (3 : Fin 16))} X3) ∗ (hbM0.view.loc (c : Thread nD τ) ↦{(Transfers.shareTok fullShare 16 (4 : Fin 16))} X3) ∗ (hbM0.view.loc (c : Thread nD τ) ↦{(Transfers.shareTok fullShare 16 (5 : Fin 16))} X3) ∗ (hbM0.view.loc (c : Thread nD τ) ↦{(Transfers.shareTok fullShare 16 (6 : Fin 16))} X3) ∗ (hbM0.view.loc (c : Thread nD τ) ↦{(Transfers.shareTok fullShare 16 (7 : Fin 16))} X3) ∗ (hbM0.view.loc (c : Thread nD τ) ↦{(Transfers.shareTok fullShare 16 (8 : Fin 16))} X3) ∗ (hbM0.view.loc (c : Thread nD τ) ↦{(Transfers.shareTok fullShare 16 (9 : Fin 16))} X3) ∗ (hbM0.view.loc (c : Thread nD τ) ↦{(Transfers.shareTok fullShare 16 (10 : Fin 16))} X3) ∗ (hbM0.view.loc (c : Thread nD τ) ↦{(Transfers.shareTok fullShare 16 (11 : Fin 16))} X3) ∗ (hbM0.view.loc (c : Thread nD τ) ↦{(Transfers.shareTok fullShare 16 (12 : Fin 16))} X3) ∗ (hbM0.view.loc (c : Thread nD τ) ↦{(Transfers.shareTok fullShare 16 (13 : Fin 16))} X3) ∗ (hbM0.view.loc (c : Thread nD τ) ↦{(Transfers.shareTok fullShare 16 (14 : Fin 16))} X3) ∗ (hbM0.view.loc (c : Thread nD τ) ↦{(Transfers.shareTok fullShare 16 (15 : Fin 16))} X3)
    ∗ (scM0.view.loc (c : Thread nD τ) ↦[scM0.view.set]{fullShare} (iter7 c i arg2 harg2 arg4 harg4 arg5 harg5 arg6 harg6 x0 X3 hx0 f k))
    ∗ semVal ((c : Thread nD τ), SemLoc.dma cc0_scratch1.sem) 0 ∗ (∃ W', owes (c : Thread nD τ) 0 W'))
/-- One trip of gather loop 7 keeps its invariant: the trip theorem at the iterate. -/
theorem region7 (f : BufTy.Contents (Elt F) scM0.view.ty) (k : Fin k0_t7_loop.trips) (acc : Unit) :
    inv7 c i arg2 harg2 arg4 harg4 arg5 harg5 arg6 harg6 x0 X3 hx0 f k.val acc
      ⊢ wp frame (wpE (defs₀ (F := F)) Variants.none (c : Thread nD τ) none) Set.univ
          (k0_t7_body (F := F) i arg2 harg2 hbM0 (Memref.isWhole_whole _) arg4 harg4 arg5 harg5 arg6 harg6 scM0 (Memref.isWhole_whole _) cc0_scratch1 k acc)
          (inv7 c i arg2 harg2 arg4 harg4 arg5 harg5 arg6 harg6 x0 X3 hx0 f (k.val + 1)) := by
  unfold inv7
  rw [iter7_succ]
  iintro ⟨H2, H3_0, H3_1, H3_2, H3_3, H3_4, H3_5, H3_6, H3_7, H3_8, H3_9, H3_10, H3_11, H3_12, H3_13, H3_14, H3_15, H7, HC, ⟨%W, HO⟩⟩
  iapply ((Trip7.trip (F := F) Variants.none c none i arg2 harg2 hbM0 (Memref.isWhole_whole _) arg4 harg4 arg5 harg5 arg6 harg6 scM0 (Memref.isWhole_whole _) cc0_scratch1 (harg2.unread x0) X3 (hX2 harg2 x0 hx0) (Transfers.shareTok fullShare 16 (0 : Fin 16)) (Transfers.shareTok fullShare 16 (1 : Fin 16)) (Transfers.shareTok fullShare 16 (2 : Fin 16)) (Transfers.shareTok fullShare 16 (3 : Fin 16)) (Transfers.shareTok fullShare 16 (4 : Fin 16)) (Transfers.shareTok fullShare 16 (5 : Fin 16)) (Transfers.shareTok fullShare 16 (6 : Fin 16)) (Transfers.shareTok fullShare 16 (7 : Fin 16)) (Transfers.shareTok fullShare 16 (8 : Fin 16)) (Transfers.shareTok fullShare 16 (9 : Fin 16)) (Transfers.shareTok fullShare 16 (10 : Fin 16)) (Transfers.shareTok fullShare 16 (11 : Fin 16)) (Transfers.shareTok fullShare 16 (12 : Fin 16)) (Transfers.shareTok fullShare 16 (13 : Fin 16)) (Transfers.shareTok fullShare 16 (14 : Fin 16)) (Transfers.shareTok fullShare 16 (15 : Fin 16)) trivial k).2 _ W)
  isplitl [H2]; · iexact H2
  isplitl [H3_0]; · iexact H3_0
  isplitl [H3_1]; · iexact H3_1
  isplitl [H3_2]; · iexact H3_2
  isplitl [H3_3]; · iexact H3_3
  isplitl [H3_4]; · iexact H3_4
  isplitl [H3_5]; · iexact H3_5
  isplitl [H3_6]; · iexact H3_6
  isplitl [H3_7]; · iexact H3_7
  isplitl [H3_8]; · iexact H3_8
  isplitl [H3_9]; · iexact H3_9
  isplitl [H3_10]; · iexact H3_10
  isplitl [H3_11]; · iexact H3_11
  isplitl [H3_12]; · iexact H3_12
  isplitl [H3_13]; · iexact H3_13
  isplitl [H3_14]; · iexact H3_14
  isplitl [H3_15]; · iexact H3_15
  isplitl [H7]; · iexact H7
  isplitl [HC]; · iexact HC
  iexact HO

end Loops

end Cert.KernelIdeal.Iter

end
-- ==== Proof.KI.RowViews.lean ====
import proofs.«425738_j65000035058096_2_alg».proof.Proof.Gen.KernelIdeal
import Idealize.ShloMosaic.Lib.Memref
import Idealize.ShloMosaic.Lib.Writes
import Idealize.ShloMosaic.Lib.Pipeline.Value
import Idealize.ShloMosaic.Lib.ValueIdx
import Idealize.ShloMosaic.Lib.ValueLayout

/-!
One row of a slab of the gather buffer, and one row of a batch of the padded features, as places in memory.
The gather buffer is [7, 1024, 128]: row r of slab s is the 128 elements (s, r, 0 .. 127). The padded features are
[2, 163842, 128]: row w of batch b is the 128 elements (b, w, 0 .. 127). Each row is reached by cutting out one slab
(batch), dropping its unit axis, cutting out one row, and dropping its unit axis again; element l of the row so reached
sits at (s, r, l) (at (b, w, l)). Writing 128 values through the first therefore changes exactly the elements
(s, r, ·) of the buffer, and reading through the second returns exactly the elements (b, w, ·) of the features.
-/

set_option maxRecDepth 16384

noncomputable section

namespace Cert.KernelIdeal.RowViews

open Cert.KernelIdeal Cert.KernelIdeal.Gen
open Idealize.ShloMosaic Idealize.ShloMosaic.TcCoe Idealize.ShloMosaic.ValueIdx Idealize.SL.Sem

variable {F : FTy → Type} [FloatOps F]

/-- The whole gather buffer. -/
abbrev scM0 := Memref.whole cc0_scratch0
/-- The whole array of padded features. -/
abbrev hbM0 := Memref.whole main_v3

/-- Row o₂ 0 of slab o₁ 0 of the gather buffer, as a 128-element place. -/
def dstRow (o₁ : Fin 3 → ℕ) (h₁ : ∀ a, o₁ a + S1x1024x128.size a ≤ S7x1024x128.size a)
    (o₂ : Fin 2 → ℕ) (h₂ : ∀ a, o₂ a + S1x128.size a ≤ S1024x128.size a) : Memref sig .tc .vmem S128 .f32 :=
  (((scM0.slice (Rect.unit (s := S7x1024x128) o₁ S1x1024x128.size h₁) (fun _ => rfl)).squeeze S1024x128 squeezes_S1x1024x128_S1024x128).slice
    (Rect.unit (s := S1024x128) o₂ S1x128.size h₂) (fun _ => rfl)).squeeze S128 squeezes_S1x128_S128

/-- Row o₂ 0 of batch o₁ 0 of the padded features, as a 128-element place. -/
def srcRow (o₁ : Fin 3 → ℕ) (h₁ : ∀ a, o₁ a + S1x163842x128.size a ≤ S2x163842x128.size a)
    (o₂ : Fin 2 → ℕ) (h₂ : ∀ a, o₂ a + S1x128.size a ≤ S163842x128.size a) : Memref sig .tc .hbm S128 .f32 :=
  (((hbM0.slice (Rect.unit (s := S2x163842x128) o₁ S1x163842x128.size h₁) (fun _ => rfl)).squeeze S163842x128 squeezes_S1x163842x128_S163842x128).slice
    (Rect.unit (s := S163842x128) o₂ S1x128.size h₂) (fun _ => rfl)).squeeze S128 squeezes_S1x128_S128

/-- An index l matched with shape [1, a] is (0, l). -/
theorem reshapeEquiv_ix1_1a {a : ℕ} (h : (⟨1, ![a]⟩ : Shape).numel = (⟨2, ![1, a]⟩ : Shape).numel) (l : Fin a) :
    Shape.reshapeEquiv h (ix1 l) = ix2 (⟨0, Nat.one_pos⟩ : Fin 1) l :=
  Shape.reshapeEquiv_eq_of_rowMajor h (by
    rw [Shape.rowMajor_val_two, Shape.rowMajor_val_one]
    show 0 * a + l.val = l.val
    simp only [Nat.zero_mul, Nat.zero_add])

/-- Element l of row r of slab s of the gather buffer sits at (s, r, l). -/
theorem emb_dstRow (s : Fin 7) (r : Fin 1024) (h₁ : ∀ a, (![s.val, 0, 0] : Fin 3 → ℕ) a + S1x1024x128.size a ≤ S7x1024x128.size a)
    (h₂ : ∀ a, (![r.val, 0] : Fin 2 → ℕ) a + S1x128.size a ≤ S1024x128.size a) (l : Fin 128) :
    ((dstRow ![s.val, 0, 0] h₁ ![r.val, 0] h₂).view.emb (ix1 l) : S7x1024x128.Idx) = ix3 s r l := by
  show (Rect.unit (s := S7x1024x128) ![s.val, 0, 0] S1x1024x128.size h₁).emb
        (Shape.reshapeEquiv squeezes_S1x1024x128_S1024x128.numel_eq
          ((Rect.unit (s := S1024x128) ![r.val, 0] S1x128.size h₂).emb
            (Shape.reshapeEquiv squeezes_S1x128_S128.numel_eq (ix1 l)))) = ix3 s r l
  have e1 : (Rect.unit (s := S1024x128) ![r.val, 0] S1x128.size h₂).emb (ix2 (⟨0, Nat.one_pos⟩ : Fin 1) l) = ix2 r l := by
    funext a; apply Fin.ext
    match a with
    | ⟨0, _⟩ => show r.val + 1 * 0 = r.val; omega
    | ⟨1, _⟩ => show 0 + 1 * l.val = l.val; omega
  rw [reshapeEquiv_ix1_1a, e1, reshapeEquiv_ix2_1ab]
  funext a; apply Fin.ext
  match a with
  | ⟨0, _⟩ => show s.val + 1 * 0 = s.val; omega
  | ⟨1, _⟩ => show 0 + 1 * r.val = r.val; omega
  | ⟨2, _⟩ => show 0 + 1 * l.val = l.val; omega

/-- Element l of row w of batch bi of the padded features sits at (bi, w, l). -/
theorem emb_srcRow (bi : Fin 2) (w : Fin 163842) (h₁ : ∀ a, (![bi.val, 0, 0] : Fin 3 → ℕ) a + S1x163842x128.size a ≤ S2x163842x128.size a)
    (h₂ : ∀ a, (![w.val, 0] : Fin 2 → ℕ) a + S1x128.size a ≤ S163842x128.size a) (l : Fin 128) :
    ((srcRow ![bi.val, 0, 0] h₁ ![w.val, 0] h₂).view.emb (ix1 l) : S2x163842x128.Idx) = ix3 bi w l := by
  show (Rect.unit (s := S2x163842x128) ![bi.val, 0, 0] S1x163842x128.size h₁).emb
        (Shape.reshapeEquiv squeezes_S1x163842x128_S163842x128.numel_eq
          ((Rect.unit (s := S163842x128) ![w.val, 0] S1x128.size h₂).emb
            (Shape.reshapeEquiv squeezes_S1x128_S128.numel_eq (ix1 l)))) = ix3 bi w l
  have e1 : (Rect.unit (s := S163842x128) ![w.val, 0] S1x128.size h₂).emb (ix2 (⟨0, Nat.one_pos⟩ : Fin 1) l) = ix2 w l := by
    funext a; apply Fin.ext
    match a with
    | ⟨0, _⟩ => show w.val + 1 * 0 = w.val; omega
    | ⟨1, _⟩ => show 0 + 1 * l.val = l.val; omega
  rw [reshapeEquiv_ix1_1a, e1, reshapeEquiv_ix2_1ab]
  funext a; apply Fin.ext
  match a with
  | ⟨0, _⟩ => show bi.val + 1 * 0 = bi.val; omega
  | ⟨1, _⟩ => show 0 + 1 * w.val = w.val; omega
  | ⟨2, _⟩ => show 0 + 1 * l.val = l.val; omega

/-- Writing 128 values through row r of slab s changes the buffer exactly at the elements (s, r, ·), where element
(s, r, l) takes value l; every other element keeps what it held. -/
theorem write_dstRow_apply (g : S7x1024x128.Idx → Elt F .f32) (p : S128.Idx → Elt F .f32) (s : Fin 7) (r : Fin 1024)
    (h₁ : ∀ a, (![s.val, 0, 0] : Fin 3 → ℕ) a + S1x1024x128.size a ≤ S7x1024x128.size a)
    (h₂ : ∀ a, (![r.val, 0] : Fin 2 → ℕ) a + S1x128.size a ≤ S1024x128.size a) (y : S7x1024x128.Idx) :
    (View.write (Elt F) (dstRow ![s.val, 0, 0] h₁ ![r.val, 0] h₂).view g p Finset.univ) y
      = if (y 0).val = s.val ∧ (y 1).val = r.val then p (ix1 (⟨(y 2).val, (y 2).isLt⟩ : Fin 128)) else g y := by
  by_cases hy : (y 0).val = s.val ∧ (y 1).val = r.val
  · rw [if_pos hy]
    have e : y = ix3 s r (⟨(y 2).val, (y 2).isLt⟩ : Fin 128) := by
      funext a; apply Fin.ext
      match a with
      | ⟨0, _⟩ => exact hy.1
      | ⟨1, _⟩ => exact hy.2
      | ⟨2, _⟩ => rfl
    have e' := e.trans (emb_dstRow s r h₁ h₂ ⟨(y 2).val, (y 2).isLt⟩).symm
    refine (congrArg (View.write (Elt F) (dstRow ![s.val, 0, 0] h₁ ![r.val, 0] h₂).view g p Finset.univ) e').trans ?_
    refine (View.write_emb_of_mem (v := (dstRow ![s.val, 0, 0] h₁ ![r.val, 0] h₂).view) (Val := Elt F) g p (Finset.mem_univ _)).trans ?_
    exact cast_eq _ _
  · rw [if_neg hy]
    refine View.write_of_not_mem (v := (dstRow ![s.val, 0, 0] h₁ ![r.val, 0] h₂).view) (Val := Elt F) g p Finset.univ fun hmem => hy ?_
    obtain ⟨x, -, hx⟩ := Finset.mem_map.mp hmem
    obtain ⟨l, rfl⟩ : ∃ l : Fin 128, x = ix1 l := ⟨x 0, eq_ix1 x⟩
    have hx' : ix3 s r l = y := (emb_dstRow s r h₁ h₂ l).symm.trans hx
    rw [← hx']
    exact ⟨rfl, rfl⟩

/-- Reading through row w of batch bi returns, at l, the features' element (bi, w, l). -/
theorem read_srcRow_apply (X : S2x163842x128.Idx → Elt F .f32) (bi : Fin 2) (w : Fin 163842)
    (h₁ : ∀ a, (![bi.val, 0, 0] : Fin 3 → ℕ) a + S1x163842x128.size a ≤ S2x163842x128.size a)
    (h₂ : ∀ a, (![w.val, 0] : Fin 2 → ℕ) a + S1x128.size a ≤ S163842x128.size a) (l : Fin 128) :
    (View.read (Elt F) (srcRow ![bi.val, 0, 0] h₁ ![w.val, 0] h₂).view X) (ix1 l) = X (ix3 bi w l) := by
  refine (View.read_apply (v := (srcRow ![bi.val, 0, 0] h₁ ![w.val, 0] h₂).view) (Val := Elt F) X (ix1 l)).trans ?_
  refine (cast_eq _ _).trans ?_
  exact congrArg X (emb_srcRow bi w h₁ h₂ l)

end Cert.KernelIdeal.RowViews

end
-- ==== Proof.KI.SlotValue.lean ====
import proofs.«425738_j65000035058096_2_alg».proof.Proof.KI.Iter
import proofs.«425738_j65000035058096_2_alg».proof.Proof.KI.RowViews

/-!
What the scratch holds after the seven gather loops, read slab by slab. Loop `s+1` fills slab `s`: its trip `k` lands
the sixteen feature rows named by words `16k .. 16k+15` of row `s` of the block of neighbour numbers in rows
`16k .. 16k+15` of the slab, touches nothing else, and no later trip or loop writes those rows again. So after all
loops row `r` of slab `s` is the feature row that word `(s, r)` names, lane by lane: the slab `Blocks.slab` describes.
-/

set_option maxRecDepth 16384
set_option maxHeartbeats 4000000

noncomputable section

namespace Cert.KernelIdeal.SlotValue

open Cert.KernelIdeal Cert.KernelIdeal.Gen Cert.KernelIdeal.Iter
open Idealize.ShloMosaic Idealize.ShloMosaic.TcCoe Idealize.ShloMosaic.ValueIdx
open Idealize.SL.Sem Idealize.SL Idealize.SL.RA Idealize.ShloMosaic.Tactic

variable {F : FTy → Type} [FloatOps F]

/-! ## Rows of one slab filled, the rest kept -/

/-- Rows lo .. n-1 of slab s hold v; every other element holds g. -/
def filled (s : Fin 7) (lo n : ℕ) (v g : S7x1024x128.Idx → Elt F .f32) : S7x1024x128.Idx → Elt F .f32 :=
  fun y => if (y 0).val = s.val ∧ lo ≤ (y 1).val ∧ (y 1).val < n then v y else g y

/-- No row filled: nothing changed. -/
theorem filled_empty (s : Fin 7) (lo : ℕ) (v g : S7x1024x128.Idx → Elt F .f32) : filled s lo lo v g = g :=
  funext fun y => if_neg (by omega)

/-- Filling row n on top of rows lo .. n-1 fills rows lo .. n. -/
theorem filled_row (s : Fin 7) (lo n : ℕ) (h : lo ≤ n) (v g : S7x1024x128.Idx → Elt F .f32) (y : S7x1024x128.Idx) :
    (if (y 0).val = s.val ∧ (y 1).val = n then v y else filled s lo n v g y) = filled s lo (n + 1) v g y := by
  unfold filled
  by_cases h1 : (y 0).val = s.val ∧ (y 1).val = n
  · rw [if_pos h1, if_pos (by omega)]
  · rw [if_neg h1]
    by_cases h2 : (y 0).val = s.val ∧ lo ≤ (y 1).val ∧ (y 1).val < n
    · rw [if_pos h2, if_pos (by omega)]
    · rw [if_neg h2, if_neg (by omega)]

/-- Filling rows m .. n-1 on top of rows lo .. m-1 fills rows lo .. n-1. -/
theorem filled_filled (s : Fin 7) (lo m n : ℕ) (h1 : lo ≤ m) (h2 : m ≤ n) (v g : S7x1024x128.Idx → Elt F .f32) :
    filled s m n v (filled s lo m v g) = filled s lo n v g := by
  funext y
  unfold filled
  by_cases a : (y 0).val = s.val ∧ m ≤ (y 1).val ∧ (y 1).val < n
  · rw [if_pos a, if_pos (by omega)]
  · rw [if_neg a]
    by_cases b : (y 0).val = s.val ∧ lo ≤ (y 1).val ∧ (y 1).val < m
    · rw [if_pos b, if_pos (by omega)]
    · rw [if_neg b, if_neg (by omega)]

/-- Another slab is not touched. -/
theorem filled_of_ne (s : Fin 7) (lo n : ℕ) (v g : S7x1024x128.Idx → Elt F .f32) (y : S7x1024x128.Idx) (h : (y 0).val ≠ s.val) :
    filled s lo n v g y = g y := if_neg (by omega)

/-- A filled row of the slab holds v. -/
theorem filled_of_mem (s : Fin 7) (lo n : ℕ) (v g : S7x1024x128.Idx → Elt F .f32) (y : S7x1024x128.Idx)
    (h0 : (y 0).val = s.val) (h1 : lo ≤ (y 1).val) (h2 : (y 1).val < n) : filled s lo n v g y = v y := if_pos ⟨h0, h1, h2⟩

/-- What row r of slab s holds after the loops: the feature row its neighbour word names, lane by lane. -/
def rowVal (x0 : Vec F S7x1024 .i32) (X3 : Vec F S2x163842x128 .f32) (bi : Fin 2) (s : Fin 7) : S7x1024x128.Idx → Elt F .f32 :=
  fun y => X3 (ix3 bi (Blocks.rowOf (x0 (ix2 s (y 1)))) (y 2))

/-- At an element of another slab nothing is filled. -/
theorem filled_ix3_ne (s t : Fin 7) (h : t ≠ s) (lo n : ℕ) (v g : S7x1024x128.Idx → Elt F .f32) (r : Fin 1024) (l : Fin 128) :
    filled s lo n v g (ix3 t r l) = g (ix3 t r l) :=
  filled_of_ne s lo n v g _ fun e => h (Fin.ext e)

/-- At an element of a filled row of the slab the value is v. -/
theorem filled_ix3_mem (s : Fin 7) (lo n : ℕ) (v g : S7x1024x128.Idx → Elt F .f32) (r : Fin 1024) (l : Fin 128)
    (h1 : lo ≤ r.val) (h2 : r.val < n) : filled s lo n v g (ix3 s r l) = v (ix3 s r l) :=
  filled_of_mem s lo n v g _ rfl h1 h2

/-- Reading slab s of the whole buffer: at (0, r, l) the buffer's element (s, r, l). -/
theorem readAt_slab (G : BufTy.Contents (Elt F) scM0.view.ty) (o : Fin 3 → ℕ)
    (h : ∀ a, o a + S1x1024x128.size a ≤ S7x1024x128.size a) (s : Fin 7) (e : o = ![s.val, 0, 0]) (x : S1x1024x128.Idx) :
    View.readAt (Elt F) scM0.view (Rect.unit (s := S7x1024x128) o S1x1024x128.size h).toLoadRect G x = G (ix3 s (x 1) (x 2)) := by
  subst e
  rw [View.readAt_apply, View.read_apply]
  simp only [cast_eq]
  refine congrArg G (funext fun a => Fin.ext ?_)
  have h0 : (x 0).val = 0 := by have h1 : (x 0).val < 1 := (x 0).isLt; omega
  match a with
  | ⟨0, _⟩ => show s.val + 1 * (x 0).val = s.val; omega
  | ⟨1, _⟩ => show 0 + 1 * (x 1).val = (x 1).val; omega
  | ⟨2, _⟩ => show 0 + 1 * (x 2).val = (x 2).val; omega

/-! ## One row copy -/

open Cert.KernelIdeal.RowViews in
/-- One row copy: the 128 values read through row w of batch bi of the features, written through row r of slab s of the
buffer, leave the element (s, r, l) holding the features' (bi, w, l), and every other element as it was. -/
theorem copy_apply (g : S7x1024x128.Idx → Elt F .f32) (X3 : S2x163842x128.Idx → Elt F .f32)
    (o₁ : Fin 3 → ℕ) (h₁ : ∀ a, o₁ a + S1x1024x128.size a ≤ S7x1024x128.size a)
    (o₂ : Fin 2 → ℕ) (h₂ : ∀ a, o₂ a + S1x128.size a ≤ S1024x128.size a)
    (o₃ : Fin 3 → ℕ) (h₃ : ∀ a, o₃ a + S1x163842x128.size a ≤ S2x163842x128.size a)
    (o₄ : Fin 2 → ℕ) (h₄ : ∀ a, o₄ a + S1x128.size a ≤ S163842x128.size a)
    (s : Fin 7) (r : ℕ) (hr : r < 1024) (bi : Fin 2) (w : BitVec 32) (hw : w.toNat < 163842)
    (e₁ : o₁ = ![s.val, 0, 0]) (e₂ : o₂ = ![r, 0]) (e₃ : o₃ = ![bi.val, 0, 0]) (e₄ : o₄ = ![w.toNat, 0])
    (y : S7x1024x128.Idx) :
    View.write (Elt F) (dstRow o₁ h₁ o₂ h₂).view g (View.read (Elt F) (srcRow o₃ h₃ o₄ h₄).view X3) Finset.univ y
      = if (y 0).val = s.val ∧ (y 1).val = r then X3 (ix3 bi (Blocks.rowOf w) (y 2)) else g y := by
  subst e₁ e₂ e₃ e₄
  refine (write_dstRow_apply g _ s ⟨r, hr⟩ h₁ h₂ y).trans ?_
  by_cases hy : (y 0).val = s.val ∧ (y 1).val = r
  · rw [if_pos hy, if_pos hy]
    have hrow : Blocks.rowOf w = ⟨w.toNat, hw⟩ := Fin.ext (Blocks.rowOf_val w hw)
    rw [hrow]
    exact read_srcRow_apply X3 bi ⟨w.toNat, hw⟩ h₃ h₄ ⟨(y 2).val, (y 2).isLt⟩
  · rw [if_neg hy, if_neg hy]

open Cert.KernelIdeal.RowViews in
/-- The copy of row n on top of rows lo .. n-1 already filled: when the word that names the source row is entry (s, n) of
the block of neighbour numbers, rows lo .. n are filled. -/
theorem copy_filled (inner g : S7x1024x128.Idx → Elt F .f32) (x0 : Vec F S7x1024 .i32) (hx0 : ∀ y, (x0 y).toNat < 163842)
    (X3 : S2x163842x128.Idx → Elt F .f32)
    {o₁ : Fin 3 → ℕ} {h₁ : ∀ a, o₁ a + S1x1024x128.size a ≤ S7x1024x128.size a}
    {o₂ : Fin 2 → ℕ} {h₂ : ∀ a, o₂ a + S1x128.size a ≤ S1024x128.size a}
    {o₃ : Fin 3 → ℕ} {h₃ : ∀ a, o₃ a + S1x163842x128.size a ≤ S2x163842x128.size a}
    {o₄ : Fin 2 → ℕ} {h₄ : ∀ a, o₄ a + S1x128.size a ≤ S163842x128.size a}
    (s : Fin 7) (lo n n' : ℕ) (hlo : lo ≤ n) (hn : n < 1024) (hn' : n' = n + 1) (bi : Fin 2) {w : BitVec 32}
    (e₁ : o₁ = ![s.val, 0, 0]) (e₂ : o₂ = ![n, 0]) (e₃ : o₃ = ![bi.val, 0, 0]) (e₄ : o₄ = ![w.toNat, 0])
    (hw : w = x0 (ix2 s ⟨n, hn⟩))
    (hin : inner = filled s lo n (rowVal x0 X3 bi s) g) :
    View.write (Elt F) (dstRow o₁ h₁ o₂ h₂).view inner
        (ReadAs.same.apply (View.read (Elt F) (srcRow o₃ h₃ o₄ h₄).view X3)) Finset.univ
      = filled s lo n' (rowVal x0 X3 bi s) g := by
  subst hn' hin
  refine funext fun (y : S7x1024x128.Idx) => ?_
  refine (copy_apply _ X3 o₁ h₁ o₂ h₂ o₃ h₃ o₄ h₄ s n hn bi w (hw ▸ hx0 _) e₁ e₂ e₃ e₄ y).trans ?_
  refine Eq.trans ?_ (filled_row s lo n hlo (rowVal x0 X3 bi s) g y)
  by_cases hy : (y 0).val = s.val ∧ (y 1).val = n
  · rw [if_pos hy, if_pos hy]
    subst hw
    have e : (y 1) = (⟨n, hn⟩ : Fin 1024) := Fin.ext hy.2
    show X3 (ix3 bi (Blocks.rowOf (x0 (ix2 s ⟨n, hn⟩))) (y 2)) = X3 (ix3 bi (Blocks.rowOf (x0 (ix2 s (y 1)))) (y 2))
    rw [e]
  · rw [if_neg hy, if_neg hy]

/-- A word of the block of neighbour numbers read through its whole staging place: entry (s, n). -/
theorem word_apply {arg2 : Memref sig .tc .smem S7x1024 .i32} (harg2 : arg2.IsWhole) (x0 : Vec F S7x1024 .i32)
    (o : Fin 2 → ℕ) (inb : ∀ a, o a + S1x1.size a ≤ S7x1024.size a) (h1 : 0 < (Rect.unit (s := S7x1024) o S1x1.size inb).toLoadRect.shape.numel)
    (s : Fin 7) (n : ℕ) (hn : n < 1024) (e : o = ![s.val, n]) :
    View.readAt (Elt F) arg2.view (Rect.unit (s := S7x1024) o S1x1.size inb).toLoadRect (harg2.unread x0) (Shape.Idx.first h1)
      = x0 (ix2 s ⟨n, hn⟩) := by
  subst e
  rw [View.readAt_eq_ld, Memref.IsWhole.read_unread]
  show x0 _ = x0 _
  congr 1
  funext a
  apply Fin.ext
  have h0 : ∀ b, (Shape.Idx.first h1 b).val = 0 := fun b => by
    have h : (Shape.Idx.first h1 b).val < 1 := by
      have := (Shape.Idx.first h1 b).isLt
      fin_cases b <;> exact this
    omega
  match a with
  | ⟨0, _⟩ => show s.val + 1 * (Shape.Idx.first h1 (0 : Fin 2)).val = s.val; rw [h0]; omega
  | ⟨1, _⟩ => show n + 1 * (Shape.Idx.first h1 (1 : Fin 2)).val = n; rw [h0]; omega

/-! ## One trip of each gather loop -/

section Trips

variable [∀ e, Nonempty (Elt F e)] (c : Dev nD) (i : grid0.Coords)
  (arg2 : Memref sig .tc .smem S7x1024 .i32) (harg2 : arg2.IsWhole) (arg4 : Memref sig .tc .vmem S896x64 .bf16) (harg4 : arg4.IsWhole)
  (arg5 : Memref sig .tc .vmem S64 .f32) (harg5 : arg5.IsWhole) (arg6 : Memref sig .tc .vmem S1x1024x64 .f32) (harg6 : arg6.IsWhole)
  (x0 : Vec F S7x1024 .i32) (X3 : BufTy.Contents (Elt F) hbM0.view.ty) (hx0 : ∀ y, (x0 y).toNat < 163842)
  (hX2 : ∀ (r : LoadRect S7x1024) (y : r.shape.Idx), (View.readAt (Elt F) arg2.view r (harg2.unread x0) y).toNat < 163842)
  (q0 q1 q2 q3 q4 q5 q6 q7 q8 q9 q10 q11 q12 q13 q14 q15 : PosShare TreeShare)
  (plan : Transfers.BatchOf (c : Thread nD τ) (SemLoc.dma (sig := sig) cc0_scratch1.sem) 16 (windows := true))

include hx0

-- The text from here to the end of this section was laid out by: node $KIT/certs/proofs/425738_j65000035058096_2_alg/scratch/gen_slotvalue.js trips
/-- One trip of gather loop 1: rows 16k .. 16k+15 of slab 0 take the feature rows their neighbour words name; the
sixteen copies are peeled from the last back to the first. -/
theorem trip_apply_1 (k : Fin k0_t1_loop.trips) (g : BufTy.Contents (Elt F) scM0.view.ty) :
    (Trip1.trip (F := F) Variants.none c none i arg2 harg2 hbM0 (Memref.isWhole_whole _) arg4 harg4 arg5 harg5 arg6 harg6 scM0 (Memref.isWhole_whole _) cc0_scratch1 (harg2.unread x0) X3 hX2 q0 q1 q2 q3 q4 q5 q6 q7 q8 q9 q10 q11 q12 q13 q14 q15 plan k).1 g
      = filled 0 (16 * k.val) (16 * k.val + 16) (rowVal x0 X3 (i 0) 0) g := by
  have hk : k.val < 64 := k.isLt
  unfold Trip1.trip
  dsimp only
  sl_unfold_run_names
  refine copy_filled _ g x0 hx0 X3 0 (16 * k.val) (16 * k.val + 15) _ (by omega) (by omega) (by omega) (i 0) rfl (k0_off47_eq k) (k0_off48_eq i) rfl
    (word_apply harg2 x0 _ _ _ 0 (16 * k.val + 15) (by omega) (k0_off1_eq k ⟨15, by decide⟩)) ?_
  refine copy_filled _ g x0 hx0 X3 0 (16 * k.val) (16 * k.val + 14) _ (by omega) (by omega) (by omega) (i 0) rfl (k0_off44_eq k) (k0_off45_eq i) rfl
    (word_apply harg2 x0 _ _ _ 0 (16 * k.val + 14) (by omega) (k0_off1_eq k ⟨14, by decide⟩)) ?_
  refine copy_filled _ g x0 hx0 X3 0 (16 * k.val) (16 * k.val + 13) _ (by omega) (by omega) (by omega) (i 0) rfl (k0_off41_eq k) (k0_off42_eq i) rfl
    (word_apply harg2 x0 _ _ _ 0 (16 * k.val + 13) (by omega) (k0_off1_eq k ⟨13, by decide⟩)) ?_
  refine copy_filled _ g x0 hx0 X3 0 (16 * k.val) (16 * k.val + 12) _ (by omega) (by omega) (by omega) (i 0) rfl (k0_off38_eq k) (k0_off39_eq i) rfl
    (word_apply harg2 x0 _ _ _ 0 (16 * k.val + 12) (by omega) (k0_off1_eq k ⟨12, by decide⟩)) ?_
  refine copy_filled _ g x0 hx0 X3 0 (16 * k.val) (16 * k.val + 11) _ (by omega) (by omega) (by omega) (i 0) rfl (k0_off35_eq k) (k0_off36_eq i) rfl
    (word_apply harg2 x0 _ _ _ 0 (16 * k.val + 11) (by omega) (k0_off1_eq k ⟨11, by decide⟩)) ?_
  refine copy_filled _ g x0 hx0 X3 0 (16 * k.val) (16 * k.val + 10) _ (by omega) (by omega) (by omega) (i 0) rfl (k0_off32_eq k) (k0_off33_eq i) rfl
    (word_apply harg2 x0 _ _ _ 0 (16 * k.val + 10) (by omega) (k0_off1_eq k ⟨10, by decide⟩)) ?_
  refine copy_filled _ g x0 hx0 X3 0 (16 * k.val) (16 * k.val + 9) _ (by omega) (by omega) (by omega) (i 0) rfl (k0_off29_eq k) (k0_off30_eq i) rfl
    (word_apply harg2 x0 _ _ _ 0 (16 * k.val + 9) (by omega) (k0_off1_eq k ⟨9, by decide⟩)) ?_
  refine copy_filled _ g x0 hx0 X3 0 (16 * k.val) (16 * k.val + 8) _ (by omega) (by omega) (by omega) (i 0) rfl (k0_off26_eq k) (k0_off27_eq i) rfl
    (word_apply harg2 x0 _ _ _ 0 (16 * k.val + 8) (by omega) (k0_off1_eq k ⟨8, by decide⟩)) ?_
  refine copy_filled _ g x0 hx0 X3 0 (16 * k.val) (16 * k.val + 7) _ (by omega) (by omega) (by omega) (i 0) rfl (k0_off23_eq k) (k0_off24_eq i) rfl
    (word_apply harg2 x0 _ _ _ 0 (16 * k.val + 7) (by omega) (k0_off1_eq k ⟨7, by decide⟩)) ?_
  refine copy_filled _ g x0 hx0 X3 0 (16 * k.val) (16 * k.val + 6) _ (by omega) (by omega) (by omega) (i 0) rfl (k0_off20_eq k) (k0_off21_eq i) rfl
    (word_apply harg2 x0 _ _ _ 0 (16 * k.val + 6) (by omega) (k0_off1_eq k ⟨6, by decide⟩)) ?_
  refine copy_filled _ g x0 hx0 X3 0 (16 * k.val) (16 * k.val + 5) _ (by omega) (by omega) (by omega) (i 0) rfl (k0_off17_eq k) (k0_off18_eq i) rfl
    (word_apply harg2 x0 _ _ _ 0 (16 * k.val + 5) (by omega) (k0_off1_eq k ⟨5, by decide⟩)) ?_
  refine copy_filled _ g x0 hx0 X3 0 (16 * k.val) (16 * k.val + 4) _ (by omega) (by omega) (by omega) (i 0) rfl (k0_off14_eq k) (k0_off15_eq i) rfl
    (word_apply harg2 x0 _ _ _ 0 (16 * k.val + 4) (by omega) (k0_off1_eq k ⟨4, by decide⟩)) ?_
  refine copy_filled _ g x0 hx0 X3 0 (16 * k.val) (16 * k.val + 3) _ (by omega) (by omega) (by omega) (i 0) rfl (k0_off11_eq k) (k0_off12_eq i) rfl
    (word_apply harg2 x0 _ _ _ 0 (16 * k.val + 3) (by omega) (k0_off1_eq k ⟨3, by decide⟩)) ?_
  refine copy_filled _ g x0 hx0 X3 0 (16 * k.val) (16 * k.val + 2) _ (by omega) (by omega) (by omega) (i 0) rfl (k0_off8_eq k) (k0_off9_eq i) rfl
    (word_apply harg2 x0 _ _ _ 0 (16 * k.val + 2) (by omega) (k0_off1_eq k ⟨2, by decide⟩)) ?_
  refine copy_filled _ g x0 hx0 X3 0 (16 * k.val) (16 * k.val + 1) _ (by omega) (by omega) (by omega) (i 0) rfl (k0_off5_eq k) (k0_off6_eq i) rfl
    (word_apply harg2 x0 _ _ _ 0 (16 * k.val + 1) (by omega) (k0_off1_eq k ⟨1, by decide⟩)) ?_
  refine copy_filled _ g x0 hx0 X3 0 (16 * k.val) (16 * k.val + 0) _ (by omega) (by omega) (by omega) (i 0) rfl (k0_off2_eq k) (k0_off3_eq i) rfl
    (word_apply harg2 x0 _ _ _ 0 (16 * k.val + 0) (by omega) (k0_off1_eq k ⟨0, by decide⟩)) ?_
  exact (filled_empty 0 (16 * k.val) _ g).symm

/-- One trip of gather loop 2: rows 16k .. 16k+15 of slab 1 take the feature rows their neighbour words name; the
sixteen copies are peeled from the last back to the first. -/
theorem trip_apply_2 (k : Fin k0_t2_loop.trips) (g : BufTy.Contents (Elt F) scM0.view.ty) :
    (Trip2.trip (F := F) Variants.none c none i arg2 harg2 hbM0 (Memref.isWhole_whole _) arg4 harg4 arg5 harg5 arg6 harg6 scM0 (Memref.isWhole_whole _) cc0_scratch1 (harg2.unread x0) X3 hX2 q0 q1 q2 q3 q4 q5 q6 q7 q8 q9 q10 q11 q12 q13 q14 q15 plan k).1 g
      = filled 1 (16 * k.val) (16 * k.val + 16) (rowVal x0 X3 (i 0) 1) g := by
  have hk : k.val < 64 := k.isLt
  unfold Trip2.trip
  dsimp only
  sl_unfold_run_names
  refine copy_filled _ g x0 hx0 X3 1 (16 * k.val) (16 * k.val + 15) _ (by omega) (by omega) (by omega) (i 0) rfl (k0_off113_eq k) (k0_off114_eq i) rfl
    (word_apply harg2 x0 _ _ _ 1 (16 * k.val + 15) (by omega) (k0_off67_eq k ⟨15, by decide⟩)) ?_
  refine copy_filled _ g x0 hx0 X3 1 (16 * k.val) (16 * k.val + 14) _ (by omega) (by omega) (by omega) (i 0) rfl (k0_off110_eq k) (k0_off111_eq i) rfl
    (word_apply harg2 x0 _ _ _ 1 (16 * k.val + 14) (by omega) (k0_off67_eq k ⟨14, by decide⟩)) ?_
  refine copy_filled _ g x0 hx0 X3 1 (16 * k.val) (16 * k.val + 13) _ (by omega) (by omega) (by omega) (i 0) rfl (k0_off107_eq k) (k0_off108_eq i) rfl
    (word_apply harg2 x0 _ _ _ 1 (16 * k.val + 13) (by omega) (k0_off67_eq k ⟨13, by decide⟩)) ?_
  refine copy_filled _ g x0 hx0 X3 1 (16 * k.val) (16 * k.val + 12) _ (by omega) (by omega) (by omega) (i 0) rfl (k0_off104_eq k) (k0_off105_eq i) rfl
    (word_apply harg2 x0 _ _ _ 1 (16 * k.val + 12) (by omega) (k0_off67_eq k ⟨12, by decide⟩)) ?_
  refine copy_filled _ g x0 hx0 X3 1 (16 * k.val) (16 * k.val + 11) _ (by omega) (by omega) (by omega) (i 0) rfl (k0_off101_eq k) (k0_off102_eq i) rfl
    (word_apply harg2 x0 _ _ _ 1 (16 * k.val + 11) (by omega) (k0_off67_eq k ⟨11, by decide⟩)) ?_
  refine copy_filled _ g x0 hx0 X3 1 (16 * k.val) (16 * k.val + 10) _ (by omega) (by omega) (by omega) (i 0) rfl (k0_off98_eq k) (k0_off99_eq i) rfl
    (word_apply harg2 x0 _ _ _ 1 (16 * k.val + 10) (by omega) (k0_off67_eq k ⟨10, by decide⟩)) ?_
  refine copy_filled _ g x0 hx0 X3 1 (16 * k.val) (16 * k.val + 9) _ (by omega) (by omega) (by omega) (i 0) rfl (k0_off95_eq k) (k0_off96_eq i) rfl
    (word_apply harg2 x0 _ _ _ 1 (16 * k.val + 9) (by omega) (k0_off67_eq k ⟨9, by decide⟩)) ?_
  refine copy_filled _ g x0 hx0 X3 1 (16 * k.val) (16 * k.val + 8) _ (by omega) (by omega) (by omega) (i 0) rfl (k0_off92_eq k) (k0_off93_eq i) rfl
    (word_apply harg2 x0 _ _ _ 1 (16 * k.val + 8) (by omega) (k0_off67_eq k ⟨8, by decide⟩)) ?_
  refine copy_filled _ g x0 hx0 X3 1 (16 * k.val) (16 * k.val + 7) _ (by omega) (by omega) (by omega) (i 0) rfl (k0_off89_eq k) (k0_off90_eq i) rfl
    (word_apply harg2 x0 _ _ _ 1 (16 * k.val + 7) (by omega) (k0_off67_eq k ⟨7, by decide⟩)) ?_
  refine copy_filled _ g x0 hx0 X3 1 (16 * k.val) (16 * k.val + 6) _ (by omega) (by omega) (by omega) (i 0) rfl (k0_off86_eq k) (k0_off87_eq i) rfl
    (word_apply harg2 x0 _ _ _ 1 (16 * k.val + 6) (by omega) (k0_off67_eq k ⟨6, by decide⟩)) ?_
  refine copy_filled _ g x0 hx0 X3 1 (16 * k.val) (16 * k.val + 5) _ (by omega) (by omega) (by omega) (i 0) rfl (k0_off83_eq k) (k0_off84_eq i) rfl
    (word_apply harg2 x0 _ _ _ 1 (16 * k.val + 5) (by omega) (k0_off67_eq k ⟨5, by decide⟩)) ?_
  refine copy_filled _ g x0 hx0 X3 1 (16 * k.val) (16 * k.val + 4) _ (by omega) (by omega) (by omega) (i 0) rfl (k0_off80_eq k) (k0_off81_eq i) rfl
    (word_apply harg2 x0 _ _ _ 1 (16 * k.val + 4) (by omega) (k0_off67_eq k ⟨4, by decide⟩)) ?_
  refine copy_filled _ g x0 hx0 X3 1 (16 * k.val) (16 * k.val + 3) _ (by omega) (by omega) (by omega) (i 0) rfl (k0_off77_eq k) (k0_off78_eq i) rfl
    (word_apply harg2 x0 _ _ _ 1 (16 * k.val + 3) (by omega) (k0_off67_eq k ⟨3, by decide⟩)) ?_
  refine copy_filled _ g x0 hx0 X3 1 (16 * k.val) (16 * k.val + 2) _ (by omega) (by omega) (by omega) (i 0) rfl (k0_off74_eq k) (k0_off75_eq i) rfl
    (word_apply harg2 x0 _ _ _ 1 (16 * k.val + 2) (by omega) (k0_off67_eq k ⟨2, by decide⟩)) ?_
  refine copy_filled _ g x0 hx0 X3 1 (16 * k.val) (16 * k.val + 1) _ (by omega) (by omega) (by omega) (i 0) rfl (k0_off71_eq k) (k0_off72_eq i) rfl
    (word_apply harg2 x0 _ _ _ 1 (16 * k.val + 1) (by omega) (k0_off67_eq k ⟨1, by decide⟩)) ?_
  refine copy_filled _ g x0 hx0 X3 1 (16 * k.val) (16 * k.val + 0) _ (by omega) (by omega) (by omega) (i 0) rfl (k0_off68_eq k) (k0_off69_eq i) rfl
    (word_apply harg2 x0 _ _ _ 1 (16 * k.val + 0) (by omega) (k0_off67_eq k ⟨0, by decide⟩)) ?_
  exact (filled_empty 1 (16 * k.val) _ g).symm

/-- One trip of gather loop 3: rows 16k .. 16k+15 of slab 2 take the feature rows their neighbour words name; the
sixteen copies are peeled from the last back to the first. -/
theorem trip_apply_3 (k : Fin k0_t3_loop.trips) (g : BufTy.Contents (Elt F) scM0.view.ty) :
    (Trip3.trip (F := F) Variants.none c none i arg2 harg2 hbM0 (Memref.isWhole_whole _) arg4 harg4 arg5 harg5 arg6 harg6 scM0 (Memref.isWhole_whole _) cc0_scratch1 (harg2.unread x0) X3 hX2 q0 q1 q2 q3 q4 q5 q6 q7 q8 q9 q10 q11 q12 q13 q14 q15 plan k).1 g
      = filled 2 (16 * k.val) (16 * k.val + 16) (rowVal x0 X3 (i 0) 2) g := by
  have hk : k.val < 64 := k.isLt
  unfold Trip3.trip
  dsimp only
  sl_unfold_run_names
  refine copy_filled _ g x0 hx0 X3 2 (16 * k.val) (16 * k.val + 15) _ (by omega) (by omega) (by omega) (i 0) rfl (k0_off179_eq k) (k0_off180_eq i) rfl
    (word_apply harg2 x0 _ _ _ 2 (16 * k.val + 15) (by omega) (k0_off133_eq k ⟨15, by decide⟩)) ?_
  refine copy_filled _ g x0 hx0 X3 2 (16 * k.val) (16 * k.val + 14) _ (by omega) (by omega) (by omega) (i 0) rfl (k0_off176_eq k) (k0_off177_eq i) rfl
    (word_apply harg2 x0 _ _ _ 2 (16 * k.val + 14) (by omega) (k0_off133_eq k ⟨14, by decide⟩)) ?_
  refine copy_filled _ g x0 hx0 X3 2 (16 * k.val) (16 * k.val + 13) _ (by omega) (by omega) (by omega) (i 0) rfl (k0_off173_eq k) (k0_off174_eq i) rfl
    (word_apply harg2 x0 _ _ _ 2 (16 * k.val + 13) (by omega) (k0_off133_eq k ⟨13, by decide⟩)) ?_
  refine copy_filled _ g x0 hx0 X3 2 (16 * k.val) (16 * k.val + 12) _ (by omega) (by omega) (by omega) (i 0) rfl (k0_off170_eq k) (k0_off171_eq i) rfl
    (word_apply harg2 x0 _ _ _ 2 (16 * k.val + 12) (by omega) (k0_off133_eq k ⟨12, by decide⟩)) ?_
  refine copy_filled _ g x0 hx0 X3 2 (16 * k.val) (16 * k.val + 11) _ (by omega) (by omega) (by omega) (i 0) rfl (k0_off167_eq k) (k0_off168_eq i) rfl
    (word_apply harg2 x0 _ _ _ 2 (16 * k.val + 11) (by omega) (k0_off133_eq k ⟨11, by decide⟩)) ?_
  refine copy_filled _ g x0 hx0 X3 2 (16 * k.val) (16 * k.val + 10) _ (by omega) (by omega) (by omega) (i 0) rfl (k0_off164_eq k) (k0_off165_eq i) rfl
    (word_apply harg2 x0 _ _ _ 2 (16 * k.val + 10) (by omega) (k0_off133_eq k ⟨10, by decide⟩)) ?_
  refine copy_filled _ g x0 hx0 X3 2 (16 * k.val) (16 * k.val + 9) _ (by omega) (by omega) (by omega) (i 0) rfl (k0_off161_eq k) (k0_off162_eq i) rfl
    (word_apply harg2 x0 _ _ _ 2 (16 * k.val + 9) (by omega) (k0_off133_eq k ⟨9, by decide⟩)) ?_
  refine copy_filled _ g x0 hx0 X3 2 (16 * k.val) (16 * k.val + 8) _ (by omega) (by omega) (by omega) (i 0) rfl (k0_off158_eq k) (k0_off159_eq i) rfl
    (word_apply harg2 x0 _ _ _ 2 (16 * k.val + 8) (by omega) (k0_off133_eq k ⟨8, by decide⟩)) ?_
  refine copy_filled _ g x0 hx0 X3 2 (16 * k.val) (16 * k.val + 7) _ (by omega) (by omega) (by omega) (i 0) rfl (k0_off155_eq k) (k0_off156_eq i) rfl
    (word_apply harg2 x0 _ _ _ 2 (16 * k.val + 7) (by omega) (k0_off133_eq k ⟨7, by decide⟩)) ?_
  refine copy_filled _ g x0 hx0 X3 2 (16 * k.val) (16 * k.val + 6) _ (by omega) (by omega) (by omega) (i 0) rfl (k0_off152_eq k) (k0_off153_eq i) rfl
    (word_apply harg2 x0 _ _ _ 2 (16 * k.val + 6) (by omega) (k0_off133_eq k ⟨6, by decide⟩)) ?_
  refine copy_filled _ g x0 hx0 X3 2 (16 * k.val) (16 * k.val + 5) _ (by omega) (by omega) (by omega) (i 0) rfl (k0_off149_eq k) (k0_off150_eq i) rfl
    (word_apply harg2 x0 _ _ _ 2 (16 * k.val + 5) (by omega) (k0_off133_eq k ⟨5, by decide⟩)) ?_
  refine copy_filled _ g x0 hx0 X3 2 (16 * k.val) (16 * k.val + 4) _ (by omega) (by omega) (by omega) (i 0) rfl (k0_off146_eq k) (k0_off147_eq i) rfl
    (word_apply harg2 x0 _ _ _ 2 (16 * k.val + 4) (by omega) (k0_off133_eq k ⟨4, by decide⟩)) ?_
  refine copy_filled _ g x0 hx0 X3 2 (16 * k.val) (16 * k.val + 3) _ (by omega) (by omega) (by omega) (i 0) rfl (k0_off143_eq k) (k0_off144_eq i) rfl
    (word_apply harg2 x0 _ _ _ 2 (16 * k.val + 3) (by omega) (k0_off133_eq k ⟨3, by decide⟩)) ?_
  refine copy_filled _ g x0 hx0 X3 2 (16 * k.val) (16 * k.val + 2) _ (by omega) (by omega) (by omega) (i 0) rfl (k0_off140_eq k) (k0_off141_eq i) rfl
    (word_apply harg2 x0 _ _ _ 2 (16 * k.val + 2) (by omega) (k0_off133_eq k ⟨2, by decide⟩)) ?_
  refine copy_filled _ g x0 hx0 X3 2 (16 * k.val) (16 * k.val + 1) _ (by omega) (by omega) (by omega) (i 0) rfl (k0_off137_eq k) (k0_off138_eq i) rfl
    (word_apply harg2 x0 _ _ _ 2 (16 * k.val + 1) (by omega) (k0_off133_eq k ⟨1, by decide⟩)) ?_
  refine copy_filled _ g x0 hx0 X3 2 (16 * k.val) (16 * k.val + 0) _ (by omega) (by omega) (by omega) (i 0) rfl (k0_off134_eq k) (k0_off135_eq i) rfl
    (word_apply harg2 x0 _ _ _ 2 (16 * k.val + 0) (by omega) (k0_off133_eq k ⟨0, by decide⟩)) ?_
  exact (filled_empty 2 (16 * k.val) _ g).symm

/-- One trip of gather loop 4: rows 16k .. 16k+15 of slab 3 take the feature rows their neighbour words name; the
sixteen copies are peeled from the last back to the first. -/
theorem trip_apply_4 (k : Fin k0_t4_loop.trips) (g : BufTy.Contents (Elt F) scM0.view.ty) :
    (Trip4.trip (F := F) Variants.none c none i arg2 harg2 hbM0 (Memref.isWhole_whole _) arg4 harg4 arg5 harg5 arg6 harg6 scM0 (Memref.isWhole_whole _) cc0_scratch1 (harg2.unread x0) X3 hX2 q0 q1 q2 q3 q4 q5 q6 q7 q8 q9 q10 q11 q12 q13 q14 q15 plan k).1 g
      = filled 3 (16 * k.val) (16 * k.val + 16) (rowVal x0 X3 (i 0) 3) g := by
  have hk : k.val < 64 := k.isLt
  unfold Trip4.trip
  dsimp only
  sl_unfold_run_names
  refine copy_filled _ g x0 hx0 X3 3 (16 * k.val) (16 * k.val + 15) _ (by omega) (by omega) (by omega) (i 0) rfl (k0_off245_eq k) (k0_off246_eq i) rfl
    (word_apply harg2 x0 _ _ _ 3 (16 * k.val + 15) (by omega) (k0_off199_eq k ⟨15, by decide⟩)) ?_
  refine copy_filled _ g x0 hx0 X3 3 (16 * k.val) (16 * k.val + 14) _ (by omega) (by omega) (by omega) (i 0) rfl (k0_off242_eq k) (k0_off243_eq i) rfl
    (word_apply harg2 x0 _ _ _ 3 (16 * k.val + 14) (by omega) (k0_off199_eq k ⟨14, by decide⟩)) ?_
  refine copy_filled _ g x0 hx0 X3 3 (16 * k.val) (16 * k.val + 13) _ (by omega) (by omega) (by omega) (i 0) rfl (k0_off239_eq k) (k0_off240_eq i) rfl
    (word_apply harg2 x0 _ _ _ 3 (16 * k.val + 13) (by omega) (k0_off199_eq k ⟨13, by decide⟩)) ?_
  refine copy_filled _ g x0 hx0 X3 3 (16 * k.val) (16 * k.val + 12) _ (by omega) (by omega) (by omega) (i 0) rfl (k0_off236_eq k) (k0_off237_eq i) rfl
    (word_apply harg2 x0 _ _ _ 3 (16 * k.val + 12) (by omega) (k0_off199_eq k ⟨12, by decide⟩)) ?_
  refine copy_filled _ g x0 hx0 X3 3 (16 * k.val) (16 * k.val + 11) _ (by omega) (by omega) (by omega) (i 0) rfl (k0_off233_eq k) (k0_off234_eq i) rfl
    (word_apply harg2 x0 _ _ _ 3 (16 * k.val + 11) (by omega) (k0_off199_eq k ⟨11, by decide⟩)) ?_
  refine copy_filled _ g x0 hx0 X3 3 (16 * k.val) (16 * k.val + 10) _ (by omega) (by omega) (by omega) (i 0) rfl (k0_off230_eq k) (k0_off231_eq i) rfl
    (word_apply harg2 x0 _ _ _ 3 (16 * k.val + 10) (by omega) (k0_off199_eq k ⟨10, by decide⟩)) ?_
  refine copy_filled _ g x0 hx0 X3 3 (16 * k.val) (16 * k.val + 9) _ (by omega) (by omega) (by omega) (i 0) rfl (k0_off227_eq k) (k0_off228_eq i) rfl
    (word_apply harg2 x0 _ _ _ 3 (16 * k.val + 9) (by omega) (k0_off199_eq k ⟨9, by decide⟩)) ?_
  refine copy_filled _ g x0 hx0 X3 3 (16 * k.val) (16 * k.val + 8) _ (by omega) (by omega) (by omega) (i 0) rfl (k0_off224_eq k) (k0_off225_eq i) rfl
    (word_apply harg2 x0 _ _ _ 3 (16 * k.val + 8) (by omega) (k0_off199_eq k ⟨8, by decide⟩)) ?_
  refine copy_filled _ g x0 hx0 X3 3 (16 * k.val) (16 * k.val + 7) _ (by omega) (by omega) (by omega) (i 0) rfl (k0_off221_eq k) (k0_off222_eq i) rfl
    (word_apply harg2 x0 _ _ _ 3 (16 * k.val + 7) (by omega) (k0_off199_eq k ⟨7, by decide⟩)) ?_
  refine copy_filled _ g x0 hx0 X3 3 (16 * k.val) (16 * k.val + 6) _ (by omega) (by omega) (by omega) (i 0) rfl (k0_off218_eq k) (k0_off219_eq i) rfl
    (word_apply harg2 x0 _ _ _ 3 (16 * k.val + 6) (by omega) (k0_off199_eq k ⟨6, by decide⟩)) ?_
  refine copy_filled _ g x0 hx0 X3 3 (16 * k.val) (16 * k.val + 5) _ (by omega) (by omega) (by omega) (i 0) rfl (k0_off215_eq k) (k0_off216_eq i) rfl
    (word_apply harg2 x0 _ _ _ 3 (16 * k.val + 5) (by omega) (k0_off199_eq k ⟨5, by decide⟩)) ?_
  refine copy_filled _ g x0 hx0 X3 3 (16 * k.val) (16 * k.val + 4) _ (by omega) (by omega) (by omega) (i 0) rfl (k0_off212_eq k) (k0_off213_eq i) rfl
    (word_apply harg2 x0 _ _ _ 3 (16 * k.val + 4) (by omega) (k0_off199_eq k ⟨4, by decide⟩)) ?_
  refine copy_filled _ g x0 hx0 X3 3 (16 * k.val) (16 * k.val + 3) _ (by omega) (by omega) (by omega) (i 0) rfl (k0_off209_eq k) (k0_off210_eq i) rfl
    (word_apply harg2 x0 _ _ _ 3 (16 * k.val + 3) (by omega) (k0_off199_eq k ⟨3, by decide⟩)) ?_
  refine copy_filled _ g x0 hx0 X3 3 (16 * k.val) (16 * k.val + 2) _ (by omega) (by omega) (by omega) (i 0) rfl (k0_off206_eq k) (k0_off207_eq i) rfl
    (word_apply harg2 x0 _ _ _ 3 (16 * k.val + 2) (by omega) (k0_off199_eq k ⟨2, by decide⟩)) ?_
  refine copy_filled _ g x0 hx0 X3 3 (16 * k.val) (16 * k.val + 1) _ (by omega) (by omega) (by omega) (i 0) rfl (k0_off203_eq k) (k0_off204_eq i) rfl
    (word_apply harg2 x0 _ _ _ 3 (16 * k.val + 1) (by omega) (k0_off199_eq k ⟨1, by decide⟩)) ?_
  refine copy_filled _ g x0 hx0 X3 3 (16 * k.val) (16 * k.val + 0) _ (by omega) (by omega) (by omega) (i 0) rfl (k0_off200_eq k) (k0_off201_eq i) rfl
    (word_apply harg2 x0 _ _ _ 3 (16 * k.val + 0) (by omega) (k0_off199_eq k ⟨0, by decide⟩)) ?_
  exact (filled_empty 3 (16 * k.val) _ g).symm

/-- One trip of gather loop 5: rows 16k .. 16k+15 of slab 4 take the feature rows their neighbour words name; the
sixteen copies are peeled from the last back to the first. -/
theorem trip_apply_5 (k : Fin k0_t5_loop.trips) (g : BufTy.Contents (Elt F) scM0.view.ty) :
    (Trip5.trip (F := F) Variants.none c none i arg2 harg2 hbM0 (Memref.isWhole_whole _) arg4 harg4 arg5 harg5 arg6 harg6 scM0 (Memref.isWhole_whole _) cc0_scratch1 (harg2.unread x0) X3 hX2 q0 q1 q2 q3 q4 q5 q6 q7 q8 q9 q10 q11 q12 q13 q14 q15 plan k).1 g
      = filled 4 (16 * k.val) (16 * k.val + 16) (rowVal x0 X3 (i 0) 4) g := by
  have hk : k.val < 64 := k.isLt
  unfold Trip5.trip
  dsimp only
  sl_unfold_run_names
  refine copy_filled _ g x0 hx0 X3 4 (16 * k.val) (16 * k.val + 15) _ (by omega) (by omega) (by omega) (i 0) rfl (k0_off311_eq k) (k0_off312_eq i) rfl
    (word_apply harg2 x0 _ _ _ 4 (16 * k.val + 15) (by omega) (k0_off265_eq k ⟨15, by decide⟩)) ?_
  refine copy_filled _ g x0 hx0 X3 4 (16 * k.val) (16 * k.val + 14) _ (by omega) (by omega) (by omega) (i 0) rfl (k0_off308_eq k) (k0_off309_eq i) rfl
    (word_apply harg2 x0 _ _ _ 4 (16 * k.val + 14) (by omega) (k0_off265_eq k ⟨14, by decide⟩)) ?_
  refine copy_filled _ g x0 hx0 X3 4 (16 * k.val) (16 * k.val + 13) _ (by omega) (by omega) (by omega) (i 0) rfl (k0_off305_eq k) (k0_off306_eq i) rfl
    (word_apply harg2 x0 _ _ _ 4 (16 * k.val + 13) (by omega) (k0_off265_eq k ⟨13, by decide⟩)) ?_
  refine copy_filled _ g x0 hx0 X3 4 (16 * k.val) (16 * k.val + 12) _ (by omega) (by omega) (by omega) (i 0) rfl (k0_off302_eq k) (k0_off303_eq i) rfl
    (word_apply harg2 x0 _ _ _ 4 (16 * k.val + 12) (by omega) (k0_off265_eq k ⟨12, by decide⟩)) ?_
  refine copy_filled _ g x0 hx0 X3 4 (16 * k.val) (16 * k.val + 11) _ (by omega) (by omega) (by omega) (i 0) rfl (k0_off299_eq k) (k0_off300_eq i) rfl
    (word_apply harg2 x0 _ _ _ 4 (16 * k.val + 11) (by omega) (k0_off265_eq k ⟨11, by decide⟩)) ?_
  refine copy_filled _ g x0 hx0 X3 4 (16 * k.val) (16 * k.val + 10) _ (by omega) (by omega) (by omega) (i 0) rfl (k0_off296_eq k) (k0_off297_eq i) rfl
    (word_apply harg2 x0 _ _ _ 4 (16 * k.val + 10) (by omega) (k0_off265_eq k ⟨10, by decide⟩)) ?_
  refine copy_filled _ g x0 hx0 X3 4 (16 * k.val) (16 * k.val + 9) _ (by omega) (by omega) (by omega) (i 0) rfl (k0_off293_eq k) (k0_off294_eq i) rfl
    (word_apply harg2 x0 _ _ _ 4 (16 * k.val + 9) (by omega) (k0_off265_eq k ⟨9, by decide⟩)) ?_
  refine copy_filled _ g x0 hx0 X3 4 (16 * k.val) (16 * k.val + 8) _ (by omega) (by omega) (by omega) (i 0) rfl (k0_off290_eq k) (k0_off291_eq i) rfl
    (word_apply harg2 x0 _ _ _ 4 (16 * k.val + 8) (by omega) (k0_off265_eq k ⟨8, by decide⟩)) ?_
  refine copy_filled _ g x0 hx0 X3 4 (16 * k.val) (16 * k.val + 7) _ (by omega) (by omega) (by omega) (i 0) rfl (k0_off287_eq k) (k0_off288_eq i) rfl
    (word_apply harg2 x0 _ _ _ 4 (16 * k.val + 7) (by omega) (k0_off265_eq k ⟨7, by decide⟩)) ?_
  refine copy_filled _ g x0 hx0 X3 4 (16 * k.val) (16 * k.val + 6) _ (by omega) (by omega) (by omega) (i 0) rfl (k0_off284_eq k) (k0_off285_eq i) rfl
    (word_apply harg2 x0 _ _ _ 4 (16 * k.val + 6) (by omega) (k0_off265_eq k ⟨6, by decide⟩)) ?_
  refine copy_filled _ g x0 hx0 X3 4 (16 * k.val) (16 * k.val + 5) _ (by omega) (by omega) (by omega) (i 0) rfl (k0_off281_eq k) (k0_off282_eq i) rfl
    (word_apply harg2 x0 _ _ _ 4 (16 * k.val + 5) (by omega) (k0_off265_eq k ⟨5, by decide⟩)) ?_
  refine copy_filled _ g x0 hx0 X3 4 (16 * k.val) (16 * k.val + 4) _ (by omega) (by omega) (by omega) (i 0) rfl (k0_off278_eq k) (k0_off279_eq i) rfl
    (word_apply harg2 x0 _ _ _ 4 (16 * k.val + 4) (by omega) (k0_off265_eq k ⟨4, by decide⟩)) ?_
  refine copy_filled _ g x0 hx0 X3 4 (16 * k.val) (16 * k.val + 3) _ (by omega) (by omega) (by omega) (i 0) rfl (k0_off275_eq k) (k0_off276_eq i) rfl
    (word_apply harg2 x0 _ _ _ 4 (16 * k.val + 3) (by omega) (k0_off265_eq k ⟨3, by decide⟩)) ?_
  refine copy_filled _ g x0 hx0 X3 4 (16 * k.val) (16 * k.val + 2) _ (by omega) (by omega) (by omega) (i 0) rfl (k0_off272_eq k) (k0_off273_eq i) rfl
    (word_apply harg2 x0 _ _ _ 4 (16 * k.val + 2) (by omega) (k0_off265_eq k ⟨2, by decide⟩)) ?_
  refine copy_filled _ g x0 hx0 X3 4 (16 * k.val) (16 * k.val + 1) _ (by omega) (by omega) (by omega) (i 0) rfl (k0_off269_eq k) (k0_off270_eq i) rfl
    (word_apply harg2 x0 _ _ _ 4 (16 * k.val + 1) (by omega) (k0_off265_eq k ⟨1, by decide⟩)) ?_
  refine copy_filled _ g x0 hx0 X3 4 (16 * k.val) (16 * k.val + 0) _ (by omega) (by omega) (by omega) (i 0) rfl (k0_off266_eq k) (k0_off267_eq i) rfl
    (word_apply harg2 x0 _ _ _ 4 (16 * k.val + 0) (by omega) (k0_off265_eq k ⟨0, by decide⟩)) ?_
  exact (filled_empty 4 (16 * k.val) _ g).symm

/-- One trip of gather loop 6: rows 16k .. 16k+15 of slab 5 take the feature rows their neighbour words name; the
sixteen copies are peeled from the last back to the first. -/
theorem trip_apply_6 (k : Fin k0_t6_loop.trips) (g : BufTy.Contents (Elt F) scM0.view.ty) :
    (Trip6.trip (F := F) Variants.none c none i arg2 harg2 hbM0 (Memref.isWhole_whole _) arg4 harg4 arg5 harg5 arg6 harg6 scM0 (Memref.isWhole_whole _) cc0_scratch1 (harg2.unread x0) X3 hX2 q0 q1 q2 q3 q4 q5 q6 q7 q8 q9 q10 q11 q12 q13 q14 q15 plan k).1 g
      = filled 5 (16 * k.val) (16 * k.val + 16) (rowVal x0 X3 (i 0) 5) g := by
  have hk : k.val < 64 := k.isLt
  unfold Trip6.trip
  dsimp only
  sl_unfold_run_names
  refine copy_filled _ g x0 hx0 X3 5 (16 * k.val) (16 * k.val + 15) _ (by omega) (by omega) (by omega) (i 0) rfl (k0_off377_eq k) (k0_off378_eq i) rfl
    (word_apply harg2 x0 _ _ _ 5 (16 * k.val + 15) (by omega) (k0_off331_eq k ⟨15, by decide⟩)) ?_
  refine copy_filled _ g x0 hx0 X3 5 (16 * k.val) (16 * k.val + 14) _ (by omega) (by omega) (by omega) (i 0) rfl (k0_off374_eq k) (k0_off375_eq i) rfl
    (word_apply harg2 x0 _ _ _ 5 (16 * k.val + 14) (by omega) (k0_off331_eq k ⟨14, by decide⟩)) ?_
  refine copy_filled _ g x0 hx0 X3 5 (16 * k.val) (16 * k.val + 13) _ (by omega) (by omega) (by omega) (i 0) rfl (k0_off371_eq k) (k0_off372_eq i) rfl
    (word_apply harg2 x0 _ _ _ 5 (16 * k.val + 13) (by omega) (k0_off331_eq k ⟨13, by decide⟩)) ?_
  refine copy_filled _ g x0 hx0 X3 5 (16 * k.val) (16 * k.val + 12) _ (by omega) (by omega) (by omega) (i 0) rfl (k0_off368_eq k) (k0_off369_eq i) rfl
    (word_apply harg2 x0 _ _ _ 5 (16 * k.val + 12) (by omega) (k0_off331_eq k ⟨12, by decide⟩)) ?_
  refine copy_filled _ g x0 hx0 X3 5 (16 * k.val) (16 * k.val + 11) _ (by omega) (by omega) (by omega) (i 0) rfl (k0_off365_eq k) (k0_off366_eq i) rfl
    (word_apply harg2 x0 _ _ _ 5 (16 * k.val + 11) (by omega) (k0_off331_eq k ⟨11, by decide⟩)) ?_
  refine copy_filled _ g x0 hx0 X3 5 (16 * k.val) (16 * k.val + 10) _ (by omega) (by omega) (by omega) (i 0) rfl (k0_off362_eq k) (k0_off363_eq i) rfl
    (word_apply harg2 x0 _ _ _ 5 (16 * k.val + 10) (by omega) (k0_off331_eq k ⟨10, by decide⟩)) ?_
  refine copy_filled _ g x0 hx0 X3 5 (16 * k.val) (16 * k.val + 9) _ (by omega) (by omega) (by omega) (i 0) rfl (k0_off359_eq k) (k0_off360_eq i) rfl
    (word_apply harg2 x0 _ _ _ 5 (16 * k.val + 9) (by omega) (k0_off331_eq k ⟨9, by decide⟩)) ?_
  refine copy_filled _ g x0 hx0 X3 5 (16 * k.val) (16 * k.val + 8) _ (by omega) (by omega) (by omega) (i 0) rfl (k0_off356_eq k) (k0_off357_eq i) rfl
    (word_apply harg2 x0 _ _ _ 5 (16 * k.val + 8) (by omega) (k0_off331_eq k ⟨8, by decide⟩)) ?_
  refine copy_filled _ g x0 hx0 X3 5 (16 * k.val) (16 * k.val + 7) _ (by omega) (by omega) (by omega) (i 0) rfl (k0_off353_eq k) (k0_off354_eq i) rfl
    (word_apply harg2 x0 _ _ _ 5 (16 * k.val + 7) (by omega) (k0_off331_eq k ⟨7, by decide⟩)) ?_
  refine copy_filled _ g x0 hx0 X3 5 (16 * k.val) (16 * k.val + 6) _ (by omega) (by omega) (by omega) (i 0) rfl (k0_off350_eq k) (k0_off351_eq i) rfl
    (word_apply harg2 x0 _ _ _ 5 (16 * k.val + 6) (by omega) (k0_off331_eq k ⟨6, by decide⟩)) ?_
  refine copy_filled _ g x0 hx0 X3 5 (16 * k.val) (16 * k.val + 5) _ (by omega) (by omega) (by omega) (i 0) rfl (k0_off347_eq k) (k0_off348_eq i) rfl
    (word_apply harg2 x0 _ _ _ 5 (16 * k.val + 5) (by omega) (k0_off331_eq k ⟨5, by decide⟩)) ?_
  refine copy_filled _ g x0 hx0 X3 5 (16 * k.val) (16 * k.val + 4) _ (by omega) (by omega) (by omega) (i 0) rfl (k0_off344_eq k) (k0_off345_eq i) rfl
    (word_apply harg2 x0 _ _ _ 5 (16 * k.val + 4) (by omega) (k0_off331_eq k ⟨4, by decide⟩)) ?_
  refine copy_filled _ g x0 hx0 X3 5 (16 * k.val) (16 * k.val + 3) _ (by omega) (by omega) (by omega) (i 0) rfl (k0_off341_eq k) (k0_off342_eq i) rfl
    (word_apply harg2 x0 _ _ _ 5 (16 * k.val + 3) (by omega) (k0_off331_eq k ⟨3, by decide⟩)) ?_
  refine copy_filled _ g x0 hx0 X3 5 (16 * k.val) (16 * k.val + 2) _ (by omega) (by omega) (by omega) (i 0) rfl (k0_off338_eq k) (k0_off339_eq i) rfl
    (word_apply harg2 x0 _ _ _ 5 (16 * k.val + 2) (by omega) (k0_off331_eq k ⟨2, by decide⟩)) ?_
  refine copy_filled _ g x0 hx0 X3 5 (16 * k.val) (16 * k.val + 1) _ (by omega) (by omega) (by omega) (i 0) rfl (k0_off335_eq k) (k0_off336_eq i) rfl
    (word_apply harg2 x0 _ _ _ 5 (16 * k.val + 1) (by omega) (k0_off331_eq k ⟨1, by decide⟩)) ?_
  refine copy_filled _ g x0 hx0 X3 5 (16 * k.val) (16 * k.val + 0) _ (by omega) (by omega) (by omega) (i 0) rfl (k0_off332_eq k) (k0_off333_eq i) rfl
    (word_apply harg2 x0 _ _ _ 5 (16 * k.val + 0) (by omega) (k0_off331_eq k ⟨0, by decide⟩)) ?_
  exact (filled_empty 5 (16 * k.val) _ g).symm

/-- One trip of gather loop 7: rows 16k .. 16k+15 of slab 6 take the feature rows their neighbour words name; the
sixteen copies are peeled from the last back to the first. -/
theorem trip_apply_7 (k : Fin k0_t7_loop.trips) (g : BufTy.Contents (Elt F) scM0.view.ty) :
    (Trip7.trip (F := F) Variants.none c none i arg2 harg2 hbM0 (Memref.isWhole_whole _) arg4 harg4 arg5 harg5 arg6 harg6 scM0 (Memref.isWhole_whole _) cc0_scratch1 (harg2.unread x0) X3 hX2 q0 q1 q2 q3 q4 q5 q6 q7 q8 q9 q10 q11 q12 q13 q14 q15 plan k).1 g
      = filled 6 (16 * k.val) (16 * k.val + 16) (rowVal x0 X3 (i 0) 6) g := by
  have hk : k.val < 64 := k.isLt
  unfold Trip7.trip
  dsimp only
  sl_unfold_run_names
  refine copy_filled _ g x0 hx0 X3 6 (16 * k.val) (16 * k.val + 15) _ (by omega) (by omega) (by omega) (i 0) rfl (k0_off443_eq k) (k0_off444_eq i) rfl
    (word_apply harg2 x0 _ _ _ 6 (16 * k.val + 15) (by omega) (k0_off397_eq k ⟨15, by decide⟩)) ?_
  refine copy_filled _ g x0 hx0 X3 6 (16 * k.val) (16 * k.val + 14) _ (by omega) (by omega) (by omega) (i 0) rfl (k0_off440_eq k) (k0_off441_eq i) rfl
    (word_apply harg2 x0 _ _ _ 6 (16 * k.val + 14) (by omega) (k0_off397_eq k ⟨14, by decide⟩)) ?_
  refine copy_filled _ g x0 hx0 X3 6 (16 * k.val) (16 * k.val + 13) _ (by omega) (by omega) (by omega) (i 0) rfl (k0_off437_eq k) (k0_off438_eq i) rfl
    (word_apply harg2 x0 _ _ _ 6 (16 * k.val + 13) (by omega) (k0_off397_eq k ⟨13, by decide⟩)) ?_
  refine copy_filled _ g x0 hx0 X3 6 (16 * k.val) (16 * k.val + 12) _ (by omega) (by omega) (by omega) (i 0) rfl (k0_off434_eq k) (k0_off435_eq i) rfl
    (word_apply harg2 x0 _ _ _ 6 (16 * k.val + 12) (by omega) (k0_off397_eq k ⟨12, by decide⟩)) ?_
  refine copy_filled _ g x0 hx0 X3 6 (16 * k.val) (16 * k.val + 11) _ (by omega) (by omega) (by omega) (i 0) rfl (k0_off431_eq k) (k0_off432_eq i) rfl
    (word_apply harg2 x0 _ _ _ 6 (16 * k.val + 11) (by omega) (k0_off397_eq k ⟨11, by decide⟩)) ?_
  refine copy_filled _ g x0 hx0 X3 6 (16 * k.val) (16 * k.val + 10) _ (by omega) (by omega) (by omega) (i 0) rfl (k0_off428_eq k) (k0_off429_eq i) rfl
    (word_apply harg2 x0 _ _ _ 6 (16 * k.val + 10) (by omega) (k0_off397_eq k ⟨10, by decide⟩)) ?_
  refine copy_filled _ g x0 hx0 X3 6 (16 * k.val) (16 * k.val + 9) _ (by omega) (by omega) (by omega) (i 0) rfl (k0_off425_eq k) (k0_off426_eq i) rfl
    (word_apply harg2 x0 _ _ _ 6 (16 * k.val + 9) (by omega) (k0_off397_eq k ⟨9, by decide⟩)) ?_
  refine copy_filled _ g x0 hx0 X3 6 (16 * k.val) (16 * k.val + 8) _ (by omega) (by omega) (by omega) (i 0) rfl (k0_off422_eq k) (k0_off423_eq i) rfl
    (word_apply harg2 x0 _ _ _ 6 (16 * k.val + 8) (by omega) (k0_off397_eq k ⟨8, by decide⟩)) ?_
  refine copy_filled _ g x0 hx0 X3 6 (16 * k.val) (16 * k.val + 7) _ (by omega) (by omega) (by omega) (i 0) rfl (k0_off419_eq k) (k0_off420_eq i) rfl
    (word_apply harg2 x0 _ _ _ 6 (16 * k.val + 7) (by omega) (k0_off397_eq k ⟨7, by decide⟩)) ?_
  refine copy_filled _ g x0 hx0 X3 6 (16 * k.val) (16 * k.val + 6) _ (by omega) (by omega) (by omega) (i 0) rfl (k0_off416_eq k) (k0_off417_eq i) rfl
    (word_apply harg2 x0 _ _ _ 6 (16 * k.val + 6) (by omega) (k0_off397_eq k ⟨6, by decide⟩)) ?_
  refine copy_filled _ g x0 hx0 X3 6 (16 * k.val) (16 * k.val + 5) _ (by omega) (by omega) (by omega) (i 0) rfl (k0_off413_eq k) (k0_off414_eq i) rfl
    (word_apply harg2 x0 _ _ _ 6 (16 * k.val + 5) (by omega) (k0_off397_eq k ⟨5, by decide⟩)) ?_
  refine copy_filled _ g x0 hx0 X3 6 (16 * k.val) (16 * k.val + 4) _ (by omega) (by omega) (by omega) (i 0) rfl (k0_off410_eq k) (k0_off411_eq i) rfl
    (word_apply harg2 x0 _ _ _ 6 (16 * k.val + 4) (by omega) (k0_off397_eq k ⟨4, by decide⟩)) ?_
  refine copy_filled _ g x0 hx0 X3 6 (16 * k.val) (16 * k.val + 3) _ (by omega) (by omega) (by omega) (i 0) rfl (k0_off407_eq k) (k0_off408_eq i) rfl
    (word_apply harg2 x0 _ _ _ 6 (16 * k.val + 3) (by omega) (k0_off397_eq k ⟨3, by decide⟩)) ?_
  refine copy_filled _ g x0 hx0 X3 6 (16 * k.val) (16 * k.val + 2) _ (by omega) (by omega) (by omega) (i 0) rfl (k0_off404_eq k) (k0_off405_eq i) rfl
    (word_apply harg2 x0 _ _ _ 6 (16 * k.val + 2) (by omega) (k0_off397_eq k ⟨2, by decide⟩)) ?_
  refine copy_filled _ g x0 hx0 X3 6 (16 * k.val) (16 * k.val + 1) _ (by omega) (by omega) (by omega) (i 0) rfl (k0_off401_eq k) (k0_off402_eq i) rfl
    (word_apply harg2 x0 _ _ _ 6 (16 * k.val + 1) (by omega) (k0_off397_eq k ⟨1, by decide⟩)) ?_
  refine copy_filled _ g x0 hx0 X3 6 (16 * k.val) (16 * k.val + 0) _ (by omega) (by omega) (by omega) (i 0) rfl (k0_off398_eq k) (k0_off399_eq i) rfl
    (word_apply harg2 x0 _ _ _ 6 (16 * k.val + 0) (by omega) (k0_off397_eq k ⟨0, by decide⟩)) ?_
  exact (filled_empty 6 (16 * k.val) _ g).symm
end Trips

/-! ## The loops, and the slabs after them -/

variable [∀ e, Nonempty (Elt F e)] (c : Dev nD) (i : grid0.Coords)
  (arg2 : Memref sig .tc .smem S7x1024 .i32) (harg2 : arg2.IsWhole) (arg4 : Memref sig .tc .vmem S896x64 .bf16) (harg4 : arg4.IsWhole)
  (arg5 : Memref sig .tc .vmem S64 .f32) (harg5 : arg5.IsWhole) (arg6 : Memref sig .tc .vmem S1x1024x64 .f32) (harg6 : arg6.IsWhole)
  (x0 : Vec F S7x1024 .i32) (X3 : Buf (Elt F) (hbM0.view.loc (c : Thread nD τ))) (hx0 : ∀ y, (x0 y).toNat < 163842)

/-- The scratch after the seven loops, from what the first found. -/
abbrev final (fs : BufTy.Contents (Elt F) scM0.view.ty) : BufTy.Contents (Elt F) scM0.view.ty :=
  (iter7 c i arg2 harg2 arg4 harg4 arg5 harg5 arg6 harg6 x0 X3 hx0 (iter6 c i arg2 harg2 arg4 harg4 arg5 harg5 arg6 harg6 x0 X3 hx0 (iter5 c i arg2 harg2 arg4 harg4 arg5 harg5 arg6 harg6 x0 X3 hx0 (iter4 c i arg2 harg2 arg4 harg4 arg5 harg5 arg6 harg6 x0 X3 hx0 (iter3 c i arg2 harg2 arg4 harg4 arg5 harg5 arg6 harg6 x0 X3 hx0 (iter2 c i arg2 harg2 arg4 harg4 arg5 harg5 arg6 harg6 x0 X3 hx0 (iter1 c i arg2 harg2 arg4 harg4 arg5 harg5 arg6 harg6 x0 X3 hx0 fs k0_t1_loop.trips) k0_t2_loop.trips) k0_t3_loop.trips) k0_t4_loop.trips) k0_t5_loop.trips) k0_t6_loop.trips) k0_t7_loop.trips)

-- The text from here to the end of this section was laid out by: node $KIT/certs/proofs/425738_j65000035058096_2_alg/scratch/gen_slotvalue.js iters
/-- After n trips of gather loop 1 rows 0 .. 16n-1 of slab 0 are filled and nothing else has changed. -/
theorem iter_apply_1 (f : BufTy.Contents (Elt F) scM0.view.ty) (n : ℕ) (hn : n ≤ 64) :
    iter1 c i arg2 harg2 arg4 harg4 arg5 harg5 arg6 harg6 x0 X3 hx0 f n = filled 0 0 (16 * n) (rowVal x0 X3 (i 0) 0) f := by
  induction n with
  | zero => exact (filled_empty 0 0 _ f).symm
  | succ m ih =>
    have hm : m < k0_t1_loop.trips := by show m < 64; omega
    refine (iter1_succ c i arg2 harg2 arg4 harg4 arg5 harg5 arg6 harg6 x0 X3 hx0 f ⟨m, hm⟩).trans ?_
    refine (trip_apply_1 c i arg2 harg2 arg4 harg4 arg5 harg5 arg6 harg6 x0 X3 hx0 _ _ _ _ _ _ _ _ _ _ _ _ _ _ _ _ _ _ ⟨m, hm⟩ _).trans ?_
    have e : 16 * (m + 1) = 16 * m + 16 := by omega
    rw [ih (by omega), e]
    exact filled_filled 0 0 (16 * m) (16 * m + 16) (by omega) (by omega) _ f
/-- After all 64 trips of gather loop 1 every row of slab 0 is filled. -/
theorem iter_full_1 (f : BufTy.Contents (Elt F) scM0.view.ty) :
    iter1 c i arg2 harg2 arg4 harg4 arg5 harg5 arg6 harg6 x0 X3 hx0 f k0_t1_loop.trips = filled 0 0 1024 (rowVal x0 X3 (i 0) 0) f :=
  iter_apply_1 c i arg2 harg2 arg4 harg4 arg5 harg5 arg6 harg6 x0 X3 hx0 f 64 (le_refl 64)

/-- After n trips of gather loop 2 rows 0 .. 16n-1 of slab 1 are filled and nothing else has changed. -/
theorem iter_apply_2 (f : BufTy.Contents (Elt F) scM0.view.ty) (n : ℕ) (hn : n ≤ 64) :
    iter2 c i arg2 harg2 arg4 harg4 arg5 harg5 arg6 harg6 x0 X3 hx0 f n = filled 1 0 (16 * n) (rowVal x0 X3 (i 0) 1) f := by
  induction n with
  | zero => exact (filled_empty 1 0 _ f).symm
  | succ m ih =>
    have hm : m < k0_t2_loop.trips := by show m < 64; omega
    refine (iter2_succ c i arg2 harg2 arg4 harg4 arg5 harg5 arg6 harg6 x0 X3 hx0 f ⟨m, hm⟩).trans ?_
    refine (trip_apply_2 c i arg2 harg2 arg4 harg4 arg5 harg5 arg6 harg6 x0 X3 hx0 _ _ _ _ _ _ _ _ _ _ _ _ _ _ _ _ _ _ ⟨m, hm⟩ _).trans ?_
    have e : 16 * (m + 1) = 16 * m + 16 := by omega
    rw [ih (by omega), e]
    exact filled_filled 1 0 (16 * m) (16 * m + 16) (by omega) (by omega) _ f
/-- After all 64 trips of gather loop 2 every row of slab 1 is filled. -/
theorem iter_full_2 (f : BufTy.Contents (Elt F) scM0.view.ty) :
    iter2 c i arg2 harg2 arg4 harg4 arg5 harg5 arg6 harg6 x0 X3 hx0 f k0_t2_loop.trips = filled 1 0 1024 (rowVal x0 X3 (i 0) 1) f :=
  iter_apply_2 c i arg2 harg2 arg4 harg4 arg5 harg5 arg6 harg6 x0 X3 hx0 f 64 (le_refl 64)

/-- After n trips of gather loop 3 rows 0 .. 16n-1 of slab 2 are filled and nothing else has changed. -/
theorem iter_apply_3 (f : BufTy.Contents (Elt F) scM0.view.ty) (n : ℕ) (hn : n ≤ 64) :
    iter3 c i arg2 harg2 arg4 harg4 arg5 harg5 arg6 harg6 x0 X3 hx0 f n = filled 2 0 (16 * n) (rowVal x0 X3 (i 0) 2) f := by
  induction n with
  | zero => exact (filled_empty 2 0 _ f).symm
  | succ m ih =>
    have hm : m < k0_t3_loop.trips := by show m < 64; omega
    refine (iter3_succ c i arg2 harg2 arg4 harg4 arg5 harg5 arg6 harg6 x0 X3 hx0 f ⟨m, hm⟩).trans ?_
    refine (trip_apply_3 c i arg2 harg2 arg4 harg4 arg5 harg5 arg6 harg6 x0 X3 hx0 _ _ _ _ _ _ _ _ _ _ _ _ _ _ _ _ _ _ ⟨m, hm⟩ _).trans ?_
    have e : 16 * (m + 1) = 16 * m + 16 := by omega
    rw [ih (by omega), e]
    exact filled_filled 2 0 (16 * m) (16 * m + 16) (by omega) (by omega) _ f
/-- After all 64 trips of gather loop 3 every row of slab 2 is filled. -/
theorem iter_full_3 (f : BufTy.Contents (Elt F) scM0.view.ty) :
    iter3 c i arg2 harg2 arg4 harg4 arg5 harg5 arg6 harg6 x0 X3 hx0 f k0_t3_loop.trips = filled 2 0 1024 (rowVal x0 X3 (i 0) 2) f :=
  iter_apply_3 c i arg2 harg2 arg4 harg4 arg5 harg5 arg6 harg6 x0 X3 hx0 f 64 (le_refl 64)

/-- After n trips of gather loop 4 rows 0 .. 16n-1 of slab 3 are filled and nothing else has changed. -/
theorem iter_apply_4 (f : BufTy.Contents (Elt F) scM0.view.ty) (n : ℕ) (hn : n ≤ 64) :
    iter4 c i arg2 harg2 arg4 harg4 arg5 harg5 arg6 harg6 x0 X3 hx0 f n = filled 3 0 (16 * n) (rowVal x0 X3 (i 0) 3) f := by
  induction n with
  | zero => exact (filled_empty 3 0 _ f).symm
  | succ m ih =>
    have hm : m < k0_t4_loop.trips := by show m < 64; omega
    refine (iter4_succ c i arg2 harg2 arg4 harg4 arg5 harg5 arg6 harg6 x0 X3 hx0 f ⟨m, hm⟩).trans ?_
    refine (trip_apply_4 c i arg2 harg2 arg4 harg4 arg5 harg5 arg6 harg6 x0 X3 hx0 _ _ _ _ _ _ _ _ _ _ _ _ _ _ _ _ _ _ ⟨m, hm⟩ _).trans ?_
    have e : 16 * (m + 1) = 16 * m + 16 := by omega
    rw [ih (by omega), e]
    exact filled_filled 3 0 (16 * m) (16 * m + 16) (by omega) (by omega) _ f
/-- After all 64 trips of gather loop 4 every row of slab 3 is filled. -/
theorem iter_full_4 (f : BufTy.Contents (Elt F) scM0.view.ty) :
    iter4 c i arg2 harg2 arg4 harg4 arg5 harg5 arg6 harg6 x0 X3 hx0 f k0_t4_loop.trips = filled 3 0 1024 (rowVal x0 X3 (i 0) 3) f :=
  iter_apply_4 c i arg2 harg2 arg4 harg4 arg5 harg5 arg6 harg6 x0 X3 hx0 f 64 (le_refl 64)

/-- After n trips of gather loop 5 rows 0 .. 16n-1 of slab 4 are filled and nothing else has changed. -/
theorem iter_apply_5 (f : BufTy.Contents (Elt F) scM0.view.ty) (n : ℕ) (hn : n ≤ 64) :
    iter5 c i arg2 harg2 arg4 harg4 arg5 harg5 arg6 harg6 x0 X3 hx0 f n = filled 4 0 (16 * n) (rowVal x0 X3 (i 0) 4) f := by
  induction n with
  | zero => exact (filled_empty 4 0 _ f).symm
  | succ m ih =>
    have hm : m < k0_t5_loop.trips := by show m < 64; omega
    refine (iter5_succ c i arg2 harg2 arg4 harg4 arg5 harg5 arg6 harg6 x0 X3 hx0 f ⟨m, hm⟩).trans ?_
    refine (trip_apply_5 c i arg2 harg2 arg4 harg4 arg5 harg5 arg6 harg6 x0 X3 hx0 _ _ _ _ _ _ _ _ _ _ _ _ _ _ _ _ _ _ ⟨m, hm⟩ _).trans ?_
    have e : 16 * (m + 1) = 16 * m + 16 := by omega
    rw [ih (by omega), e]
    exact filled_filled 4 0 (16 * m) (16 * m + 16) (by omega) (by omega) _ f
/-- After all 64 trips of gather loop 5 every row of slab 4 is filled. -/
theorem iter_full_5 (f : BufTy.Contents (Elt F) scM0.view.ty) :
    iter5 c i arg2 harg2 arg4 harg4 arg5 harg5 arg6 harg6 x0 X3 hx0 f k0_t5_loop.trips = filled 4 0 1024 (rowVal x0 X3 (i 0) 4) f :=
  iter_apply_5 c i arg2 harg2 arg4 harg4 arg5 harg5 arg6 harg6 x0 X3 hx0 f 64 (le_refl 64)

/-- After n trips of gather loop 6 rows 0 .. 16n-1 of slab 5 are filled and nothing else has changed. -/
theorem iter_apply_6 (f : BufTy.Contents (Elt F) scM0.view.ty) (n : ℕ) (hn : n ≤ 64) :
    iter6 c i arg2 harg2 arg4 harg4 arg5 harg5 arg6 harg6 x0 X3 hx0 f n = filled 5 0 (16 * n) (rowVal x0 X3 (i 0) 5) f := by
  induction n with
  | zero => exact (filled_empty 5 0 _ f).symm
  | succ m ih =>
    have hm : m < k0_t6_loop.trips := by show m < 64; omega
    refine (iter6_succ c i arg2 harg2 arg4 harg4 arg5 harg5 arg6 harg6 x0 X3 hx0 f ⟨m, hm⟩).trans ?_
    refine (trip_apply_6 c i arg2 harg2 arg4 harg4 arg5 harg5 arg6 harg6 x0 X3 hx0 _ _ _ _ _ _ _ _ _ _ _ _ _ _ _ _ _ _ ⟨m, hm⟩ _).trans ?_
    have e : 16 * (m + 1) = 16 * m + 16 := by omega
    rw [ih (by omega), e]
    exact filled_filled 5 0 (16 * m) (16 * m + 16) (by omega) (by omega) _ f
/-- After all 64 trips of gather loop 6 every row of slab 5 is filled. -/
theorem iter_full_6 (f : BufTy.Contents (Elt F) scM0.view.ty) :
    iter6 c i arg2 harg2 arg4 harg4 arg5 harg5 arg6 harg6 x0 X3 hx0 f k0_t6_loop.trips = filled 5 0 1024 (rowVal x0 X3 (i 0) 5) f :=
  iter_apply_6 c i arg2 harg2 arg4 harg4 arg5 harg5 arg6 harg6 x0 X3 hx0 f 64 (le_refl 64)

/-- After n trips of gather loop 7 rows 0 .. 16n-1 of slab 6 are filled and nothing else has changed. -/
theorem iter_apply_7 (f : BufTy.Contents (Elt F) scM0.view.ty) (n : ℕ) (hn : n ≤ 64) :
    iter7 c i arg2 harg2 arg4 harg4 arg5 harg5 arg6 harg6 x0 X3 hx0 f n = filled 6 0 (16 * n) (rowVal x0 X3 (i 0) 6) f := by
  induction n with
  | zero => exact (filled_empty 6 0 _ f).symm
  | succ m ih =>
    have hm : m < k0_t7_loop.trips := by show m < 64; omega
    refine (iter7_succ c i arg2 harg2 arg4 harg4 arg5 harg5 arg6 harg6 x0 X3 hx0 f ⟨m, hm⟩).trans ?_
    refine (trip_apply_7 c i arg2 harg2 arg4 harg4 arg5 harg5 arg6 harg6 x0 X3 hx0 _ _ _ _ _ _ _ _ _ _ _ _ _ _ _ _ _ _ ⟨m, hm⟩ _).trans ?_
    have e : 16 * (m + 1) = 16 * m + 16 := by omega
    rw [ih (by omega), e]
    exact filled_filled 6 0 (16 * m) (16 * m + 16) (by omega) (by omega) _ f
/-- After all 64 trips of gather loop 7 every row of slab 6 is filled. -/
theorem iter_full_7 (f : BufTy.Contents (Elt F) scM0.view.ty) :
    iter7 c i arg2 harg2 arg4 harg4 arg5 harg5 arg6 harg6 x0 X3 hx0 f k0_t7_loop.trips = filled 6 0 1024 (rowVal x0 X3 (i 0) 6) f :=
  iter_apply_7 c i arg2 harg2 arg4 harg4 arg5 harg5 arg6 harg6 x0 X3 hx0 f 64 (le_refl 64)

/-- After the seven loops every slab is filled, slab by slab. -/
theorem final_eq (fs : BufTy.Contents (Elt F) scM0.view.ty) :
    final c i arg2 harg2 arg4 harg4 arg5 harg5 arg6 harg6 x0 X3 hx0 fs
      = filled 6 0 1024 (rowVal x0 X3 (i 0) 6) (filled 5 0 1024 (rowVal x0 X3 (i 0) 5) (filled 4 0 1024 (rowVal x0 X3 (i 0) 4) (filled 3 0 1024 (rowVal x0 X3 (i 0) 3) (filled 2 0 1024 (rowVal x0 X3 (i 0) 2) (filled 1 0 1024 (rowVal x0 X3 (i 0) 1) (filled 0 0 1024 (rowVal x0 X3 (i 0) 0) fs)))))) := by
  unfold final
  rw [iter_full_7, iter_full_6, iter_full_5, iter_full_4, iter_full_3, iter_full_2, iter_full_1]

theorem slot_read_0 (fs : BufTy.Contents (Elt F) scM0.view.ty) :
    View.readAt (Elt F) scM0.view (Rect.unit (s := S7x1024x128) ![0, 0, 0] S1x1024x128.size inb_S7x1024x128_S1x1024x128_0_0_0).toLoadRect
        (final c i arg2 harg2 arg4 harg4 arg5 harg5 arg6 harg6 x0 X3 hx0 fs)
      = Blocks.slab x0 X3 (i 0) 0 := by
  refine funext fun (x : S1x1024x128.Idx) => ?_
  refine (readAt_slab _ _ _ 0 rfl x).trans ?_
  rw [final_eq]
  refine (filled_ix3_ne 6 0 (by decide) _ _ _ _ (x 1) (x 2)).trans ?_
  refine (filled_ix3_ne 5 0 (by decide) _ _ _ _ (x 1) (x 2)).trans ?_
  refine (filled_ix3_ne 4 0 (by decide) _ _ _ _ (x 1) (x 2)).trans ?_
  refine (filled_ix3_ne 3 0 (by decide) _ _ _ _ (x 1) (x 2)).trans ?_
  refine (filled_ix3_ne 2 0 (by decide) _ _ _ _ (x 1) (x 2)).trans ?_
  refine (filled_ix3_ne 1 0 (by decide) _ _ _ _ (x 1) (x 2)).trans ?_
  exact filled_ix3_mem 0 0 1024 _ _ (x 1) (x 2) (Nat.zero_le _) (x 1).isLt

theorem slot_read_1 (fs : BufTy.Contents (Elt F) scM0.view.ty) :
    View.readAt (Elt F) scM0.view (Rect.unit (s := S7x1024x128) ![1, 0, 0] S1x1024x128.size inb_S7x1024x128_S1x1024x128_1_0_0).toLoadRect
        (final c i arg2 harg2 arg4 harg4 arg5 harg5 arg6 harg6 x0 X3 hx0 fs)
      = Blocks.slab x0 X3 (i 0) 1 := by
  refine funext fun (x : S1x1024x128.Idx) => ?_
  refine (readAt_slab _ _ _ 1 rfl x).trans ?_
  rw [final_eq]
  refine (filled_ix3_ne 6 1 (by decide) _ _ _ _ (x 1) (x 2)).trans ?_
  refine (filled_ix3_ne 5 1 (by decide) _ _ _ _ (x 1) (x 2)).trans ?_
  refine (filled_ix3_ne 4 1 (by decide) _ _ _ _ (x 1) (x 2)).trans ?_
  refine (filled_ix3_ne 3 1 (by decide) _ _ _ _ (x 1) (x 2)).trans ?_
  refine (filled_ix3_ne 2 1 (by decide) _ _ _ _ (x 1) (x 2)).trans ?_
  exact filled_ix3_mem 1 0 1024 _ _ (x 1) (x 2) (Nat.zero_le _) (x 1).isLt

theorem slot_read_2 (fs : BufTy.Contents (Elt F) scM0.view.ty) :
    View.readAt (Elt F) scM0.view (Rect.unit (s := S7x1024x128) ![2, 0, 0] S1x1024x128.size inb_S7x1024x128_S1x1024x128_2_0_0).toLoadRect
        (final c i arg2 harg2 arg4 harg4 arg5 harg5 arg6 harg6 x0 X3 hx0 fs)
      = Blocks.slab x0 X3 (i 0) 2 := by
  refine funext fun (x : S1x1024x128.Idx) => ?_
  refine (readAt_slab _ _ _ 2 rfl x).trans ?_
  rw [final_eq]
  refine (filled_ix3_ne 6 2 (by decide) _ _ _ _ (x 1) (x 2)).trans ?_
  refine (filled_ix3_ne 5 2 (by decide) _ _ _ _ (x 1) (x 2)).trans ?_
  refine (filled_ix3_ne 4 2 (by decide) _ _ _ _ (x 1) (x 2)).trans ?_
  refine (filled_ix3_ne 3 2 (by decide) _ _ _ _ (x 1) (x 2)).trans ?_
  exact filled_ix3_mem 2 0 1024 _ _ (x 1) (x 2) (Nat.zero_le _) (x 1).isLt

theorem slot_read_3 (fs : BufTy.Contents (Elt F) scM0.view.ty) :
    View.readAt (Elt F) scM0.view (Rect.unit (s := S7x1024x128) ![3, 0, 0] S1x1024x128.size inb_S7x1024x128_S1x1024x128_3_0_0).toLoadRect
        (final c i arg2 harg2 arg4 harg4 arg5 harg5 arg6 harg6 x0 X3 hx0 fs)
      = Blocks.slab x0 X3 (i 0) 3 := by
  refine funext fun (x : S1x1024x128.Idx) => ?_
  refine (readAt_slab _ _ _ 3 rfl x).trans ?_
  rw [final_eq]
  refine (filled_ix3_ne 6 3 (by decide) _ _ _ _ (x 1) (x 2)).trans ?_
  refine (filled_ix3_ne 5 3 (by decide) _ _ _ _ (x 1) (x 2)).trans ?_
  refine (filled_ix3_ne 4 3 (by decide) _ _ _ _ (x 1) (x 2)).trans ?_
  exact filled_ix3_mem 3 0 1024 _ _ (x 1) (x 2) (Nat.zero_le _) (x 1).isLt

theorem slot_read_4 (fs : BufTy.Contents (Elt F) scM0.view.ty) :
    View.readAt (Elt F) scM0.view (Rect.unit (s := S7x1024x128) ![4, 0, 0] S1x1024x128.size inb_S7x1024x128_S1x1024x128_4_0_0).toLoadRect
        (final c i arg2 harg2 arg4 harg4 arg5 harg5 arg6 harg6 x0 X3 hx0 fs)
      = Blocks.slab x0 X3 (i 0) 4 := by
  refine funext fun (x : S1x1024x128.Idx) => ?_
  refine (readAt_slab _ _ _ 4 rfl x).trans ?_
  rw [final_eq]
  refine (filled_ix3_ne 6 4 (by decide) _ _ _ _ (x 1) (x 2)).trans ?_
  refine (filled_ix3_ne 5 4 (by decide) _ _ _ _ (x 1) (x 2)).trans ?_
  exact filled_ix3_mem 4 0 1024 _ _ (x 1) (x 2) (Nat.zero_le _) (x 1).isLt

theorem slot_read_5 (fs : BufTy.Contents (Elt F) scM0.view.ty) :
    View.readAt (Elt F) scM0.view (Rect.unit (s := S7x1024x128) ![5, 0, 0] S1x1024x128.size inb_S7x1024x128_S1x1024x128_5_0_0).toLoadRect
        (final c i arg2 harg2 arg4 harg4 arg5 harg5 arg6 harg6 x0 X3 hx0 fs)
      = Blocks.slab x0 X3 (i 0) 5 := by
  refine funext fun (x : S1x1024x128.Idx) => ?_
  refine (readAt_slab _ _ _ 5 rfl x).trans ?_
  rw [final_eq]
  refine (filled_ix3_ne 6 5 (by decide) _ _ _ _ (x 1) (x 2)).trans ?_
  exact filled_ix3_mem 5 0 1024 _ _ (x 1) (x 2) (Nat.zero_le _) (x 1).isLt

theorem slot_read_6 (fs : BufTy.Contents (Elt F) scM0.view.ty) :
    View.readAt (Elt F) scM0.view (Rect.unit (s := S7x1024x128) ![6, 0, 0] S1x1024x128.size inb_S7x1024x128_S1x1024x128_6_0_0).toLoadRect
        (final c i arg2 harg2 arg4 harg4 arg5 harg5 arg6 harg6 x0 X3 hx0 fs)
      = Blocks.slab x0 X3 (i 0) 6 := by
  refine funext fun (x : S1x1024x128.Idx) => ?_
  refine (readAt_slab _ _ _ 6 rfl x).trans ?_
  rw [final_eq]
  exact filled_ix3_mem 6 0 1024 _ _ (x 1) (x 2) (Nat.zero_le _) (x 1).isLt

end Cert.KernelIdeal.SlotValue

end
-- ==== Proof.KI.Body.lean ====
import proofs.«425738_j65000035058096_2_alg».proof.Proof.KI.Iter
import proofs.«425738_j65000035058096_2_alg».proof.Proof.KI.SlotValue
import Idealize.ShloMosaic.Lib.Pipeline.FrameBody
import Idealize.ShloMosaic.Lib.Pipeline.Value
import Idealize.ShloMosaic.Lib.Ring

/-!
The kernel body at one grid point. Handed the block of neighbour numbers (every word a vertex number), the weight
block, the bias, the padded features whole, its scratch at any contents and its own semaphore at zero, it runs to the
end without a fault and leaves all of these as they were, the scratch at some contents, the output buffer at the block
`Blocks.outBlk` computes. The features' points-to is cut into sixteen fractional shares once, for the sixteen row copies a
trip has in flight together, and joined again after the last loop; the seven gather loops go by their invariants; what
the body then loads back from the seven slabs are the gathered rows, so its one store writes `Blocks.outBlk`.
-/

set_option maxRecDepth 16384
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev scM0 : Memref sig .tc .vmem S7x1024x128 .f32 := Iter.scM0
abbrev hbM0 : Memref sig .tc .hbm S2x163842x128 .f32 := Iter.hbM0

/-- A points-to at the full share cut into sixteen read shares and a remainder, -/
theorem split16 {ℓ : Loc nD τ sig} (f : Buf (Elt F) ℓ) :
    (ℓ ↦{fullShare} f : sProp 𝕄) ⊢ iprop((ℓ ↦{Transfers.shareDrop fullShare 16} f) ∗ (ℓ ↦{(Transfers.shareTok fullShare 16 (0 : Fin 16))} f) ∗ (ℓ ↦{(Transfers.shareTok fullShare 16 (1 : Fin 16))} f) ∗ (ℓ ↦{(Transfers.shareTok fullShare 16 (2 : Fin 16))} f) ∗ (ℓ ↦{(Transfers.shareTok fullShare 16 (3 : Fin 16))} f) ∗ (ℓ ↦{(Transfers.shareTok fullShare 16 (4 : Fin 16))} f) ∗ (ℓ ↦{(Transfers.shareTok fullShare 16 (5 : Fin 16))} f) ∗ (ℓ ↦{(Transfers.shareTok fullShare 16 (6 : Fin 16))} f) ∗ (ℓ ↦{(Transfers.shareTok fullShare 16 (7 : Fin 16))} f) ∗ (ℓ ↦{(Transfers.shareTok fullShare 16 (8 : Fin 16))} f) ∗ (ℓ ↦{(Transfers.shareTok fullShare 16 (9 : Fin 16))} f) ∗ (ℓ ↦{(Transfers.shareTok fullShare 16 (10 : Fin 16))} f) ∗ (ℓ ↦{(Transfers.shareTok fullShare 16 (11 : Fin 16))} f) ∗ (ℓ ↦{(Transfers.shareTok fullShare 16 (12 : Fin 16))} f) ∗ (ℓ ↦{(Transfers.shareTok fullShare 16 (13 : Fin 16))} f) ∗ (ℓ ↦{(Transfers.shareTok fullShare 16 (14 : Fin 16))} f) ∗ (ℓ ↦{(Transfers.shareTok fullShare 16 (15 : Fin 16))} f)) := by
  have h := Transfers.pointsTo_toks_split (nD := nD) (τ := τ) (sig := sig) (Ix := Unit) (Val := Elt F) (Name := ℕ) (U := Pipeline.UD sig nD τ) (Lvl := ℕ) (ℓ := ℓ) (S := Finset.univ) (f := f) fullShare 16
  rw [Idealize.SL.BI.bigSep_univ_eq_bigSepL [0, 1, 2, 3, 4, 5, 6, 7, 8, 9, 10, 11, 12, 13, 14, 15] (by decide) (by decide) _] at h
  exact h
/-- and joined again. -/
theorem join16 {ℓ : Loc nD τ sig} (f : Buf (Elt F) ℓ) :
    iprop((ℓ ↦{Transfers.shareDrop fullShare 16} f) ∗ (ℓ ↦{(Transfers.shareTok fullShare 16 (0 : Fin 16))} f) ∗ (ℓ ↦{(Transfers.shareTok fullShare 16 (1 : Fin 16))} f) ∗ (ℓ ↦{(Transfers.shareTok fullShare 16 (2 : Fin 16))} f) ∗ (ℓ ↦{(Transfers.shareTok fullShare 16 (3 : Fin 16))} f) ∗ (ℓ ↦{(Transfers.shareTok fullShare 16 (4 : Fin 16))} f) ∗ (ℓ ↦{(Transfers.shareTok fullShare 16 (5 : Fin 16))} f) ∗ (ℓ ↦{(Transfers.shareTok fullShare 16 (6 : Fin 16))} f) ∗ (ℓ ↦{(Transfers.shareTok fullShare 16 (7 : Fin 16))} f) ∗ (ℓ ↦{(Transfers.shareTok fullShare 16 (8 : Fin 16))} f) ∗ (ℓ ↦{(Transfers.shareTok fullShare 16 (9 : Fin 16))} f) ∗ (ℓ ↦{(Transfers.shareTok fullShare 16 (10 : Fin 16))} f) ∗ (ℓ ↦{(Transfers.shareTok fullShare 16 (11 : Fin 16))} f) ∗ (ℓ ↦{(Transfers.shareTok fullShare 16 (12 : Fin 16))} f) ∗ (ℓ ↦{(Transfers.shareTok fullShare 16 (13 : Fin 16))} f) ∗ (ℓ ↦{(Transfers.shareTok fullShare 16 (14 : Fin 16))} f) ∗ (ℓ ↦{(Transfers.shareTok fullShare 16 (15 : Fin 16))} f)) ⊢ (ℓ ↦{fullShare} f : sProp 𝕄) := by
  have h := Transfers.pointsTo_toks_join (nD := nD) (τ := τ) (sig := sig) (Ix := Unit) (Val := Elt F) (Name := ℕ) (U := Pipeline.UD sig nD τ) (Lvl := ℕ) (ℓ := ℓ) (S := Finset.univ) (f := f) fullShare 16
  rw [Idealize.SL.BI.bigSep_univ_eq_bigSepL [0, 1, 2, 3, 4, 5, 6, 7, 8, 9, 10, 11, 12, 13, 14, 15] (by decide) (by decide) _] at h
  exact h

set_option sl_exec.stepHeartbeats 1000000 in
theorem bodyRun [∀ e, Nonempty (Elt F e)] (c : Dev nD) (i : grid0.Coords)
    (arg2 : Memref sig .tc .smem S7x1024 .i32) (harg2 : arg2.IsWhole) (arg4 : Memref sig .tc .vmem S896x64 .bf16) (harg4 : arg4.IsWhole)
    (arg5 : Memref sig .tc .vmem S64 .f32) (harg5 : arg5.IsWhole) (arg6 : Memref sig .tc .vmem S1x1024x64 .f32) (harg6 : arg6.IsWhole)
    (x0 : Vec F S7x1024 .i32) (x1 : Vec F S896x64 .bf16) (x2 : Vec F S64 .f32)
    (X3 : Buf (Elt F) (hbM0.view.loc (c : Thread nD τ)))
    (hx0 : ∀ y, (x0 y).toNat < 163842) (W : Waits sig Unit) :
    (iprop(owns (c : Thread nD τ) arg2 fullShare x0 ∗ owns (c : Thread nD τ) arg4 fullShare x1 ∗ owns (c : Thread nD τ) arg5 fullShare x2
        ∗ (∃ d, owns (c : Thread nD τ) arg6 fullShare d) ∗ (∃ d, owns (c : Thread nD τ) scM0 fullShare d)
        ∗ semVal ((c : Thread nD τ), SemLoc.dma 6) 0 ∗ (hbM0.view.loc (c : Thread nD τ) ↦{fullShare} X3) ∗ owes (c : Thread nD τ) 0 W) : sProp 𝕄)
      ⊢ wp frame (wpE (defs₀ (F := F)) Variants.none c none) Set.univ
          (cc0_kernel (F := F) i arg2 harg2 hbM0 (Memref.isWhole_whole _) arg4 harg4 arg5 harg5 arg6 harg6 scM0 (Memref.isWhole_whole _) cc0_scratch1)
          (fun _ => iprop(owns (c : Thread nD τ) arg2 fullShare x0 ∗ owns (c : Thread nD τ) arg4 fullShare x1 ∗ owns (c : Thread nD τ) arg5 fullShare x2
            ∗ owns (c : Thread nD τ) arg6 fullShare (Blocks.outBlk x0 X3 x1 x2 (i 0)) ∗ (∃ d, owns (c : Thread nD τ) scM0 fullShare d)
            ∗ semVal ((c : Thread nD τ), SemLoc.dma 6) 0 ∗ (hbM0.view.loc (c : Thread nD τ) ↦{fullShare} X3) ∗ ∃ W', owes (c : Thread nD τ) 0 W')) := by
  simp only [cc0_kernel_eq_skeleton]; unfold cc0_kernel_skel
  unfold owns
  iintro ⟨⟨%f0, %hf0, H2⟩, ⟨%f1, %hf1, H4⟩, ⟨%f2, %hf2, H5⟩, ⟨%d6, %f6, -, H6⟩, ⟨%ds, %fs, -, H7⟩, HC, H3, HO⟩
  obtain rfl := harg2.eq_unread hf0
  obtain rfl := harg4.eq_unread hf1
  obtain rfl := harg5.eq_unread hf2
  ihave H3s := (split16 (F := F) X3) $$ H3
  icases H3s with ⟨H3r, H3_0, H3_1, H3_2, H3_3, H3_4, H3_5, H3_6, H3_7, H3_8, H3_9, H3_10, H3_11, H3_12, H3_13, H3_14, H3_15⟩
  sl_exec
  -- gather loop 1
  sl_for (Iter.inv1 c i arg2 harg2 arg4 harg4 arg5 harg5 arg6 harg6 x0 X3 hx0 fs) $$ [H2 H3_0 H3_1 H3_2 H3_3 H3_4 H3_5 H3_6 H3_7 H3_8 H3_9 H3_10 H3_11 H3_12 H3_13 H3_14 H3_15 H7 HC HO]
  · exact Iter.region1 c i arg2 harg2 arg4 harg4 arg5 harg5 arg6 harg6 x0 X3 hx0 fs
  · isplitl [H2]; · iexact H2
    isplitl [H3_0]; · iexact H3_0
    isplitl [H3_1]; · iexact H3_1
    isplitl [H3_2]; · iexact H3_2
    isplitl [H3_3]; · iexact H3_3
    isplitl [H3_4]; · iexact H3_4
    isplitl [H3_5]; · iexact H3_5
    isplitl [H3_6]; · iexact H3_6
    isplitl [H3_7]; · iexact H3_7
    isplitl [H3_8]; · iexact H3_8
    isplitl [H3_9]; · iexact H3_9
    isplitl [H3_10]; · iexact H3_10
    isplitl [H3_11]; · iexact H3_11
    isplitl [H3_12]; · iexact H3_12
    isplitl [H3_13]; · iexact H3_13
    isplitl [H3_14]; · iexact H3_14
    isplitl [H3_15]; · iexact H3_15
    isplitl [H7]; · iexact H7
    isplitl [HC]; · iexact HC
    iexists _; iexact HO
  iintro %acc1 HI
  icases HI with ⟨H2, H3_0, H3_1, H3_2, H3_3, H3_4, H3_5, H3_6, H3_7, H3_8, H3_9, H3_10, H3_11, H3_12, H3_13, H3_14, H3_15, H7, HC, HO⟩
  -- gather loop 2
  sl_for (Iter.inv2 c i arg2 harg2 arg4 harg4 arg5 harg5 arg6 harg6 x0 X3 hx0 (Iter.iter1 c i arg2 harg2 arg4 harg4 arg5 harg5 arg6 harg6 x0 X3 hx0 fs k0_t1_loop.trips)) $$ [H2 H3_0 H3_1 H3_2 H3_3 H3_4 H3_5 H3_6 H3_7 H3_8 H3_9 H3_10 H3_11 H3_12 H3_13 H3_14 H3_15 H7 HC HO]
  · exact Iter.region2 c i arg2 harg2 arg4 harg4 arg5 harg5 arg6 harg6 x0 X3 hx0 (Iter.iter1 c i arg2 harg2 arg4 harg4 arg5 harg5 arg6 harg6 x0 X3 hx0 fs k0_t1_loop.trips)
  · isplitl [H2]; · iexact H2
    isplitl [H3_0]; · iexact H3_0
    isplitl [H3_1]; · iexact H3_1
    isplitl [H3_2]; · iexact H3_2
    isplitl [H3_3]; · iexact H3_3
    isplitl [H3_4]; · iexact H3_4
    isplitl [H3_5]; · iexact H3_5
    isplitl [H3_6]; · iexact H3_6
    isplitl [H3_7]; · iexact H3_7
    isplitl [H3_8]; · iexact H3_8
    isplitl [H3_9]; · iexact H3_9
    isplitl [H3_10]; · iexact H3_10
    isplitl [H3_11]; · iexact H3_11
    isplitl [H3_12]; · iexact H3_12
    isplitl [H3_13]; · iexact H3_13
    isplitl [H3_14]; · iexact H3_14
    isplitl [H3_15]; · iexact H3_15
    isplitl [H7]; · iexact H7
    isplitl [HC]; · iexact HC
    iexact HO
  iintro %acc2 HI
  icases HI with ⟨H2, H3_0, H3_1, H3_2, H3_3, H3_4, H3_5, H3_6, H3_7, H3_8, H3_9, H3_10, H3_11, H3_12, H3_13, H3_14, H3_15, H7, HC, HO⟩
  -- gather loop 3
  sl_for (Iter.inv3 c i arg2 harg2 arg4 harg4 arg5 harg5 arg6 harg6 x0 X3 hx0 (Iter.iter2 c i arg2 harg2 arg4 harg4 arg5 harg5 arg6 harg6 x0 X3 hx0 (Iter.iter1 c i arg2 harg2 arg4 harg4 arg5 harg5 arg6 harg6 x0 X3 hx0 fs k0_t1_loop.trips) k0_t2_loop.trips)) $$ [H2 H3_0 H3_1 H3_2 H3_3 H3_4 H3_5 H3_6 H3_7 H3_8 H3_9 H3_10 H3_11 H3_12 H3_13 H3_14 H3_15 H7 HC HO]
  · exact Iter.region3 c i arg2 harg2 arg4 harg4 arg5 harg5 arg6 harg6 x0 X3 hx0 (Iter.iter2 c i arg2 harg2 arg4 harg4 arg5 harg5 arg6 harg6 x0 X3 hx0 (Iter.iter1 c i arg2 harg2 arg4 harg4 arg5 harg5 arg6 harg6 x0 X3 hx0 fs k0_t1_loop.trips) k0_t2_loop.trips)
  · isplitl [H2]; · iexact H2
    isplitl [H3_0]; · iexact H3_0
    isplitl [H3_1]; · iexact H3_1
    isplitl [H3_2]; · iexact H3_2
    isplitl [H3_3]; · iexact H3_3
    isplitl [H3_4]; · iexact H3_4
    isplitl [H3_5]; · iexact H3_5
    isplitl [H3_6]; · iexact H3_6
    isplitl [H3_7]; · iexact H3_7
    isplitl [H3_8]; · iexact H3_8
    isplitl [H3_9]; · iexact H3_9
    isplitl [H3_10]; · iexact H3_10
    isplitl [H3_11]; · iexact H3_11
    isplitl [H3_12]; · iexact H3_12
    isplitl [H3_13]; · iexact H3_13
    isplitl [H3_14]; · iexact H3_14
    isplitl [H3_15]; · iexact H3_15
    isplitl [H7]; · iexact H7
    isplitl [HC]; · iexact HC
    iexact HO
  iintro %acc3 HI
  icases HI with ⟨H2, H3_0, H3_1, H3_2, H3_3, H3_4, H3_5, H3_6, H3_7, H3_8, H3_9, H3_10, H3_11, H3_12, H3_13, H3_14, H3_15, H7, HC, HO⟩
  -- gather loop 4
  sl_for (Iter.inv4 c i arg2 harg2 arg4 harg4 arg5 harg5 arg6 harg6 x0 X3 hx0 (Iter.iter3 c i arg2 harg2 arg4 harg4 arg5 harg5 arg6 harg6 x0 X3 hx0 (Iter.iter2 c i arg2 harg2 arg4 harg4 arg5 harg5 arg6 harg6 x0 X3 hx0 (Iter.iter1 c i arg2 harg2 arg4 harg4 arg5 harg5 arg6 harg6 x0 X3 hx0 fs k0_t1_loop.trips) k0_t2_loop.trips) k0_t3_loop.trips)) $$ [H2 H3_0 H3_1 H3_2 H3_3 H3_4 H3_5 H3_6 H3_7 H3_8 H3_9 H3_10 H3_11 H3_12 H3_13 H3_14 H3_15 H7 HC HO]
  · exact Iter.region4 c i arg2 harg2 arg4 harg4 arg5 harg5 arg6 harg6 x0 X3 hx0 (Iter.iter3 c i arg2 harg2 arg4 harg4 arg5 harg5 arg6 harg6 x0 X3 hx0 (Iter.iter2 c i arg2 harg2 arg4 harg4 arg5 harg5 arg6 harg6 x0 X3 hx0 (Iter.iter1 c i arg2 harg2 arg4 harg4 arg5 harg5 arg6 harg6 x0 X3 hx0 fs k0_t1_loop.trips) k0_t2_loop.trips) k0_t3_loop.trips)
  · isplitl [H2]; · iexact H2
    isplitl [H3_0]; · iexact H3_0
    isplitl [H3_1]; · iexact H3_1
    isplitl [H3_2]; · iexact H3_2
    isplitl [H3_3]; · iexact H3_3
    isplitl [H3_4]; · iexact H3_4
    isplitl [H3_5]; · iexact H3_5
    isplitl [H3_6]; · iexact H3_6
    isplitl [H3_7]; · iexact H3_7
    isplitl [H3_8]; · iexact H3_8
    isplitl [H3_9]; · iexact H3_9
    isplitl [H3_10]; · iexact H3_10
    isplitl [H3_11]; · iexact H3_11
    isplitl [H3_12]; · iexact H3_12
    isplitl [H3_13]; · iexact H3_13
    isplitl [H3_14]; · iexact H3_14
    isplitl [H3_15]; · iexact H3_15
    isplitl [H7]; · iexact H7
    isplitl [HC]; · iexact HC
    iexact HO
  iintro %acc4 HI
  icases HI with ⟨H2, H3_0, H3_1, H3_2, H3_3, H3_4, H3_5, H3_6, H3_7, H3_8, H3_9, H3_10, H3_11, H3_12, H3_13, H3_14, H3_15, H7, HC, HO⟩
  -- gather loop 5
  sl_for (Iter.inv5 c i arg2 harg2 arg4 harg4 arg5 harg5 arg6 harg6 x0 X3 hx0 (Iter.iter4 c i arg2 harg2 arg4 harg4 arg5 harg5 arg6 harg6 x0 X3 hx0 (Iter.iter3 c i arg2 harg2 arg4 harg4 arg5 harg5 arg6 harg6 x0 X3 hx0 (Iter.iter2 c i arg2 harg2 arg4 harg4 arg5 harg5 arg6 harg6 x0 X3 hx0 (Iter.iter1 c i arg2 harg2 arg4 harg4 arg5 harg5 arg6 harg6 x0 X3 hx0 fs k0_t1_loop.trips) k0_t2_loop.trips) k0_t3_loop.trips) k0_t4_loop.trips)) $$ [H2 H3_0 H3_1 H3_2 H3_3 H3_4 H3_5 H3_6 H3_7 H3_8 H3_9 H3_10 H3_11 H3_12 H3_13 H3_14 H3_15 H7 HC HO]
  · exact Iter.region5 c i arg2 harg2 arg4 harg4 arg5 harg5 arg6 harg6 x0 X3 hx0 (Iter.iter4 c i arg2 harg2 arg4 harg4 arg5 harg5 arg6 harg6 x0 X3 hx0 (Iter.iter3 c i arg2 harg2 arg4 harg4 arg5 harg5 arg6 harg6 x0 X3 hx0 (Iter.iter2 c i arg2 harg2 arg4 harg4 arg5 harg5 arg6 harg6 x0 X3 hx0 (Iter.iter1 c i arg2 harg2 arg4 harg4 arg5 harg5 arg6 harg6 x0 X3 hx0 fs k0_t1_loop.trips) k0_t2_loop.trips) k0_t3_loop.trips) k0_t4_loop.trips)
  · isplitl [H2]; · iexact H2
    isplitl [H3_0]; · iexact H3_0
    isplitl [H3_1]; · iexact H3_1
    isplitl [H3_2]; · iexact H3_2
    isplitl [H3_3]; · iexact H3_3
    isplitl [H3_4]; · iexact H3_4
    isplitl [H3_5]; · iexact H3_5
    isplitl [H3_6]; · iexact H3_6
    isplitl [H3_7]; · iexact H3_7
    isplitl [H3_8]; · iexact H3_8
    isplitl [H3_9]; · iexact H3_9
    isplitl [H3_10]; · iexact H3_10
    isplitl [H3_11]; · iexact H3_11
    isplitl [H3_12]; · iexact H3_12
    isplitl [H3_13]; · iexact H3_13
    isplitl [H3_14]; · iexact H3_14
    isplitl [H3_15]; · iexact H3_15
    isplitl [H7]; · iexact H7
    isplitl [HC]; · iexact HC
    iexact HO
  iintro %acc5 HI
  icases HI with ⟨H2, H3_0, H3_1, H3_2, H3_3, H3_4, H3_5, H3_6, H3_7, H3_8, H3_9, H3_10, H3_11, H3_12, H3_13, H3_14, H3_15, H7, HC, HO⟩
  -- gather loop 6
  sl_for (Iter.inv6 c i arg2 harg2 arg4 harg4 arg5 harg5 arg6 harg6 x0 X3 hx0 (Iter.iter5 c i arg2 harg2 arg4 harg4 arg5 harg5 arg6 harg6 x0 X3 hx0 (Iter.iter4 c i arg2 harg2 arg4 harg4 arg5 harg5 arg6 harg6 x0 X3 hx0 (Iter.iter3 c i arg2 harg2 arg4 harg4 arg5 harg5 arg6 harg6 x0 X3 hx0 (Iter.iter2 c i arg2 harg2 arg4 harg4 arg5 harg5 arg6 harg6 x0 X3 hx0 (Iter.iter1 c i arg2 harg2 arg4 harg4 arg5 harg5 arg6 harg6 x0 X3 hx0 fs k0_t1_loop.trips) k0_t2_loop.trips) k0_t3_loop.trips) k0_t4_loop.trips) k0_t5_loop.trips)) $$ [H2 H3_0 H3_1 H3_2 H3_3 H3_4 H3_5 H3_6 H3_7 H3_8 H3_9 H3_10 H3_11 H3_12 H3_13 H3_14 H3_15 H7 HC HO]
  · exact Iter.region6 c i arg2 harg2 arg4 harg4 arg5 harg5 arg6 harg6 x0 X3 hx0 (Iter.iter5 c i arg2 harg2 arg4 harg4 arg5 harg5 arg6 harg6 x0 X3 hx0 (Iter.iter4 c i arg2 harg2 arg4 harg4 arg5 harg5 arg6 harg6 x0 X3 hx0 (Iter.iter3 c i arg2 harg2 arg4 harg4 arg5 harg5 arg6 harg6 x0 X3 hx0 (Iter.iter2 c i arg2 harg2 arg4 harg4 arg5 harg5 arg6 harg6 x0 X3 hx0 (Iter.iter1 c i arg2 harg2 arg4 harg4 arg5 harg5 arg6 harg6 x0 X3 hx0 fs k0_t1_loop.trips) k0_t2_loop.trips) k0_t3_loop.trips) k0_t4_loop.trips) k0_t5_loop.trips)
  · isplitl [H2]; · iexact H2
    isplitl [H3_0]; · iexact H3_0
    isplitl [H3_1]; · iexact H3_1
    isplitl [H3_2]; · iexact H3_2
    isplitl [H3_3]; · iexact H3_3
    isplitl [H3_4]; · iexact H3_4
    isplitl [H3_5]; · iexact H3_5
    isplitl [H3_6]; · iexact H3_6
    isplitl [H3_7]; · iexact H3_7
    isplitl [H3_8]; · iexact H3_8
    isplitl [H3_9]; · iexact H3_9
    isplitl [H3_10]; · iexact H3_10
    isplitl [H3_11]; · iexact H3_11
    isplitl [H3_12]; · iexact H3_12
    isplitl [H3_13]; · iexact H3_13
    isplitl [H3_14]; · iexact H3_14
    isplitl [H3_15]; · iexact H3_15
    isplitl [H7]; · iexact H7
    isplitl [HC]; · iexact HC
    iexact HO
  iintro %acc6 HI
  icases HI with ⟨H2, H3_0, H3_1, H3_2, H3_3, H3_4, H3_5, H3_6, H3_7, H3_8, H3_9, H3_10, H3_11, H3_12, H3_13, H3_14, H3_15, H7, HC, HO⟩
  -- gather loop 7
  sl_for (Iter.inv7 c i arg2 harg2 arg4 harg4 arg5 harg5 arg6 harg6 x0 X3 hx0 (Iter.iter6 c i arg2 harg2 arg4 harg4 arg5 harg5 arg6 harg6 x0 X3 hx0 (Iter.iter5 c i arg2 harg2 arg4 harg4 arg5 harg5 arg6 harg6 x0 X3 hx0 (Iter.iter4 c i arg2 harg2 arg4 harg4 arg5 harg5 arg6 harg6 x0 X3 hx0 (Iter.iter3 c i arg2 harg2 arg4 harg4 arg5 harg5 arg6 harg6 x0 X3 hx0 (Iter.iter2 c i arg2 harg2 arg4 harg4 arg5 harg5 arg6 harg6 x0 X3 hx0 (Iter.iter1 c i arg2 harg2 arg4 harg4 arg5 harg5 arg6 harg6 x0 X3 hx0 fs k0_t1_loop.trips) k0_t2_loop.trips) k0_t3_loop.trips) k0_t4_loop.trips) k0_t5_loop.trips) k0_t6_loop.trips)) $$ [H2 H3_0 H3_1 H3_2 H3_3 H3_4 H3_5 H3_6 H3_7 H3_8 H3_9 H3_10 H3_11 H3_12 H3_13 H3_14 H3_15 H7 HC HO]
  · exact Iter.region7 c i arg2 harg2 arg4 harg4 arg5 harg5 arg6 harg6 x0 X3 hx0 (Iter.iter6 c i arg2 harg2 arg4 harg4 arg5 harg5 arg6 harg6 x0 X3 hx0 (Iter.iter5 c i arg2 harg2 arg4 harg4 arg5 harg5 arg6 harg6 x0 X3 hx0 (Iter.iter4 c i arg2 harg2 arg4 harg4 arg5 harg5 arg6 harg6 x0 X3 hx0 (Iter.iter3 c i arg2 harg2 arg4 harg4 arg5 harg5 arg6 harg6 x0 X3 hx0 (Iter.iter2 c i arg2 harg2 arg4 harg4 arg5 harg5 arg6 harg6 x0 X3 hx0 (Iter.iter1 c i arg2 harg2 arg4 harg4 arg5 harg5 arg6 harg6 x0 X3 hx0 fs k0_t1_loop.trips) k0_t2_loop.trips) k0_t3_loop.trips) k0_t4_loop.trips) k0_t5_loop.trips) k0_t6_loop.trips)
  · isplitl [H2]; · iexact H2
    isplitl [H3_0]; · iexact H3_0
    isplitl [H3_1]; · iexact H3_1
    isplitl [H3_2]; · iexact H3_2
    isplitl [H3_3]; · iexact H3_3
    isplitl [H3_4]; · iexact H3_4
    isplitl [H3_5]; · iexact H3_5
    isplitl [H3_6]; · iexact H3_6
    isplitl [H3_7]; · iexact H3_7
    isplitl [H3_8]; · iexact H3_8
    isplitl [H3_9]; · iexact H3_9
    isplitl [H3_10]; · iexact H3_10
    isplitl [H3_11]; · iexact H3_11
    isplitl [H3_12]; · iexact H3_12
    isplitl [H3_13]; · iexact H3_13
    isplitl [H3_14]; · iexact H3_14
    isplitl [H3_15]; · iexact H3_15
    isplitl [H7]; · iexact H7
    isplitl [HC]; · iexact HC
    iexact HO
  iintro %acc7 HI
  icases HI with ⟨H2, H3_0, H3_1, H3_2, H3_3, H3_4, H3_5, H3_6, H3_7, H3_8, H3_9, H3_10, H3_11, H3_12, H3_13, H3_14, H3_15, H7, HC, HO⟩
  -- the rest of the body: the loads of the seven slabs, the arithmetic, the one store
  sl_exec
  sl_step
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    rw [View.read_writes_eq_canon _ _ _ (View.cover_of_tiledL _ S1x1024x64.size (by sl_kernel_rfl))]
    rw [View.canon_unit_zero (by funext a; fin_cases a <;> rfl)]
    sl_unfold_words
    have e0 := SlotValue.slot_read_0 c i arg2 harg2 arg4 harg4 arg5 harg5 arg6 harg6 x0 X3 hx0 fs
    have e1 := SlotValue.slot_read_1 c i arg2 harg2 arg4 harg4 arg5 harg5 arg6 harg6 x0 X3 hx0 fs
    have e2 := SlotValue.slot_read_2 c i arg2 harg2 arg4 harg4 arg5 harg5 arg6 harg6 x0 X3 hx0 fs
    have e3 := SlotValue.slot_read_3 c i arg2 harg2 arg4 harg4 arg5 harg5 arg6 harg6 x0 X3 hx0 fs
    have e4 := SlotValue.slot_read_4 c i arg2 harg2 arg4 harg4 arg5 harg5 arg6 harg6 x0 X3 hx0 fs
    have e5 := SlotValue.slot_read_5 c i arg2 harg2 arg4 harg4 arg5 harg5 arg6 harg6 x0 X3 hx0 fs
    have e6 := SlotValue.slot_read_6 c i arg2 harg2 arg4 harg4 arg5 harg5 arg6 harg6 x0 X3 hx0 fs
    simp only [show (Scf.trips k0_t7_loop.lb k0_t7_loop.ub k0_t7_loop.st) = k0_t7_loop.trips from rfl]
    rw [e0, e1, e2, e3, e4, e5, e6]
    simp only [View.readAt_eq_ld, Memref.IsWhole.read_unread,
      View.ld_unit_zero (S := S896x64) (off := ![0, 0]) (by funext a; fin_cases a <;> rfl), View.ld_unit_zero (S := S64) (off := ![0]) (by funext a; fin_cases a <;> rfl)]
    rfl
  isplitl [H7]
  · iexists _, _; isplitr; swap; · iexact H7
    ipureintro; rfl
  isplitl [HC]; · iexact HC
  isplitl [H3r H3_0 H3_1 H3_2 H3_3 H3_4 H3_5 H3_6 H3_7 H3_8 H3_9 H3_10 H3_11 H3_12 H3_13 H3_14 H3_15]
  · iapply (join16 (F := F) X3)
    isplitl [H3r]; · iexact H3r
    isplitl [H3_0]; · iexact H3_0
    isplitl [H3_1]; · iexact H3_1
    isplitl [H3_2]; · iexact H3_2
    isplitl [H3_3]; · iexact H3_3
    isplitl [H3_4]; · iexact H3_4
    isplitl [H3_5]; · iexact H3_5
    isplitl [H3_6]; · iexact H3_6
    isplitl [H3_7]; · iexact H3_7
    isplitl [H3_8]; · iexact H3_8
    isplitl [H3_9]; · iexact H3_9
    isplitl [H3_10]; · iexact H3_10
    isplitl [H3_11]; · iexact H3_11
    isplitl [H3_12]; · iexact H3_12
    isplitl [H3_13]; · iexact H3_13
    isplitl [H3_14]; · iexact H3_14
    iexact H3_15
  iexact HO

end Cert.KernelIdeal.Body

end
-- ==== Proof.KI.Launch.lean ====
import proofs.«425738_j65000035058096_2_alg».proof.Proof.Gen.KernelIdeal.Frame
import proofs.«425738_j65000035058096_2_alg».proof.Proof.KI.Body

/-!
The launch side of the kernel's frame. The body's triple at one grid point (every word of the neighbour block a vertex
number) is carried through the pipeline's 322 points: each input window's staging buffer holds its block of the array
as the region finds it, the output window's buffer is left at the block `Blocks.outBlk` computes from them and from
the padded features, and the region's invariant lends the body its scratch, its own semaphore at zero and the padded
features whole, and takes them back unchanged. From this the run of the whole program with every output array named,
and the frame claim.
-/

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program around the region, at the algebra that counts the body's own transfers -/

/-- The host lines before the region, the region, the one host line after it: the program reduces to the region
    continued by the later line, from the contents the earlier lines leave. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- An input window's current staging buffer holds its block of the array at every point, fetched there or not: an
    unfetched window's index has not moved since the point that fetched it. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- No host line after the region writes an argument array: it ends as launched (window 2's array, the bias, is
    read through the pipeline's own account of it). -/
theorem W_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The frame claim's post from a run to the pipeline's post: an argument array no window stages is as the region
    found it and no later line writes it; the bias, which window 2 stages and never writes back, is its entry
    contents. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_arg0 m dats c)),
      (((h c).2 main_arg1 (Pipeline.mem_restRefs_of main_arg1 (by decide) (by decide))).trans (W_arg1 m dats c)),
      (((h c).2 main_arg2 (Pipeline.mem_restRefs_of main_arg2 (by decide) (by decide))).trans (W_arg2 m dats c)),
      ((h c).1 2).trans (((dats 0 c).arrAt_in 2 rfl _).trans ((hA c 2).trans (V_main_arg3 m c)))⟩) h

/-! ## What the body is handed beside the windows -/

/-- Each window's current staging memref at point `t`, as the pipeline passes it, and its wholeness. -/
abbrev ms0_0 (t : Fin cfg0.N) : Memref sig .tc .smem S7x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S896x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x64 .f32 := win0_3.stage (cfg0.slots t 3)
abbrev hs0_3 (t : Fin cfg0.N) : (ms0_3 t).IsWhole := hstage0_3 ((cfg0.slots t 3).cast nbuf0_3)

/-- The body's own DMA semaphore: cell 6 of the pool, no window's. -/
abbrev osem0 : Fin 1 → SemLoc sig := fun _ => SemLoc.dma 6
theorem ownSemFacts0 : Pipeline.OwnSemFacts spec0 osem0 := by decide
/-- The one cell at zero. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0) := by
  rw [Pipeline.ownSems0_eq_of_list c osem0 [0] (by decide) (by decide)]; rfl
/-- The operand left in HBM that the body copies rows of: the padded features, unscoped and no window's array. -/
def H0 : Finset (Ref sig .tc) := {main_v3}
theorem H0_sub : H0 ⊆ Pipeline.restRefs sig spec0 := by decide
/-- Its points-to at the contents the region finds. -/
theorem hbmPts0_eq (c : Dev nD) :
    (bigSep H0 (fun b => ((c : Thread nD τ).loc b) ↦{fullShare} V m c b) : sProp 𝕄)
      = iprop(Body.hbM0.view.loc (c : Thread nD τ) ↦{fullShare} V m c main_v3) := by
  rw [BI.bigSep_eq_bigSepL_of_eq [main_v3] (by decide) (by decide)]; rfl

/-- The region's invariant conjunct by conjunct: the scratch owned at some contents, the generator register at some
    state, the body's semaphore at zero, the padded features whole at the contents the region finds. -/
theorem PhiD0_eq (c : Dev nD) :
    (Pipeline.ΦD osem0 spec0 H0 (V m) c : sProp 𝕄)
      = iprop((∃ d, owns (c : Thread nD τ) Body.scM0 fullShare d) ∗ (∃ r, prngReg c r)
          ∗ semVal ((c : Thread nD τ), SemLoc.dma 6) 0 ∗ (Body.hbM0.view.loc (c : Thread nD τ) ↦{fullShare} V m c main_v3)) := by
  rw [Pipeline.ΦD_eq, scopedRest0_eq, ownSems00_eq, hbmPts0_eq]; simp only [Body.scM0, owns_whole]; try rfl

/-! ## The proof data -/

/-- The side condition the body's triple needs at every point: every word of window 0's block is a vertex number. -/
def Hyps : Prop := ∀ (c : Dev nD) (t : Fin cfg0.N) (y : S7x1024.Idx), ((iblk m c 0 t y : Elt F .i32) : BitVec 32).toNat < 163842

/-- What the output window's staging buffer holds after the body at point `t`: the block the body's arithmetic makes
    of the point's neighbour block, the padded features, the weight block and the bias, for the point's batch. -/
def outAt (c : Dev nD) (t : Fin cfg0.N) : Vec F S1x1024x64 .f32 :=
  Blocks.outBlk (iblk m c 0 t) (V m c main_v3) (iblk m c 1 t) (iblk m c 2 t) (grid0.coords t 0)

/-- The proof data of the pipeline on core `c`: the arrays as the region finds them; after the body at point `t` each
    input's buffer at its block and the output's at `outAt`; the invariant of a body with transfers of its own;
    nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦD osem0 spec0 H0 (V m) c
  q _ := fullShare
  owed _ := 0

/-- The proof data's arrays are the region-entry contents (the definition projected, nothing unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`: the invariant, the core's outstanding waits, and each window's current
    staging buffer at what the pipeline left there. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point. The inputs' staging buffers hold their blocks; the invariant lends the scratch, the body's
    semaphore at zero and the padded features; every word of the neighbour block is a vertex number by the side
    condition: so the body's triple applies, and it hands everything back as it was with the output's buffer at
    `outAt`. The generator register is not touched; the core's waits come back within the next point's bound. -/
theorem sound_body (hH : Hyps m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    after0_0, after0_1, after0_2, after0_3]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold outAt
  iintro ⟨⟨HS, Hg, Hq, Hh⟩, ⟨%W, -, HW⟩, ⟨%d0, H0⟩, ⟨%d1, H1⟩, ⟨%d2, H2⟩, ⟨%d3, H3⟩⟩
  iapply (wp_wand_r frame _ Set.univ)
  isplitr [Hg]
  · iapply (Body.bodyRun c (grid0.coords t) (ms0_0 t) (hs0_0 t) (ms0_1 t) (hs0_1 t) (ms0_2 t) (hs0_2 t) (ms0_3 t) (hs0_3 t)
      (iblk m c 0 t) (iblk m c 1 t) (iblk m c 2 t) (V m c main_v3) (hH c t) W)
    isplitl [H0]; · iexact H0
    isplitl [H1]; · iexact H1
    isplitl [H2]; · iexact H2
    isplitl [H3]; · iexists _; iexact H3
    isplitl [HS]; · iexact HS
    isplitl [Hq]; · iexact Hq
    isplitl [Hh]; · iexact Hh
    iexact HW
  iintro %_ ⟨H0, H1, H2, H3, HS, Hq, Hh, ⟨%W', HW'⟩⟩
  isplitl [HS Hg Hq Hh]
  · isplitl [HS]; · iexact HS
    isplitl [Hg]; · iexact Hg
    isplitl [Hq]; · iexact Hq
    iexact Hh
  isplitl [HW']
  · iexists W'; isplitr; · ipureintro; exact fun _ _ => Or.inl trivial
    iexact HW'
  isplitl [H0]; · iexact H0
  isplitl [H1]; · iexact H1
  isplitl [H2]; · iexact H2
  iexact H3

/-- The library's body obligation, at every point. -/
theorem body_obligation (hH : Hyps m) (c : Dev nD) :
    BodyObligation (dats (F := F) m 0 c) (defs₀ (F := F)) Variants.none () Set.univ := fun t => by
  rw [bigSep_W0, bigSep_W0]
  exact sound_body m hH c t

/-! ## The run and the frame -/

/-- The host line after the region — a slice of the output array into the result — touches neither the padded features
    nor anything else the body moves itself. -/
theorem sfx_subBut : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  intro b hb
  have hb' : b = main_v3 := Finset.mem_singleton.mp hb
  subst hb'
  rw [StableHlo.unary_bufs]
  simp only [Finset.mem_insert, Finset.mem_singleton, not_or]
  exact ⟨StableHlo.devRef_ne_of_ne (by decide), StableHlo.devRef_ne_of_ne (by decide)⟩

-- the launch theorem's implicit arguments are found by unifying its conclusion with this one, which takes unfolding
-- plain definitions in a metavariable's type
set_option backward.isDefEq.respectTransparency.types false in
/-- From any memory with zero counters, under the side condition: every weakly fair execution of the program on the
    TensorCores terminates, and every final state has every array of the pipeline at what the proof data computes and
    every other unscoped buffer at what the host line after the region makes of the region's result. -/
theorem run_main (hH : Hyps m) : θ_run defs (onTc (τ := τ) (main (F := F))) (s₀ m ρ)
    (Pipeline.FramePost cfgs (dats m) 0 (Pipeline.afterTail₀ cfgs (dats m) 0 (V0 m) [hostOps1])) :=
  Pipeline.θ_run_frame_dma_around cfgs (dats m) (0 : Fin 1) launch0 osem0 defs₀ Variants.none ownSemFacts0 H0 H0_sub m ρ main
    (hbody := fun c => (body_obligation m hH c).loose) (hshare := fun c => (dats m 0 c).share_full fun _ => rfl)
    (howed := fun _ _ => rfl) (V₀ := V0 m) (opss := [hostOps1]) (hsub := sfx_subBut) (hfresh := sfx_fresh) (hkeep := sfx_keeps)
    (hmain := hmain m Variants.none) (hA := A_eq m)
    (hin := fun _ => .rfl) (hout := fun _ => .rfl)

/-- The frame claim at any float instance, under the side condition: every argument array ends as launched. -/
theorem frame (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ hH)

end Cert.KernelIdeal.Launch

end
-- ==== Proof.KI.OutGeom.lean ====
import proofs.«425738_j65000035058096_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Pipeline.Frame

/-!
The geometry of the kernel's output. The grid has 2 × 161 points, run in row-major order: point number
`161·bb + vi` has coordinates `(bb, vi)`. At that point the kernel writes back one block of shape [1, 1024, 64] into the
padded output array of shape [2, 164864, 64], at block position `(bb, vi, 0)`: rows `1024·vi … 1024·vi + 1023` of batch
`bb`, all 64 channels. Since 161 · 1024 = 164864, these 322 blocks tile the array exactly, each element lying in exactly
one of them: row `p` of batch `bb` is row `p mod 1024` of the block of point `(bb, p / 1024)`. So once every block has
been written, the array is the blocks laid side by side. Afterwards the host keeps the first 163842 rows of each batch,
a slice at offset zero, which reads the array at the same coordinates.
-/

set_option maxRecDepth 16384

noncomputable section

namespace Cert.KernelIdeal.OutGeom

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The grid's points by their coordinates -/

/-- Point `(bb, vi)` of the 2 × 161 grid in row-major order: number `161·bb + vi`, below 322. -/
def pt (bb : Fin 2) (vi : Fin 161) : Fin cfg0.N := ⟨161 * bb.val + vi.val, by
  have h : cfg0.N = 322 := N_0
  rw [h]; omega⟩

theorem pt_val (bb : Fin 2) (vi : Fin 161) : (pt bb vi).val = 161 * bb.val + vi.val := rfl

/-- The coordinates of point `161·bb + vi` are `(bb, vi)`: the first is the number divided by 161 (the second axis's
    extent), the second the number modulo 161. -/
theorem coords_pt (bb : Fin 2) (vi : Fin 161) : grid0.coords (pt bb vi) 0 = bb ∧ grid0.coords (pt bb vi) 1 = vi := by
  have s0 : grid0.stride 0 = 161 := by decide
  have s1 : grid0.stride 1 = 1 := by decide
  constructor
  · apply Fin.ext
    show (161 * bb.val + vi.val) / grid0.stride 0 % 2 = bb.val
    rw [s0]; omega
  · apply Fin.ext
    show (161 * bb.val + vi.val) / grid0.stride 1 % 161 = vi.val
    rw [s1]; omega

/-! ## The host's slice after the region -/

/-- Keeping rows 0 … 163841 of each batch (a slice at offset zero on every axis) reads the array at the same
    coordinates. -/
theorem tail_apply (A : S2x164864x64.Idx → Elt F .f32) (bb : Fin 2) (p : Fin 163842) (o : Fin 64) :
    (extractStridedSlice S2x163842x64 ![0, 0, 0] A slices_S2x164864x64_S2x163842x64_0_0_0 : S2x163842x64.Idx → Elt F .f32) (ix3 bb p o)
      = A (ix3 bb ⟨p.val, by omega⟩ o) := by
  refine extractStridedSlice_apply _ _ _ _ _ fun a => ?_
  match a with
  | ⟨0, _⟩ => show bb.val = 0 + bb.val; omega
  | ⟨1, _⟩ => show p.val = 0 + p.val; omega
  | ⟨2, _⟩ => show o.val = 0 + o.val; omega

/-! ## The blocks laid side by side -/

/-- The whole array assembled from one block per point: element `(bb, p, o)` is element `(0, p mod 1024, o)` of the
    block of point `(bb, p / 1024)`. -/
def assembled (B : Fin cfg0.N → Vec F S1x1024x64 .f32) : S2x164864x64.Idx → Elt F .f32 := fun i =>
  B (pt ⟨(i 0).val, (i 0).isLt⟩ ⟨(i 1).val / 1024, by have h : (i 1).val < 164864 := (i 1).isLt; omega⟩)
    (ix3 (0 : Fin 1) (⟨(i 1).val % 1024, Nat.mod_lt _ (by norm_num)⟩ : Fin 1024) (⟨(i 2).val, (i 2).isLt⟩ : Fin 64))

/-- The output's block position at point number `t` is `(t / 161, t mod 161, 0)`: the point's own coordinates, then
    zero on the channel axis. Checked at each of the 322 points. -/
theorem blockPos : ∀ t : Fin cfg0.N, win0_3.index t (0 : Fin 3) = t.val / 161
    ∧ win0_3.index t (1 : Fin 3) = t.val % 161 ∧ win0_3.index t (2 : Fin 3) = 0 :=
  (by decide +kernel : ∀ t : Fin grid0.N, _)

/-- At the array position where element `y` of point `t`'s block lands — batch `t / 161`, row `1024·(t mod 161) + y₁`,
    channel `y₂` — the assembled array holds that element: dividing the row by 1024 gives back `t mod 161` (as
    `y₁ < 1024`), so the point is `161·(t / 161) + t mod 161 = t`, and the remainder gives back `y₁`. -/
theorem assembled_at (B : Fin cfg0.N → Vec F S1x1024x64 .f32) (t : Fin cfg0.N) (y : S1x1024x64.Idx) (k : S2x164864x64.Idx)
    (h0 : (k 0).val = t.val / 161) (h1 : (k 1).val = (t.val % 161) * 1024 + (y 1).val) (h2 : (k 2).val = (y 2).val) :
    assembled B k = B t y := by
  have hN : cfg0.N = 322 := N_0
  have ht : t.val < 322 := lt_of_lt_of_eq t.isLt hN
  have hy0 : (y 0).val < 1 := (y 0).isLt
  have hy1 : (y 1).val < 1024 := (y 1).isLt
  have e1 : pt ⟨(k 0).val, (k 0).isLt⟩ ⟨(k 1).val / 1024, by have h : (k 1).val < 164864 := (k 1).isLt; omega⟩ = t := by
    apply Fin.ext
    show 161 * (k 0).val + (k 1).val / 1024 = t.val
    omega
  have e2 : ix3 (0 : Fin 1) (⟨(k 1).val % 1024, Nat.mod_lt _ (by norm_num)⟩ : Fin 1024) (⟨(k 2).val, (k 2).isLt⟩ : Fin 64) = y := by
    funext a
    apply Fin.ext
    match a with
    | ⟨0, _⟩ => show (0 : Nat) = (y 0).val; omega
    | ⟨1, _⟩ => show (k 1).val % 1024 = (y 1).val; omega
    | ⟨2, _⟩ => show (k 2).val = (y 2).val; omega
  unfold assembled
  rw [e1, e2]

variable {c : Dev nD} (dat : Pipeline.Dat τ (Elt F) Unit ℕ (Pipeline.UD sig nD τ) ℕ cfg0 c)

/-- What point `t` writes back is its block of the assembled array: the block's element `y` sits in the array, on each
    axis, at block position × block extent + `y`'s coordinate. -/
theorem flushed_eq (B : Fin cfg0.N → Vec F S1x1024x64 .f32) (hafter : ∀ t, dat.after 3 t = B t) (t : Fin cfg0.N) :
    dat.flushed 3 t = ((cfg0.win 3).blk t).view.read (Elt F) (assembled B) := by
  show (cfg0.win 3).cut (grid0.coords t) (dat.after 3 t) = _
  rw [hafter]
  funext y
  rw [View.read_apply]
  obtain ⟨i0, i1, i2⟩ := blockPos t
  have hy0 : (y 0).val < 1 := (y 0).isLt
  refine (assembled_at B t y (((cfg0.win 3).blk t).view.emb y) ?_ ?_ ?_).symm
  · show win0_3.index t (0 : Fin 3) * 1 + 1 * (y 0).val = t.val / 161
    omega
  · show win0_3.index t (1 : Fin 3) * 1024 + 1 * (y 1).val = t.val % 161 * 1024 + (y 1).val
    omega
  · show win0_3.index t (2 : Fin 3) * 64 + 1 * (y 2).val = (y 2).val
    omega

/-- An array position is in point `t`'s block iff on each axis it lies in the block's range there. -/
theorem mem_blk (t : Fin cfg0.N) (i : S2x164864x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v9).slice (win0_3.rect t)).set ↔ _
  rw [View.set_slice_whole, Rect.mem_set_unit]
  exact Iff.rfl

/-- Every array position `(bb, p, o)` is in the block of point `(bb, p / 1024)`, and every point writes its block back:
    `1024·(p / 1024) ≤ p < 1024·(p / 1024) + 1024`, the batch axis has extent one at position `bb`, and the channel axis is
    whole. -/
theorem cover (i : S2x164864x64.Idx) : ∃ t : Fin cfg0.N, (cfg0.win 3).flush t = true ∧ i ∈ ((cfg0.win 3).blk t).view.set := by
  have h0 : (i 0).val < 2 := (i 0).isLt
  have h1 : (i 1).val < 164864 := (i 1).isLt
  have h2 : (i 2).val < 64 := (i 2).isLt
  refine ⟨pt ⟨(i 0).val, h0⟩ ⟨(i 1).val / 1024, by omega⟩, flush0_3 _, ?_⟩
  rw [mem_blk]
  obtain ⟨i0, i1, i2⟩ := blockPos (pt ⟨(i 0).val, h0⟩ ⟨(i 1).val / 1024, by omega⟩)
  rw [pt_val] at i0 i1
  intro a
  match a with
  | ⟨0, _⟩ =>
    show win0_3.index _ (0 : Fin 3) * 1 ≤ (i 0).val ∧ (i 0).val < win0_3.index _ (0 : Fin 3) * 1 + 1
    rw [i0]; dsimp only; omega
  | ⟨1, _⟩ =>
    show win0_3.index _ (1 : Fin 3) * 1024 ≤ (i 1).val ∧ (i 1).val < win0_3.index _ (1 : Fin 3) * 1024 + 1024
    rw [i1]; dsimp only; omega
  | ⟨2, _⟩ =>
    show win0_3.index _ (2 : Fin 3) * 64 ≤ (i 2).val ∧ (i 2).val < win0_3.index _ (2 : Fin 3) * 64 + 64
    rw [i2]; omega

/-- After all 322 points the output array is the blocks laid side by side. -/
theorem arr3_eq (B : Fin cfg0.N → Vec F S1x1024x64 .f32) (hafter : ∀ t, dat.after 3 t = B t) :
    (dat.arrAt 3 cfg0.N : S2x164864x64.Idx → Elt F .f32) = assembled B :=
  dat.arrAt_eq_of_cover 3 (assembled B) (fun t _ => flushed_eq dat B hafter t) cover

/-- Element `(bb, p, o)` of the output array after the run is element `(0, p mod 1024, o)` of the block of point
    `(bb, p / 1024)`. -/
theorem arr3_apply (B : Fin cfg0.N → Vec F S1x1024x64 .f32) (hafter : ∀ t, dat.after 3 t = B t) (bb : Fin 2) (p : Fin 164864) (o : Fin 64) :
    (dat.arrAt 3 cfg0.N : S2x164864x64.Idx → Elt F .f32) (ix3 bb p o)
      = B (pt bb ⟨p.val / 1024, by omega⟩) (ix3 (0 : Fin 1) ⟨p.val % 1024, by omega⟩ o) := by
  rw [arr3_eq dat B hafter]
  rfl

end Cert.KernelIdeal.OutGeom

end
-- ==== Proof.KI.Payload.lean ====
import proofs.«425738_j65000035058096_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
The kernel body's arithmetic at one output element, over the extended reals. The body holds seven [1024, 128] slabs of
gathered rows (one per ring neighbour) and the [896, 64] weight block (seven blocks of 128 rows). For vertex row `v` and
output channel `o` it starts from zero, adds for each neighbour `k` in turn the inner product of row `v` of slab `k`
with column `o` of weight block `k` (128 lanes), and finally adds the bias. The changes of float format are the
identity and a matrix product into a zero accumulator is the plain sum over the contracted axis.
-/

set_option maxRecDepth 16384

noncomputable section

namespace Cert.KernelIdeal.Payload

open Cert.KernelIdeal Cert.KernelIdeal.Gen
open Idealize.ShloMosaic Idealize.ShloMosaic.ValueIdx

/-! ## One neighbour's matrix product at an element -/

/-- Left operand of the product: on its row axis the index is the output's row. -/
theorem lhs_dot_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
/-- Left operand: on its lane axis the index is the contraction position. -/
theorem lhs_dot_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
/-- Right operand: on its row axis the index is the contraction position. -/
theorem rhs_dot_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
/-- Right operand: on its column axis the index is the output's column. -/
theorem rhs_dot_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

/-- A [1024, 128] by [128, 64] product into a zero accumulator, at row v and column o: the inner product of row v of the
left operand with column o of the right one. -/
theorem matmul_zero_apply (A : FVec Ideal S1024x128 .bf16) (B : FVec Ideal S128x64 .bf16) (v : Fin 1024) (o : Fin 64) :
    matmul (F := Ideal) dot_S1024x128_S128x64_S1024x64_1_0_0_1_n_n none A B (constant (F := Ideal) S1024x64 .f32 0x00000000#32) (ix2 v o)
      = ∑ l : Fin 128, A (ix2 v l) * B (ix2 l o) := by
  simp only [matmul]
  rw [Ideal.matmul_constant_zero_apply, ← Equiv.sum_comp (ValueIdx.contrEquiv1 dot_S1024x128_S128x64_S1024x64_1_0_0_1_n_n 128 rfl rfl).symm]
  refine Finset.sum_congr rfl fun k _ => ?_
  have hk := ValueIdx.contrEquiv1_symm_val dot_S1024x128_S128x64_S1024x64_1_0_0_1_n_n 128 rfl rfl k
  have el : dot_S1024x128_S128x64_S1024x64_1_0_0_1_n_n.lhsIdx (ix2 v o) ((ValueIdx.contrEquiv1 dot_S1024x128_S128x64_S1024x64_1_0_0_1_n_n 128 rfl rfl).symm k) = ix2 v k := funext fun a => Fin.ext (by
    match a with
    | ⟨0, _⟩ => exact lhs_dot_0 _ _
    | ⟨1, _⟩ => exact (lhs_dot_1 _ _).trans hk)
  have er : dot_S1024x128_S128x64_S1024x64_1_0_0_1_n_n.rhsIdx (ix2 v o) ((ValueIdx.contrEquiv1 dot_S1024x128_S128x64_S1024x64_1_0_0_1_n_n 128 rfl rfl).symm k) = ix2 k o := funext fun a => Fin.ext (by
    match a with
    | ⟨0, _⟩ => exact (rhs_dot_0 _ _).trans hk
    | ⟨1, _⟩ => exact rhs_dot_1 _ _)
  rw [el, er]

/-- Rows r .. r + 127 of the weight block, at row l and column o: row r + l of the whole block. -/
theorem slice_rows_apply (W : FVec Ideal S896x64 .bf16) (r : Nat) (hs : S896x64.Slices ![r, 0] S128x64) (hr : r + 128 ≤ 896)
    (l : Fin 128) (o : Fin 64) :
    extractStridedSlice S128x64 ![r, 0] W hs (ix2 l o) = W (ix2 (⟨r + l.val, by omega⟩ : Fin 896) o) := by
  refine extractStridedSlice_apply _ W hs _ _ fun a => ?_
  match a with
  | ⟨0, _⟩ => rfl
  | ⟨1, _⟩ => exact (Nat.zero_add _).symm

/-- Neighbour `k`'s contribution to output `(v, o)`: row `v` of its slab against column `o` of weight block `k`. -/
def contrib (s : Vec Ideal S1x1024x128 .f32) (Wb : Vec Ideal S896x64 .bf16) (k : Fin 7) (v : Fin 1024) (o : Fin 64) : EReal :=
  ∑ l : Fin 128, (s (ix3 (0 : Fin 1) v l) : EReal) * (Wb (ix2 (⟨128 * k.val + l.val, by omega⟩ : Fin 896) o) : EReal)

/-- One neighbour's product at row v and column o: its slab flattened to [1024, 128] (the change of float format is the
identity) against rows r .. r + 127 of the weights, where r = 128 k, into a zero accumulator, is the contribution of k. -/
theorem neighbour_apply (s : Vec Ideal S1x1024x128 .f32) (Wb : FVec Ideal S896x64 .bf16) (k : Fin 7) (r : Nat) (hr : r = 128 * k.val)
    (hs : S896x64.Slices ![r, 0] S128x64) (v : Fin 1024) (o : Fin 64) :
    matmul (F := Ideal) dot_S1024x128_S128x64_S1024x64_1_0_0_1_n_n none
        (truncf .bf16 (shapeCast S1024x128 s shapeCasts_S1x1024x128_S1024x128) bitsLt_bf16_f32)
        (extractStridedSlice S128x64 ![r, 0] Wb hs)
        (constant (F := Ideal) S1024x64 .f32 0x00000000#32) (ix2 v o)
      = contrib s Wb k v o := by
  subst hr
  refine (matmul_zero_apply _ _ v o).trans ?_
  unfold contrib
  refine Finset.sum_congr rfl fun l _ => ?_
  have h1 : (truncf .bf16 (shapeCast S1024x128 s shapeCasts_S1x1024x128_S1024x128) bitsLt_bf16_f32 : FVec Ideal S1024x128 .bf16) (ix2 v l)
      = s (ix3 (0 : Fin 1) v l) :=
    (truncf_apply (φ := .f32) (ψ := .bf16) (shapeCast S1024x128 s shapeCasts_S1x1024x128_S1024x128) bitsLt_bf16_f32 (ix2 v l)).trans
      (shapeCast_1ab_ab_apply s shapeCasts_S1x1024x128_S1024x128 v l)
  have h2 := slice_rows_apply Wb (128 * k.val) hs (by have := k.isLt; omega) l o
  rw [h1, h2]

/-- The accumulation step: a running sum plus one neighbour's product, at row v and column o. -/
theorem step_apply (acc : FVec Ideal S1024x64 .f32) (s : Vec Ideal S1x1024x128 .f32) (Wb : FVec Ideal S896x64 .bf16) (k : Fin 7) (r : Nat)
    (hr : r = 128 * k.val) (hs : S896x64.Slices ![r, 0] S128x64) (v : Fin 1024) (o : Fin 64) :
    addf acc (matmul (F := Ideal) dot_S1024x128_S128x64_S1024x64_1_0_0_1_n_n none
        (truncf .bf16 (shapeCast S1024x128 s shapeCasts_S1x1024x128_S1024x128) bitsLt_bf16_f32)
        (extractStridedSlice S128x64 ![r, 0] Wb hs)
        (constant (F := Ideal) S1024x64 .f32 0x00000000#32)) (ix2 v o)
      = acc (ix2 v o) + contrib s Wb k v o :=
  (addf_apply _ _ _).trans (congrArg (acc (ix2 v o) + ·) (neighbour_apply s Wb k r hr hs v o))

/-- The stored block at `(0, v, o)`: the seven contributions added in turn onto zero, then the bias. -/
theorem out_apply (Wb : Vec Ideal S896x64 .bf16) (s0 s1 s2 s3 s4 s5 s6 : Vec Ideal S1x1024x128 .f32) (bias : Vec Ideal S64 .f32)
    (v : Fin 1024) (o : Fin 64) :
    (k0_pay1 (F := Ideal) (k0_pay2 (F := Ideal) Wb) (k0_pay4 (F := Ideal) (k0_pay2 (F := Ideal) Wb) (k0_pay3 (F := Ideal)) s0 s1 s2 s3 s4 s5) s6 bias) (ix3 (0 : Fin 1) v o)
      = ((((((((0 : EReal) + contrib s0 Wb 0 v o) + contrib s1 Wb 1 v o) + contrib s2 Wb 2 v o) + contrib s3 Wb 3 v o)
            + contrib s4 Wb 4 v o) + contrib s5 Wb 5 v o) + contrib s6 Wb 6 v o) + (bias (ix1 o) : EReal) := by
  -- Recasting the weight block to its own shape changes nothing.
  have hW : k0_pay2 (F := Ideal) Wb = Wb := shapeCast_self _ _
  rw [hW]
  unfold k0_pay1 k0_pay4 k0_pay3
  -- The stored [1, 1024, 64] block at (0, v, o) is the [1024, 64] value at (v, o): the running sum plus the bias row.
  refine (shapeCast_ab_1ab_apply _ _ 0 v o).trans ?_
  refine (addf_apply _ _ _).trans ?_
  refine congrArg₂ (· + ·) ?_ ?_
  · -- Peel the seven accumulation steps from the last neighbour back to the zero start.
    refine (step_apply _ s6 Wb 6 768 rfl _ v o).trans (congrArg (· + contrib s6 Wb 6 v o) ?_)
    refine (step_apply _ s5 Wb 5 640 rfl _ v o).trans (congrArg (· + contrib s5 Wb 5 v o) ?_)
    refine (step_apply _ s4 Wb 4 512 rfl _ v o).trans (congrArg (· + contrib s4 Wb 4 v o) ?_)
    refine (step_apply _ s3 Wb 3 384 rfl _ v o).trans (congrArg (· + contrib s3 Wb 3 v o) ?_)
    refine (step_apply _ s2 Wb 2 256 rfl _ v o).trans (congrArg (· + contrib s2 Wb 2 v o) ?_)
    refine (step_apply _ s1 Wb 1 128 rfl _ v o).trans (congrArg (· + contrib s1 Wb 1 v o) ?_)
    refine (step_apply _ s0 Wb 0 0 rfl _ v o).trans (congrArg (· + contrib s0 Wb 0 v o) ?_)
    exact Ideal.ofBits_zero_f32
  · -- The bias, as one row repeated over all 1024 rows, reads its entry o.
    exact (broadcastTo_1b_ab_apply _ _ v o).trans (shapeCast_a_1a_apply bias _ 0 o)

end Cert.KernelIdeal.Payload

end
-- ==== Proof.KI.BlockValue.lean ====
import proofs.«425738_j65000035058096_2_alg».proof.Proof.Spec
import proofs.«425738_j65000035058096_2_alg».proof.Proof.SumLaws
import proofs.«425738_j65000035058096_2_alg».proof.Proof.KI.Blocks
import proofs.«425738_j65000035058096_2_alg».proof.Proof.KI.Payload
import Idealize.ShloMosaic.Lib.ValueIdx
import Idealize.ShloMosaic.PureOps.Ideal.Laws

/-!
One grid point's stored block against the specification, over the extended reals. For the tile of 1024 vertices
starting at `1024·vi`: entry `(s, r)` of the block of neighbour numbers is entry `7(1024·vi + r) + s` of the list (zero
past the last vertex), the padded features and weights carry the real features and weights in their first 64 lanes /
rows of each block and zero in the pad, so each neighbour's 128-lane inner product is its 64-channel one (a pad term is
zero times zero), and the seven contributions added in turn onto zero, then the bias, are the specification's double sum
plus the bias.
-/

noncomputable section

namespace Cert.KernelIdeal.BlockValue

open Cert.KernelIdeal Idealize.ShloMosaic Idealize.ShloMosaic.ValueIdx

/-- Entry `(k, v)` of the tile's block of neighbour numbers names the feature row of neighbour `k` of vertex `1024·vi + v`. -/
theorem row_eq (n : IVec Cert.Spec.SN 32) (hn : ∀ i : Cert.Spec.SN.Idx, (n i).toNat < 163842)
    (idxb : Vec Ideal S7x1024 .i32) (vi : Fin 161)
    (hidx : ∀ (s : Fin 7) (r : Fin 1024), idxb (ix2 s r)
        = if h : 1024 * vi.val + r.val < 163842 then n (ix1 (⟨7 * (1024 * vi.val + r.val) + s.val, by omega⟩ : Fin 1146894)) else 0#32)
    (k : Fin 7) (v : Fin 1024) (hp : 1024 * vi.val + v.val < 163842) :
    Blocks.rowOf (idxb (ix2 k v)) = Cert.Spec.nbr n ⟨1024 * vi.val + v.val, hp⟩ k := by
  refine Fin.ext ?_
  have e : idxb (ix2 k v) = n (ix1 (Cert.Spec.nbrPos ⟨1024 * vi.val + v.val, hp⟩ k)) := by
    rw [hidx k v, dif_pos hp]
  rw [e, Blocks.rowOf_val _ (hn _), Cert.Spec.nbr_val _ _ _ (hn _)]

/-- One neighbour's 128-lane inner product is its 64-channel one: lanes 64..127 multiply a zero feature by a zero weight. -/
theorem contrib_eq (x : FVec Ideal Cert.Spec.SX .f32) (W : FVec Ideal Cert.Spec.SW .f32)
    (idxb : Vec Ideal S7x1024 .i32) (X3 : Vec Ideal S2x163842x128 .f32) (Wb : Vec Ideal S896x64 .bf16) (bi : Fin 2)
    (hX3 : ∀ (bb : Fin 2) (r : Fin 163842) (l : Fin 128), (X3 (ix3 bb r l) : EReal)
        = if h : l.val < 64 then (x (ix3 bb r (⟨l.val, h⟩ : Fin 64)) : EReal) else 0)
    (hWb : ∀ (k : Fin 7) (l : Fin 128) (o : Fin 64), (Wb (ix2 (⟨128 * k.val + l.val, by omega⟩ : Fin 896) o) : EReal)
        = if h : l.val < 64 then (W (ix2 o (⟨64 * k.val + l.val, by omega⟩ : Fin 448)) : EReal) else 0)
    (k : Fin 7) (v : Fin 1024) (o : Fin 64) :
    Payload.contrib (Blocks.slab idxb X3 bi k) Wb k v o
      = ∑ c : Fin 64, (x (ix3 bi (Blocks.rowOf (idxb (ix2 k v))) c) : EReal) * (W (ix2 o (Cert.Spec.wCol k c)) : EReal) := by
  unfold Payload.contrib
  rw [Cert.SumLaws.sum_128_pad]
  · refine Finset.sum_congr rfl fun c _ => ?_
    rw [Blocks.slab_apply, hX3, hWb, dif_pos c.isLt, dif_pos c.isLt]
  · intro l hl
    rw [Blocks.slab_apply, hX3, hWb, dif_neg (by omega), dif_neg (by omega), mul_zero]

/-- The stored block at `(0, v, o)` of tile `vi`, for a vertex `1024·vi + v` that exists, is the specification's output
    element: seven 64-channel inner products added in turn onto zero are the double sum, and the bias is the bias. -/
theorem outBlk_eq_spec (x : FVec Ideal Cert.Spec.SX .f32) (n : IVec Cert.Spec.SN 32) (W : FVec Ideal Cert.Spec.SW .f32) (b : FVec Ideal Cert.Spec.SB .f32)
    (hn : ∀ i : Cert.Spec.SN.Idx, (n i).toNat < 163842)
    (idxb : Vec Ideal S7x1024 .i32) (X3 : Vec Ideal S2x163842x128 .f32) (Wb : Vec Ideal S896x64 .bf16) (bias : Vec Ideal S64 .f32)
    (bi : Fin 2) (vi : Fin 161)
    (hidx : ∀ (s : Fin 7) (r : Fin 1024), idxb (ix2 s r)
        = if h : 1024 * vi.val + r.val < 163842 then n (ix1 (⟨7 * (1024 * vi.val + r.val) + s.val, by omega⟩ : Fin 1146894)) else 0#32)
    (hX3 : ∀ (bb : Fin 2) (r : Fin 163842) (l : Fin 128), (X3 (ix3 bb r l) : EReal)
        = if h : l.val < 64 then (x (ix3 bb r (⟨l.val, h⟩ : Fin 64)) : EReal) else 0)
    (hWb : ∀ (k : Fin 7) (l : Fin 128) (o : Fin 64), (Wb (ix2 (⟨128 * k.val + l.val, by omega⟩ : Fin 896) o) : EReal)
        = if h : l.val < 64 then (W (ix2 o (⟨64 * k.val + l.val, by omega⟩ : Fin 448)) : EReal) else 0)
    (hbias : ∀ o : Fin 64, (bias (ix1 o) : EReal) = (b (ix1 o) : EReal))
    (v : Fin 1024) (o : Fin 64) (hp : 1024 * vi.val + v.val < 163842) :
    (Blocks.outBlk (F := Ideal) idxb X3 Wb bias bi (ix3 (0 : Fin 1) v o) : EReal)
      = Cert.Spec.out x n W b bi ⟨1024 * vi.val + v.val, hp⟩ o := by
  have hc : ∀ k : Fin 7, Payload.contrib (Blocks.slab idxb X3 bi k) Wb k v o
      = ∑ c : Fin 64, (x (ix3 bi (Cert.Spec.nbr n ⟨1024 * vi.val + v.val, hp⟩ k) c) : EReal) * (W (ix2 o (Cert.Spec.wCol k c)) : EReal) := by
    intro k
    rw [contrib_eq x W idxb X3 Wb bi hX3 hWb k v o, row_eq n hn idxb vi hidx k v hp]
  unfold Blocks.outBlk
  rw [Payload.out_apply, hc 0, hc 1, hc 2, hc 3, hc 4, hc 5, hc 6, hbias]
  unfold Cert.Spec.out
  refine congrArg (· + (b (ix1 o) : EReal)) ?_
  exact Cert.SumLaws.chain7 (fun k : Fin 7 =>
    ∑ c : Fin 64, (x (ix3 bi (Cert.Spec.nbr n ⟨1024 * vi.val + v.val, hp⟩ k) c) : EReal) * (W (ix2 o (Cert.Spec.wCol k c)) : EReal))

end Cert.KernelIdeal.BlockValue

end
-- ==== Proof.KI.HostIdx.lean ====
import proofs.«425738_j65000035058096_2_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.Lib.KernelVsHost

/-!
The neighbour table as the kernel's region finds it: the list reshaped to [163842, 7], transposed to [7, 163842] and
padded with zeros to 164864 columns. Row `k`, column `p` is entry `7p + k` of the list for a vertex `p`, and zero
past the last vertex.
-/

set_option maxRecDepth 16384

noncomputable section

namespace Cert.KernelIdeal.HostIdx

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The table as one term over the launched list. Of the host operations before the region only three reach this
    buffer: the reshape of the flat list to one row of seven per vertex, the transpose that makes the seven a leading
    axis, and the pad of the vertex axis by 1022 columns of the zero word (the pad value passes through an identity
    on its way into the pad). Every other operation writes some other buffer. -/
theorem V_term (c : Dev nD) :
    (V m c main_v2 : S7x164864.Idx → Elt F .i32)
      = pad S7x164864 ![0, 0] ![0, 1022] ![0, 0]
          (transpose S7x163842 [1, 0]
            (shapeCast S163842x7 (m ((c : Thread nD τ).loc main_arg1) : S1146894.Idx → Elt F .i32)
              shapeCasts_S1146894_S163842x7)
            transposes_S163842x7_S7x163842_1_0)
          (constantI S_ 32 0#32 : S_.Idx → Elt F .i32) pads_S7x163842_S7x164864_000_010220 h_S_ := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- Row `k`, column `p` of the padded, transposed neighbour table. -/
theorem V_idx (c : Dev nD) (k : Fin 7) (p : Fin 164864) :
    (V m c main_v2 : (⟨S7x164864, .i32⟩ : BufTy).Contents (Elt F)) (ix2 k p)
      = if h : p.val < 163842 then (m ((c : Thread nD τ).loc main_arg1) : (⟨S1146894, .i32⟩ : BufTy).Contents (Elt F)) (ix1 ⟨7 * p.val + k.val, by omega⟩)
        else 0#32 := by
  refine (congrFun (V_term m c) (ix2 k p)).trans ?_
  by_cases h : p.val < 163842
  · -- a column of a vertex: the pad has no low part and no interior steps, so it reads the operand at the same
    -- coordinates; the transpose swaps them; and row `p`, column `k` of seven-wide rows is position `7p + k`
    -- of the flat list
    rw [dif_pos h]
    refine (pad_apply_of_inside _ _ _ _ _ pads_S7x163842_S7x164864_000_010220 h_S_ (ix2 k p)
      (ix2 k (⟨p.val, h⟩ : Fin 163842))
      (fun a => match a with
        | ⟨0, _⟩ => by show k.val = 0 + k.val * (0 + 1); omega
        | ⟨1, _⟩ => by show p.val = 0 + p.val * (0 + 1); omega)).trans ?_
    refine (transpose_ix2_apply _ transposes_S163842x7_S7x163842_1_0 k (⟨p.val, h⟩ : Fin 163842)).trans ?_
    exact shapeCast_apply _ shapeCasts_S1146894_S163842x7 (ix2 (⟨p.val, h⟩ : Fin 163842) k)
      (ix1 ⟨7 * p.val + k.val, by omega⟩)
      (by rw [Shape.rowMajor_val_one, Shape.rowMajor_val_two]; show 7 * p.val + k.val = p.val * 7 + k.val; omega)
  · -- a column past the last vertex lies in the high padding of the second axis: the pad value, the zero word
    rw [dif_neg h]
    refine (pad_apply_of_not_inside _ _ _ _ _ pads_S7x163842_S7x164864_000_010220 h_S_ (ix2 k p) (1 : Fin 2) (by
      show ¬ (0 ≤ p.val ∧ (p.val - 0) % (0 + 1) = 0 ∧ (p.val - 0) / (0 + 1) < 163842)
      omega)).trans ?_
    rfl

end Cert.KernelIdeal.HostIdx

end
-- ==== Proof.KI.HostPads.lean ====
import proofs.«425738_j65000035058096_2_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws
import Idealize.ShloMosaic.Lib.KernelVsHost

/-!
The two zero-padded operands as the kernel's region finds them, over the extended reals: the features with their 64
channels padded to 128 lanes, and the transposed weights cut into seven blocks of 64 rows, each padded to 128 rows
(the change of float format is the identity). A pad lane or pad row holds zero.
-/

set_option maxRecDepth 16384

noncomputable section

namespace Cert.KernelIdeal.HostPads

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The pad value: the integer zero word converted to a float is the real number zero. -/
theorem padValue (i : S_.Idx) :
    (sitofp (F := Ideal) .f32 (constantI S_ 32 0#32) : S_.Idx → Elt Ideal .f32) i = (0 : EReal) := sitofp_zero

/-- The padded features as one term over the launched features: of the host operations before the region only the
    pad of the channel axis by 64 lanes of the converted zero word writes this buffer. -/
theorem V_xterm (c : Dev nD) :
    (V (F := Ideal) m c main_v3 : S2x163842x128.Idx → Elt Ideal .f32)
      = pad S2x163842x128 ![0, 0, 0] ![0, 0, 64] ![0, 0, 0]
          (m ((c : Thread nD τ).loc main_arg0) : S2x163842x64.Idx → Elt Ideal .f32)
          (sitofp (F := Ideal) .f32 (constantI S_ 32 0#32) : S_.Idx → Elt Ideal .f32)
          pads_S2x163842x64_S2x163842x128_000_000_0640 h_S_ := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The padded weights as one term over the launched weights: the transpose to [448, 64], the cut of its rows into
    seven blocks of 64, the pad of each block to 128 rows with the converted zero word, the seven blocks laid end to
    end again as 896 rows, and the change of float format. -/
theorem V_wterm (c : Dev nD) :
    (V (F := Ideal) m c main_v8 : S896x64.Idx → Elt Ideal .bf16)
      = truncf (F := Ideal) .bf16
          (shapeCast S896x64
            (pad S7x128x64 ![0, 0, 0] ![0, 64, 0] ![0, 0, 0]
              (shapeCast S7x64x64
                (transpose S448x64 [1, 0] (m ((c : Thread nD τ).loc main_arg2) : S64x448.Idx → Elt Ideal .f32)
                  transposes_S64x448_S448x64_1_0)
                shapeCasts_S448x64_S7x64x64)
              (sitofp (F := Ideal) .f32 (constantI S_ 32 0#32) : S_.Idx → Elt Ideal .f32)
              pads_S7x64x64_S7x128x64_000_0640_000 h_S_)
            shapeCasts_S7x128x64_S896x64)
          bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- Lane `l` of feature row `(bb, r)` of the padded features: the channel for `l < 64`, zero above. -/
theorem V_xpad (c : Dev nD) (bb : Fin 2) (r : Fin 163842) (l : Fin 128) :
    (V (F := Ideal) m c main_v3 : (⟨S2x163842x128, .f32⟩ : BufTy).Contents (Elt Ideal)) (ix3 bb r l)
      = if h : l.val < 64 then (m ((c : Thread nD τ).loc main_arg0) : (⟨S2x163842x64, .f32⟩ : BufTy).Contents (Elt Ideal)) (ix3 bb r ⟨l.val, h⟩)
        else (0 : EReal) := by
  refine (congrFun (V_xterm m c) (ix3 bb r l)).trans ?_
  by_cases h : l.val < 64
  · -- a channel: the pad has no low part and no interior steps, so it reads the operand at the same coordinates
    rw [dif_pos h]
    exact pad_apply_of_inside _ _ _ _ _ pads_S2x163842x64_S2x163842x128_000_000_0640 h_S_ (ix3 bb r l)
      (ix3 bb r (⟨l.val, h⟩ : Fin 64))
      (fun a => match a with
        | ⟨0, _⟩ => by show bb.val = 0 + bb.val * (0 + 1); omega
        | ⟨1, _⟩ => by show r.val = 0 + r.val * (0 + 1); omega
        | ⟨2, _⟩ => by show l.val = 0 + l.val * (0 + 1); omega)
  · -- a lane from 64 up lies in the high padding of the last axis
    rw [dif_neg h]
    refine (pad_apply_of_not_inside _ _ _ _ _ pads_S2x163842x64_S2x163842x128_000_000_0640 h_S_ (ix3 bb r l)
      (2 : Fin 3) (by
        show ¬ (0 ≤ l.val ∧ (l.val - 0) % (0 + 1) = 0 ∧ (l.val - 0) / (0 + 1) < 64)
        omega)).trans ?_
    exact padValue _

/-- Row `128k + l`, column `o` of the padded transposed weights: `W[o, 64k + l]` for `l < 64`, zero above. -/
theorem V_wpad (c : Dev nD) (k : Fin 7) (l : Fin 128) (o : Fin 64) :
    (V (F := Ideal) m c main_v8 : (⟨S896x64, .bf16⟩ : BufTy).Contents (Elt Ideal)) (ix2 ⟨128 * k.val + l.val, by omega⟩ o)
      = if h : l.val < 64 then (m ((c : Thread nD τ).loc main_arg2) : (⟨S64x448, .f32⟩ : BufTy).Contents (Elt Ideal)) (ix2 o ⟨64 * k.val + l.val, by omega⟩)
        else (0 : EReal) := by
  refine (congrFun (V_wterm m c) (ix2 ⟨128 * k.val + l.val, by omega⟩ o)).trans ?_
  -- the change of format is the identity; row `128k + l` of 896 is row `l` of block `k` of seven blocks of 128
  refine (truncf_apply _ bitsLt_bf16_f32 _).trans ?_
  refine (shapeCast_apply _ shapeCasts_S7x128x64_S896x64 (ix2 (⟨128 * k.val + l.val, by omega⟩ : Fin 896) o)
    (ix3 k l o)
    (by rw [Shape.rowMajor_val_three, Shape.rowMajor_val_two]
        show (k.val * 128 + l.val) * 64 + o.val = (128 * k.val + l.val) * 64 + o.val; omega)).trans ?_
  by_cases h : l.val < 64
  · -- a row of the block: the pad reads the unpadded block at the same coordinates; row `l` of block `k` of seven
    -- blocks of 64 is row `64k + l` of 448; and the transpose swaps row and column
    rw [dif_pos h]
    refine (pad_apply_of_inside _ _ _ _ _ pads_S7x64x64_S7x128x64_000_0640_000 h_S_ (ix3 k l o)
      (ix3 k (⟨l.val, h⟩ : Fin 64) o)
      (fun a => match a with
        | ⟨0, _⟩ => by show k.val = 0 + k.val * (0 + 1); omega
        | ⟨1, _⟩ => by show l.val = 0 + l.val * (0 + 1); omega
        | ⟨2, _⟩ => by show o.val = 0 + o.val * (0 + 1); omega)).trans ?_
    refine (shapeCast_apply _ shapeCasts_S448x64_S7x64x64 (ix3 k (⟨l.val, h⟩ : Fin 64) o)
      (ix2 (⟨64 * k.val + l.val, by omega⟩ : Fin 448) o)
      (by rw [Shape.rowMajor_val_three, Shape.rowMajor_val_two]
          show (64 * k.val + l.val) * 64 + o.val = (k.val * 64 + l.val) * 64 + o.val; omega)).trans ?_
    exact transpose_ix2_apply _ transposes_S64x448_S448x64_1_0 (⟨64 * k.val + l.val, by omega⟩ : Fin 448) o
  · -- a row from 64 up lies in the high padding of the middle axis
    rw [dif_neg h]
    refine (pad_apply_of_not_inside _ _ _ _ _ pads_S7x64x64_S7x128x64_000_0640_000 h_S_ (ix3 k l o) (1 : Fin 3) (by
      show ¬ (0 ≤ l.val ∧ (l.val - 0) % (0 + 1) = 0 ∧ (l.val - 0) / (0 + 1) < 64)
      omega)).trans ?_
    exact padValue _

end Cert.KernelIdeal.HostPads

end
-- ==== Proof.KI.InGeom.lean ====
import proofs.«425738_j65000035058096_2_alg».proof.Proof.Gen.KernelIdeal.Frame
import proofs.«425738_j65000035058096_2_alg».proof.Proof.KI.HostIdx
import proofs.«425738_j65000035058096_2_alg».proof.Proof.PreFacts
import proofs.«425738_j65000035058096_2_alg».proof.Defs
import Idealize.ShloMosaic.Lib.ValueIdx
import Idealize.ShloMosaic.Lib.Pipeline.Value

/-!
The geometry of the three input windows, and what the precondition says of the first.

The grid has 2 × 161 points; point `t` has coordinates `(bb, vi)`. The first window's block at `t` is the [7, 1024]
rectangle of the [7, 164864] neighbour table at block index `(0, vi)`: its entry `(s, r)` is the table's entry
`(s, 1024·vi + r)` (a block's coordinate on an axis is block index × block size + the coordinate inside the block). The
second and third windows have block index zero on every axis and blocks as large as their arrays, so their block at every
point is the whole array. Every entry of the table is an entry of the neighbour list or the zero word, so under the
precondition (every entry of the list is a vertex number) every entry of a block of the first window is below 163842.
-/

set_option maxRecDepth 16384

noncomputable section

namespace Cert.KernelIdeal.InGeom

open Cert.KernelIdeal Cert.KernelIdeal.Gen
open Idealize.ShloMosaic Idealize.ShloMosaic.TcCoe Idealize.ShloMosaic.ValueIdx Idealize.SL.Sem
open Idealize.ShloMosaic.Pipeline (Dat Cfg Window BodyObligation cellOf)

variable {F : FTy → Type} [FloatOps F]
variable (m : (ℓ : Loc nD τ sig) → Buf (Elt F) ℓ)

/-- The block indices of the three input windows, decided once over the 322 grid points: the first window's block is
    row-block 0 and column-block `vi` (the point's second coordinate); the other two are at block index zero. -/
theorem idx_facts : ∀ t : Fin cfg0.N,
    win0_0.index t (0 : Fin 2) = 0 ∧ win0_0.index t (1 : Fin 2) = (grid0.coords t 1).val
    ∧ win0_1.index t (0 : Fin 2) = 0 ∧ win0_1.index t (1 : Fin 2) = 0
    ∧ win0_2.index t (0 : Fin 1) = 0 :=
  (by decide +kernel : ∀ t : Fin grid0.N, _)

/-- A point's second coordinate is below 161. -/
theorem vi_lt (t : Fin cfg0.N) : (grid0.coords t 1).val < 161 := (grid0.coords t 1).isLt

/-- Entry `(s, r)` of the first window's block at point `t = (bb, vi)` is entry `(s, 1024·vi + r)` of the neighbour
    table. -/
theorem iblk0_apply (c : Dev nD) (t : Fin cfg0.N) (s : Fin 7) (r : Fin 1024) :
    (iblk m c 0 t : S7x1024.Idx → Elt F .i32) (ix2 s r)
      = (V m c main_v2 : S7x164864.Idx → Elt F .i32)
          (ix2 s (⟨1024 * (grid0.coords t 1).val + r.val, by have := vi_lt t; omega⟩ : Fin 164864)) := by
  obtain ⟨e0, e1, -⟩ := idx_facts t
  show (V m c main_v2 : S7x164864.Idx → Elt F .i32) (((cfg0.win 0).blk t).view.emb (ix2 s r)) = _
  refine congrArg (V m c main_v2 : S7x164864.Idx → Elt F .i32) (funext fun a => Fin.ext ?_)
  match a with
  | ⟨0, _⟩ => show win0_0.index t (0 : Fin 2) * 7 + 1 * s.val = s.val; omega
  | ⟨1, _⟩ => show win0_0.index t (1 : Fin 2) * 1024 + 1 * r.val = 1024 * (grid0.coords t 1).val + r.val; omega

/-- The second window's block at every point is the whole weight array. -/
theorem iblk1_eq (c : Dev nD) (t : Fin cfg0.N) :
    (iblk m c 1 t : S896x64.Idx → Elt F .bf16) = (V m c main_v8 : S896x64.Idx → Elt F .bf16) := by
  obtain ⟨-, -, e0, e1, -⟩ := idx_facts t
  funext y
  show (V m c main_v8 : S896x64.Idx → Elt F .bf16) (((cfg0.win 1).blk t).view.emb y) = _
  refine congrArg (V m c main_v8 : S896x64.Idx → Elt F .bf16) (funext fun a => Fin.ext ?_)
  match a with
  | ⟨0, _⟩ => show win0_1.index t (0 : Fin 2) * 896 + 1 * (y 0).val = (y 0).val; omega
  | ⟨1, _⟩ => show win0_1.index t (1 : Fin 2) * 64 + 1 * (y 1).val = (y 1).val; omega

/-- The third window's block at every point is the whole bias array. -/
theorem iblk2_eq (c : Dev nD) (t : Fin cfg0.N) :
    (iblk m c 2 t : S64.Idx → Elt F .f32) = (V m c main_arg3 : S64.Idx → Elt F .f32) := by
  obtain ⟨-, -, -, -, e0⟩ := idx_facts t
  funext y
  show (V m c main_arg3 : S64.Idx → Elt F .f32) (((cfg0.win 2).blk t).view.emb y) = _
  refine congrArg (V m c main_arg3 : S64.Idx → Elt F .f32) (funext fun a => Fin.ext ?_)
  match a with
  | ⟨0, _⟩ => show win0_2.index t (0 : Fin 1) * 64 + 1 * (y 0).val = (y 0).val; omega

/-- Under the precondition every entry of a block of the first window is below 163842: it is an entry of the table, hence
    an entry of the neighbour list, which is a vertex number, or the zero word of the padding. -/
theorem hyps_of_pre [Cert.Pre_finite_inputs.Facts]
    (h : ∀ c : Dev nD, Cert.Pre_finite_inputs.fn (F := F) (m ((c.tc : Thread nD τ).loc main_arg0))
      (m ((c.tc : Thread nD τ).loc main_arg1)) (m ((c.tc : Thread nD τ).loc main_arg2))
      (m ((c.tc : Thread nD τ).loc main_arg3)) = fun _ => 1#1) :
    ∀ (c : Dev nD) (t : Fin cfg0.N) (y : S7x1024.Idx), ((iblk m c 0 t y : Elt F .i32) : BitVec 32).toNat < 163842 := by
  intro c t y
  obtain ⟨s, r, rfl⟩ : ∃ (s : Fin 7) (r : Fin 1024), y = ix2 s r := ⟨y 0, y 1, eq_ix2 y⟩
  rw [iblk0_apply m c t s r, HostIdx.V_idx m c s _]
  split
  · exact Cert.PreFacts.nbr_lt _ _ _ _ (h c) _
  · decide

/-- The hypothesis above is the precondition as the claims state it. -/
example [Cert.Pre_finite_inputs.Facts] :
    ∀ m, Cert.Pre_KernelIdeal m → ∀ (c : Dev nD) (t : Fin cfg0.N) (y : S7x1024.Idx), ((iblk m c 0 t y : Elt _ .i32) : BitVec 32).toNat < 163842 :=
  fun m h => hyps_of_pre m h

end Cert.KernelIdeal.InGeom

end
-- ==== Proof.KI.KernelValue.lean ====
import proofs.«425738_j65000035058096_2_alg».proof.Proof.KI.Launch
import proofs.«425738_j65000035058096_2_alg».proof.Proof.KI.OutGeom
import proofs.«425738_j65000035058096_2_alg».proof.Proof.KI.BlockValue
import proofs.«425738_j65000035058096_2_alg».proof.Proof.KI.HostIdx
import proofs.«425738_j65000035058096_2_alg».proof.Proof.KI.HostPads
import proofs.«425738_j65000035058096_2_alg».proof.Proof.KI.InGeom
import proofs.«425738_j65000035058096_2_alg».proof.Proof.PreFacts
import proofs.«425738_j65000035058096_2_alg».proof.Proof.Spec
import proofs.«425738_j65000035058096_2_alg».proof.Defs
import Idealize.ShloMosaic.Lib.StableHlo.Run
import Idealize.ShloMosaic.Lib.Pipeline.FrameSuffix

/-!
The kernel's result array, over the extended reals, is the specification.

The result is the first 163842 rows of each batch of the padded output array, and that array is the 322 stored blocks
laid side by side: element `(bb, p, o)` of the result is element `(0, p mod 1024, o)` of the block stored at grid point
`(bb, p / 1024)`. That block is the body's arithmetic on the point's neighbour block, the padded features, the padded
weights and the bias. The neighbour block's entry `(s, r)` is entry `7(1024·vi + r) + s` of the neighbour list (zero past
the last vertex); the padded features and weights carry the real ones in their first 64 lanes / rows of each block and
zero elsewhere; the bias block is the bias. So the block's element is the specification at vertex `1024·vi + r`, and with
`vi = p / 1024`, `r = p mod 1024` that vertex is `p`.

The run: under the precondition every entry of the neighbour list is a vertex number, which is the side condition the
kernel's body needs at every point; so the program runs to the end, the result buffer holds what the host's slice makes
of the output array, and the four argument arrays end as launched.
-/

set_option maxRecDepth 16384

noncomputable section

namespace Cert.KernelIdeal.KernelValue

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

variable (m : (ℓ : Loc nD τ sig) → Buf (Elt Ideal) ℓ) (ρ : Dev nD → PrngReg)

/-- One element of the block stored at a grid point with coordinates `(bi, vi)`: row `v`, channel `o` of it is the
    specification at batch `bi`, vertex `1024·vi + v`, channel `o`, when that vertex exists. The four inputs of the body's
    arithmetic are read index by index: the neighbour block through the transposed, padded table back to the list; the
    padded features and weights back to the features and weights, zero in the pad; the bias block is the bias. -/
theorem outAt_eq (c : Dev nD) (hn : ∀ i : S1146894.Idx, ((m ((c : Thread nD τ).loc main_arg1) : S1146894.Idx → BitVec 32) i).toNat < 163842)
    (t : Fin cfg0.N) (bi : Fin 2) (vi : Fin 161) (h0 : grid0.coords t 0 = bi) (h1 : grid0.coords t 1 = vi)
    (v : Fin 1024) (o : Fin 64) (hp : 1024 * vi.val + v.val < 163842) :
    (Launch.outAt (F := Ideal) m c t (ix3 (0 : Fin 1) v o) : EReal)
      = Cert.Spec.out (m ((c : Thread nD τ).loc main_arg0)) (m ((c : Thread nD τ).loc main_arg1))
          (m ((c : Thread nD τ).loc main_arg2)) (m ((c : Thread nD τ).loc main_arg3)) bi ⟨1024 * vi.val + v.val, hp⟩ o := by
  subst h0
  subst h1
  unfold Launch.outAt
  exact BlockValue.outBlk_eq_spec (m ((c : Thread nD τ).loc main_arg0)) (m ((c : Thread nD τ).loc main_arg1))
    (m ((c : Thread nD τ).loc main_arg2)) (m ((c : Thread nD τ).loc main_arg3)) hn
    (iblk m c 0 t) (V m c main_v3) (iblk m c 1 t) (iblk m c 2 t) (grid0.coords t 0) (grid0.coords t 1)
    (fun s r => by
      -- entry (s, r) of the block is entry (s, 1024·vi + r) of the table, which is entry 7(1024·vi + r) + s of the
      -- list for a vertex and the zero word past the last one
      rw [InGeom.iblk0_apply m c t s r, HostIdx.V_idx m c s _])
    (fun bb r l => HostPads.V_xpad m c bb r l)
    (fun k l o => (congrFun (InGeom.iblk1_eq m c t) _).trans (HostPads.V_wpad m c k l o))
    (fun o => (congrFun (InGeom.iblk2_eq m c t) _).trans (congrFun (V_main_arg3 m c) _))
    v o hp

/-- THE RESULT ARRAY. What the host's slice of the output array leaves in the result buffer is the specification of the
    four launched arguments, when every entry of the neighbour list is a vertex number: element `(bb, p, o)` of the
    slice is element `(bb, p, o)` of the output array, which is row `p mod 1024` of the block of point `(bb, p / 1024)`,
    which is the specification at vertex `1024·(p / 1024) + p mod 1024 = p`. -/
theorem result_eq (c : Dev nD) (hn : ∀ i : S1146894.Idx, ((m ((c : Thread nD τ).loc main_arg1) : S1146894.Idx → BitVec 32) i).toNat < 163842) :
    (Pipeline.afterTail₀ cfgs (Launch.dats (F := Ideal) m) 0 (V0 m) [hostOps1] c main_v10 : S2x163842x64.Idx → EReal)
      = Cert.Spec.G (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v10) = _
  after_results
  -- the slice reads the output array as the region leaves it: the stored blocks laid side by side
  have harr : Pipeline.withArrays (cfgs 0).spec c (V0 m c) (fun w => (Launch.dats m 0 c).arrAt w (cfgs 0).N) (Proc.devRef .tc main_v9)
      = (Launch.dats m 0 c).arrAt 3 cfg0.N := Pipeline.withArrays_arr spec0 launch0.win.arr_inj c _ _ 3
  rw [harr]
  funext j
  obtain ⟨bb, p, o, rfl⟩ : ∃ (bb : Fin 2) (p : Fin 163842) (o : Fin 64), j = ix3 bb p o := ⟨j 0, j 1, j 2, eq_ix3 j⟩
  have hpl : p.val < 163842 := p.isLt
  have hp : 1024 * (p.val / 1024) + p.val % 1024 < 163842 := by omega
  obtain ⟨hc0, hc1⟩ := OutGeom.coords_pt bb ⟨p.val / 1024, by omega⟩
  rw [OutGeom.tail_apply, OutGeom.arr3_apply (Launch.dats m 0 c) (Launch.outAt m c) (Launch.after0_3 m c)]
  refine (outAt_eq m c hn _ bb ⟨p.val / 1024, by omega⟩ hc0 hc1 ⟨p.val % 1024, by omega⟩ o hp).trans ?_
  rw [Spec.G_apply]
  congr 1
  exact Fin.ext (Nat.div_add_mod _ _)

/-- THE RUN. Under the precondition the program runs to the end from any memory with zero counters; the result buffer
    ends at the specification of the launched arguments and the four argument arrays end as launched. The result
    buffer is written by the host's slice after the region and by nothing else; the first three arguments are staged by no
    window and written by no host line; the bias is staged by a window that never writes back. -/
theorem kernel_run [Cert.Pre_finite_inputs.Facts] (hpre : Cert.Pre_KernelIdeal m) :
    θ_run (Cert.KernelIdeal.defs (F := Ideal)) (onTc (τ := τ) (Cert.KernelIdeal.main (F := Ideal))) ⟨m, fun _ => 0, ρ⟩
      (fun r => ∀ c : Dev nD,
        r.2.mem ((c.tc : Thread nD τ).loc main_v10)
          = Cert.Spec.G (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun _ h c =>
      ⟨((h c).2 main_v10 (Pipeline.mem_restRefs_of main_v10 (by decide) (by decide))).trans
          (result_eq m c (fun i => Cert.PreFacts.nbr_lt _ _ _ _ (hpre c) i)),
        ((h c).2 main_arg0 (Pipeline.mem_restRefs_of main_arg0 (by decide) (by decide))).trans (Launch.W_arg0 m (Launch.dats m) c),
        ((h c).2 main_arg1 (Pipeline.mem_restRefs_of main_arg1 (by decide) (by decide))).trans (Launch.W_arg1 m (Launch.dats m) c),
        ((h c).2 main_arg2 (Pipeline.mem_restRefs_of main_arg2 (by decide) (by decide))).trans (Launch.W_arg2 m (Launch.dats m) c),
        ((h c).1 2).trans (((Launch.dats m 0 c).arrAt_in 2 rfl _).trans ((Launch.A_eq m c 2).trans (V_main_arg3 m c)))⟩)
    (Launch.run_main m ρ (InGeom.hyps_of_pre m hpre))

end Cert.KernelIdeal.KernelValue

end
-- ==== Proof.lean ====
/-
  A graph-convolution layer on a mesh of 163842 vertices, as a kernel and as its reference: the two compute one function.

  THE LAYER. Every vertex has seven ring neighbours, listed seven to a vertex in one flat list of 7 · 163842 vertex
  numbers. In each of two batches, vertex `v` collects the 64-channel feature rows of its seven neighbours — 448 numbers —
  and output channel `o` is their inner product with row `o` of the 64 × 448 weight matrix, plus the bias:

    out[b, v, o] = (∑ k < 7, ∑ c < 64, x[b, nbr(v, k), c] · W[o, 64k + c]) + bias[o],   nbr(v, k) = list[7v + k].

  THE REFERENCE gathers all 7 · 163842 rows, lays the seven rows of a vertex side by side and multiplies by the
  transposed weights in one product.

  THE KERNEL first rearranges its operands: the list becomes a [7, 164864] table (one row per ring position, the vertex
  axis padded with zero words to a multiple of 1024), the feature rows are padded from 64 to 128 lanes with zeros, and the
  transposed weights are cut into seven blocks of 64 rows, each padded to 128 rows with zeros — a pad lane meets a pad
  row, so the padding adds exactly zero to every product. It then walks a grid of 2 × 161 points, one batch and 1024
  vertices to a point. At a point, for each ring position in turn, it fetches the 1024 feature rows the point's block of
  the table names into a slab of scratch, one row to a copy, in batches of sixteen on ONE semaphore: sixteen copies are
  started, then sixteen waits are made, and no fetched row is read before every copy has been waited for — a wait only
  counts completions, so it is the whole batch drained, not any one wait, that says a row has landed. The seven slabs are
  multiplied with the seven weight blocks, the products and the bias added up, and the block stored; after the grid the
  padding vertices are cut off.

  THE PRECONDITION. Everything is claimed under the stated precondition, of which one part is used: every entry of the
  neighbour list is a vertex number, 0 ≤ entry < 163842. It is what makes every copy's source row a row of the feature
  array — the kernel could not run without it — and what makes the reference's index wrap-around do nothing.

  THE CLAIMS. Each program runs to the end without a fault and leaves its four arguments as they were: the kernel at the
  machine's floats and over the extended reals, the reference over the extended reals. Over the extended reals —
  operations exact, changes of float format the identity — kernel and reference, from memories that agree on the
  arguments, end with the same result array, the function `Cert.Spec.G` above. The kernel's text is the same at both
  float instances (no operation was rewritten), so there is nothing to preserve.

  THE PIECES. The kernel side: the body's triple at one grid point, carried through the pipeline's points to a run of the
  whole program with the output array named, and that array read off as `Cert.Spec.G`. The reference side: its run's
  result term, read at an index, is the same sum. The precondition's range test gives the bound on the list's entries.
-/
import proofs.«425738_j65000035058096_2_alg».proof.Defs
import proofs.«425738_j65000035058096_2_alg».proof.Proof.Gen.Kernel
import proofs.«425738_j65000035058096_2_alg».proof.Proof.Gen.KernelIdeal
import proofs.«425738_j65000035058096_2_alg».proof.Proof.Gen.ReferenceIdeal
import proofs.«425738_j65000035058096_2_alg».proof.Proof.Gen.Pre_finite_inputs
import proofs.«425738_j65000035058096_2_alg».proof.Proof.Gen.ReferenceIdeal.Run
import proofs.«425738_j65000035058096_2_alg».proof.Proof.Gen.ReferenceIdeal.Read
import proofs.«425738_j65000035058096_2_alg».proof.Proof.RefValue
import proofs.«425738_j65000035058096_2_alg».proof.Proof.PreFacts
import proofs.«425738_j65000035058096_2_alg».proof.Proof.Spec
import proofs.«425738_j65000035058096_2_alg».proof.Proof.KI.KernelValue
import proofs.«425738_j65000035058096_2_alg».proof.Proof.KI.Launch
import proofs.«425738_j65000035058096_2_alg».proof.Proof.KI.InGeom
import proofs.«425738_j65000035058096_2_alg».proof.Proof.K.Launch
import proofs.«425738_j65000035058096_2_alg».proof.Proof.K.InGeom
import Idealize.ShloMosaic.Adequacy
import Idealize.ShloMosaic.Init

noncomputable section

open Idealize.ShloMosaic Idealize.ShloMosaic.TcCoe Idealize.SL.Sem

/-! ## The claims -/

namespace Cert.Proof.Claims

/-- The kernel at the machine's floats runs and leaves its arguments: the launch side's frame, its side condition
    (every word of a block of the neighbour table is a vertex number) read off the precondition. -/
theorem frame_k : Cert.frame_Kernel := fun m ρ hpre =>
  Cert.Kernel.Launch.frame m ρ (Cert.Kernel.InGeom.hyps_of_pre m hpre)

/-- The same over the extended reals. -/
theorem frame_ki : Cert.frame_KernelIdeal := fun m ρ hpre =>
  Cert.KernelIdeal.Launch.frame m ρ (Cert.KernelIdeal.InGeom.hyps_of_pre m hpre)

/-- The reference runs and leaves its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no operation was rewritten. -/
theorem preserves : Cert.preserves_Kernel_KernelIdeal := trivial

/-- Over the extended reals both result arrays are the layer's function of the arguments. The kernel's run ends at it
    (the value leg). The reference's run ends at its operations' term of its own arguments; every entry of its
    neighbour list is a vertex number — the precondition says so of the kernel's list, and the two lists are equal —
    so that term is the layer's function of the reference's arguments, which are the kernel's. -/
theorem algebraic : Cert.algebraic_KernelIdeal_ReferenceIdeal := by
  intro m ρ m' ρ' hpre hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelValue.kernel_run m ρ hpre, ?_⟩
  refine (θ_run Cert.ReferenceIdeal.defs _ _).mono (fun _ h c => ⟨(h c).1.trans ?_, (h c).2⟩)
    (Cert.ReferenceIdeal.Value.run (F := Ideal) m' ρ')
  have hn : ∀ i : Cert.ReferenceIdeal.S1146894.Idx,
      ((m' ((c.tc : Thread Cert.ReferenceIdeal.nD Cert.ReferenceIdeal.τ).loc Cert.ReferenceIdeal.main_arg1)
        : (⟨Cert.ReferenceIdeal.S1146894, .i32⟩ : BufTy).Contents (Elt Ideal)) i).toNat < 163842 := by
    rw [(hagree c).2.1]
    exact Cert.PreFacts.nbr_lt _ _ _ _ (hpre c)
  refine (Cert.ReferenceIdeal.Read.val_main_v11_eq _ _ _ _).trans ?_
  refine (Cert.ReferenceIdeal.RefValue.ref_eq_G _ _ _ _ hn).trans ?_
  rw [(hagree c).1, (hagree c).2.1, (hagree c).2.2.1, (hagree c).2.2.2]

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
